-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x97 : Shape := ⟨2, ![131072, 97]⟩
abbrev S131072 : Shape := ⟨1, ![131072]⟩
abbrev S120x97 : Shape := ⟨2, ![120, 97]⟩
abbrev S120 : Shape := ⟨1, ![120]⟩
abbrev S960x32 : Shape := ⟨2, ![960, 32]⟩
abbrev S960 : Shape := ⟨1, ![960]⟩
abbrev S15x64 : Shape := ⟨2, ![15, 64]⟩
abbrev S15 : Shape := ⟨1, ![15]⟩
abbrev S_ : Shape := ⟨0, ![]⟩

class Facts : Prop where
  bcast_S_S131072x97 : S_.BroadcastsInDim S131072x97 (![] : Fin 0 → Fin S131072x97.rank)
  reducesTo_S131072x97_S_d0_1 : S131072x97.ReducesTo [0, 1] S_
  h_S_ : 0 < S_.numel
  bcast_S_S120x97 : S_.BroadcastsInDim S120x97 (![] : Fin 0 → Fin S120x97.rank)
  reducesTo_S120x97_S_d0_1 : S120x97.ReducesTo [0, 1] S_
  bcast_S_S120 : S_.BroadcastsInDim S120 (![] : Fin 0 → Fin S120.rank)
  reducesTo_S120_S_d0 : S120.ReducesTo [0] S_
  bcast_S_S960x32 : S_.BroadcastsInDim S960x32 (![] : Fin 0 → Fin S960x32.rank)
  reducesTo_S960x32_S_d0_1 : S960x32.ReducesTo [0, 1] S_
  bcast_S_S960 : S_.BroadcastsInDim S960 (![] : Fin 0 → Fin S960.rank)
  reducesTo_S960_S_d0 : S960.ReducesTo [0] S_
  bcast_S_S15x64 : S_.BroadcastsInDim S15x64 (![] : Fin 0 → Fin S15x64.rank)
  reducesTo_S15x64_S_d0_1 : S15x64.ReducesTo [0, 1] S_
  bcast_S_S15 : S_.BroadcastsInDim S15 (![] : Fin 0 → Fin S15.rank)
  reducesTo_S15_S_d0 : S15.ReducesTo [0] S_
  bcast_S_S131072 : S_.BroadcastsInDim S131072 (![] : Fin 0 → Fin S131072.rank)
  reducesTo_S131072_S_d0 : S131072.ReducesTo [0] S_

variable [Facts]

def fn_part3 {F : FTy → Type} [FloatOps F] (main_arg2 : IVec S131072 32) (main_v48 : IVec S_ 1) (main_v50 : IVec S131072 1) : IVec S_ 1 :=
  let main_c_19 : IVec S_ 1 := constantI S_ 1 1#1
  let main_v51 : IVec S_ 1 := (fun x v => Host.reduce IntOp.andi x v reducesTo_S131072_S_d0 h_S_) main_v50 main_c_19
  let main_v52 : IVec S_ 1 := andi main_v48 main_v51
  let main_c_20 : IVec S_ 32 := constantI S_ 32 60#32
  let main_v53 : IVec S131072 32 := broadcastInDim S131072 ![] bcast_S_S131072 main_c_20
  let main_v54 : IVec S131072 1 := cmpi .slt main_arg2 main_v53
  let main_c_21 : IVec S_ 1 := constantI S_ 1 1#1
  let main_v55 : IVec S_ 1 := (fun x v => Host.reduce IntOp.andi x v reducesTo_S131072_S_d0 h_S_) main_v54 main_c_21
  let main_v56 : IVec S_ 1 := andi main_v52 main_v55
  main_v56

def fn_part2 {F : FTy → Type} [FloatOps F] (main_arg2 : IVec S131072 32) (main_arg8 : FVec F S960 .f32) (main_arg9 : FVec F S15x64 .f32) (main_arg10 : FVec F S15 .f32) (main_v33 : IVec S_ 1) : IVec S_ 1 :=
  let main_v34 : FVec F S960 .f32 := Host.absf main_arg8
  let main_cst_12 : FVec F S_ .f32 := constant S_ .f32 0x7F800000#32
  let main_v35 : FVec F S960 .f32 := broadcastInDim S960 ![] bcast_S_S960 main_cst_12
  let main_v36 : IVec S960 1 := cmpf .olt main_v34 main_v35
  let main_c_13 : IVec S_ 1 := constantI S_ 1 1#1
  let main_v37 : IVec S_ 1 := (fun x v => Host.reduce IntOp.andi x v reducesTo_S960_S_d0 h_S_) main_v36 main_c_13
  let main_v38 : IVec S_ 1 := andi main_v33 main_v37
  let main_v39 : FVec F S15x64 .f32 := Host.absf main_arg9
  let main_cst_14 : FVec F S_ .f32 := constant S_ .f32 0x7F800000#32
  let main_v40 : FVec F S15x64 .f32 := broadcastInDim S15x64 ![] bcast_S_S15x64 main_cst_14
  let main_v41 : IVec S15x64 1 := cmpf .olt main_v39 main_v40
  let main_c_15 : IVec S_ 1 := constantI S_ 1 1#1
  let main_v42 : IVec S_ 1 := (fun x v => Host.reduce IntOp.andi x v reducesTo_S15x64_S_d0_1 h_S_) main_v41 main_c_15
  let main_v43 : IVec S_ 1 := andi main_v38 main_v42
  let main_v44 : FVec F S15 .f32 := Host.absf main_arg10
  let main_cst_16 : FVec F S_ .f32 := constant S_ .f32 0x7F800000#32
  let main_v45 : FVec F S15 .f32 := broadcastInDim S15 ![] bcast_S_S15 main_cst_16
  let main_v46 : IVec S15 1 := cmpf .olt main_v44 main_v45
  let main_c_17 : IVec S_ 1 := constantI S_ 1 1#1
  let main_v47 : IVec S_ 1 := (fun x v => Host.reduce IntOp.andi x v reducesTo_S15_S_d0 h_S_) main_v46 main_c_17
  let main_v48 : IVec S_ 1 := andi main_v43 main_v47
  let main_c_18 : IVec S_ 32 := constantI S_ 32 0#32
  let main_v49 : IVec S131072 32 := broadcastInDim S131072 ![] bcast_S_S131072 main_c_18
  let main_v50 : IVec S131072 1 := cmpi .sge main_arg2 main_v49
  fn_part3 (F := F) main_arg2 main_v48 main_v50

def fn_part1 {F : FTy → Type} [FloatOps F] (main_arg2 : IVec S131072 32) (main_arg5 : FVec F S120x97 .f32) (main_arg6 : FVec F S120 .f32) (main_arg7 : FVec F S960x32 .f32) (main_arg8 : FVec F S960 .f32) (main_arg9 : FVec F S15x64 .f32) (main_arg10 : FVec F S15 .f32) (main_v13 : IVec S_ 1) (main_v16 : IVec S120 1) : IVec S_ 1 :=
  let main_c_5 : IVec S_ 1 := constantI S_ 1 1#1
  let main_v17 : IVec S_ 1 := (fun x v => Host.reduce IntOp.andi x v reducesTo_S120_S_d0 h_S_) main_v16 main_c_5
  let main_v18 : IVec S_ 1 := andi main_v13 main_v17
  let main_v19 : FVec F S120x97 .f32 := Host.absf main_arg5
  let main_cst_6 : FVec F S_ .f32 := constant S_ .f32 0x7F800000#32
  let main_v20 : FVec F S120x97 .f32 := broadcastInDim S120x97 ![] bcast_S_S120x97 main_cst_6
  let main_v21 : IVec S120x97 1 := cmpf .olt main_v19 main_v20
  let main_c_7 : IVec S_ 1 := constantI S_ 1 1#1
  let main_v22 : IVec S_ 1 := (fun x v => Host.reduce IntOp.andi x v reducesTo_S120x97_S_d0_1 h_S_) main_v21 main_c_7
  let main_v23 : IVec S_ 1 := andi main_v18 main_v22
  let main_v24 : FVec F S120 .f32 := Host.absf main_arg6
  let main_cst_8 : FVec F S_ .f32 := constant S_ .f32 0x7F800000#32
  let main_v25 : FVec F S120 .f32 := broadcastInDim S120 ![] bcast_S_S120 main_cst_8
  let main_v26 : IVec S120 1 := cmpf .olt main_v24 main_v25
  let main_c_9 : IVec S_ 1 := constantI S_ 1 1#1
  let main_v27 : IVec S_ 1 := (fun x v => Host.reduce IntOp.andi x v reducesTo_S120_S_d0 h_S_) main_v26 main_c_9
  let main_v28 : IVec S_ 1 := andi main_v23 main_v27
  let main_v29 : FVec F S960x32 .f32 := Host.absf main_arg7
  let main_cst_10 : FVec F S_ .f32 := constant S_ .f32 0x7F800000#32
  let main_v30 : FVec F S960x32 .f32 := broadcastInDim S960x32 ![] bcast_S_S960x32 main_cst_10
  let main_v31 : IVec S960x32 1 := cmpf .olt main_v29 main_v30
  let main_c_11 : IVec S_ 1 := constantI S_ 1 1#1
  let main_v32 : IVec S_ 1 := (fun x v => Host.reduce IntOp.andi x v reducesTo_S960x32_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S131072x97 .f32) (main_arg1 : FVec F S131072x97 .f32) (main_arg2 : IVec S131072 32) (main_arg3 : FVec F S120x97 .f32) (main_arg4 : FVec F S120 .f32) (main_arg5 : FVec F S120x97 .f32) (main_arg6 : FVec F S120 .f32) (main_arg7 : FVec F S960x32 .f32) (main_arg8 : FVec F S960 .f32) (main_arg9 : FVec F S15x64 .f32) (main_arg10 : FVec F S15 .f32) : IVec S_ 1 :=
  let main_v0 : FVec F S131072x97 .f32 := Host.absf main_arg0
  let main_cst : FVec F S_ .f32 := constant S_ .f32 0x7F800000#32
  let main_v1 : FVec F S131072x97 .f32 := broadcastInDim S131072x97 ![] bcast_S_S131072x97 main_cst
  let main_v2 : IVec S131072x97 1 := cmpf .olt main_v0 main_v1
  let main_c : IVec S_ 1 := constantI S_ 1 1#1
  let main_v3 : IVec S_ 1 := (fun x v => Host.reduce IntOp.andi x v reducesTo_S131072x97_S_d0_1 h_S_) main_v2 main_c
  let main_v4 : FVec F S131072x97 .f32 := Host.absf main_arg1
  let main_cst_0 : FVec F S_ .f32 := constant S_ .f32 0x7F800000#32
  let main_v5 : FVec F S131072x97 .f32 := broadcastInDim S131072x97 ![] bcast_S_S131072x97 main_cst_0
  let main_v6 : IVec S131072x97 1 := cmpf .olt main_v4 main_v5
  let main_c_1 : IVec S_ 1 := constantI S_ 1 1#1
  let main_v7 : IVec S_ 1 := (fun x v => Host.reduce IntOp.andi x v reducesTo_S131072x97_S_d0_1 h_S_) main_v6 main_c_1
  let main_v8 : IVec S_ 1 := andi main_v3 main_v7
  let main_v9 : FVec F S120x97 .f32 := Host.absf main_arg3
  let main_cst_2 : FVec F S_ .f32 := constant S_ .f32 0x7F800000#32
  let main_v10 : FVec F S120x97 .f32 := broadcastInDim S120x97 ![] bcast_S_S120x97 main_cst_2
  let main_v11 : IVec S120x97 1 := cmpf .olt main_v9 main_v10
  let main_c_3 : IVec S_ 1 := constantI S_ 1 1#1
  let main_v12 : IVec S_ 1 := (fun x v => Host.reduce IntOp.andi x v reducesTo_S120x97_S_d0_1 h_S_) main_v11 main_c_3
  let main_v13 : IVec S_ 1 := andi main_v8 main_v12
  let main_v14 : FVec F S120 .f32 := Host.absf main_arg4
  let main_cst_4 : FVec F S_ .f32 := constant S_ .f32 0x7F800000#32
  let main_v15 : FVec F S120 .f32 := broadcastInDim S120 ![] bcast_S_S120 main_cst_4
  let main_v16 : IVec S120 1 := cmpf .olt main_v14 main_v15
  fn_part1 (F := F) main_arg2 main_arg5 main_arg6 main_arg7 main_arg8 main_arg9 main_arg10 main_v13 main_v16
-- ==== Kernel.lean ====
abbrev S131072x97 : Shape := ⟨2, ![131072, 97]⟩
abbrev S131072 : Shape := ⟨1, ![131072]⟩
abbrev S120x97 : Shape := ⟨2, ![120, 97]⟩
abbrev S120 : Shape := ⟨1, ![120]⟩
abbrev S960x32 : Shape := ⟨2, ![960, 32]⟩
abbrev S960 : Shape := ⟨1, ![960]⟩
abbrev S15x64 : Shape := ⟨2, ![15, 64]⟩
abbrev S15 : Shape := ⟨1, ![15]⟩
abbrev S_ : Shape := ⟨0, ![]⟩
abbrev S15x8x97 : Shape := ⟨3, ![15, 8, 97]⟩
abbrev S15x8 : Shape := ⟨2, ![15, 8]⟩
abbrev S15x64x32 : Shape := ⟨3, ![15, 64, 32]⟩
abbrev S131072x1 : Shape := ⟨2, ![131072, 1]⟩
abbrev S2048x97 : Shape := ⟨2, ![2048, 97]⟩
abbrev S2048x1 : Shape := ⟨2, ![2048, 1]⟩
abbrev S2048x8 : Shape := ⟨2, ![2048, 8]⟩
abbrev S1x8x97 : Shape := ⟨3, ![1, 8, 97]⟩
abbrev S8x97 : Shape := ⟨2, ![8, 97]⟩
abbrev S1x8 : Shape := ⟨2, ![1, 8]⟩
abbrev S8 : Shape := ⟨1, ![8]⟩
abbrev S97x8 : Shape := ⟨2, ![97, 8]⟩
abbrev S2048x16 : Shape := ⟨2, ![2048, 16]⟩
abbrev S2048x32 : Shape := ⟨2, ![2048, 32]⟩
abbrev S2048x64 : Shape := ⟨2, ![2048, 64]⟩
abbrev S1x64x32 : Shape := ⟨3, ![1, 64, 32]⟩
abbrev S64x32 : Shape := ⟨2, ![64, 32]⟩
abbrev S1x64 : Shape := ⟨2, ![1, 64]⟩
abbrev S64 : Shape := ⟨1, ![64]⟩
abbrev S32x64 : Shape := ⟨2, ![32, 64]⟩
abbrev S64x15 : Shape := ⟨2, ![64, 15]⟩
abbrev S2048x15 : Shape := ⟨2, ![2048, 15]⟩
abbrev S1x15 : Shape := ⟨2, ![1, 15]⟩
abbrev S2048 : Shape := ⟨1, ![2048]⟩

abbrev nBuf : Space → Nat
  | .hbm => 104
  | .vmem => 16
  | .smem => 0
  | _ => 0

abbrev bufTy : (tb : Table) → Fin (tcTables nBuf tb) → BufTy
  | .hbm, ⟨0, _⟩ => ⟨S131072x97, .f32⟩
  | .hbm, ⟨1, _⟩ => ⟨S131072x97, .f32⟩
  | .hbm, ⟨2, _⟩ => ⟨S131072, .i32⟩
  | .hbm, ⟨3, _⟩ => ⟨S120x97, .f32⟩
  | .hbm, ⟨4, _⟩ => ⟨S120, .f32⟩
  | .hbm, ⟨5, _⟩ => ⟨S120x97, .f32⟩
  | .hbm, ⟨6, _⟩ => ⟨S120, .f32⟩
  | .hbm, ⟨7, _⟩ => ⟨S960x32, .f32⟩
  | .hbm, ⟨8, _⟩ => ⟨S960, .f32⟩
  | .hbm, ⟨9, _⟩ => ⟨S15x64, .f32⟩
  | .hbm, ⟨10, _⟩ => ⟨S15, .f32⟩
  | .hbm, ⟨11, _⟩ => ⟨S_, .f32⟩
  | .hbm, ⟨12, _⟩ => ⟨S120x97, .f32⟩
  | .hbm, ⟨13, _⟩ => ⟨S120x97, .f32⟩
  | .hbm, ⟨14, _⟩ => ⟨S120x97, .f32⟩
  | .hbm, ⟨15, _⟩ => ⟨S_, .f32⟩
  | .hbm, ⟨16, _⟩ => ⟨S120x97, .f32⟩
  | .hbm, ⟨17, _⟩ => ⟨S120x97, .f32⟩
  | .hbm, ⟨18, _⟩ => ⟨S120x97, .bf16⟩
  | .hbm, ⟨19, _⟩ => ⟨S15x8x97, .bf16⟩
  | .hbm, ⟨20, _⟩ => ⟨S_, .f32⟩
  | .hbm, ⟨21, _⟩ => ⟨S120, .f32⟩
  | .hbm, ⟨22, _⟩ => ⟨S120, .f32⟩
  | .hbm, ⟨23, _⟩ => ⟨S120, .f32⟩
  | .hbm, ⟨24, _⟩ => ⟨S_, .f32⟩
  | .hbm, ⟨25, _⟩ => ⟨S120, .f32⟩
  | .hbm, ⟨26, _⟩ => ⟨S120, .f32⟩
  | .hbm, ⟨27, _⟩ => ⟨S15x8, .f32⟩
  | .hbm, ⟨28, _⟩ => ⟨S_, .f32⟩
  | .hbm, ⟨29, _⟩ => ⟨S120x97, .f32⟩
  | .hbm, ⟨30, _⟩ => ⟨S120x97, .f32⟩
  | .hbm, ⟨31, _⟩ => ⟨S120x97, .f32⟩
  | .hbm, ⟨32, _⟩ => ⟨S_, .f32⟩
  | .hbm, ⟨33, _⟩ => ⟨S120x97, .f32⟩
  | .hbm, ⟨34, _⟩ => ⟨S120x97, .f32⟩
  | .hbm, ⟨35, _⟩ => ⟨S120x97, .bf16⟩
  | .hbm, ⟨36, _⟩ => ⟨S15x8x97, .bf16⟩
  | .hbm, ⟨37, _⟩ => ⟨S_, .f32⟩
  | .hbm, ⟨38, _⟩ => ⟨S120, .f32⟩
  | .hbm, ⟨39, _⟩ => ⟨S120, .f32⟩
  | .hbm, ⟨40, _⟩ => ⟨S120, .f32⟩
  | .hbm, ⟨41, _⟩ => ⟨S_, .f32⟩
  | .hbm, ⟨42, _⟩ => ⟨S120, .f32⟩
  | .hbm, ⟨43, _⟩ => ⟨S120, .f32⟩
  | .hbm, ⟨44, _⟩ => ⟨S15x8, .f32⟩
  | .hbm, ⟨45, _⟩ => ⟨S_, .f32⟩
  | .hbm, ⟨46, _⟩ => ⟨S960x32, .f32⟩
  | .hbm, ⟨47, _⟩ => ⟨S960x32, .f32⟩
  | .hbm, ⟨48, _⟩ => ⟨S960x32, .f32⟩
  | .hbm, ⟨49, _⟩ => ⟨S_, .f32⟩
  | .hbm, ⟨50, _⟩ => ⟨S960x32, .f32⟩
  | .hbm, ⟨51, _⟩ => ⟨S960x32, .f32⟩
  | .hbm, ⟨52, _⟩ => ⟨S960x32, .bf16⟩
  | .hbm, ⟨53, _⟩ => ⟨S15x64x32, .bf16⟩
  | .hbm, ⟨54, _⟩ => ⟨S_, .f32⟩
  | .hbm, ⟨55, _⟩ => ⟨S960, .f32⟩
  | .hbm, ⟨56, _⟩ => ⟨S960, .f32⟩
  | .hbm, ⟨57, _⟩ => ⟨S960, .f32⟩
  | .hbm, ⟨58, _⟩ => ⟨S_, .f32⟩
  | .hbm, ⟨59, _⟩ => ⟨S960, .f32⟩
  | .hbm, ⟨60, _⟩ => ⟨S960, .f32⟩
  | .hbm, ⟨61, _⟩ => ⟨S15x64, .f32⟩
  | .hbm, ⟨62, _⟩ => ⟨S_, .f32⟩
  | .hbm, ⟨63, _⟩ => ⟨S15x64, .f32⟩
  | .hbm, ⟨64, _⟩ => ⟨S15x64, .f32⟩
  | .hbm, ⟨65, _⟩ => ⟨S15x64, .f32⟩
  | .hbm, ⟨66, _⟩ => ⟨S_, .f32⟩
  | .hbm, ⟨67, _⟩ => ⟨S15x64, .f32⟩
  | .hbm, ⟨68, _⟩ => ⟨S15x64, .f32⟩
  | .hbm, ⟨69, _⟩ => ⟨S_, .f32⟩
  | .hbm, ⟨70, _⟩ => ⟨S15, .f32⟩
  | .hbm, ⟨71, _⟩ => ⟨S15, .f32⟩
  | .hbm, ⟨72, _⟩ => ⟨S15, .f32⟩
  | .hbm, ⟨73, _⟩ => ⟨S_, .f32⟩
  | .hbm, ⟨74, _⟩ => ⟨S15, .f32⟩
  | .hbm, ⟨75, _⟩ => ⟨S15, .f32⟩
  | .hbm, ⟨76, _⟩ => ⟨S_, .i32⟩
  | .hbm, ⟨77, _⟩ => ⟨S_, .i32⟩
  | .hbm, ⟨78, _⟩ => ⟨S131072, .i32⟩
  | .hbm, ⟨79, _⟩ => ⟨S131072, .i32⟩
  | .hbm, ⟨80, _⟩ => ⟨S131072, .i32⟩
  | .hbm, ⟨81, _⟩ => ⟨S_, .i32⟩
  | .hbm, ⟨82, _⟩ => ⟨S131072, .i32⟩
  | .hbm, ⟨83, _⟩ => ⟨S131072, .i1⟩
  | .hbm, ⟨84, _⟩ => ⟨S131072, .i32⟩
  | .hbm, ⟨85, _⟩ => ⟨S131072, .i32⟩
  | .hbm, ⟨86, _⟩ => ⟨S_, .i32⟩
  | .hbm, ⟨87, _⟩ => ⟨S131072, .i32⟩
  | .hbm, ⟨88, _⟩ => ⟨S131072, .i1⟩
  | .hbm, ⟨89, _⟩ => ⟨S131072, .i1⟩
  | .hbm, ⟨90, _⟩ => ⟨S_, .i32⟩
  | .hbm, ⟨91, _⟩ => ⟨S131072, .i32⟩
  | .hbm, ⟨92, _⟩ => ⟨S131072, .i32⟩
  | .hbm, ⟨93, _⟩ => ⟨S131072, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S131072, .i32⟩
  | .hbm, ⟨98, _⟩ => ⟨S131072, .i32⟩
  | .hbm, ⟨99, _⟩ => ⟨S_, .i32⟩
  | .hbm, ⟨100, _⟩ => ⟨S131072, .i32⟩
  | .hbm, ⟨101, _⟩ => ⟨S131072, .i32⟩
  | .hbm, ⟨102, _⟩ => ⟨S131072x1, .i32⟩
  | .hbm, ⟨103, _⟩ => ⟨S131072x1, .f32⟩
  | .local _ .vmem, ⟨0, _⟩ => ⟨S2048x97, .f32⟩
  | .local _ .vmem, ⟨1, _⟩ => ⟨S2048x97, .f32⟩
  | .local _ .vmem, ⟨2, _⟩ => ⟨S2048x97, .f32⟩
  | .local _ .vmem, ⟨3, _⟩ => ⟨S2048x97, .f32⟩
  | .local _ .vmem, ⟨4, _⟩ => ⟨S2048x1, .i32⟩
  | .local _ .vmem, ⟨5, _⟩ => ⟨S2048x1, .i32⟩
  | .local _ .vmem, ⟨6, _⟩ => ⟨S15x8x97, .bf16⟩
  | .local _ .vmem, ⟨7, _⟩ => ⟨S15x8, .f32⟩
  | .local _ .vmem, ⟨8, _⟩ => ⟨S15x8x97, .bf16⟩
  | .local _ .vmem, ⟨9, _⟩ => ⟨S15x8, .f32⟩
  | .local _ .vmem, ⟨10, _⟩ => ⟨S15x64x32, .bf16⟩
  | .local _ .vmem, ⟨11, _⟩ => ⟨S15x64, .f32⟩
  | .local _ .vmem, ⟨12, _⟩ => ⟨S15x64, .f32⟩
  | .local _ .vmem, ⟨13, _⟩ => ⟨S15, .f32⟩
  | .local _ .vmem, ⟨14, _⟩ => ⟨S2048x1, .f32⟩
  | .local _ .vmem, ⟨15, _⟩ => ⟨S2048x1, .f32⟩
  | _, _ => ⟨S131072x97, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_cst_13 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_14 : Ref sig .tc := ⟨.hbm, 73, rfl⟩
abbrev main_v47 : Ref sig .tc := ⟨.hbm, 74, rfl⟩
abbrev main_v48 : Ref sig .tc := ⟨.hbm, 75, rfl⟩
abbrev main_c : Ref sig .tc := ⟨.hbm, 76, rfl⟩
abbrev main_call8_v0 : Ref sig .tc := ⟨.hbm, 77, rfl⟩
abbrev main_call8_v1 : Ref sig .tc := ⟨.hbm, 78, rfl⟩
abbrev main_call8_v2 : Ref sig .tc := ⟨.hbm, 79, rfl⟩
abbrev main_call8_v3 : Ref sig .tc := ⟨.hbm, 80, rfl⟩
abbrev main_call8_v4 : Ref sig .tc := ⟨.hbm, 81, rfl⟩
abbrev main_call8_v5 : Ref sig .tc := ⟨.hbm, 82, rfl⟩
abbrev main_call8_v6 : Ref sig .tc := ⟨.hbm, 83, rfl⟩
abbrev main_call8_v7 : Ref sig .tc := ⟨.hbm, 84, rfl⟩
abbrev main_call8_v8 : Ref sig .tc := ⟨.hbm, 85, rfl⟩
abbrev main_call8_c : Ref sig .tc := ⟨.hbm, 86, rfl⟩
abbrev main_call8_v9 : Ref sig .tc := ⟨.hbm, 87, rfl⟩
abbrev main_call8_v10 : Ref sig .tc := ⟨.hbm, 88, rfl⟩
abbrev main_call8_v11 : Ref sig .tc := ⟨.hbm, 89, rfl⟩
abbrev main_call8_c_0 : Ref sig .tc := ⟨.hbm, 90, rfl⟩
abbrev main_call8_v12 : Ref sig .tc := ⟨.hbm, 91, rfl⟩
abbrev main_call8_v13 : Ref sig .tc := ⟨.hbm, 92, rfl⟩
abbrev main_v49 : Ref sig .tc := ⟨.hbm, 93, rfl⟩
abbrev main_c_15 : Ref sig .tc := ⟨.hbm, 94, rfl⟩
abbrev main_c_16 : Ref sig .tc := ⟨.hbm, 95, rfl⟩
abbrev main_call9_v0 : Ref sig .tc := ⟨.hbm, 96, rfl⟩
abbrev main_call9_v1 : Ref sig .tc := ⟨.hbm, 97, rfl⟩
abbrev main_call9_v2 : Ref sig .tc := ⟨.hbm, 98, rfl⟩
abbrev main_call9_v3 : Ref sig .tc := ⟨.hbm, 99, rfl⟩
abbrev main_call9_v4 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c15_i32 : BitVec 32 := 15#32
  let v8 : BitVec 32 := Scalar.addi c0_i32 c15_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v60 : Index := Scalar.indexCast arg13
  let c0_30 : Index := 0#32
  let c0_31 : Index := 0#32
  ![v60.toNat, 0, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let v66 : Index := Scalar.indexCast arg13
  let c0_34 : Index := 0#32
  ![v66.toNat, 0]
@[reducible] def k0_t2_loop : Scf.Loop 32 :=
  let c0_i32_13 : BitVec 32 := 0#32
  let c15_i32_14 : BitVec 32 := 15#32
  let v26 : BitVec 32 := Scalar.addi c0_i32_13 c15_i32_14
  let c1_i32_15 : BitVec 32 := 1#32
  ⟨c0_i32_13, v26, c1_i32_15⟩
def k0_off3 (k0_t2 : Fin k0_t2_loop.trips) : Fin 3 → Nat :=
  let c0_i32_13 : BitVec 32 := 0#32
  let c1_i32_15 : BitVec 32 := 1#32
  let arg13 : BitVec 32 := Scf.iv c0_i32_13 c1_i32_15 k0_t2
  let v60 : Index := Scalar.indexCast arg13
  let c0_30 : Index := 0#32
  let c0_31 : Index := 0#32
  ![v60.toNat, 0, 0]
def k0_off4 (k0_t2 : Fin k0_t2_loop.trips) : Fin 2 → Nat :=
  let c0_i32_13 : BitVec 32 := 0#32
  let c1_i32_15 : BitVec 32 := 1#32
  let arg13 : BitVec 32 := Scf.iv c0_i32_13 c1_i32_15 k0_t2
  let v63 : Index := Scalar.indexCast arg13
  let c0_32 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x97 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x97 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S15x8x97 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x8x97 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S15x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S120x97 : S_.BroadcastsInDim S120x97 (![] : Fin 0 → Fin S120x97.rank)
  bitsLt_bf16_f32 : FTy.bits .bf16 < FTy.bits .f32
  shapeCasts_S120x97_S15x8x97 : S120x97.ShapeCasts S15x8x97
  bcast_S_S120 : S_.BroadcastsInDim S120 (![] : Fin 0 → Fin S120.rank)
  shapeCasts_S120_S15x8 : S120.ShapeCasts S15x8
  bcast_S_S960x32 : S_.BroadcastsInDim S960x32 (![] : Fin 0 → Fin S960x32.rank)
  shapeCasts_S960x32_S15x64x32 : S960x32.ShapeCasts S15x64x32
  bcast_S_S960 : S_.BroadcastsInDim S960 (![] : Fin 0 → Fin S960.rank)
  shapeCasts_S960_S15x64 : S960.ShapeCasts S15x64
  bcast_S_S15x64 : S_.BroadcastsInDim S15x64 (![] : Fin 0 → Fin S15x64.rank)
  bcast_S_S15 : S_.BroadcastsInDim S15 (![] : Fin 0 → Fin S15.rank)
  bcast_S_S131072 : S_.BroadcastsInDim S131072 (![] : Fin 0 → Fin S131072.rank)
  shapeCasts_S131072_S131072x1 : S131072.ShapeCasts S131072x1
  inb_S2048x97_S2048x97_0_0 : ∀ a, (![0, 0] : Fin 2 → Nat) a + S2048x97.size a ≤ S2048x97.size a
  h_S2048x97 : 0 < S2048x97.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S1x8x97 : 0 < S1x8x97.numel
  shapeCasts_S1x8x97_S8x97 : S1x8x97.ShapeCasts S8x97
  h_S1x8 : 0 < S1x8.numel
  shapeCasts_S1x8_S8 : S1x8.ShapeCasts S8
  transposes_S8x97_p1_0_S97x8 : S8x97.Transposes [1, 0] S97x8
  shapeCasts_S8_S1x8 : S8.ShapeCasts S1x8
  broadcasts_S1x8_S2048x8 : S1x8.Broadcasts S2048x8
  natLt_1_32 : 1 < 32
  broadcasts_S2048x1_S2048x8 : S2048x1.Broadcasts S2048x8
  concatenates_S2048x8_S2048x8_S2048x16_d1 : Shape.Concatenates [S2048x8, S2048x8] S2048x16 1
  concatenates_S2048x16_S2048x16_S2048x32_d1 : Shape.Concatenates [S2048x16, S2048x16] S2048x32 1
  h_S1x64x32 : 0 < S1x64x32.numel
  shapeCasts_S1x64x32_S64x32 : S1x64x32.ShapeCasts S64x32
  h_S1x64 : 0 < S1x64.numel
  shapeCasts_S1x64_S64 : S1x64.ShapeCasts S64
  transposes_S64x32_p1_0_S32x64 : S64x32.Transposes [1, 0] S32x64
  shapeCasts_S64_S1x64 : S64.ShapeCasts S1x64
  broadcasts_S1x64_S2048x64 : S1x64.Broadcasts S2048x64
  broadcasts_S2048x1_S2048x64 : S2048x1.Broadcasts S2048x64
  inb_S15x64_S15x64_0_0 : ∀ a, (![0, 0] : Fin 2 → Nat) a + S15x64.size a ≤ S15x64.size a
  h_S15x64 : 0 < S15x64.numel
  shapeCasts_S15x64_S15x64 : S15x64.ShapeCasts S15x64
  inb_S15_S15_0 : ∀ a, (![0] : Fin 1 → Nat) a + S15.size a ≤ S15.size a
  h_S15 : 0 < S15.numel
  shapeCasts_S15_S15 : S15.ShapeCasts S15
  transposes_S15x64_p1_0_S64x15 : S15x64.Transposes [1, 0] S64x15
  shapeCasts_S15_S1x15 : S15.ShapeCasts S1x15
  broadcasts_S1x15_S2048x15 : S1x15.Broadcasts S2048x15
  iota_S2048x15_d1_w32 : S2048x15.Iotas .tc 32 [1]
  broadcasts_S2048x1_S2048x15 : S2048x1.Broadcasts S2048x15
  reduces_S2048x15_S2048 : S2048x15.Reduces [1] S2048
  shapeCasts_S2048_S2048x1 : S2048.ShapeCasts S2048x1
  dot_S2048x97_S97x8_S2048x8_1_0_0_1_n_n_wf : DotDims.WF S2048x97 S97x8 S2048x8 [1] [0] [0] [1] [] []
  dot_S2048x32_S32x64_S2048x64_1_0_0_1_n_n_wf : DotDims.WF S2048x32 S32x64 S2048x64 [1] [0] [0] [1] [] []
  dot_S2048x64_S64x15_S2048x15_1_0_0_1_n_n_wf : DotDims.WF S2048x64 S64x15 S2048x15 [1] [0] [0] [1] [] []
  hrank0 : 0 < grid0.rank
  k0_t1_ok : k0_t1_loop.OK
  k0_off1_inb : ∀ k0_t1 : Fin k0_t1_loop.trips, ∀ a, (k0_off1 k0_t1) a + S1x8x97.size a ≤ S15x8x97.size a
  k0_off2_inb : ∀ k0_t1 : Fin k0_t1_loop.trips, ∀ a, (k0_off2 k0_t1) a + S1x8.size a ≤ S15x8.size a
  k0_t2_ok : k0_t2_loop.OK
  k0_off3_inb : ∀ k0_t2 : Fin k0_t2_loop.trips, ∀ a, (k0_off3 k0_t2) a + S1x64x32.size a ≤ S15x64x32.size a
  k0_off4_inb : ∀ k0_t2 : Fin k0_t2_loop.trips, ∀ a, (k0_off4 k0_t2) a + S1x64.size a ≤ S15x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x97.size a ≤ S131072x97.size a
  hwx0_0 : ∀ i : grid0.Coords, EltTy.bits .f32 = 32 ∨ (Rect.block (s := S131072x97) S2048x97.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x97.size a ≤ S131072x97.size a
  hwx0_1 : ∀ i : grid0.Coords, EltTy.bits .f32 = 32 ∨ (Rect.block (s := S131072x97) S2048x97.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x8x97.size a ≤ S15x8x97.size a
  hwx0_3 : ∀ i : grid0.Coords, EltTy.bits .bf16 = 32 ∨ (Rect.block (s := S15x8x97) S15x8x97.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S15x8.size a ≤ S15x8.size a
  hwx0_4 : ∀ i : grid0.Coords, EltTy.bits .f32 = 32 ∨ (Rect.block (s := S15x8) S15x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x8x97.size a ≤ S15x8x97.size a
  hwx0_5 : ∀ i : grid0.Coords, EltTy.bits .bf16 = 32 ∨ (Rect.block (s := S15x8x97) S15x8x97.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x8.size a ≤ S15x8.size a
  hwx0_6 : ∀ i : grid0.Coords, EltTy.bits .f32 = 32 ∨ (Rect.block (s := S15x8) S15x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x64x32.size a ≤ S15x64x32.size a
  hwx0_7 : ∀ i : grid0.Coords, EltTy.bits .bf16 = 32 ∨ (Rect.block (s := S15x64x32) S15x64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S15x64.size a ≤ S15x64.size a
  hwx0_8 : ∀ i : grid0.Coords, EltTy.bits .f32 = 32 ∨ (Rect.block (s := S15x64) S15x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S15x64.size a ≤ S15x64.size a
  hwx0_9 : ∀ i : grid0.Coords, EltTy.bits .f32 = 32 ∨ (Rect.block (s := S15x64) S15x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S15.size a ≤ S15.size a
  hwx0_10 : ∀ i : grid0.Coords, EltTy.bits .f32 = 32 ∨ (Rect.block (s := S15) S15.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S131072x1.size a
  hwx0_11 : ∀ i : grid0.Coords, EltTy.bits .f32 = 32 ∨ (Rect.block (s := S131072x1) S2048x1.size (cc0_transform_11 i) (hinb0_11 i)).WholeWords (EltTy.packing .f32)

variable [Facts₀]

def dot_S2048x97_S97x8_S2048x8_1_0_0_1_n_n : DotDims S2048x97 S97x8 S2048x8 where
  lhsContracting := [1]
  rhsContracting := [0]
  lhsNonContracting := [0]
  rhsNonContracting := [1]
  lhsBatch := []
  rhsBatch := []
  wf := dot_S2048x97_S97x8_S2048x8_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x15_S2048x15_1_0_0_1_n_n : DotDims S2048x64 S64x15 S2048x15 where
  lhsContracting := [1]
  rhsContracting := [0]
  lhsNonContracting := [0]
  rhsNonContracting := [1]
  lhsBatch := []
  rhsBatch := []
  wf := dot_S2048x64_S64x15_S2048x15_1_0_0_1_n_n_wf

abbrev win0_0 : Pipeline.Window sig grid0 :=
  Pipeline.Window.ofSpec (Memref.whole main_arg0) S2048x97.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x97.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S15x8x97.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S15x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S15x8x97.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S15x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S15x64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S15x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S15x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v48) S15.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x97 : Shape := ⟨2, ![131072, 97]⟩
abbrev S131072 : Shape := ⟨1, ![131072]⟩
abbrev S120x97 : Shape := ⟨2, ![120, 97]⟩
abbrev S120 : Shape := ⟨1, ![120]⟩
abbrev S960x32 : Shape := ⟨2, ![960, 32]⟩
abbrev S960 : Shape := ⟨1, ![960]⟩
abbrev S15x64 : Shape := ⟨2, ![15, 64]⟩
abbrev S15 : Shape := ⟨1, ![15]⟩
abbrev S_ : Shape := ⟨0, ![]⟩
abbrev S97x120 : Shape := ⟨2, ![97, 120]⟩
abbrev S131072x120 : Shape := ⟨2, ![131072, 120]⟩
abbrev S1x120 : Shape := ⟨2, ![1, 120]⟩
abbrev S131072x15x8 : Shape := ⟨3, ![131072, 15, 8]⟩
abbrev S131072x1 : Shape := ⟨2, ![131072, 1]⟩
abbrev S131072x2 : Shape := ⟨2, ![131072, 2]⟩
abbrev S131072x8 : Shape := ⟨2, ![131072, 8]⟩
abbrev S131072x16 : Shape := ⟨2, ![131072, 16]⟩
abbrev S131072x32 : Shape := ⟨2, ![131072, 32]⟩
abbrev S32x960 : Shape := ⟨2, ![32, 960]⟩
abbrev S131072x960 : Shape := ⟨2, ![131072, 960]⟩
abbrev S1x960 : Shape := ⟨2, ![1, 960]⟩
abbrev S131072x15x64 : Shape := ⟨3, ![131072, 15, 64]⟩
abbrev S131072x64 : Shape := ⟨2, ![131072, 64]⟩
abbrev S64x15 : Shape := ⟨2, ![64, 15]⟩
abbrev S131072x15 : Shape := ⟨2, ![131072, 15]⟩
abbrev S1x15 : Shape := ⟨2, ![1, 15]⟩
abbrev S131072x15x1 : Shape := ⟨3, ![131072, 15, 1]⟩

abbrev nBuf : Space → Nat
  | .hbm => 247
  | .vmem => 0
  | .smem => 0
  | _ => 0

abbrev hbmTy0_0 (i : Nat) : BufTy := match i % 128 with
  | 0 => ⟨S131072x97, .f32⟩
  | 1 => ⟨S131072x97, .f32⟩
  | 2 => ⟨S131072, .i32⟩
  | 3 => ⟨S120x97, .f32⟩
  | 4 => ⟨S120, .f32⟩
  | 5 => ⟨S120x97, .f32⟩
  | 6 => ⟨S120, .f32⟩
  | 7 => ⟨S960x32, .f32⟩
  | 8 => ⟨S960, .f32⟩
  | 9 => ⟨S15x64, .f32⟩
  | 10 => ⟨S15, .f32⟩
  | 11 => ⟨S131072, .i32⟩
  | 12 => ⟨S_, .i32⟩
  | 13 => ⟨S_, .i32⟩
  | 14 => ⟨S131072, .i32⟩
  | 15 => ⟨S131072, .i32⟩
  | 16 => ⟨S131072, .i32⟩
  | 17 => ⟨S_, .i32⟩
  | 18 => ⟨S131072, .i32⟩
  | 19 => ⟨S131072, .i1⟩
  | 20 => ⟨S131072, .i32⟩
  | 21 => ⟨S131072, .i32⟩
  | 22 => ⟨S_, .i32⟩
  | 23 => ⟨S131072, .i32⟩
  | 24 => ⟨S131072, .i1⟩
  | 25 => ⟨S131072, .i1⟩
  | 26 => ⟨S_, .i32⟩
  | 27 => ⟨S131072, .i32⟩
  | 28 => ⟨S131072, .i32⟩
  | 29 => ⟨S131072, .i32⟩
  | 30 => ⟨S_, .f32⟩
  | 31 => ⟨S120x97, .f32⟩
  | 32 => ⟨S120x97, .f32⟩
  | 33 => ⟨S120x97, .f32⟩
  | 34 => ⟨S_, .f32⟩
  | 35 => ⟨S120x97, .f32⟩
  | 36 => ⟨S120x97, .f32⟩
  | 37 => ⟨S120x97, .f32⟩
  | 38 => ⟨S120x97, .f32⟩
  | 39 => ⟨S97x120, .f32⟩
  | 40 => ⟨S131072x120, .f32⟩
  | 41 => ⟨S_, .f32⟩
  | 42 => ⟨S120, .f32⟩
  | 43 => ⟨S120, .f32⟩
  | 44 => ⟨S120, .f32⟩
  | 45 => ⟨S_, .f32⟩
  | 46 => ⟨S120, .f32⟩
  | 47 => ⟨S120, .f32⟩
  | 48 => ⟨S120, .f32⟩
  | 49 => ⟨S120, .f32⟩
  | 50 => ⟨S1x120, .f32⟩
  | 51 => ⟨S131072x120, .f32⟩
  | 52 => ⟨S131072x120, .f32⟩
  | 53 => ⟨S131072x15x8, .f32⟩
  | 54 => ⟨S_, .i32⟩
  | 55 => ⟨S131072, .i32⟩
  | 56 => ⟨S131072, .i1⟩
  | 57 => ⟨S_, .i32⟩
  | 58 => ⟨S131072, .i32⟩
  | 59 => ⟨S131072, .i32⟩
  | 60 => ⟨S131072, .i32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S131072x1, .i32⟩
  | 69 => ⟨S131072x1, .i32⟩
  | 70 => ⟨S131072x2, .i32⟩
  | 71 => ⟨S131072x8, .f32⟩
  | 72 => ⟨S_, .f32⟩
  | 73 => ⟨S120x97, .f32⟩
  | 74 => ⟨S120x97, .f32⟩
  | 75 => ⟨S120x97, .f32⟩
  | 76 => ⟨S_, .f32⟩
  | 77 => ⟨S120x97, .f32⟩
  | 78 => ⟨S120x97, .f32⟩
  | 79 => ⟨S120x97, .f32⟩
  | 80 => ⟨S120x97, .f32⟩
  | 81 => ⟨S97x120, .f32⟩
  | 82 => ⟨S131072x120, .f32⟩
  | 83 => ⟨S_, .f32⟩
  | 84 => ⟨S120, .f32⟩
  | 85 => ⟨S120, .f32⟩
  | 86 => ⟨S120, .f32⟩
  | 87 => ⟨S_, .f32⟩
  | 88 => ⟨S120, .f32⟩
  | 89 => ⟨S120, .f32⟩
  | 90 => ⟨S120, .f32⟩
  | 91 => ⟨S120, .f32⟩
  | 92 => ⟨S1x120, .f32⟩
  | 93 => ⟨S131072x120, .f32⟩
  | 94 => ⟨S131072x120, .f32⟩
  | 95 => ⟨S131072x15x8, .f32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x1, .i32⟩
  | 112 => ⟨S131072x2, .i32⟩
  | 113 => ⟨S131072x8, .f32⟩
  | 114 => ⟨S131072x16, .f32⟩
  | 115 => ⟨S131072x16, .f32⟩
  | 116 => ⟨S_, .f32⟩
  | 117 => ⟨S131072x16, .f32⟩
  | 118 => ⟨S131072x16, .f32⟩
  | 119 => ⟨S131072x32, .f32⟩
  | 120 => ⟨S_, .f32⟩
  | 121 => ⟨S_, .f32⟩
  | 122 => ⟨S_, .f32⟩
  | 123 => ⟨S131072x32, .f32⟩
  | 124 => ⟨S131072x32, .f32⟩
  | 125 => ⟨S_, .f32⟩
  | 126 => ⟨S131072x32, .f32⟩
  | 127 => ⟨S131072x32, .f32⟩
  | _ => ⟨S131072x97, .f32⟩

abbrev hbmTy0_1 (i : Nat) : BufTy := match i % 128 with
  | 0 => ⟨S_, .f32⟩
  | 1 => ⟨S131072x32, .f32⟩
  | 2 => ⟨S131072x32, .f32⟩
  | 3 => ⟨S131072x32, .f32⟩
  | 4 => ⟨S_, .f32⟩
  | 5 => ⟨S131072x32, .f32⟩
  | 6 => ⟨S131072x32, .f32⟩
  | 7 => ⟨S131072x32, .f32⟩
  | 8 => ⟨S131072x32, .f32⟩
  | 9 => ⟨S_, .f32⟩
  | 10 => ⟨S960x32, .f32⟩
  | 11 => ⟨S960x32, .f32⟩
  | 12 => ⟨S960x32, .f32⟩
  | 13 => ⟨S_, .f32⟩
  | 14 => ⟨S960x32, .f32⟩
  | 15 => ⟨S960x32, .f32⟩
  | 16 => ⟨S960x32, .f32⟩
  | 17 => ⟨S960x32, .f32⟩
  | 18 => ⟨S32x960, .f32⟩
  | 19 => ⟨S131072x960, .f32⟩
  | 20 => ⟨S_, .f32⟩
  | 21 => ⟨S960, .f32⟩
  | 22 => ⟨S960, .f32⟩
  | 23 => ⟨S960, .f32⟩
  | 24 => ⟨S_, .f32⟩
  | 25 => ⟨S960, .f32⟩
  | 26 => ⟨S960, .f32⟩
  | 27 => ⟨S960, .f32⟩
  | 28 => ⟨S960, .f32⟩
  | 29 => ⟨S1x960, .f32⟩
  | 30 => ⟨S131072x960, .f32⟩
  | 31 => ⟨S131072x960, .f32⟩
  | 32 => ⟨S131072x15x64, .f32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S_, .i32⟩
  | 41 => ⟨S131072, .i32⟩
  | 42 => ⟨S131072, .i1⟩
  | 43 => ⟨S_, .i32⟩
  | 44 => ⟨S131072, .i32⟩
  | 45 => ⟨S131072, .i32⟩
  | 46 => ⟨S131072, .i32⟩
  | 47 => ⟨S131072x1, .i32⟩
  | 48 => ⟨S131072x1, .i32⟩
  | 49 => ⟨S131072x2, .i32⟩
  | 50 => ⟨S131072x64, .f32⟩
  | 51 => ⟨S_, .f32⟩
  | 52 => ⟨S_, .f32⟩
  | 53 => ⟨S_, .f32⟩
  | 54 => ⟨S131072x64, .f32⟩
  | 55 => ⟨S131072x64, .f32⟩
  | 56 => ⟨S_, .f32⟩
  | 57 => ⟨S131072x64, .f32⟩
  | 58 => ⟨S131072x64, .f32⟩
  | 59 => ⟨S_, .f32⟩
  | 60 => ⟨S131072x64, .f32⟩
  | 61 => ⟨S131072x64, .f32⟩
  | 62 => ⟨S131072x64, .f32⟩
  | 63 => ⟨S_, .f32⟩
  | 64 => ⟨S131072x64, .f32⟩
  | 65 => ⟨S131072x64, .f32⟩
  | 66 => ⟨S131072x64, .f32⟩
  | 67 => ⟨S131072x64, .f32⟩
  | 68 => ⟨S_, .f32⟩
  | 69 => ⟨S15x64, .f32⟩
  | 70 => ⟨S15x64, .f32⟩
  | 71 => ⟨S15x64, .f32⟩
  | 72 => ⟨S_, .f32⟩
  | 73 => ⟨S15x64, .f32⟩
  | 74 => ⟨S15x64, .f32⟩
  | 75 => ⟨S15x64, .f32⟩
  | 76 => ⟨S15x64, .f32⟩
  | 77 => ⟨S64x15, .f32⟩
  | 78 => ⟨S131072x15, .f32⟩
  | 79 => ⟨S_, .f32⟩
  | 80 => ⟨S15, .f32⟩
  | 81 => ⟨S15, .f32⟩
  | 82 => ⟨S15, .f32⟩
  | 83 => ⟨S_, .f32⟩
  | 84 => ⟨S15, .f32⟩
  | 85 => ⟨S15, .f32⟩
  | 86 => ⟨S15, .f32⟩
  | 87 => ⟨S15, .f32⟩
  | 88 => ⟨S1x15, .f32⟩
  | 89 => ⟨S131072x15, .f32⟩
  | 90 => ⟨S131072x15, .f32⟩
  | 91 => ⟨S131072x15x1, .f32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S131072x1, .i32⟩
  | 107 => ⟨S131072x1, .i32⟩
  | 108 => ⟨S131072x2, .i32⟩
  | 109 => ⟨S131072x1, .f32⟩
  | 110 => ⟨S_, .f32⟩
  | 111 => ⟨S131072x1, .f32⟩
  | 112 => ⟨S131072x1, .f32⟩
  | 113 => ⟨S131072x1, .f32⟩
  | 114 => ⟨S_, .f32⟩
  | 115 => ⟨S131072x1, .f32⟩
  | 116 => ⟨S131072x1, .f32⟩
  | 117 => ⟨S131072x1, .f32⟩
  | 118 => ⟨S131072x1, .f32⟩
  | _ => ⟨S131072x97, .f32⟩

abbrev hbmTy (i : Nat) : BufTy := match i / 128 with
  | 0 => hbmTy0_0 i
  | 1 => hbmTy0_1 i
  | _ => ⟨S131072x97, .f32⟩

abbrev bufTy : (tb : Table) → Fin (tcTables nBuf tb) → BufTy
  | .hbm, ⟨i, _⟩ => hbmTy i
  | _, _ => ⟨S131072x97, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_v23 : Ref sig .tc := ⟨.hbm, 56, rfl⟩
abbrev main_c_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_5 : Ref sig .tc := ⟨.hbm, 61, rfl⟩
abbrev main_v27 : Ref sig .tc := ⟨.hbm, 62, rfl⟩
abbrev main_v28 : Ref sig .tc := ⟨.hbm, 63, rfl⟩
abbrev main_c_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_10 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_11 : Ref sig .tc := ⟨.hbm, 96, rfl⟩
abbrev main_v56 : Ref sig .tc := ⟨.hbm, 97, rfl⟩
abbrev main_v57 : Ref sig .tc := ⟨.hbm, 98, rfl⟩
abbrev main_c_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_13 : Ref sig .tc := ⟨.hbm, 103, rfl⟩
abbrev main_v61 : Ref sig .tc := ⟨.hbm, 104, rfl⟩
abbrev main_v62 : Ref sig .tc := ⟨.hbm, 105, rfl⟩
abbrev main_c_14 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_15 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_16 : Ref sig .tc := ⟨.hbm, 120, rfl⟩
abbrev main_cst_17 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v75 : Ref sig .tc := ⟨.hbm, 127, rfl⟩
abbrev main_cst_18 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_19 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_20 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_21 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_22 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_23 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_c_24 : Ref sig .tc := ⟨.hbm, 161, rfl⟩
abbrev main_v103 : Ref sig .tc := ⟨.hbm, 162, rfl⟩
abbrev main_v104 : Ref sig .tc := ⟨.hbm, 163, rfl⟩
abbrev main_c_25 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_c_26 : Ref sig .tc := ⟨.hbm, 168, rfl⟩
abbrev main_v108 : Ref sig .tc := ⟨.hbm, 169, rfl⟩
abbrev main_v109 : Ref sig .tc := ⟨.hbm, 170, rfl⟩
abbrev main_c_27 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_28 : Ref sig .tc := ⟨.hbm, 179, rfl⟩
abbrev main_cst_29 : Ref sig .tc := ⟨.hbm, 180, rfl⟩
abbrev main_call8_v0 : Ref sig .tc := ⟨.hbm, 181, rfl⟩
abbrev main_call8_v1 : Ref sig .tc := ⟨.hbm, 182, rfl⟩
abbrev main_call8_v2 : Ref sig .tc := ⟨.hbm, 183, rfl⟩
abbrev main_call8_v3 : Ref sig .tc := ⟨.hbm, 184, rfl⟩
abbrev main_call8_v4 : Ref sig .tc := ⟨.hbm, 185, rfl⟩
abbrev main_v117 : Ref sig .tc := ⟨.hbm, 186, rfl⟩
abbrev main_cst_30 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_cst_31 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_32 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_33 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_34 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_35 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_c_36 : Ref sig .tc := ⟨.hbm, 220, rfl⟩
abbrev main_v145 : Ref sig .tc := ⟨.hbm, 221, rfl⟩
abbrev main_v146 : Ref sig .tc := ⟨.hbm, 222, rfl⟩
abbrev main_c_37 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_c_38 : Ref sig .tc := ⟨.hbm, 227, rfl⟩
abbrev main_v150 : Ref sig .tc := ⟨.hbm, 228, rfl⟩
abbrev main_v151 : Ref sig .tc := ⟨.hbm, 229, rfl⟩
abbrev main_c_39 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_40 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_41 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S120x97 : S_.BroadcastsInDim S120x97 (![] : Fin 0 → Fin S120x97.rank)
  transposes_S120x97_S97x120_1_0 : S120x97.Transposes [1, 0] S97x120
  bcast_S_S120 : S_.BroadcastsInDim S120 (![] : Fin 0 → Fin S120.rank)
  bcast_S120_S1x120_1 : S120.BroadcastsInDim S1x120 (![1] : Fin 1 → Fin S1x120.rank)
  bcast_S1x120_S131072x120_0_1 : S1x120.BroadcastsInDim S131072x120 (![0, 1] : Fin 2 → Fin S131072x120.rank)
  shapeCasts_S131072x120_S131072x15x8 : S131072x120.ShapeCasts S131072x15x8
  bcast_S131072_S131072x1_0 : S131072.BroadcastsInDim S131072x1 (![0] : Fin 1 → Fin S131072x1.rank)
  concatenates_S131072x1_S131072x1_S131072x2_d1 : Shape.Concatenates [S131072x1, S131072x1] S131072x2 1
  concatenates_S131072x8_S131072x8_S131072x16_d1 : Shape.Concatenates [S131072x8, S131072x8] S131072x16 1
  bcast_S_S131072x16 : S_.BroadcastsInDim S131072x16 (![] : Fin 0 → Fin S131072x16.rank)
  concatenates_S131072x16_S131072x16_S131072x32_d1 : Shape.Concatenates [S131072x16, S131072x16] S131072x32 1
  bcast_S_S131072x32 : S_.BroadcastsInDim S131072x32 (![] : Fin 0 → Fin S131072x32.rank)
  bcast_S_S960x32 : S_.BroadcastsInDim S960x32 (![] : Fin 0 → Fin S960x32.rank)
  transposes_S960x32_S32x960_1_0 : S960x32.Transposes [1, 0] S32x960
  bcast_S_S960 : S_.BroadcastsInDim S960 (![] : Fin 0 → Fin S960.rank)
  bcast_S960_S1x960_1 : S960.BroadcastsInDim S1x960 (![1] : Fin 1 → Fin S1x960.rank)
  bcast_S1x960_S131072x960_0_1 : S1x960.BroadcastsInDim S131072x960 (![0, 1] : Fin 2 → Fin S131072x960.rank)
  shapeCasts_S131072x960_S131072x15x64 : S131072x960.ShapeCasts S131072x15x64
  bcast_S_S131072x64 : S_.BroadcastsInDim S131072x64 (![] : Fin 0 → Fin S131072x64.rank)
  bcast_S_S15x64 : S_.BroadcastsInDim S15x64 (![] : Fin 0 → Fin S15x64.rank)
  transposes_S15x64_S64x15_1_0 : S15x64.Transposes [1, 0] S64x15
  bcast_S_S15 : S_.BroadcastsInDim S15 (![] : Fin 0 → Fin S15.rank)
  bcast_S15_S1x15_1 : S15.BroadcastsInDim S1x15 (![1] : Fin 1 → Fin S1x15.rank)
  bcast_S1x15_S131072x15_0_1 : S1x15.BroadcastsInDim S131072x15 (![0, 1] : Fin 2 → Fin S131072x15.rank)
  shapeCasts_S131072x15_S131072x15x1 : S131072x15.ShapeCasts S131072x15x1
  bcast_S_S131072x1 : S_.BroadcastsInDim S131072x1 (![] : Fin 0 → Fin S131072x1.rank)
  dot_S131072x97_S97x120_S131072x120_1_0_0_1_n_n_wf : DotDims.WF S131072x97 S97x120 S131072x120 [1] [0] [0] [1] [] []
  gather_S131072x15x8_S131072x2_S131072x8_1_01_n_n_01_1_118_wf : GatherDims.WF S131072x15x8 S131072x2 S131072x8 [1] [0, 1] [] [0, 1] [] 1 ![1, 1, 8]
  dot_S131072x32_S32x960_S131072x960_1_0_0_1_n_n_wf : DotDims.WF S131072x32 S32x960 S131072x960 [1] [0] [0] [1] [] []
  gather_S131072x15x64_S131072x2_S131072x64_1_01_n_n_01_1_1164_wf : GatherDims.WF S131072x15x64 S131072x2 S131072x64 [1] [0, 1] [] [0, 1] [] 1 ![1, 1, 64]
  dot_S131072x64_S64x15_S131072x15_1_0_0_1_n_n_wf : DotDims.WF S131072x64 S64x15 S131072x15 [1] [0] [0] [1] [] []
  gather_S131072x15x1_S131072x2_S131072x1_1_01_n_n_01_1_111_wf : GatherDims.WF S131072x15x1 S131072x2 S131072x1 [1] [0, 1] [] [0, 1] [] 1 ![1, 1, 1]

variable [Facts₀]

def dot_S131072x97_S97x120_S131072x120_1_0_0_1_n_n : DotDims S131072x97 S97x120 S131072x120 where
  lhsContracting := [1]
  rhsContracting := [0]
  lhsNonContracting := [0]
  rhsNonContracting := [1]
  lhsBatch := []
  rhsBatch := []
  wf := dot_S131072x97_S97x120_S131072x120_1_0_0_1_n_n_wf
def gather_S131072x15x8_S131072x2_S131072x8_1_01_n_n_01_1_118 : GatherDims S131072x15x8 S131072x2 S131072x8 where
  offsetDims := [1]
  collapsedSliceDims := [0, 1]
  operandBatchingDims := []
  startIndicesBatchingDims := []
  startIndexMap := [0, 1]
  indexVectorDim := 1
  sliceSizes := ![1, 1, 8]
  wf := gather_S131072x15x8_S131072x2_S131072x8_1_01_n_n_01_1_118_wf
def dot_S131072x32_S32x960_S131072x960_1_0_0_1_n_n : DotDims S131072x32 S32x960 S131072x960 where
  lhsContracting := [1]
  rhsContracting := [0]
  lhsNonContracting := [0]
  rhsNonContracting := [1]
  lhsBatch := []
  rhsBatch := []
  wf := dot_S131072x32_S32x960_S131072x960_1_0_0_1_n_n_wf
def gather_S131072x15x64_S131072x2_S131072x64_1_01_n_n_01_1_1164 : GatherDims S131072x15x64 S131072x2 S131072x64 where
  offsetDims := [1]
  collapsedSliceDims := [0, 1]
  operandBatchingDims := []
  startIndicesBatchingDims := []
  startIndexMap := [0, 1]
  indexVectorDim := 1
  sliceSizes := ![1, 1, 64]
  wf := gather_S131072x15x64_S131072x2_S131072x64_1_01_n_n_01_1_1164_wf
def dot_S131072x64_S64x15_S131072x15_1_0_0_1_n_n : DotDims S131072x64 S64x15 S131072x15 where
  lhsContracting := [1]
  rhsContracting := [0]
  lhsNonContracting := [0]
  rhsNonContracting := [1]
  lhsBatch := []
  rhsBatch := []
  wf := dot_S131072x64_S64x15_S131072x15_1_0_0_1_n_n_wf
def gather_S131072x15x1_S131072x2_S131072x1_1_01_n_n_01_1_111 : GatherDims S131072x15x1 S131072x2 S131072x1 where
  offsetDims := [1]
  collapsedSliceDims := [0, 1]
  operandBatchingDims := []
  startIndicesBatchingDims := []
  startIndexMap := [0, 1]
  indexVectorDim := 1
  sliceSizes := ![1, 1, 1]
  wf := gather_S131072x15x1_S131072x2_S131072x1_1_01_n_n_01_1_111_wf

class Facts : Prop extends Facts₀ where

variable [Facts]
-- ==== Proof.PreDecode.lean ====
import proofs.«422179_j46557445489276_3_alg».proof.Pre_finite_inputs
import proofs.«422179_j46557445489276_3_alg».proof.Proof.Gen.Pre_finite_inputs
import Idealize.ShloMosaic.Lib.ReduceAll
import Idealize.ShloMosaic.Lib.StableHlo.Predicate
import Idealize.ShloMosaic.Lib.ValueIdx

/-!
# The precondition, read back pointwise

The precondition is a single one-bit word: the conjunction of twelve "for all entries" statements.
Ten of them say that an entry x of a float array satisfies |x| < +∞.  In the extended reals the
absolute value max x (-x) is +∞ exactly at the two infinities, so such an entry is a real number.
The last two say that an entry w of the integer array satisfies 0 ≤ w and w < 60 as signed
32-bit words; a signed word in that range is the numeral of the natural number it denotes.
-/

noncomputable section

namespace Cert.PreDecode

open Idealize.ShloMosaic Idealize.ShloMosaic.ValueIdx
open Cert.Pre_finite_inputs

/-- The rank-0 shape has exactly one index. -/
instance subsingleton_S_ : Subsingleton S_.Idx := ⟨fun a b => funext fun d => d.elim0⟩

/-- The bit pattern 0x7F800000 (sign 0, exponent all ones, fraction 0) denotes +∞. -/
theorem inf_pattern : Ideal.ofBits .f32 0x7F800000#32 = (⊤ : EReal) := by
  simp [Ideal.ofBits, Ideal.ieee]

/-- One entry: if |x| < +∞ holds as a comparison word, x is a real number.
    At -∞ and +∞ the absolute value max x (-x) is +∞, which is not below +∞. -/
theorem real_of_abs_lt_inf (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at h
  rw [inf_pattern] at h
  unfold Ideal.cmp at h
  induction x using EReal.rec with
  | bot => simp at h
  | coe r => exact ⟨r, rfl⟩
  | top => simp at h

/-- One array of any shape: if the conjunction over all entries of |x| < +∞ is the word 1,
    every entry is a real number. -/
theorem all_finite {s : Shape} {axes : List (Fin s.rank)}
    (hb : S_.BroadcastsInDim s (![] : Fin 0 → Fin s.rank)) (hr : s.ReducesTo axes S_) (h0 : 0 < S_.numel)
    (a : FVec Ideal s .f32)
    (e : Host.reduce IntOp.andi
          (cmpf .olt (Host.absf a) (broadcastInDim s ![] hb (constant (F := Ideal) S_ .f32 0x7F800000#32)))
          (constantI S_ 1 1#1) hr h0 ix0 = 1#1) :
    ∀ i, ∃ r : ℝ, a i = (r : EReal) := by
  intro i
  have hi := Host.reduce_andi_all _ _ hr h0 ix0 e i
  exact real_of_abs_lt_inf (a i) hi

/-- One word: 0 ≤ w and w < 60 as signed 32-bit words make w the numeral of a natural number
    below 60.  The signed value lies in [0, 60), so it is the unsigned value, and a word is the
    numeral of its unsigned value. -/
theorem word_lt_60 (w : BitVec 32) (hge : IntOp.cmpi .sge w 0#32 = 1#1) (hlt : IntOp.cmpi .slt w 60#32 = 1#1) :
    ∃ n : ℕ, n < 60 ∧ w = BitVec.ofNat 32 n := by
  rw [IntOp.cmpi_sge] at hge
  rw [IntOp.cmpi_slt] at hlt
  have h0 : (0#32 : BitVec 32).toInt = 0 := by decide
  have h60 : (60#32 : BitVec 32).toInt = 60 := by decide
  rw [h0] at hge
  rw [h60] at hlt
  have hnat : w.toInt = (w.toNat : Int) := by
    rw [BitVec.toInt_eq_toNat_cond] at hge ⊢
    split_ifs at hge ⊢ with hc
    · rfl
    · have := w.isLt; omega
  refine ⟨w.toNat, by omega, ?_⟩
  apply BitVec.eq_of_toNat_eq
  rw [BitVec.toNat_ofNat]
  have := w.isLt
  omega

/-- The integer array: the two conjunctions over all entries give each entry as a numeral below 60. -/
theorem all_lt_60 (hb : S_.BroadcastsInDim S131072 (![] : Fin 0 → Fin S131072.rank))
    (hr : S131072.ReducesTo [0] S_) (h0 : 0 < S_.numel) (a : IVec S131072 32)
    (ege : Host.reduce IntOp.andi (cmpi .sge a (broadcastInDim S131072 ![] hb (constantI S_ 32 0#32)))
          (constantI S_ 1 1#1) hr h0 ix0 = 1#1)
    (elt : Host.reduce IntOp.andi (cmpi .slt a (broadcastInDim S131072 ![] hb (constantI S_ 32 60#32)))
          (constantI S_ 1 1#1) hr h0 ix0 = 1#1) :
    ∀ i, ∃ n : ℕ, n < 60 ∧ a i = BitVec.ofNat 32 n := by
  intro i
  have hge := Host.reduce_andi_all _ _ hr h0 ix0 ege i
  have hlt := Host.reduce_andi_all _ _ hr h0 ix0 elt i
  exact word_lt_60 (a i) hge hlt

/-- The whole precondition, decoded: each float array holds real numbers, and the integer array
    holds numerals of natural numbers below 60. -/
theorem decode (a0 a1 : FVec Ideal S131072x97 .f32) (a2 : IVec S131072 32) (a3 : FVec Ideal S120x97 .f32)
    (a4 : FVec Ideal S120 .f32) (a5 : FVec Ideal S120x97 .f32) (a6 : FVec Ideal S120 .f32)
    (a7 : FVec Ideal S960x32 .f32) (a8 : FVec Ideal S960 .f32) (a9 : FVec Ideal S15x64 .f32)
    (a10 : FVec Ideal S15 .f32)
    (h : Cert.Pre_finite_inputs.fn (F := Ideal) a0 a1 a2 a3 a4 a5 a6 a7 a8 a9 a10 = fun _ => 1#1) :
    (∀ i, ∃ x : ℝ, a0 i = (x : EReal)) ∧ (∀ i, ∃ x : ℝ, a1 i = (x : EReal)) ∧
    (∀ i, ∃ n : ℕ, n < 60 ∧ a2 i = BitVec.ofNat 32 n) ∧ (∀ i, ∃ x : ℝ, a3 i = (x : EReal)) ∧
    (∀ i, ∃ x : ℝ, a4 i = (x : EReal)) ∧ (∀ i, ∃ x : ℝ, a5 i = (x : EReal)) ∧
    (∀ i, ∃ x : ℝ, a6 i = (x : EReal)) ∧ (∀ i, ∃ x : ℝ, a7 i = (x : EReal)) ∧
    (∀ i, ∃ x : ℝ, a8 i = (x : EReal)) ∧ (∀ i, ∃ x : ℝ, a9 i = (x : EReal)) ∧
    (∀ i, ∃ x : ℝ, a10 i = (x : EReal)) := by
  have e := congrFun h ix0
  dsimp only [fn, fn_part1, fn_part2, fn_part3] at e
  -- the word is a left-nested conjunction of twelve words: split it from the outside in
  obtain ⟨e, e55⟩ := IntOp.andi_eq_one.1 e
  obtain ⟨e, e51⟩ := IntOp.andi_eq_one.1 e
  obtain ⟨e, e47⟩ := IntOp.andi_eq_one.1 e
  obtain ⟨e, e42⟩ := IntOp.andi_eq_one.1 e
  obtain ⟨e, e37⟩ := IntOp.andi_eq_one.1 e
  obtain ⟨e, e32⟩ := IntOp.andi_eq_one.1 e
  obtain ⟨e, e27⟩ := IntOp.andi_eq_one.1 e
  obtain ⟨e, e22⟩ := IntOp.andi_eq_one.1 e
  obtain ⟨e, e17⟩ := IntOp.andi_eq_one.1 e
  obtain ⟨e, e12⟩ := IntOp.andi_eq_one.1 e
  obtain ⟨e3, e7⟩ := IntOp.andi_eq_one.1 e
  exact ⟨all_finite _ _ _ a0 e3, all_finite _ _ _ a1 e7, all_lt_60 _ _ _ a2 e51 e55,
    all_finite _ _ _ a3 e12, all_finite _ _ _ a4 e17, all_finite _ _ _ a5 e22, all_finite _ _ _ a6 e27,
    all_finite _ _ _ a7 e32, all_finite _ _ _ a8 e37, all_finite _ _ _ a9 e42, all_finite _ _ _ a10 e47⟩

end Cert.PreDecode

end
-- ==== Proof.Spec.lean ====
/-
  What one row of the network computes, on the extended reals: the common form of both programs' results.

  A row is selected into one of fifteen buckets; the bucket picks a block of each weight stack. With the bucket's blocks
  in hand the row's result is: two affine maps of the row's two feature vectors (eight outputs each), joined to sixteen
  numbers u; the thirty-two numbers (u² · 127/128, u), clipped to [0, 1] and floored to multiples of 1/127; an affine
  map to sixty-four numbers, clipped and floored the same way; an affine map to one number, floored to a multiple of
  1/64. The weights and biases enter after rounding to their grids (x ↦ round-half-even(x · s) / s).
-/
import Idealize.ShloMosaic.PureOps.Ideal.Laws
import Idealize.ShloMosaic.Lib.ValueIdx

noncomputable section

namespace Cert.Spec

open Idealize.ShloMosaic Idealize.ShloMosaic.ValueIdx

/-- The scale words of the two programs, read at exact arithmetic: 64, 8128, 1024·127⁻¹ as f32 rounds it, 1024, 127;
    the clip's ends 0 and 1; and 127/128. -/
def c64 : EReal := Ideal.ofBits .f32 0x42800000#32
def c8128 : EReal := Ideal.ofBits .f32 0x45FE0000#32
def cws : EReal := Ideal.ofBits .f32 0x41010204#32
def c1024 : EReal := Ideal.ofBits .f32 0x44800000#32
def c127 : EReal := Ideal.ofBits .f32 0x42FE0000#32
def c0 : EReal := Ideal.ofBits .f32 0x00000000#32
def c1 : EReal := Ideal.ofBits .f32 0x3F800000#32
def csq : EReal := Ideal.ofBits .f32 0x3F7E0000#32

/-- Rounding to the grid of step 1/s, ties to even. -/
def rq (s x : EReal) : EReal := Ideal.div (Ideal.liftRound Ideal.roundHalfEven (x * s)) s

/-- Flooring to the grid of step 1/s. -/
def fl (s x : EReal) : EReal := Ideal.div (Ideal.liftRound Int.floor (x * s)) s

/-- Clipping to [0, 1]: the lower end first. -/
def clip01 (x : EReal) : EReal := min c1 (max c0 x)

/-- An affine form: the sum of the products, then the bias. -/
def lin {n : ℕ} (x w : Fin n → EReal) (b : EReal) : EReal := (∑ k, x k * w k) + b

/-- The first layer's sixteen numbers: eight from each feature vector. -/
def l1x (xb xp : Fin 97 → EReal) (Wb Wp : Fin 8 → Fin 97 → EReal) (Bb Bp : Fin 8 → EReal) (j : Fin 16) : EReal :=
  if h : j.val < 8 then lin xb (Wb ⟨j.val, h⟩) (Bb ⟨j.val, h⟩)
  else lin xp (Wp ⟨j.val - 8, by have := j.isLt; omega⟩) (Bp ⟨j.val - 8, by have := j.isLt; omega⟩)

/-- The thirty-two hidden numbers: the squares scaled by 127/128, then the sixteen themselves; clipped, floored. -/
def h1 (u : Fin 16 → EReal) (j : Fin 32) : EReal :=
  fl c127 (clip01 (if h : j.val < 16 then u ⟨j.val, h⟩ * u ⟨j.val, h⟩ * csq else u ⟨j.val - 16, by have := j.isLt; omega⟩))

/-- The sixty-four hidden numbers. -/
def h2 (v : Fin 32 → EReal) (W2 : Fin 64 → Fin 32 → EReal) (B2 : Fin 64 → EReal) (j : Fin 64) : EReal :=
  fl c127 (clip01 (lin v (W2 j) (B2 j)))

/-- One row's result from its two feature vectors and its bucket's blocks. -/
def row (xb xp : Fin 97 → EReal) (Wb Wp : Fin 8 → Fin 97 → EReal) (Bb Bp : Fin 8 → EReal)
    (W2 : Fin 64 → Fin 32 → EReal) (B2 : Fin 64 → EReal) (Wo : Fin 64 → EReal) (Bo : EReal) : EReal :=
  fl c64 (lin (h2 (h1 (l1x xb xp Wb Wp Bb Bp)) W2 B2) Wo Bo)

/-- A row's bucket from its ply word: the quarter, kept below fifteen. -/
def bucket (p : BitVec 32) : Fin 15 := ⟨min (p.toNat / 4) 14, by omega⟩

/-- The whole result array [131072, 1] as a function of the eleven argument arrays. -/
def G (xb xp : (⟨2, ![131072, 97]⟩ : Shape).Idx → EReal) (ply : (⟨1, ![131072]⟩ : Shape).Idx → BitVec 32)
    (w1b : (⟨2, ![120, 97]⟩ : Shape).Idx → EReal) (b1b : (⟨1, ![120]⟩ : Shape).Idx → EReal)
    (w1p : (⟨2, ![120, 97]⟩ : Shape).Idx → EReal) (b1p : (⟨1, ![120]⟩ : Shape).Idx → EReal)
    (w2 : (⟨2, ![960, 32]⟩ : Shape).Idx → EReal) (b2 : (⟨1, ![960]⟩ : Shape).Idx → EReal)
    (wo : (⟨2, ![15, 64]⟩ : Shape).Idx → EReal) (bo : (⟨1, ![15]⟩ : Shape).Idx → EReal) :
    (⟨2, ![131072, 1]⟩ : Shape).Idx → EReal := fun i =>
  let r : Fin 131072 := i 0
  let g : Fin 15 := bucket (ply (ix1 r))
  row (fun k => xb (ix2 r k)) (fun k => xp (ix2 r k))
    (fun j k => rq c64 (w1b (ix2 (⟨g.val * 8 + j.val, by have := g.isLt; have := j.isLt; omega⟩ : Fin 120) k)))
    (fun j k => rq c64 (w1p (ix2 (⟨g.val * 8 + j.val, by have := g.isLt; have := j.isLt; omega⟩ : Fin 120) k)))
    (fun j => rq c8128 (b1b (ix1 (⟨g.val * 8 + j.val, by have := g.isLt; have := j.isLt; omega⟩ : Fin 120))))
    (fun j => rq c8128 (b1p (ix1 (⟨g.val * 8 + j.val, by have := g.isLt; have := j.isLt; omega⟩ : Fin 120))))
    (fun j k => rq c64 (w2 (ix2 (⟨g.val * 64 + j.val, by have := g.isLt; have := j.isLt; omega⟩ : Fin 960) k)))
    (fun j => rq c8128 (b2 (ix1 (⟨g.val * 64 + j.val, by have := g.isLt; have := j.isLt; omega⟩ : Fin 960))))
    (fun k => rq cws (wo (ix2 g k))) (rq c1024 (bo (ix1 g)))

end Cert.Spec

end
-- ==== Proof.SpecLemmas.lean ====
/-
  Which of the specification's quantities are real numbers, and the bucket of a small word.

  On the extended reals x + (q − x) = q holds exactly when x is a real number (at an infinite x the left side is
  an infinity or the junk value whatever q is). So every quantity that is "fake-quantised" this way must be shown
  real. The scale constants are nonzero reals (read off their bit patterns); dividing by a nonzero real is multiplying
  by its reciprocal, so a rounding or a floor of a real, divided by such a scale, is real; the clip of ANY extended
  real lies between the reals 0 and 1, hence is real; and finite sums of products of reals are real.
-/
import proofs.«422179_j46557445489276_3_alg».proof.Proof.Spec
import Idealize.ShloMosaic.PureOps.Ideal.Laws
import Mathlib.Data.EReal.Basic
import Mathlib.Data.EReal.Operations
import Mathlib.Data.EReal.Inv
import Mathlib.Algebra.BigOperators.Group.Finset.Basic

noncomputable section

namespace Cert.Spec

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- A nonzero real is in particular real. -/
theorem IsReal.of_ne_zero {s : EReal} (hs : ∃ r : ℝ, r ≠ 0 ∧ s = (r : EReal)) : IsReal s := by
  obtain ⟨r, -, rfl⟩ := hs; exact ⟨r, rfl⟩

/-- A real is neither infinity. -/
theorem IsReal.ne_top {x : EReal} (hx : IsReal x) : x ≠ ⊤ := by
  obtain ⟨r, rfl⟩ := hx; exact EReal.coe_ne_top r

theorem IsReal.ne_bot {x : EReal} (hx : IsReal x) : x ≠ ⊥ := by
  obtain ⟨r, rfl⟩ := hx; exact EReal.coe_ne_bot r

/-- Anything caught between two reals is real. -/
theorem isReal_of_between {a b : ℝ} {x : EReal} (ha : (a : EReal) ≤ x) (hb : x ≤ (b : EReal)) : IsReal x := by
  have h1 : x ≠ ⊥ := fun h => by rw [h] at ha; exact absurd ha (not_le.mpr (EReal.bot_lt_coe a))
  have h2 : x ≠ ⊤ := fun h => by rw [h] at hb; exact absurd hb (not_le.mpr (EReal.coe_lt_top b))
  exact ⟨x.toReal, (EReal.coe_toReal h2 h1).symm⟩

theorem mul_real {x y : EReal} (hx : IsReal x) (hy : IsReal y) : IsReal (x * y) := by
  obtain ⟨a, rfl⟩ := hx; obtain ⟨b, rfl⟩ := hy; exact ⟨a * b, (EReal.coe_mul a b).symm⟩

theorem add_real {x y : EReal} (hx : IsReal x) (hy : IsReal y) : IsReal (x + y) := by
  obtain ⟨a, rfl⟩ := hx; obtain ⟨b, rfl⟩ := hy; exact ⟨a + b, (EReal.coe_add a b).symm⟩

theorem sub_real {x y : EReal} (hx : IsReal x) (hy : IsReal y) : IsReal (x - y) := by
  obtain ⟨a, rfl⟩ := hx; obtain ⟨b, rfl⟩ := hy; exact ⟨a - b, (EReal.coe_sub a b).symm⟩

theorem neg_real {x : EReal} (hx : IsReal x) : IsReal (-x) := by
  obtain ⟨a, rfl⟩ := hx; exact ⟨-a, (EReal.coe_neg a).symm⟩

/-- A finite sum of reals is real. -/
theorem sum_real {ι : Type*} (s : Finset ι) (f : ι → EReal) (hf : ∀ k ∈ s, IsReal (f k)) : IsReal (∑ k ∈ s, f k) :=
  Finset.sum_induction f IsReal (fun _ _ ha hb => add_real ha hb) isReal_zero hf

/-- The straight-through form: at a real x, x + (q − x) is q, for every extended real q. -/
theorem ste {x q : EReal} (hx : IsReal x) : x + (q - x) = q := by
  obtain ⟨a, rfl⟩ := hx
  induction q using EReal.rec with
  | bot => rw [sub_eq_add_neg, EReal.bot_add, EReal.add_bot]
  | coe r => rw [← EReal.coe_sub, ← EReal.coe_add]; congr 1; ring
  | top => rw [sub_eq_add_neg, ← EReal.coe_neg, EReal.top_add_coe, EReal.coe_add_top]

/-! ### The constants -/

theorem c64_eq : c64 = ((64 : ℝ) : EReal) := by
  simp [c64, Ideal.ofBits, Ideal.ieee, -EReal.coe_mul]; norm_num

theorem c8128_eq : c8128 = ((8128 : ℝ) : EReal) := by
  simp [c8128, Ideal.ofBits, Ideal.ieee, -EReal.coe_mul]; norm_num

theorem cws_eq : cws = ((2113665 / 262144 : ℝ) : EReal) := by
  simp [cws, Ideal.ofBits, Ideal.ieee, -EReal.coe_mul]; norm_num

theorem c1024_eq : c1024 = ((1024 : ℝ) : EReal) := by
  simp [c1024, Ideal.ofBits, Ideal.ieee, -EReal.coe_mul]; norm_num

theorem c127_eq : c127 = ((127 : ℝ) : EReal) := by
  simp [c127, Ideal.ofBits, Ideal.ieee, -EReal.coe_mul]; norm_num

theorem c0_eq : c0 = 0 := Ideal.ofBits_zero_f32

theorem c1_eq : c1 = 1 := by
  rw [show (1 : EReal) = ((1 : ℝ) : EReal) by norm_cast]
  simp [c1, Ideal.ofBits, Ideal.ieee, -EReal.coe_mul]; norm_num

theorem csq_eq : csq = ((127 / 128 : ℝ) : EReal) := by
  simp [csq, Ideal.ofBits, Ideal.ieee, -EReal.coe_mul]; norm_num

theorem c64_real : ∃ r : ℝ, r ≠ 0 ∧ c64 = (r : EReal) := ⟨64, by norm_num, c64_eq⟩
theorem c8128_real : ∃ r : ℝ, r ≠ 0 ∧ c8128 = (r : EReal) := ⟨8128, by norm_num, c8128_eq⟩
theorem cws_real : ∃ r : ℝ, r ≠ 0 ∧ cws = (r : EReal) := ⟨2113665 / 262144, by norm_num, cws_eq⟩
theorem c1024_real : ∃ r : ℝ, r ≠ 0 ∧ c1024 = (r : EReal) := ⟨1024, by norm_num, c1024_eq⟩
theorem c127_real : ∃ r : ℝ, r ≠ 0 ∧ c127 = (r : EReal) := ⟨127, by norm_num, c127_eq⟩

theorem c0_real : IsReal c0 := by rw [c0_eq]; exact isReal_zero
theorem c1_real : IsReal c1 := by rw [c1_eq]; exact isReal_one
theorem csq_real : IsReal csq := ⟨_, csq_eq⟩

theorem c0_le_c1 : c0 ≤ c1 := by rw [c0_eq, c1_eq]; exact zero_le_one

/-! ### Rounding, flooring, clipping -/

/-- An integer-valued rounding of a real times a real scale, divided by that nonzero scale, is real. -/
theorem liftRound_div_real (f : ℝ → ℤ) {s x : EReal} (hs : ∃ r : ℝ, r ≠ 0 ∧ s = (r : EReal)) (hx : IsReal x) :
    IsReal (Ideal.div (Ideal.liftRound f (x * s)) s) := by
  obtain ⟨r, hr, rfl⟩ := hs; obtain ⟨a, rfl⟩ := hx
  rw [← EReal.coe_mul, Ideal.liftRound_coe, Ideal.div_coe hr, ← EReal.coe_mul]
  exact ⟨_, rfl⟩

theorem rq_real {s x : EReal} (hs : ∃ r : ℝ, r ≠ 0 ∧ s = (r : EReal)) (hx : IsReal x) : IsReal (rq s x) :=
  liftRound_div_real _ hs hx

theorem fl_real {s x : EReal} (hs : ∃ r : ℝ, r ≠ 0 ∧ s = (r : EReal)) (hx : IsReal x) : IsReal (fl s x) :=
  liftRound_div_real _ hs hx

/-- The clip lies between 0 and 1 whatever is clipped. -/
theorem clip01_bounds (x : EReal) : 0 ≤ clip01 x ∧ clip01 x ≤ 1 := by
  unfold clip01; rw [c0_eq, c1_eq]
  exact ⟨le_min zero_le_one (le_max_left _ _), min_le_left _ _⟩

theorem clip01_real (x : EReal) : IsReal (clip01 x) := by
  obtain ⟨h0, h1⟩ := clip01_bounds x
  exact isReal_of_between (a := 0) (b := 1) (by simpa using h0) (by simpa using h1)

/-! ### Affine forms and the hidden layers -/

theorem lin_real {n : ℕ} {x w : Fin n → EReal} {b : EReal} (hx : ∀ k, IsReal (x k)) (hw : ∀ k, IsReal (w k))
    (hb : IsReal b) : IsReal (lin x w b) :=
  add_real (sum_real _ _ fun k _ => mul_real (hx k) (hw k)) hb

theorem l1x_real {xb xp : Fin 97 → EReal} {Wb Wp : Fin 8 → Fin 97 → EReal} {Bb Bp : Fin 8 → EReal}
    (hxb : ∀ k, IsReal (xb k)) (hxp : ∀ k, IsReal (xp k)) (hWb : ∀ j k, IsReal (Wb j k)) (hWp : ∀ j k, IsReal (Wp j k))
    (hBb : ∀ j, IsReal (Bb j)) (hBp : ∀ j, IsReal (Bp j)) (j : Fin 16) : IsReal (l1x xb xp Wb Wp Bb Bp j) := by
  unfold l1x; split
  · exact lin_real hxb (hWb _) (hBb _)
  · exact lin_real hxp (hWp _) (hBp _)

theorem h1_real (u : Fin 16 → EReal) (j : Fin 32) : IsReal (h1 u j) :=
  fl_real c127_real (clip01_real _)

theorem h2_real (v : Fin 32 → EReal) (W2 : Fin 64 → Fin 32 → EReal) (B2 : Fin 64 → EReal) (j : Fin 64) :
    IsReal (h2 v W2 B2 j) :=
  fl_real c127_real (clip01_real _)

/-! ### The bucket of a small word -/

theorem bucket_ofNat {n : ℕ} (h : n < 60) : bucket (BitVec.ofNat 32 n) = ⟨n / 4, by omega⟩ := by
  apply Fin.ext
  show min ((BitVec.ofNat 32 n).toNat / 4) 14 = n / 4
  rw [BitVec.toNat_ofNat, Nat.mod_eq_of_lt (by omega)]
  omega

end Cert.Spec

end
-- ==== Proof.KerBody.lean ====
import proofs.«422179_j46557445489276_3_alg».proof.Proof.Gen.KernelIdeal.Frame
import Idealize.ShloMosaic.Lib.Pipeline.Value
import Idealize.ShloMosaic.Lib.WholeRead
import Idealize.ShloMosaic.Lib.ValueIdx
import Idealize.ShloMosaic.Lib.Tactic

set_option maxRecDepth 16384

noncomputable section

namespace Cert.KernelIdeal.MoE

open Cert.KernelIdeal Cert.KernelIdeal.Gen Idealize.ShloMosaic Idealize.ShloMosaic.ValueIdx
open Idealize.ShloMosaic.TcCoe Idealize.SL.Sem

variable {F : FTy → Type} [FloatOps F]

/-! # The value the kernel body leaves in its output block

The body runs two counted loops of fifteen trips each and then one store that covers the whole output block.
Reading the block back after the run therefore gives the stored payload: a function of the table index column, of the
second loop's final carried value, and of the two output-head tables. Each loop's carried value is described by its
recurrence: the value before trip zero is the initial zero block, and the value after trip `k` is the trip's payload
applied to the value before it and to the `k`-th slabs of the weight and bias tables. Every slab is a load of one unit
of the leading axis of a whole table, so read at `(0, j, e)` it is the table at `(k, j, e)`. -/

theorem hz1 : (![0] : Fin 1 → Nat) = fun _ => 0 := funext fun a => by fin_cases a; rfl

theorem hz2 : (![0, 0] : Fin 2 → Nat) = fun _ => 0 := funext fun a => by fin_cases a <;> rfl

/-- The loop counter at trip `k < 15`, as an index, is `k`: `0 + k · 1` does not wrap in 32 bits. -/
theorem iv_toNat (k : ℕ) (hk : k < 15) : (Scalar.indexCast (Scf.iv 0#32 1#32 k)).toNat = k := by
  unfold Scalar.indexCast Scf.iv
  rw [BitVec.mul_one, BitVec.zero_add, BitVec.toNat_ofNat]
  exact Nat.mod_eq_of_lt (by omega)

/-! ## The slabs the trips load -/

/-- Slab `k` of a `[15, 8, 97]` table: the load of one unit of the leading axis at offset `k`. -/
def slab3a (m : Memref sig .tc .vmem S15x8x97 .bf16) (hm : m.IsWhole) (x : Vec F S15x8x97 .bf16)
    (k : Fin k0_t1_loop.trips) : Vec F S1x8x97 .bf16 :=
  View.readAt (Elt F) m.view (Rect.unit (s := S15x8x97) (k0_off1 k) S1x8x97.size (k0_off1_inb k)).toLoadRect (hm.unread x)

/-- Row `k` of a `[15, 8]` table. -/
def slab2a (m : Memref sig .tc .vmem S15x8 .f32) (hm : m.IsWhole) (x : Vec F S15x8 .f32)
    (k : Fin k0_t1_loop.trips) : Vec F S1x8 .f32 :=
  View.readAt (Elt F) m.view (Rect.unit (s := S15x8) (k0_off2 k) S1x8.size (k0_off2_inb k)).toLoadRect (hm.unread x)

/-- Slab `k` of the `[15, 64, 32]` table. -/
def slab3b (m : Memref sig .tc .vmem S15x64x32 .bf16) (hm : m.IsWhole) (x : Vec F S15x64x32 .bf16)
    (k : Fin k0_t2_loop.trips) : Vec F S1x64x32 .bf16 :=
  View.readAt (Elt F) m.view (Rect.unit (s := S15x64x32) (k0_off3 k) S1x64x32.size (k0_off3_inb k)).toLoadRect (hm.unread x)

/-- Row `k` of a `[15, 64]` table. -/
def slab2b (m : Memref sig .tc .vmem S15x64 .f32) (hm : m.IsWhole) (x : Vec F S15x64 .f32)
    (k : Fin k0_t2_loop.trips) : Vec F S1x64 .f32 :=
  View.readAt (Elt F) m.view (Rect.unit (s := S15x64) (k0_off4 k) S1x64.size (k0_off4_inb k)).toLoadRect (hm.unread x)

theorem slab3a_apply (m : Memref sig .tc .vmem S15x8x97 .bf16) (hm : m.IsWhole) (x : Vec F S15x8x97 .bf16)
    (k : Fin k0_t1_loop.trips) (j : Fin 8) (e : Fin 97) :
    slab3a m hm x k (ix3 (0 : Fin 1) j e)
      = x (ix3 (⟨k.val, Nat.lt_of_lt_of_le k.isLt k0_t1_abs.2.1⟩ : Fin 15) j e) := by
  have hk : k.val < 15 := Nat.lt_of_lt_of_le k.isLt k0_t1_abs.2.1
  unfold slab3a
  refine (hm.readAt_unread x _ _).trans (congrArg x ?_)
  funext a
  apply Fin.ext
  match a with
  | ⟨0, _⟩ =>
    show (Scalar.indexCast (Scf.iv 0#32 1#32 k.val)).toNat + 1 * 0 = k.val
    rw [iv_toNat k.val hk]; omega
  | ⟨1, _⟩ => show 0 + 1 * j.val = j.val; omega
  | ⟨2, _⟩ => show 0 + 1 * e.val = e.val; omega

theorem slab2a_apply (m : Memref sig .tc .vmem S15x8 .f32) (hm : m.IsWhole) (x : Vec F S15x8 .f32)
    (k : Fin k0_t1_loop.trips) (j : Fin 8) :
    slab2a m hm x k (ix2 (0 : Fin 1) j)
      = x (ix2 (⟨k.val, Nat.lt_of_lt_of_le k.isLt k0_t1_abs.2.1⟩ : Fin 15) j) := by
  have hk : k.val < 15 := Nat.lt_of_lt_of_le k.isLt k0_t1_abs.2.1
  unfold slab2a
  refine (hm.readAt_unread x _ _).trans (congrArg x ?_)
  funext a
  apply Fin.ext
  match a with
  | ⟨0, _⟩ =>
    show (Scalar.indexCast (Scf.iv 0#32 1#32 k.val)).toNat + 1 * 0 = k.val
    rw [iv_toNat k.val hk]; omega
  | ⟨1, _⟩ => show 0 + 1 * j.val = j.val; omega

theorem slab3b_apply (m : Memref sig .tc .vmem S15x64x32 .bf16) (hm : m.IsWhole) (x : Vec F S15x64x32 .bf16)
    (k : Fin k0_t2_loop.trips) (j : Fin 64) (e : Fin 32) :
    slab3b m hm x k (ix3 (0 : Fin 1) j e)
      = x (ix3 (⟨k.val, Nat.lt_of_lt_of_le k.isLt k0_t2_abs.2.1⟩ : Fin 15) j e) := by
  have hk : k.val < 15 := Nat.lt_of_lt_of_le k.isLt k0_t2_abs.2.1
  unfold slab3b
  refine (hm.readAt_unread x _ _).trans (congrArg x ?_)
  funext a
  apply Fin.ext
  match a with
  | ⟨0, _⟩ =>
    show (Scalar.indexCast (Scf.iv 0#32 1#32 k.val)).toNat + 1 * 0 = k.val
    rw [iv_toNat k.val hk]; omega
  | ⟨1, _⟩ => show 0 + 1 * j.val = j.val; omega
  | ⟨2, _⟩ => show 0 + 1 * e.val = e.val; omega

theorem slab2b_apply (m : Memref sig .tc .vmem S15x64 .f32) (hm : m.IsWhole) (x : Vec F S15x64 .f32)
    (k : Fin k0_t2_loop.trips) (j : Fin 64) :
    slab2b m hm x k (ix2 (0 : Fin 1) j)
      = x (ix2 (⟨k.val, Nat.lt_of_lt_of_le k.isLt k0_t2_abs.2.1⟩ : Fin 15) j) := by
  have hk : k.val < 15 := Nat.lt_of_lt_of_le k.isLt k0_t2_abs.2.1
  unfold slab2b
  refine (hm.readAt_unread x _ _).trans (congrArg x ?_)
  funext a
  apply Fin.ext
  match a with
  | ⟨0, _⟩ =>
    show (Scalar.indexCast (Scf.iv 0#32 1#32 k.val)).toNat + 1 * 0 = k.val
    rw [iv_toNat k.val hk]; omega
  | ⟨1, _⟩ => show 0 + 1 * j.val = j.val; omega

/-! ## One trip of each loop, as its payload over the slabs it loads -/

/-- A trip of the first loop maps the carried pair to the two payloads, each over its own table's slab and row. -/
theorem trip1_eq (c : Dev nD) (i : grid0.Coords) (arg1 : Memref sig .tc .vmem S2048x97 .f32) (harg1 : arg1.IsWhole) (arg2 : Memref sig .tc .vmem S2048x97 .f32) (harg2 : arg2.IsWhole) (arg3 : Memref sig .tc .vmem S2048x1 .i32) (harg3 : arg3.IsWhole) (arg4 : Memref sig .tc .vmem S15x8x97 .bf16) (harg4 : arg4.IsWhole) (arg5 : Memref sig .tc .vmem S15x8 .f32) (harg5 : arg5.IsWhole) (arg6 : Memref sig .tc .vmem S15x8x97 .bf16) (harg6 : arg6.IsWhole) (arg7 : Memref sig .tc .vmem S15x8 .f32) (harg7 : arg7.IsWhole) (arg8 : Memref sig .tc .vmem S15x64x32 .bf16) (harg8 : arg8.IsWhole) (arg9 : Memref sig .tc .vmem S15x64 .f32) (harg9 : arg9.IsWhole) (arg10 : Memref sig .tc .vmem S15x64 .f32) (harg10 : arg10.IsWhole) (arg11 : Memref sig .tc .vmem S15 .f32) (harg11 : arg11.IsWhole) (arg12 : Memref sig .tc .vmem S2048x1 .f32) (harg12 : arg12.IsWhole) (v0 : Vec F S2048x97 .f32) (v2 : Vec F S2048x97 .f32) (v4 : Vec F S2048x1 .i32)
    (x3 : Vec F S15x8x97 .bf16) (x4 : Vec F S15x8 .f32) (x5 : Vec F S15x8x97 .bf16) (x6 : Vec F S15x8 .f32)
    (k : Fin k0_t1_loop.trips) (acc : FVec F S2048x8 .f32 × FVec F S2048x8 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 v0 v2 v4 (harg4.unread x3) (harg5.unread x4) (harg6.unread x5) (harg7.unread x6) k acc
      = (k0_pay6 v0 v4 k acc.1 (slab3a arg4 harg4 x3 k) (slab2a arg5 harg5 x4 k),
         k0_pay7 v2 v4 k acc.2 (slab3a arg6 harg6 x5 k) (slab2a arg7 harg7 x6 k)) := by
  unfold tripR_k0_t1 trip_k0_t1
  rfl

/-- A trip of the second loop maps the carried block to its payload over the slab and row it loads. -/
theorem trip2_eq (c : Dev nD) (i : grid0.Coords) (arg1 : Memref sig .tc .vmem S2048x97 .f32) (harg1 : arg1.IsWhole) (arg2 : Memref sig .tc .vmem S2048x97 .f32) (harg2 : arg2.IsWhole) (arg3 : Memref sig .tc .vmem S2048x1 .i32) (harg3 : arg3.IsWhole) (arg4 : Memref sig .tc .vmem S15x8x97 .bf16) (harg4 : arg4.IsWhole) (arg5 : Memref sig .tc .vmem S15x8 .f32) (harg5 : arg5.IsWhole) (arg6 : Memref sig .tc .vmem S15x8x97 .bf16) (harg6 : arg6.IsWhole) (arg7 : Memref sig .tc .vmem S15x8 .f32) (harg7 : arg7.IsWhole) (arg8 : Memref sig .tc .vmem S15x64x32 .bf16) (harg8 : arg8.IsWhole) (arg9 : Memref sig .tc .vmem S15x64 .f32) (harg9 : arg9.IsWhole) (arg10 : Memref sig .tc .vmem S15x64 .f32) (harg10 : arg10.IsWhole) (arg11 : Memref sig .tc .vmem S15 .f32) (harg11 : arg11.IsWhole) (arg12 : Memref sig .tc .vmem S2048x1 .f32) (harg12 : arg12.IsWhole) (v4 : Vec F S2048x1 .i32) (v9_0 : FVec F S2048x8 .f32) (v9_1 : FVec F S2048x8 .f32)
    (x7 : Vec F S15x64x32 .bf16) (x8 : Vec F S15x64 .f32)
    (k : Fin k0_t2_loop.trips) (acc : FVec F S2048x64 .f32) :
    tripR_k0_t2 (F := F) Variants.none c none i arg1 harg1 arg2 harg2 arg3 harg3 arg4 harg4 arg5 harg5 arg6 harg6 arg7 harg7 arg8 harg8 arg9 harg9 arg10 harg10 arg11 harg11 arg12 harg12 v4 v9_0 v9_1 (harg8.unread x7) (harg9.unread x8) k acc
      = k0_pay9 v4 v9_0 v9_1 k acc (slab3b arg8 harg8 x7 k) (slab2b arg9 harg9 x8 k) := by
  unfold tripR_k0_t2 trip_k0_t2
  rfl

/-! ## The carried values -/

/-- The pair the first loop carries before trip `n`. -/
def S1w (c : Dev nD) (i : grid0.Coords) (arg1 : Memref sig .tc .vmem S2048x97 .f32) (harg1 : arg1.IsWhole) (arg2 : Memref sig .tc .vmem S2048x97 .f32) (harg2 : arg2.IsWhole) (arg3 : Memref sig .tc .vmem S2048x1 .i32) (harg3 : arg3.IsWhole) (arg4 : Memref sig .tc .vmem S15x8x97 .bf16) (harg4 : arg4.IsWhole) (arg5 : Memref sig .tc .vmem S15x8 .f32) (harg5 : arg5.IsWhole) (arg6 : Memref sig .tc .vmem S15x8x97 .bf16) (harg6 : arg6.IsWhole) (arg7 : Memref sig .tc .vmem S15x8 .f32) (harg7 : arg7.IsWhole) (arg8 : Memref sig .tc .vmem S15x64x32 .bf16) (harg8 : arg8.IsWhole) (arg9 : Memref sig .tc .vmem S15x64 .f32) (harg9 : arg9.IsWhole) (arg10 : Memref sig .tc .vmem S15x64 .f32) (harg10 : arg10.IsWhole) (arg11 : Memref sig .tc .vmem S15 .f32) (harg11 : arg11.IsWhole) (arg12 : Memref sig .tc .vmem S2048x1 .f32) (harg12 : arg12.IsWhole) (x0 : Vec F S2048x97 .f32) (x1 : Vec F S2048x97 .f32) (x2 : Vec F S2048x1 .i32) (x3 : Vec F S15x8x97 .bf16) (x4 : Vec F S15x8 .f32) (x5 : Vec F S15x8x97 .bf16) (x6 : Vec F S15x8 .f32) (n : ℕ) : FVec F S2048x8 .f32 × FVec F S2048x8 .f32 :=
  st_k0_t1 (F := F) Variants.none c none i arg1 harg1 arg2 harg2 arg3 harg3 arg4 harg4 arg5 harg5 arg6 harg6 arg7 harg7 arg8 harg8 arg9 harg9 arg10 harg10 arg11 harg11 arg12 harg12 x0 x1 x2 (harg4.unread x3) (harg5.unread x4) (harg6.unread x5) (harg7.unread x6) (k0_pay3 (F := F), k0_pay4 (F := F)) n

/-- The block the second loop carries before trip `n`; it reads the first loop's final pair. -/
def S2w (c : Dev nD) (i : grid0.Coords) (arg1 : Memref sig .tc .vmem S2048x97 .f32) (harg1 : arg1.IsWhole) (arg2 : Memref sig .tc .vmem S2048x97 .f32) (harg2 : arg2.IsWhole) (arg3 : Memref sig .tc .vmem S2048x1 .i32) (harg3 : arg3.IsWhole) (arg4 : Memref sig .tc .vmem S15x8x97 .bf16) (harg4 : arg4.IsWhole) (arg5 : Memref sig .tc .vmem S15x8 .f32) (harg5 : arg5.IsWhole) (arg6 : Memref sig .tc .vmem S15x8x97 .bf16) (harg6 : arg6.IsWhole) (arg7 : Memref sig .tc .vmem S15x8 .f32) (harg7 : arg7.IsWhole) (arg8 : Memref sig .tc .vmem S15x64x32 .bf16) (harg8 : arg8.IsWhole) (arg9 : Memref sig .tc .vmem S15x64 .f32) (harg9 : arg9.IsWhole) (arg10 : Memref sig .tc .vmem S15x64 .f32) (harg10 : arg10.IsWhole) (arg11 : Memref sig .tc .vmem S15 .f32) (harg11 : arg11.IsWhole) (arg12 : Memref sig .tc .vmem S2048x1 .f32) (harg12 : arg12.IsWhole) (x0 : Vec F S2048x97 .f32) (x1 : Vec F S2048x97 .f32) (x2 : Vec F S2048x1 .i32) (x3 : Vec F S15x8x97 .bf16) (x4 : Vec F S15x8 .f32) (x5 : Vec F S15x8x97 .bf16) (x6 : Vec F S15x8 .f32) (x7 : Vec F S15x64x32 .bf16) (x8 : Vec F S15x64 .f32) (n : ℕ) : FVec F S2048x64 .f32 :=
  st_k0_t2 (F := F) Variants.none c none i arg1 harg1 arg2 harg2 arg3 harg3 arg4 harg4 arg5 harg5 arg6 harg6 arg7 harg7 arg8 harg8 arg9 harg9 arg10 harg10 arg11 harg11 arg12 harg12 x2 (S1w c i arg1 harg1 arg2 harg2 arg3 harg3 arg4 harg4 arg5 harg5 arg6 harg6 arg7 harg7 arg8 harg8 arg9 harg9 arg10 harg10 arg11 harg11 arg12 harg12 x0 x1 x2 x3 x4 x5 x6 k0_t1_loop.trips).1 (S1w c i arg1 harg1 arg2 harg2 arg3 harg3 arg4 harg4 arg5 harg5 arg6 harg6 arg7 harg7 arg8 harg8 arg9 harg9 arg10 harg10 arg11 harg11 arg12 harg12 x0 x1 x2 x3 x4 x5 x6 k0_t1_loop.trips).2 (harg8.unread x7) (harg9.unread x8) (k0_pay8 (F := F)) n

/-- The output block after the body is the final store's payload over the second loop's final carried block. -/
theorem out_eq (c : Dev nD) (i : grid0.Coords) (arg1 : Memref sig .tc .vmem S2048x97 .f32) (harg1 : arg1.IsWhole) (arg2 : Memref sig .tc .vmem S2048x97 .f32) (harg2 : arg2.IsWhole) (arg3 : Memref sig .tc .vmem S2048x1 .i32) (harg3 : arg3.IsWhole) (arg4 : Memref sig .tc .vmem S15x8x97 .bf16) (harg4 : arg4.IsWhole) (arg5 : Memref sig .tc .vmem S15x8 .f32) (harg5 : arg5.IsWhole) (arg6 : Memref sig .tc .vmem S15x8x97 .bf16) (harg6 : arg6.IsWhole) (arg7 : Memref sig .tc .vmem S15x8 .f32) (harg7 : arg7.IsWhole) (arg8 : Memref sig .tc .vmem S15x64x32 .bf16) (harg8 : arg8.IsWhole) (arg9 : Memref sig .tc .vmem S15x64 .f32) (harg9 : arg9.IsWhole) (arg10 : Memref sig .tc .vmem S15x64 .f32) (harg10 : arg10.IsWhole) (arg11 : Memref sig .tc .vmem S15 .f32) (harg11 : arg11.IsWhole) (arg12 : Memref sig .tc .vmem S2048x1 .f32) (harg12 : arg12.IsWhole) (x0 : Vec F S2048x97 .f32) (x1 : Vec F S2048x97 .f32) (x2 : Vec F S2048x1 .i32) (x3 : Vec F S15x8x97 .bf16) (x4 : Vec F S15x8 .f32) (x5 : Vec F S15x8x97 .bf16) (x6 : Vec F S15x8 .f32) (x7 : Vec F S15x64x32 .bf16) (x8 : Vec F S15x64 .f32) (x9 : Vec F S15x64 .f32) (x10 : Vec F S15 .f32) :
    out0_A_11 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = k0_pay1 (k0_pay2 x2) (k0_pay10 (S2w c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 k0_t2_loop.trips)) x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  dsimp only
  sl_unfold_words
  rw [View.canon_unit_zero hz2]
  simp only [View.readAt_eq_ld, harg1.read_unread, harg2.read_unread, harg3.read_unread, harg10.read_unread,
    harg11.read_unread, View.ld_unit_zero (S := S2048x97) hz2, View.ld_unit_zero (S := S2048x1) hz2,
    View.ld_unit_zero (S := S15x64) hz2, View.ld_unit_zero (S := S15) hz1]
  rfl

/-! ## The body's value -/

/-- What the body leaves in the output block: the final store's payload over the second loop's final block, the two
    loops' carried values given by their recurrences over the slabs of the weight and bias tables, and each slab read
    at an index as the table at the trip's unit of the leading axis. -/
theorem body_value (c : Dev nD) (i : grid0.Coords) (arg1 : Memref sig .tc .vmem S2048x97 .f32) (harg1 : arg1.IsWhole) (arg2 : Memref sig .tc .vmem S2048x97 .f32) (harg2 : arg2.IsWhole) (arg3 : Memref sig .tc .vmem S2048x1 .i32) (harg3 : arg3.IsWhole) (arg4 : Memref sig .tc .vmem S15x8x97 .bf16) (harg4 : arg4.IsWhole) (arg5 : Memref sig .tc .vmem S15x8 .f32) (harg5 : arg5.IsWhole) (arg6 : Memref sig .tc .vmem S15x8x97 .bf16) (harg6 : arg6.IsWhole) (arg7 : Memref sig .tc .vmem S15x8 .f32) (harg7 : arg7.IsWhole) (arg8 : Memref sig .tc .vmem S15x64x32 .bf16) (harg8 : arg8.IsWhole) (arg9 : Memref sig .tc .vmem S15x64 .f32) (harg9 : arg9.IsWhole) (arg10 : Memref sig .tc .vmem S15x64 .f32) (harg10 : arg10.IsWhole) (arg11 : Memref sig .tc .vmem S15 .f32) (harg11 : arg11.IsWhole) (arg12 : Memref sig .tc .vmem S2048x1 .f32) (harg12 : arg12.IsWhole) (x0 : Vec F S2048x97 .f32) (x1 : Vec F S2048x97 .f32) (x2 : Vec F S2048x1 .i32) (x3 : Vec F S15x8x97 .bf16) (x4 : Vec F S15x8 .f32) (x5 : Vec F S15x8x97 .bf16) (x6 : Vec F S15x8 .f32) (x7 : Vec F S15x64x32 .bf16) (x8 : Vec F S15x64 .f32) (x9 : Vec F S15x64 .f32) (x10 : Vec F S15 .f32) :
    ∃ (S1 : ℕ → FVec F S2048x8 .f32 × FVec F S2048x8 .f32) (S2 : ℕ → FVec F S2048x64 .f32)
      (A4 A6 : Fin k0_t1_loop.trips → Vec F S1x8x97 .bf16) (A5 A7 : Fin k0_t1_loop.trips → Vec F S1x8 .f32)
      (A8 : Fin k0_t2_loop.trips → Vec F S1x64x32 .bf16) (A9 : Fin k0_t2_loop.trips → Vec F S1x64 .f32),
      out0_A_11 (F := F) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
          = k0_pay1 (k0_pay2 x2) (k0_pay10 (S2 k0_t2_loop.trips)) x9 x10
      ∧ S1 0 = (k0_pay3 (F := F), k0_pay4 (F := F))
      ∧ (∀ k : Fin k0_t1_loop.trips, S1 (k.val + 1)
          = (k0_pay6 x0 x2 k (S1 k.val).1 (A4 k) (A5 k), k0_pay7 x1 x2 k (S1 k.val).2 (A6 k) (A7 k)))
      ∧ S2 0 = k0_pay8 (F := F)
      ∧ (∀ k : Fin k0_t2_loop.trips, S2 (k.val + 1)
          = k0_pay9 x2 (S1 k0_t1_loop.trips).1 (S1 k0_t1_loop.trips).2 k (S2 k.val) (A8 k) (A9 k))
      ∧ (∀ (k : Fin k0_t1_loop.trips) (j : Fin 8) (e : Fin 97),
          A4 k (ix3 (0 : Fin 1) j e) = x3 (ix3 (⟨k.val, Nat.lt_of_lt_of_le k.isLt k0_t1_abs.2.1⟩ : Fin 15) j e))
      ∧ (∀ (k : Fin k0_t1_loop.trips) (j : Fin 8) (e : Fin 97),
          A6 k (ix3 (0 : Fin 1) j e) = x5 (ix3 (⟨k.val, Nat.lt_of_lt_of_le k.isLt k0_t1_abs.2.1⟩ : Fin 15) j e))
      ∧ (∀ (k : Fin k0_t1_loop.trips) (j : Fin 8),
          A5 k (ix2 (0 : Fin 1) j) = x4 (ix2 (⟨k.val, Nat.lt_of_lt_of_le k.isLt k0_t1_abs.2.1⟩ : Fin 15) j))
      ∧ (∀ (k : Fin k0_t1_loop.trips) (j : Fin 8),
          A7 k (ix2 (0 : Fin 1) j) = x6 (ix2 (⟨k.val, Nat.lt_of_lt_of_le k.isLt k0_t1_abs.2.1⟩ : Fin 15) j))
      ∧ (∀ (k : Fin k0_t2_loop.trips) (j : Fin 64) (e : Fin 32),
          A8 k (ix3 (0 : Fin 1) j e) = x7 (ix3 (⟨k.val, Nat.lt_of_lt_of_le k.isLt k0_t2_abs.2.1⟩ : Fin 15) j e))
      ∧ (∀ (k : Fin k0_t2_loop.trips) (j : Fin 64),
          A9 k (ix2 (0 : Fin 1) j) = x8 (ix2 (⟨k.val, Nat.lt_of_lt_of_le k.isLt k0_t2_abs.2.1⟩ : Fin 15) j)) := by
  refine ⟨S1w c i arg1 harg1 arg2 harg2 arg3 harg3 arg4 harg4 arg5 harg5 arg6 harg6 arg7 harg7 arg8 harg8 arg9 harg9 arg10 harg10 arg11 harg11 arg12 harg12 x0 x1 x2 x3 x4 x5 x6, S2w c i arg1 harg1 arg2 harg2 arg3 harg3 arg4 harg4 arg5 harg5 arg6 harg6 arg7 harg7 arg8 harg8 arg9 harg9 arg10 harg10 arg11 harg11 arg12 harg12 x0 x1 x2 x3 x4 x5 x6 x7 x8,
    slab3a arg4 harg4 x3, slab3a arg6 harg6 x5, slab2a arg5 harg5 x4, slab2a arg7 harg7 x6,
    slab3b arg8 harg8 x7, slab2b arg9 harg9 x8,
    out_eq c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10, rfl, fun k => ?_, rfl, fun k => ?_,
    slab3a_apply arg4 harg4 x3, slab3a_apply arg6 harg6 x5, slab2a_apply arg5 harg5 x4, slab2a_apply arg7 harg7 x6,
    slab3b_apply arg8 harg8 x7, slab2b_apply arg9 harg9 x8⟩
  · unfold S1w
    exact (st_k0_t1_succ (F := F) Variants.none c none i arg1 harg1 arg2 harg2 arg3 harg3 arg4 harg4 arg5 harg5 arg6 harg6 arg7 harg7 arg8 harg8 arg9 harg9 arg10 harg10 arg11 harg11 arg12 harg12 x0 x1 x2 (harg4.unread x3) (harg5.unread x4) (harg6.unread x5) (harg7.unread x6) (k0_pay3 (F := F), k0_pay4 (F := F)) k).trans
      (trip1_eq c i arg1 harg1 arg2 harg2 arg3 harg3 arg4 harg4 arg5 harg5 arg6 harg6 arg7 harg7 arg8 harg8 arg9 harg9 arg10 harg10 arg11 harg11 arg12 harg12 x0 x1 x2 x3 x4 x5 x6 k _)
  · unfold S2w
    exact (st_k0_t2_succ (F := F) Variants.none c none i arg1 harg1 arg2 harg2 arg3 harg3 arg4 harg4 arg5 harg5 arg6 harg6 arg7 harg7 arg8 harg8 arg9 harg9 arg10 harg10 arg11 harg11 arg12 harg12 x2 (S1w c i arg1 harg1 arg2 harg2 arg3 harg3 arg4 harg4 arg5 harg5 arg6 harg6 arg7 harg7 arg8 harg8 arg9 harg9 arg10 harg10 arg11 harg11 arg12 harg12 x0 x1 x2 x3 x4 x5 x6 k0_t1_loop.trips).1 (S1w c i arg1 harg1 arg2 harg2 arg3 harg3 arg4 harg4 arg5 harg5 arg6 harg6 arg7 harg7 arg8 harg8 arg9 harg9 arg10 harg10 arg11 harg11 arg12 harg12 x0 x1 x2 x3 x4 x5 x6 k0_t1_loop.trips).2 (harg8.unread x7) (harg9.unread x8) (k0_pay8 (F := F)) k).trans
      (trip2_eq c i arg1 harg1 arg2 harg2 arg3 harg3 arg4 harg4 arg5 harg5 arg6 harg6 arg7 harg7 arg8 harg8 arg9 harg9 arg10 harg10 arg11 harg11 arg12 harg12 x2 _ _ x7 x8 k _)

end Cert.KernelIdeal.MoE
end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.LibWord.lean ====
/-
  Small non-negative 32-bit words under the host's integer operations.

  A word that is the numeral of a natural number below 2³¹ has a clear sign bit; on such words the signed quotient
  and remainder are the natural numbers' (the divisor positive), the signed comparisons are the natural numbers', and
  addition is the natural numbers' while the sum stays a numeral. From these: the element-level chains by which
  "floor division" and "non-negative remainder" are spelled over quotient, remainder, sign, comparison and selection
  compute n / d and n % d on such words.
-/
import Mathlib.Data.BitVec
import Idealize.ShloMosaic.PureOps

namespace Cert.LibWord

open Idealize.ShloMosaic

/-! ## Numerals below 2³¹ -/

/-- The numeral of a number below 2³² has that number as its unsigned value. -/
theorem toNat_ofNat_lt {n : ℕ} (h : n < 2 ^ 32) : (BitVec.ofNat 32 n).toNat = n := by
  rw [BitVec.toNat_ofNat]; exact Nat.mod_eq_of_lt h

/-- The numeral of a number below 2³¹ has a clear sign bit. -/
theorem msb_ofNat_lt {n : ℕ} (h : n < 2 ^ 31) : (BitVec.ofNat 32 n).msb = false := by
  rw [BitVec.msb_eq_false_iff_two_mul_lt, toNat_ofNat_lt (by omega)]; omega

/-- The numeral of a number below 2³¹ has that number as its signed value. -/
theorem toInt_ofNat_lt {n : ℕ} (h : n < 2 ^ 31) : (BitVec.ofNat 32 n).toInt = (n : ℤ) := by
  rw [BitVec.toInt_eq_msb_cond, msb_ofNat_lt h, toNat_ofNat_lt (by omega)]; simp

/-- Numerals of numbers below 2³² are equal only when the numbers are. -/
theorem ofNat_inj_lt {a b : ℕ} (ha : a < 2 ^ 32) (hb : b < 2 ^ 32) : BitVec.ofNat 32 a = BitVec.ofNat 32 b ↔ a = b := by
  constructor
  · intro h
    have := congrArg BitVec.toNat h
    rwa [toNat_ofNat_lt ha, toNat_ofNat_lt hb] at this
  · rintro rfl; rfl

/-! ## Signed quotient and remainder -/

/-- Words with clear sign bits divide signed as they do unsigned. -/
theorem sdiv_of_msb_false {x y : BitVec 32} (hx : x.msb = false) (hy : y.msb = false) : x.sdiv y = x / y := by
  rw [BitVec.sdiv_eq, hx, hy]; rfl

/-- Words with clear sign bits leave the signed remainder they leave unsigned. -/
theorem srem_of_msb_false {x y : BitVec 32} (hx : x.msb = false) (hy : y.msb = false) : x.srem y = x % y := by
  rw [BitVec.srem_eq, hx, hy]

/-- A positive divisor below 2³¹ is at neither corner of signed division: it is not 0 and not -1. -/
theorem not_sdivCorner (x : BitVec 32) {b : ℕ} (hb0 : 0 < b) (hb : b < 2 ^ 31) :
    ¬ IntOp.SDivCorner x (BitVec.ofNat 32 b) := by
  have hneg : (-1 : BitVec 32).toNat = 4294967295 := by decide
  rintro (h | ⟨-, h⟩)
  · have := congrArg BitVec.toNat h
    rw [toNat_ofNat_lt (by omega)] at this
    simp at this; omega
  · have := congrArg BitVec.toNat h
    rw [toNat_ofNat_lt (by omega), hneg] at this
    omega

/-- THE SIGNED QUOTIENT of numerals below 2³¹, the divisor positive, on any unit: the numeral of the quotient. -/
theorem divsi_ofNat (u : ArithUnit) {a b : ℕ} (ha : a < 2 ^ 31) (hb0 : 0 < b) (hb : b < 2 ^ 31) :
    IntOp.divsi u (BitVec.ofNat 32 a) (BitVec.ofNat 32 b) = BitVec.ofNat 32 (a / b) := by
  unfold IntOp.divsi
  rw [if_neg (not_sdivCorner _ hb0 hb), sdiv_of_msb_false (msb_ofNat_lt ha) (msb_ofNat_lt hb)]
  apply BitVec.eq_of_toNat_eq
  have hq : a / b < 2 ^ 32 := lt_of_le_of_lt (Nat.div_le_self a b) (by omega)
  rw [BitVec.toNat_udiv, toNat_ofNat_lt (by omega), toNat_ofNat_lt (by omega), toNat_ofNat_lt hq]

/-- THE SIGNED REMAINDER of numerals below 2³¹, the divisor positive, on any unit: the numeral of the remainder. -/
theorem remsi_ofNat (u : ArithUnit) {a b : ℕ} (ha : a < 2 ^ 31) (hb0 : 0 < b) (hb : b < 2 ^ 31) :
    IntOp.remsi u (BitVec.ofNat 32 a) (BitVec.ofNat 32 b) = BitVec.ofNat 32 (a % b) := by
  unfold IntOp.remsi
  rw [if_neg (not_sdivCorner _ hb0 hb), srem_of_msb_false (msb_ofNat_lt ha) (msb_ofNat_lt hb)]
  apply BitVec.eq_of_toNat_eq
  have hr : a % b < 2 ^ 32 := lt_of_lt_of_le (Nat.mod_lt a hb0) (by omega)
  rw [BitVec.toNat_umod, toNat_ofNat_lt (by omega), toNat_ofNat_lt (by omega), toNat_ofNat_lt hr]

/-! ## Sign, comparisons, maximum, sum -/

/-- The sign of a word, as a word: 0 for zero, -1 under a set sign bit, else 1. -/
def sgn (x : BitVec 32) : BitVec 32 := if x = 0 then 0 else if x.msb then -1 else 1

/-- The vector sign operation at an element is the sign of the element. -/
theorem signi_apply {s : Shape} (x : IVec s 32) (i : s.Idx) : signi x i = sgn (x i) := rfl

/-- The sign of a numeral below 2³¹: 0 for zero, else 1. -/
theorem sgn_ofNat {n : ℕ} (h : n < 2 ^ 31) : sgn (BitVec.ofNat 32 n) = if n = 0 then 0#32 else 1#32 := by
  unfold sgn
  by_cases hn : n = 0
  · subst hn; simp
  · have : BitVec.ofNat 32 n ≠ 0 := fun h0 => hn ((ofNat_inj_lt (by omega) (by omega)).mp h0)
    rw [if_neg this, msb_ofNat_lt h, if_neg hn]; simp

/-- A numeral below 2³¹ is not below zero. -/
theorem slt_zero_ofNat {n : ℕ} (h : n < 2 ^ 31) : IntOp.cmpi .slt (BitVec.ofNat 32 n) 0#32 = 0#1 := by
  have hn : ¬ ((n : ℤ) < 0) := by omega
  simp [IntOp.cmpi, BitVec.slt, toInt_ofNat_lt h, hn]

/-- The signed maximum of zero and a numeral below 2³¹ is the numeral. -/
theorem maxsi_zero_ofNat {n : ℕ} (h : n < 2 ^ 31) : IntOp.maxsi 0#32 (BitVec.ofNat 32 n) = BitVec.ofNat 32 n := by
  unfold IntOp.maxsi
  rw [if_neg]
  simp [BitVec.slt, toInt_ofNat_lt h]

/-- Signed "at least" on numerals below 2³¹ is the natural numbers' order. -/
theorem sge_ofNat {a b : ℕ} (ha : a < 2 ^ 31) (hb : b < 2 ^ 31) :
    IntOp.cmpi .sge (BitVec.ofNat 32 a) (BitVec.ofNat 32 b) = BitVec.ofBool (decide (b ≤ a)) := by
  simp [IntOp.cmpi, BitVec.sle, toInt_ofNat_lt ha, toInt_ofNat_lt hb]

/-- Signed "below" on numerals below 2³¹ is the natural numbers' order. -/
theorem slt_ofNat {a b : ℕ} (ha : a < 2 ^ 31) (hb : b < 2 ^ 31) :
    IntOp.cmpi .slt (BitVec.ofNat 32 a) (BitVec.ofNat 32 b) = BitVec.ofBool (decide (a < b)) := by
  simp [IntOp.cmpi, BitVec.slt, toInt_ofNat_lt ha, toInt_ofNat_lt hb]

/-- Equality of numerals below 2³² is the natural numbers'. -/
theorem eq_ofNat {a b : ℕ} (ha : a < 2 ^ 32) (hb : b < 2 ^ 32) :
    IntOp.cmpi .eq (BitVec.ofNat 32 a) (BitVec.ofNat 32 b) = BitVec.ofBool (decide (a = b)) := by
  by_cases h : a = b
  · subst h; simp [IntOp.cmpi]
  · have hne : BitVec.ofNat 32 a ≠ BitVec.ofNat 32 b := fun h' => h ((ofNat_inj_lt ha hb).mp h')
    show BitVec.ofBool (BitVec.ofNat 32 a == BitVec.ofNat 32 b) = BitVec.ofBool (decide (a = b))
    rw [beq_eq_false_iff_ne.mpr hne, decide_eq_false h]

/-- Inequality of numerals below 2³² is the natural numbers'. -/
theorem ne_ofNat {a b : ℕ} (ha : a < 2 ^ 32) (hb : b < 2 ^ 32) :
    IntOp.cmpi .ne (BitVec.ofNat 32 a) (BitVec.ofNat 32 b) = BitVec.ofBool (decide (a ≠ b)) := by
  by_cases h : a = b
  · subst h; simp [IntOp.cmpi]
  · have hne : BitVec.ofNat 32 a ≠ BitVec.ofNat 32 b := fun h' => h ((ofNat_inj_lt ha hb).mp h')
    show BitVec.ofBool (BitVec.ofNat 32 a != BitVec.ofNat 32 b) = BitVec.ofBool (decide (a ≠ b))
    rw [bne_iff_ne.mpr hne, decide_eq_true h]

/-- The sum of two numerals is the numeral of the sum (with wrap-around, as numerals are). -/
theorem addi_ofNat (a b : ℕ) : IntOp.addi (BitVec.ofNat 32 a) (BitVec.ofNat 32 b) = BitVec.ofNat 32 (a + b) := by
  unfold IntOp.addi; exact (BitVec.ofNat_add a b).symm

/-! ## Floor division and non-negative remainder, spelled over quotient, remainder, sign and selection -/

/-- FLOOR DIVISION of numerals below 2³¹ by a positive one: "the quotient, less one when the signs differ and the
    remainder is not zero" is the numeral of the natural numbers' quotient (the signs differ only at dividend zero, where
    the remainder is zero). -/
theorem floordiv_ofNat (u : ArithUnit) {a b : ℕ} (ha : a < 2 ^ 31) (hb0 : 0 < b) (hb : b < 2 ^ 31) :
    Scalar.select
        (IntOp.andi (IntOp.cmpi .ne (sgn (BitVec.ofNat 32 a)) (sgn (BitVec.ofNat 32 b)))
          (IntOp.cmpi .ne (IntOp.remsi u (BitVec.ofNat 32 a) (BitVec.ofNat 32 b)) 0#32))
        (IntOp.subi (IntOp.divsi u (BitVec.ofNat 32 a) (BitVec.ofNat 32 b)) 1#32)
        (IntOp.divsi u (BitVec.ofNat 32 a) (BitVec.ofNat 32 b))
      = BitVec.ofNat 32 (a / b) := by
  rw [divsi_ofNat u ha hb0 hb, remsi_ofNat u ha hb0 hb, sgn_ofNat ha, sgn_ofNat hb, if_neg (Nat.pos_iff_ne_zero.mp hb0)]
  have hr : a % b < 2 ^ 32 := lt_of_lt_of_le (Nat.mod_lt a hb0) (by omega)
  rw [ne_ofNat hr (by omega : 0 < 2 ^ 32)]
  by_cases h0 : a = 0
  · subst h0
    simp [Scalar.select, IntOp.andi, IntOp.cmpi]
  · rw [if_neg h0]
    simp [Scalar.select, IntOp.andi, IntOp.cmpi]

/-- The divisor guard of the remainder: a divisor that is not zero stands for itself. -/
theorem divisor_guard {b : ℕ} (hb0 : 0 < b) (hb : b < 2 ^ 32) :
    Scalar.select (IntOp.cmpi .eq (BitVec.ofNat 32 b) 0#32) 1#32 (BitVec.ofNat 32 b) = BitVec.ofNat 32 b := by
  rw [eq_ofNat hb (by omega : 0 < 2 ^ 32), decide_eq_false (Nat.pos_iff_ne_zero.mp hb0)]
  simp [Scalar.select]

/-- NON-NEGATIVE REMAINDER of numerals below 2³¹ by a positive one: "the remainder, plus the divisor when their signs
    differ and it is not zero" is the numeral of the natural numbers' remainder (neither is negative). -/
theorem floormod_ofNat (u : ArithUnit) {a b : ℕ} (ha : a < 2 ^ 31) (hb0 : 0 < b) (hb : b < 2 ^ 31) :
    Scalar.select
        (IntOp.andi
          (IntOp.cmpi .ne (IntOp.cmpi .slt (IntOp.remsi u (BitVec.ofNat 32 a) (BitVec.ofNat 32 b)) 0#32)
            (IntOp.cmpi .slt (BitVec.ofNat 32 b) 0#32))
          (IntOp.cmpi .ne (IntOp.remsi u (BitVec.ofNat 32 a) (BitVec.ofNat 32 b)) 0#32))
        (IntOp.addi (IntOp.remsi u (BitVec.ofNat 32 a) (BitVec.ofNat 32 b)) (BitVec.ofNat 32 b))
        (IntOp.remsi u (BitVec.ofNat 32 a) (BitVec.ofNat 32 b))
      = BitVec.ofNat 32 (a % b) := by
  have hr : a % b < 2 ^ 31 := lt_trans (Nat.mod_lt a hb0) hb
  rw [remsi_ofNat u ha hb0 hb, slt_zero_ofNat hr, slt_zero_ofNat hb]
  simp [Scalar.select, IntOp.andi, IntOp.cmpi]

/-! ## The three instances: floor division by 1024 and by 1, remainder by 1024 (divisor behind its guard) -/

/-- Floor division by 1024 of a numeral up to 2²⁰, on the host. -/
theorem fdiv1024 {n : ℕ} (hn : n ≤ 1048576) :
    Scalar.select
        (IntOp.andi (IntOp.cmpi .ne (sgn (BitVec.ofNat 32 n)) (sgn 1024#32))
          (IntOp.cmpi .ne (IntOp.remsi .host (BitVec.ofNat 32 n) 1024#32) 0#32))
        (IntOp.subi (IntOp.divsi .host (BitVec.ofNat 32 n) 1024#32) 1#32)
        (IntOp.divsi .host (BitVec.ofNat 32 n) 1024#32)
      = BitVec.ofNat 32 (n / 1024) :=
  floordiv_ofNat .host (by omega) (by omega) (by omega)

/-- Floor division by 1 of a numeral up to 2²⁰, on the host: the numeral. -/
theorem fdiv1 {n : ℕ} (hn : n ≤ 1048576) :
    Scalar.select
        (IntOp.andi (IntOp.cmpi .ne (sgn (BitVec.ofNat 32 n)) (sgn 1#32))
          (IntOp.cmpi .ne (IntOp.remsi .host (BitVec.ofNat 32 n) 1#32) 0#32))
        (IntOp.subi (IntOp.divsi .host (BitVec.ofNat 32 n) 1#32) 1#32)
        (IntOp.divsi .host (BitVec.ofNat 32 n) 1#32)
      = BitVec.ofNat 32 n := by
  have h := floordiv_ofNat .host (a := n) (b := 1) (by omega) (by omega) (by omega)
  rwa [Nat.div_one] at h

/-- Remainder by 1024 of a numeral up to 2²⁰, on the host, the divisor read behind its guard against zero. -/
theorem rem1024 {m : ℕ} (hm : m ≤ 1048576) :
    Scalar.select
        (IntOp.andi
          (IntOp.cmpi .ne
            (IntOp.cmpi .slt
              (IntOp.remsi .host (BitVec.ofNat 32 m) (Scalar.select (IntOp.cmpi .eq 1024#32 0#32) 1#32 1024#32)) 0#32)
            (IntOp.cmpi .slt (Scalar.select (IntOp.cmpi .eq 1024#32 0#32) 1#32 1024#32) 0#32))
          (IntOp.cmpi .ne
            (IntOp.remsi .host (BitVec.ofNat 32 m) (Scalar.select (IntOp.cmpi .eq 1024#32 0#32) 1#32 1024#32)) 0#32))
        (IntOp.addi
          (IntOp.remsi .host (BitVec.ofNat 32 m) (Scalar.select (IntOp.cmpi .eq 1024#32 0#32) 1#32 1024#32))
          (Scalar.select (IntOp.cmpi .eq 1024#32 0#32) 1#32 1024#32))
        (IntOp.remsi .host (BitVec.ofNat 32 m) (Scalar.select (IntOp.cmpi .eq 1024#32 0#32) 1#32 1024#32))
      = BitVec.ofNat 32 (m % 1024) := by
  rw [divisor_guard (b := 1024) (by omega) (by omega)]
  exact floormod_ofNat .host (by omega) (by omega) (by omega)

/-- The guarded divisor 1024 is 1024. -/
theorem guard1024 : Scalar.select (IntOp.cmpi .eq 1024#32 0#32) 1#32 1024#32 = 1024#32 :=
  divisor_guard (b := 1024) (by omega) (by omega)

end Cert.LibWord
-- ==== Proof.KerMath.lean ====
/-
  The arithmetic of one block of 2048 rows, on the extended reals, read at a row.

  Each row carries a bucket number below fifteen. A loop of fifteen trips adds, to an array that starts at zero, the
  trip's affine form of the row times the indicator "the row's bucket is this trip": zero times anything is zero and
  adding zero changes nothing, for every extended real, so after the fifteen trips the row holds exactly its own
  bucket's affine form, and nothing need be finite. This happens twice over ninety-seven features (eight outputs
  each), the two results are joined to sixteen numbers, squared and scaled, joined again to thirty-two, clipped to
  [0, 1] and floored to multiples of 1/127; a second such loop gives the sixty-four numbers of the next layer, clipped
  and floored the same way. The last layer forms all fifteen buckets' output numbers, multiplies by the one-hot row
  of the bucket and sums over the fifteen columns, which leaves the bucket's own; that is floored to a multiple of
  1/64. The result is the row function of the common specification at the row's features and its bucket's weights.
-/
import proofs.«422179_j46557445489276_3_alg».proof.Proof.Gen.KernelIdeal.Skeleton
import proofs.«422179_j46557445489276_3_alg».proof.Proof.Spec
import proofs.«422179_j46557445489276_3_alg».proof.Proof.LibKeepdims
import proofs.«422179_j46557445489276_3_alg».proof.Proof.LibWord
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MoE

open Cert.KernelIdeal Cert.KernelIdeal.Gen Idealize.ShloMosaic Idealize.ShloMosaic.ValueIdx

theorem trips1_eq : k0_t1_loop.trips = 15 := by decide
theorem trips2_eq : k0_t2_loop.trips = 15 := by decide

theorem iv_word (k : ℕ) : Scf.iv 0#32 1#32 k = BitVec.ofNat 32 k := by
  simp [Scf.iv]

theorem indicator_word {a b : ℕ} (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  rw [Cert.LibWord.eq_ofNat ha hb]
  by_cases h : a = b
  · rw [decide_eq_true h, if_pos h]
    show (((BitVec.setWidth 32 (BitVec.ofBool true)).toInt : ℝ) : EReal) = 1
    have : (BitVec.setWidth 32 (BitVec.ofBool true)).toInt = 1 := by decide
    rw [this]; simp
  · rw [decide_eq_false h, if_neg h]
    show (((BitVec.setWidth 32 (BitVec.ofBool false)).toInt : ℝ) : EReal) = 0
    have : (BitVec.setWidth 32 (BitVec.ofBool false)).toInt = 0 := by decide
    rw [this]; simp

theorem pay2_eq (x2 : Vec Ideal S2048x1 .i32) : k0_pay2 (F := Ideal) x2 = x2 := shapeCast_self x2 _

theorem mask1_apply (x2 : Vec Ideal S2048x1 .i32) (g : Fin 2048 → Fin 15)
    (hg : ∀ p : Fin 2048, x2 (ix2 p (0 : Fin 1)) = BitVec.ofNat 32 (g p).val) (k : Fin k0_t1_loop.trips) (p : Fin 2048) :
    k0_pay5 (F := Ideal) x2 k (ix2 p (0 : Fin 1)) = if (g p).val = k.val then (1 : EReal) else 0 := by
  unfold k0_pay5
  show FloatOps.sitofp (F := Ideal) .f32 ((IntOp.cmpi .eq (k0_pay2 (F := Ideal) x2 (ix2 p 0)) (Scf.iv 0#32 1#32 k.val)).setWidth 32) = _
  rw [pay2_eq, hg, iv_word]
  exact indicator_word (by have := (g p).isLt; omega) (by have := k.isLt; have := trips1_eq; omega)

theorem mm1_apply (lhs : FVec Ideal S2048x97 .bf16) (rhs : FVec Ideal S97x8 .bf16) (p : Fin 2048) (j : Fin 8) :
    matmul dot_S2048x97_S97x8_S2048x8_1_0_0_1_n_n none lhs rhs (constant (F := Ideal) S2048x8 .f32 0x00000000#32) (ix2 p j)
      = ∑ e : Fin 97, lhs (ix2 p e) * rhs (ix2 e j) :=
  Keepdims.matmul_zero_apply dot_S2048x97_S97x8_S2048x8_1_0_0_1_n_n rfl rfl (fun _ _ => rfl) (fun _ _ => rfl)
    (fun _ _ => rfl) (fun _ _ => rfl) none lhs rhs p j

/-- Accumulating, from zero, an indicator-weighted value once for each of `T` labels leaves the value of the one label
    whose indicator is 1: zero times anything is zero on the extended reals, and adding zero changes nothing. -/
theorem select_acc {T : ℕ} (a : ℕ → EReal) (v : Fin T → EReal) (gp : Fin T) (h0 : a 0 = 0)
    (hs : ∀ k : Fin T, a (k.val + 1) = a k.val + (if gp.val = k.val then (1 : EReal) else 0) * v k) :
    a T = v gp := by
  have key : ∀ n, n ≤ T → a n = if gp.val < n then v gp else 0 := by
    intro n
    induction n with
    | zero => intro _; rw [h0, if_neg (Nat.not_lt_zero _)]
    | succ n ih =>
      intro hn
      have hlt : n < T := hn
      rw [hs ⟨n, hlt⟩, ih (Nat.le_of_lt hlt)]
      show (if gp.val < n then v gp else 0) + (if gp.val = n then (1 : EReal) else 0) * v ⟨n, hlt⟩ = _
      rcases Nat.lt_trichotomy gp.val n with h | h | h
      · rw [if_pos h, if_neg (Nat.ne_of_lt h), if_pos (Nat.lt_succ_of_lt h), zero_mul, add_zero]
      · have e : (⟨n, hlt⟩ : Fin T) = gp := Fin.ext h.symm
        rw [if_neg (by omega), if_pos h, if_pos (by omega), one_mul, zero_add, e]
      · rw [if_neg (by omega), if_neg (by omega), if_neg (by omega), zero_mul, add_zero]
  rw [key T (Nat.le_refl T), if_pos gp.isLt]

/-- One trip of the first loop at row `p`, column `j`: the carried value plus the trip's indicator times the trip's affine form. -/
theorem trip1_apply (x0 : Vec Ideal S2048x97 .f32) (x2 : Vec Ideal S2048x1 .i32) (k : Fin k0_t1_loop.trips)
    (acc : FVec Ideal S2048x8 .f32) (A : Vec Ideal S1x8x97 .bf16) (B : Vec Ideal S1x8 .f32) (p : Fin 2048) (j : Fin 8) :
    k0_pay6 x0 x2 k acc A B (ix2 p j)
      = acc (ix2 p j) + k0_pay5 (F := Ideal) x2 k (ix2 p (0 : Fin 1))
          * ((∑ e : Fin 97, x0 (ix2 p e) * A (ix3 (0 : Fin 1) j e)) + B (ix2 (0 : Fin 1) j)) := by
  unfold k0_pay6
  simp only [addf_apply, mulf_apply]
  rw [Keepdims.broadcastTo_a1_ab_apply, mm1_apply, broadcastTo_1b_ab_apply, shapeCast_a_1a_apply, shapeCast_1a_a_apply]
  congr 2
  congr 1
  refine Finset.sum_congr rfl fun e _ => ?_
  rw [transpose_ix2_apply, shapeCast_1ab_ab_apply]
  rfl

theorem pay7_eq_pay6 (x1 : Vec Ideal S2048x97 .f32) (x2 : Vec Ideal S2048x1 .i32) (k : Fin k0_t1_loop.trips)
    (acc : FVec Ideal S2048x8 .f32) (A : Vec Ideal S1x8x97 .bf16) (B : Vec Ideal S1x8 .f32) :
    k0_pay7 x1 x2 k acc A B = k0_pay6 x1 x2 k acc A B := rfl

theorem pay3_apply (p : Fin 2048) (j : Fin 8) : k0_pay3 (F := Ideal) (ix2 p j) = 0 := Ideal.ofBits_zero_f32
theorem pay4_apply (p : Fin 2048) (j : Fin 8) : k0_pay4 (F := Ideal) (ix2 p j) = 0 := Ideal.ofBits_zero_f32
theorem pay8_apply (p : Fin 2048) (j : Fin 64) : k0_pay8 (F := Ideal) (ix2 p j) = 0 := Ideal.ofBits_zero_f32

/-- The first loop in closed form: an array carried from zero through all the trips holds, at row `p`, the affine
    form of the row's bucket. -/
theorem loop1_closed (xx : Vec Ideal S2048x97 .f32) (x2 : Vec Ideal S2048x1 .i32)
    (W : Vec Ideal S15x8x97 .bf16) (Bv : Vec Ideal S15x8 .f32)
    (a : ℕ → FVec Ideal S2048x8 .f32) (A : Fin k0_t1_loop.trips → Vec Ideal S1x8x97 .bf16)
    (B : Fin k0_t1_loop.trips → Vec Ideal S1x8 .f32)
    (ha0 : ∀ (p : Fin 2048) (j : Fin 8), a 0 (ix2 p j) = 0)
    (has : ∀ k : Fin k0_t1_loop.trips, a (k.val + 1) = k0_pay6 xx x2 k (a k.val) (A k) (B k))
    (hA : ∀ (k : Fin k0_t1_loop.trips) (j : Fin 8) (e : Fin 97),
      A k (ix3 (0 : Fin 1) j e) = W (ix3 (⟨k.val, Nat.lt_of_lt_of_le k.isLt k0_t1_abs.2.1⟩ : Fin 15) j e))
    (hB : ∀ (k : Fin k0_t1_loop.trips) (j : Fin 8),
      B k (ix2 (0 : Fin 1) j) = Bv (ix2 (⟨k.val, Nat.lt_of_lt_of_le k.isLt k0_t1_abs.2.1⟩ : Fin 15) j))
    (g : Fin 2048 → Fin 15) (hg : ∀ p : Fin 2048, x2 (ix2 p (0 : Fin 1)) = BitVec.ofNat 32 (g p).val)
    (p : Fin 2048) (j : Fin 8) :
    a k0_t1_loop.trips (ix2 p j)
      = Cert.Spec.lin (fun e => xx (ix2 p e)) (fun e => W (ix3 (g p) j e)) (Bv (ix2 (g p) j)) := by
  have hlt : (g p).val < k0_t1_loop.trips := by rw [trips1_eq]; exact (g p).isLt
  have h := select_acc (fun n => a n (ix2 p j))
    (fun k => (∑ e : Fin 97, xx (ix2 p e) * A k (ix3 (0 : Fin 1) j e)) + B k (ix2 (0 : Fin 1) j)) ⟨(g p).val, hlt⟩
    (ha0 p j) (fun k => by
      show a (k.val + 1) (ix2 p j) = _
      rw [has k, trip1_apply, mask1_apply x2 g hg k p])
  refine h.trans ?_
  unfold Cert.Spec.lin
  rw [hB]
  congr 1
  refine Finset.sum_congr rfl fun e _ => ?_
  rw [hA]

/-- Two arrays of the same rows joined along the columns, read at a column: the first below its width, else the second. -/
theorem concat_cols_apply {α : Type} {m n1 n2 N : ℕ} (a : (⟨2, ![m, n1]⟩ : Shape).Idx → α) (b : (⟨2, ![m, n2]⟩ : Shape).Idx → α)
    (h : Shape.Concatenates [(⟨2, ![m, n1]⟩ : Shape), (⟨2, ![m, n2]⟩ : Shape)] (⟨2, ![m, N]⟩ : Shape) 1) (hN : N = n1 + n2)
    (p : Fin m) (c : Fin N) :
    concatenate (⟨2, ![m, N]⟩ : Shape) 1 [⟨(⟨2, ![m, n1]⟩ : Shape), a⟩, ⟨(⟨2, ![m, n2]⟩ : Shape), b⟩] h (ix2 p c)
      = if hc : c.val < n1 then a (ix2 p ⟨c.val, hc⟩) else b (ix2 p ⟨c.val - n1, by have := c.isLt; omega⟩) := by
  split
  · next hc =>
    refine concatenate_pair_apply_left 1 a b h (ix2 p c) rfl (ix2 p ⟨c.val, hc⟩) fun ax => ?_
    match ax with
    | ⟨0, _⟩ => rfl
    | ⟨1, _⟩ => rfl
  · next hc =>
    refine concatenate_pair_apply_right 1 a b h (ix2 p c) rfl rfl (ix2 p ⟨c.val - n1, by have := c.isLt; omega⟩) (fun ax hne => ?_) ?_
    · match ax with
      | ⟨0, _⟩ => rfl
      | ⟨1, _⟩ => exact absurd rfl hne
    · show c.val - n1 + n1 = c.val
      omega

theorem mm2_apply (lhs : FVec Ideal S2048x32 .bf16) (rhs : FVec Ideal S32x64 .bf16) (p : Fin 2048) (j : Fin 64) :
    matmul dot_S2048x32_S32x64_S2048x64_1_0_0_1_n_n none lhs rhs (constant (F := Ideal) S2048x64 .f32 0x00000000#32) (ix2 p j)
      = ∑ e : Fin 32, lhs (ix2 p e) * rhs (ix2 e j) :=
  Keepdims.matmul_zero_apply dot_S2048x32_S32x64_S2048x64_1_0_0_1_n_n rfl rfl (fun _ _ => rfl) (fun _ _ => rfl)
    (fun _ _ => rfl) (fun _ _ => rfl) none lhs rhs p j

theorem mm3_apply (lhs : FVec Ideal S2048x64 .f32) (rhs : FVec Ideal S64x15 .f32) (p : Fin 2048) (c : Fin 15) :
    matmul dot_S2048x64_S64x15_S2048x15_1_0_0_1_n_n (some .fp32) lhs rhs (constant (F := Ideal) S2048x15 .f32 0x00000000#32) (ix2 p c)
      = ∑ e : Fin 64, lhs (ix2 p e) * rhs (ix2 e c) :=
  Keepdims.matmul_zero_apply dot_S2048x64_S64x15_S2048x15_1_0_0_1_n_n rfl rfl (fun _ _ => rfl) (fun _ _ => rfl)
    (fun _ _ => rfl) (fun _ _ => rfl) (some .fp32) lhs rhs p c

theorem floor_at {s : Shape} {φ : FTy} (x : FVec Ideal s φ) (i : s.Idx) : floor x i = Ideal.liftRound Int.floor (x i) := rfl

/-- The bucket test of a later trip, written in line: at row `p` it is 1 when the row's bucket is the trip's number. -/
theorem mask2_apply (x2 : Vec Ideal S2048x1 .i32) (g : Fin 2048 → Fin 15)
    (hg : ∀ p : Fin 2048, x2 (ix2 p (0 : Fin 1)) = BitVec.ofNat 32 (g p).val) (k : ℕ) (hk : k < 2 ^ 32) (p : Fin 2048) :
    sitofp (F := Ideal) .f32 (extui 32 (cmpi .eq (k0_pay2 (F := Ideal) x2) (broadcast S2048x1 (Scf.iv 0#32 1#32 k))) natLt_1_32)
        (ix2 p (0 : Fin 1))
      = if (g p).val = k then (1 : EReal) else 0 := by
  show FloatOps.sitofp (F := Ideal) .f32 ((IntOp.cmpi .eq (k0_pay2 (F := Ideal) x2 (ix2 p 0)) (Scf.iv 0#32 1#32 k)).setWidth 32) = _
  rw [pay2_eq, hg, iv_word]
  exact indicator_word (by have := (g p).isLt; omega) hk

/-- The sixteen numbers of a row: the two carried arrays side by side. -/
def joined (u0 u1 : FVec Ideal S2048x8 .f32) (p : Fin 2048) (c : Fin 16) : EReal :=
  if h : c.val < 8 then u0 (ix2 p ⟨c.val, h⟩) else u1 (ix2 p ⟨c.val - 8, by have := c.isLt; omega⟩)

/-- One trip of the second loop at row `p`, column `j`. -/
theorem trip2_apply (x2 : Vec Ideal S2048x1 .i32) (g : Fin 2048 → Fin 15)
    (hg : ∀ p : Fin 2048, x2 (ix2 p (0 : Fin 1)) = BitVec.ofNat 32 (g p).val)
    (u0 u1 : FVec Ideal S2048x8 .f32) (k : Fin k0_t2_loop.trips) (acc : FVec Ideal S2048x64 .f32)
    (A : Vec Ideal S1x64x32 .bf16) (B : Vec Ideal S1x64 .f32) (p : Fin 2048) (j : Fin 64) :
    k0_pay9 x2 u0 u1 k acc A B (ix2 p j)
      = acc (ix2 p j) + (if (g p).val = k.val then (1 : EReal) else 0)
          * ((∑ e : Fin 32, Cert.Spec.h1 (joined u0 u1 p) e * A (ix3 (0 : Fin 1) j e)) + B (ix2 (0 : Fin 1) j)) := by
  have hk : k.val < 2 ^ 32 := by have := k.isLt; have := trips2_eq; omega
  have hv : ∀ c : Fin 16, concatenate S2048x16 1 [⟨S2048x8, u0⟩, ⟨S2048x8, u1⟩] concatenates_S2048x8_S2048x8_S2048x16_d1 (ix2 p c)
      = joined u0 u1 p c := fun c => concat_cols_apply u0 u1 _ rfl p c
  unfold k0_pay9
  simp only [addf_apply, mulf_apply]
  rw [Keepdims.broadcastTo_a1_ab_apply, mm2_apply, broadcastTo_1b_ab_apply, shapeCast_a_1a_apply, shapeCast_1a_a_apply,
    mask2_apply x2 g hg k.val hk p]
  congr 2
  congr 1
  refine Finset.sum_congr rfl fun e _ => ?_
  rw [transpose_ix2_apply, shapeCast_1ab_ab_apply]
  congr 1
  simp only [truncf_apply, divf_apply, floor_at, mulf_apply, minimumf_apply, maximumf_apply, broadcast_apply]
  rw [concat_cols_apply (m := 2048) (n1 := 16) (n2 := 16) (N := 32) _ _ concatenates_S2048x16_S2048x16_S2048x32_d1 rfl p e]
  simp only [mulf_apply, broadcast_apply, hv]
  rfl

/-- The second loop in closed form: the array carried from zero through all the trips holds, at row `p`, the
    bucket's affine form of the row's thirty-two hidden numbers. -/
theorem loop2_closed (x2 : Vec Ideal S2048x1 .i32) (u0 u1 : FVec Ideal S2048x8 .f32)
    (W : Vec Ideal S15x64x32 .bf16) (Bv : Vec Ideal S15x64 .f32)
    (a : ℕ → FVec Ideal S2048x64 .f32) (A : Fin k0_t2_loop.trips → Vec Ideal S1x64x32 .bf16)
    (B : Fin k0_t2_loop.trips → Vec Ideal S1x64 .f32)
    (ha0 : ∀ (p : Fin 2048) (j : Fin 64), a 0 (ix2 p j) = 0)
    (has : ∀ k : Fin k0_t2_loop.trips, a (k.val + 1) = k0_pay9 x2 u0 u1 k (a k.val) (A k) (B k))
    (hA : ∀ (k : Fin k0_t2_loop.trips) (j : Fin 64) (e : Fin 32),
      A k (ix3 (0 : Fin 1) j e) = W (ix3 (⟨k.val, Nat.lt_of_lt_of_le k.isLt k0_t2_abs.2.1⟩ : Fin 15) j e))
    (hB : ∀ (k : Fin k0_t2_loop.trips) (j : Fin 64),
      B k (ix2 (0 : Fin 1) j) = Bv (ix2 (⟨k.val, Nat.lt_of_lt_of_le k.isLt k0_t2_abs.2.1⟩ : Fin 15) j))
    (g : Fin 2048 → Fin 15) (hg : ∀ p : Fin 2048, x2 (ix2 p (0 : Fin 1)) = BitVec.ofNat 32 (g p).val)
    (p : Fin 2048) (j : Fin 64) :
    a k0_t2_loop.trips (ix2 p j)
      = Cert.Spec.lin (Cert.Spec.h1 (joined u0 u1 p)) (fun e => W (ix3 (g p) j e)) (Bv (ix2 (g p) j)) := by
  have hlt : (g p).val < k0_t2_loop.trips := by rw [trips2_eq]; exact (g p).isLt
  have h := select_acc (fun n => a n (ix2 p j))
    (fun k => (∑ e : Fin 32, Cert.Spec.h1 (joined u0 u1 p) e * A k (ix3 (0 : Fin 1) j e)) + B k (ix2 (0 : Fin 1) j))
    ⟨(g p).val, hlt⟩ (ha0 p j) (fun k => by
      show a (k.val + 1) (ix2 p j) = _
      rw [has k, trip2_apply x2 g hg])
  refine h.trans ?_
  unfold Cert.Spec.lin
  rw [hB]
  congr 1
  refine Finset.sum_congr rfl fun e _ => ?_
  rw [hA]

/-- The one-hot row of the last layer: at `(p, c)` it is 1 when the row's bucket is `c`. -/
theorem mask3_apply (x2 : Vec Ideal S2048x1 .i32) (g : Fin 2048 → Fin 15)
    (hg : ∀ p : Fin 2048, x2 (ix2 p (0 : Fin 1)) = BitVec.ofNat 32 (g p).val) (p : Fin 2048) (c : Fin 15) :
    sitofp (F := Ideal) .f32 (extui 32 (cmpi .eq (broadcastTo S2048x15 (k0_pay2 (F := Ideal) x2) broadcasts_S2048x1_S2048x15)
        (iota .tc S2048x15 32 [1] iota_S2048x15_d1_w32)) natLt_1_32) (ix2 p c)
      = if (g p).val = c.val then (1 : EReal) else 0 := by
  show FloatOps.sitofp (F := Ideal) .f32 ((IntOp.cmpi .eq
      (broadcastTo S2048x15 (k0_pay2 (F := Ideal) x2) broadcasts_S2048x1_S2048x15 (ix2 p c))
      (iota .tc S2048x15 32 [1] iota_S2048x15_d1_w32 (ix2 p c))).setWidth 32) = _
  rw [Keepdims.broadcastTo_a1_ab_apply, pay2_eq, hg, iota_single_apply]
  show FloatOps.sitofp (F := Ideal) .f32 ((IntOp.cmpi .eq (BitVec.ofNat 32 (g p).val) (BitVec.ofNat 32 c.val)).setWidth 32) = _
  exact indicator_word (by have := (g p).isLt; omega) (by have := c.isLt; omega)

/-- The lane sum of the last layer from the zero word, at row `p`: the sum over the fifteen columns. -/
theorem lane_sum_apply (src : FVec Ideal S2048x15 .f32) (hφ : FKind.Formats .f32)
    (hacc : (0x00000000#32 : BitVec 32) = 0x00000000#32) (p : Fin 2048) :
    multiReduction (F := Ideal) .add [1] S2048 src 0x00000000#32 reduces_S2048x15_S2048 hφ hacc (ix1 p)
      = ∑ c : Fin 15, src (ix2 p c) :=
  Keepdims.multiReduction_add_rows src _ _ hφ hacc p

/-- The last layer at row `p`: the clipped and floored sixty-four numbers go through every bucket's output form, the
    one-hot row keeps the row's own bucket, and the result is floored to a multiple of 1/64. -/
theorem last_apply (x2 : Vec Ideal S2048x1 .i32) (g : Fin 2048 → Fin 15)
    (hg : ∀ p : Fin 2048, x2 (ix2 p (0 : Fin 1)) = BitVec.ofNat 32 (g p).val)
    (t : FVec Ideal S2048x64 .f32) (x9 : Vec Ideal S15x64 .f32) (x10 : Vec Ideal S15 .f32) (p : Fin 2048) :
    k0_pay1 (F := Ideal) (k0_pay2 x2) (k0_pay10 t) x9 x10 (ix2 p (0 : Fin 1))
      = Cert.Spec.fl Cert.Spec.c64 (Cert.Spec.lin (fun j => Cert.Spec.fl Cert.Spec.c127 (Cert.Spec.clip01 (t (ix2 p j))))
          (fun k => x9 (ix2 (g p) k)) (x10 (ix1 (g p)))) := by
  unfold k0_pay1
  simp only [divf_apply, floor_at, mulf_apply, broadcast_apply]
  rw [Keepdims.shapeCast_a_a1_apply]
  refine congrArg (fun z => Ideal.div (Ideal.liftRound Int.floor (z * Cert.Spec.c64)) Cert.Spec.c64) ?_
  refine (lane_sum_apply _ _ _ p).trans ?_
  rw [Finset.sum_eq_single (g p)]
  · simp only [mulf_apply, addf_apply]
    rw [mask3_apply x2 g hg p (g p), if_pos rfl, mul_one, mm3_apply, broadcastTo_1b_ab_apply, shapeCast_a_1a_apply]
    unfold Cert.Spec.lin
    congr 1
    · refine Finset.sum_congr rfl fun e _ => ?_
      rw [transpose_ix2_apply, shapeCast_self]
      rfl
    · rw [shapeCast_self]
  · intro c _ hne
    simp only [mulf_apply]
    rw [mask3_apply x2 g hg p c, if_neg (fun h => hne (Fin.ext h.symm)), mul_zero]
  · intro h
    exact absurd (Finset.mem_univ _) h

/-- THE BODY'S MATHEMATICS: what the block's row `p` ends holding is the row function of the common specification, at the
    row's two feature vectors and its bucket's blocks of the weight stacks. -/
theorem body_math (x0 x1 : Vec Ideal S2048x97 .f32) (x2 : Vec Ideal S2048x1 .i32) (x3 x5 : Vec Ideal S15x8x97 .bf16)
    (x4 x6 : Vec Ideal S15x8 .f32) (x7 : Vec Ideal S15x64x32 .bf16) (x8 x9 : Vec Ideal S15x64 .f32) (x10 : Vec Ideal S15 .f32)
    (S1 : ℕ → FVec Ideal S2048x8 .f32 × FVec Ideal S2048x8 .f32) (S2 : ℕ → FVec Ideal S2048x64 .f32)
    (A4 A6 : Fin k0_t1_loop.trips → Vec Ideal S1x8x97 .bf16) (A5 A7 : Fin k0_t1_loop.trips → Vec Ideal S1x8 .f32)
    (A8 : Fin k0_t2_loop.trips → Vec Ideal S1x64x32 .bf16) (A9 : Fin k0_t2_loop.trips → Vec Ideal S1x64 .f32)
    (h10 : S1 0 = (k0_pay3, k0_pay4))
    (h1s : ∀ k : Fin k0_t1_loop.trips, S1 (k.val + 1)
      = (k0_pay6 x0 x2 k (S1 k.val).1 (A4 k) (A5 k), k0_pay7 x1 x2 k (S1 k.val).2 (A6 k) (A7 k)))
    (h20 : S2 0 = k0_pay8)
    (h2s : ∀ k : Fin k0_t2_loop.trips, S2 (k.val + 1)
      = k0_pay9 x2 (S1 k0_t1_loop.trips).1 (S1 k0_t1_loop.trips).2 k (S2 k.val) (A8 k) (A9 k))
    (hA4 : ∀ (k : Fin k0_t1_loop.trips) (j : Fin 8) (e : Fin 97),
      A4 k (ix3 (0 : Fin 1) j e) = x3 (ix3 (⟨k.val, Nat.lt_of_lt_of_le k.isLt k0_t1_abs.2.1⟩ : Fin 15) j e))
    (hA6 : ∀ (k : Fin k0_t1_loop.trips) (j : Fin 8) (e : Fin 97),
      A6 k (ix3 (0 : Fin 1) j e) = x5 (ix3 (⟨k.val, Nat.lt_of_lt_of_le k.isLt k0_t1_abs.2.1⟩ : Fin 15) j e))
    (hA5 : ∀ (k : Fin k0_t1_loop.trips) (j : Fin 8),
      A5 k (ix2 (0 : Fin 1) j) = x4 (ix2 (⟨k.val, Nat.lt_of_lt_of_le k.isLt k0_t1_abs.2.1⟩ : Fin 15) j))
    (hA7 : ∀ (k : Fin k0_t1_loop.trips) (j : Fin 8),
      A7 k (ix2 (0 : Fin 1) j) = x6 (ix2 (⟨k.val, Nat.lt_of_lt_of_le k.isLt k0_t1_abs.2.1⟩ : Fin 15) j))
    (hA8 : ∀ (k : Fin k0_t2_loop.trips) (j : Fin 64) (e : Fin 32),
      A8 k (ix3 (0 : Fin 1) j e) = x7 (ix3 (⟨k.val, Nat.lt_of_lt_of_le k.isLt k0_t2_abs.2.1⟩ : Fin 15) j e))
    (hA9 : ∀ (k : Fin k0_t2_loop.trips) (j : Fin 64),
      A9 k (ix2 (0 : Fin 1) j) = x8 (ix2 (⟨k.val, Nat.lt_of_lt_of_le k.isLt k0_t2_abs.2.1⟩ : Fin 15) j))
    (g : Fin 2048 → Fin 15) (hg : ∀ p : Fin 2048, x2 (ix2 p (0 : Fin 1)) = BitVec.ofNat 32 (g p).val) (p : Fin 2048) :
    k0_pay1 (F := Ideal) (k0_pay2 x2) (k0_pay10 (S2 k0_t2_loop.trips)) x9 x10 (ix2 p (0 : Fin 1))
      = Cert.Spec.row (fun k => x0 (ix2 p k)) (fun k => x1 (ix2 p k))
          (fun j k => x3 (ix3 (g p) j k)) (fun j k => x5 (ix3 (g p) j k)) (fun j => x4 (ix2 (g p) j)) (fun j => x6 (ix2 (g p) j))
          (fun j k => x7 (ix3 (g p) j k)) (fun j => x8 (ix2 (g p) j)) (fun k => x9 (ix2 (g p) k)) (x10 (ix1 (g p))) := by
  have e1 : joined (S1 k0_t1_loop.trips).1 (S1 k0_t1_loop.trips).2 p
      = Cert.Spec.l1x (fun k => x0 (ix2 p k)) (fun k => x1 (ix2 p k))
          (fun j k => x3 (ix3 (g p) j k)) (fun j k => x5 (ix3 (g p) j k)) (fun j => x4 (ix2 (g p) j)) (fun j => x6 (ix2 (g p) j)) := by
    funext c
    unfold joined Cert.Spec.l1x
    by_cases hc : c.val < 8
    · rw [dif_pos hc, dif_pos hc]
      exact loop1_closed x0 x2 x3 x4 (fun n => (S1 n).1) A4 A5 (fun p j => by show (S1 0).1 (ix2 p j) = 0; rw [h10]; exact pay3_apply p j)
        (fun k => by show (S1 (k.val + 1)).1 = _; rw [h1s k]) hA4 hA5 g hg p ⟨c.val, hc⟩
    · rw [dif_neg hc, dif_neg hc]
      exact loop1_closed x1 x2 x5 x6 (fun n => (S1 n).2) A6 A7 (fun p j => by show (S1 0).2 (ix2 p j) = 0; rw [h10]; exact pay4_apply p j)
        (fun k => by show (S1 (k.val + 1)).2 = _; rw [h1s k]; exact pay7_eq_pay6 x1 x2 k _ _ _) hA6 hA7 g hg p ⟨c.val - 8, by have := c.isLt; omega⟩
  have e2 : ∀ j : Fin 64, S2 k0_t2_loop.trips (ix2 p j)
      = Cert.Spec.lin (Cert.Spec.h1 (joined (S1 k0_t1_loop.trips).1 (S1 k0_t1_loop.trips).2 p)) (fun e => x7 (ix3 (g p) j e)) (x8 (ix2 (g p) j)) :=
    fun j => loop2_closed x2 _ _ x7 x8 S2 A8 A9 (fun p j => by rw [h20]; exact pay8_apply p j) h2s hA8 hA9 g hg p j
  rw [last_apply x2 g hg _ x9 x10 p]
  unfold Cert.Spec.row
  congr 2
  funext j
  unfold Cert.Spec.h2
  rw [e2 j, e1]

end Cert.KernelIdeal.MoE

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«422179_j46557445489276_3_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«422179_j46557445489276_3_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.KerSteps.lean ====
import proofs.«422179_j46557445489276_3_alg».proof.Proof.Gen.KernelIdeal
import proofs.«422179_j46557445489276_3_alg».proof.Proof.LibSsaT
import Idealize.ShloMosaic.Lib.StableHlo.Run

set_option maxRecDepth 16384
-- one equation at a time: each walks the whole list, and elaborated side by side they hold many copies of it
set_option Elab.async false

noncomputable section

namespace Cert.KernelIdeal.MoE

open Cert.KernelIdeal Idealize.ShloMosaic Idealize.ShloMosaic.TcCoe Idealize.SL.Sem Idealize.ShloMosaic.StableHlo Cert.LibStretch Cert.LibSsa
open Cert.KernelIdeal.Facts₀ Cert.KernelIdeal.Facts

variable {F : FTy → Type} [FloatOps F]

/-- The host operations, in order (92). -/
abbrev ops : List (HloOp τ sig (Elt F)) :=
  [ StableHlo.nullary main_cst (constant S_ .f32 0x42800000#32),
    StableHlo.unary main_cst main_v0 (broadcastInDim S120x97 ![] bcast_S_S120x97 : (⟨S_, .f32⟩ : BufTy).Contents (Elt F) → (⟨S120x97, .f32⟩ : BufTy).Contents (Elt F)),
    StableHlo.binary main_arg3 main_v0 main_v1 (mulf : (⟨S120x97, .f32⟩ : BufTy).Contents (Elt F) → (⟨S120x97, .f32⟩ : BufTy).Contents (Elt F) → (⟨S120x97, .f32⟩ : BufTy).Contents (Elt F)),
    StableHlo.TRef.unary (StableHlo.TRef.of main_v1 : StableHlo.TRef sig ⟨S120x97, .f32⟩) main_call0.v0 Host.roundeven,
    StableHlo.nullary main_cst_0 (constant S_ .f32 0x42800000#32),
    StableHlo.unary main_cst_0 main_v3 (broadcastInDim S120x97 ![] bcast_S_S120x97 : (⟨S_, .f32⟩ : BufTy).Contents (Elt F) → (⟨S120x97, .f32⟩ : BufTy).Contents (Elt F)),
    StableHlo.binary main_v2 main_v3 main_v4 (Host.divf : (⟨S120x97, .f32⟩ : BufTy).Contents (Elt F) → (⟨S120x97, .f32⟩ : BufTy).Contents (Elt F) → (⟨S120x97, .f32⟩ : BufTy).Contents (Elt F)),
    StableHlo.unary main_v4 main_v5 ((truncf .bf16 · bitsLt_bf16_f32) : (⟨S120x97, .f32⟩ : BufTy).Contents (Elt F) → (⟨S120x97, .bf16⟩ : BufTy).Contents (Elt F)),
    StableHlo.reshape main_v5 main_v6 rfl shapeCasts_S120x97_S15x8x97,
    StableHlo.nullary main_cst_1 (constant S_ .f32 0x45FE0000#32),
    StableHlo.unary main_cst_1 main_v7 (broadcastInDim S120 ![] bcast_S_S120 : (⟨S_, .f32⟩ : BufTy).Contents (Elt F) → (⟨S120, .f32⟩ : BufTy).Contents (Elt F)),
    StableHlo.binary main_arg4 main_v7 main_v8 (mulf : (⟨S120, .f32⟩ : BufTy).Contents (Elt F) → (⟨S120, .f32⟩ : BufTy).Contents (Elt F) → (⟨S120, .f32⟩ : BufTy).Contents (Elt F)),
    StableHlo.TRef.unary (StableHlo.TRef.of main_v8 : StableHlo.TRef sig ⟨S120, .f32⟩) main_call1.v0 Host.roundeven,
    StableHlo.nullary main_cst_2 (constant S_ .f32 0x45FE0000#32),
    StableHlo.unary main_cst_2 main_v10 (broadcastInDim S120 ![] bcast_S_S120 : (⟨S_, .f32⟩ : BufTy).Contents (Elt F) → (⟨S120, .f32⟩ : BufTy).Contents (Elt F)),
    StableHlo.binary main_v9 main_v10 main_v11 (Host.divf : (⟨S120, .f32⟩ : BufTy).Contents (Elt F) → (⟨S120, .f32⟩ : BufTy).Contents (Elt F) → (⟨S120, .f32⟩ : BufTy).Contents (Elt F)),
    StableHlo.reshape main_v11 main_v12 rfl shapeCasts_S120_S15x8,
    StableHlo.nullary main_cst_3 (constant S_ .f32 0x42800000#32),
    StableHlo.unary main_cst_3 main_v13 (broadcastInDim S120x97 ![] bcast_S_S120x97 : (⟨S_, .f32⟩ : BufTy).Contents (Elt F) → (⟨S120x97, .f32⟩ : BufTy).Contents (Elt F)),
    StableHlo.binary main_arg5 main_v13 main_v14 (mulf : (⟨S120x97, .f32⟩ : BufTy).Contents (Elt F) → (⟨S120x97, .f32⟩ : BufTy).Contents (Elt F) → (⟨S120x97, .f32⟩ : BufTy).Contents (Elt F)),
    StableHlo.TRef.unary (StableHlo.TRef.of main_v14 : StableHlo.TRef sig ⟨S120x97, .f32⟩) main_call2.v0 Host.roundeven,
    StableHlo.nullary main_cst_4 (constant S_ .f32 0x42800000#32),
    StableHlo.unary main_cst_4 main_v16 (broadcastInDim S120x97 ![] bcast_S_S120x97 : (⟨S_, .f32⟩ : BufTy).Contents (Elt F) → (⟨S120x97, .f32⟩ : BufTy).Contents (Elt F)),
    StableHlo.binary main_v15 main_v16 main_v17 (Host.divf : (⟨S120x97, .f32⟩ : BufTy).Contents (Elt F) → (⟨S120x97, .f32⟩ : BufTy).Contents (Elt F) → (⟨S120x97, .f32⟩ : BufTy).Contents (Elt F)),
    StableHlo.unary main_v17 main_v18 ((truncf .bf16 · bitsLt_bf16_f32) : (⟨S120x97, .f32⟩ : BufTy).Contents (Elt F) → (⟨S120x97, .bf16⟩ : BufTy).Contents (Elt F)),
    StableHlo.reshape main_v18 main_v19 rfl shapeCasts_S120x97_S15x8x97,
    StableHlo.nullary main_cst_5 (constant S_ .f32 0x45FE0000#32),
    StableHlo.unary main_cst_5 main_v20 (broadcastInDim S120 ![] bcast_S_S120 : (⟨S_, .f32⟩ : BufTy).Contents (Elt F) → (⟨S120, .f32⟩ : BufTy).Contents (Elt F)),
    StableHlo.binary main_arg6 main_v20 main_v21 (mulf : (⟨S120, .f32⟩ : BufTy).Contents (Elt F) → (⟨S120, .f32⟩ : BufTy).Contents (Elt F) → (⟨S120, .f32⟩ : BufTy).Contents (Elt F)),
    StableHlo.TRef.unary (StableHlo.TRef.of main_v21 : StableHlo.TRef sig ⟨S120, .f32⟩) main_call3.v0 Host.roundeven,
    StableHlo.nullary main_cst_6 (constant S_ .f32 0x45FE0000#32),
    StableHlo.unary main_cst_6 main_v23 (broadcastInDim S120 ![] bcast_S_S120 : (⟨S_, .f32⟩ : BufTy).Contents (Elt F) → (⟨S120, .f32⟩ : BufTy).Contents (Elt F)),
    StableHlo.binary main_v22 main_v23 main_v24 (Host.divf : (⟨S120, .f32⟩ : BufTy).Contents (Elt F) → (⟨S120, .f32⟩ : BufTy).Contents (Elt F) → (⟨S120, .f32⟩ : BufTy).Contents (Elt F)),
    StableHlo.reshape main_v24 main_v25 rfl shapeCasts_S120_S15x8,
    StableHlo.nullary main_cst_7 (constant S_ .f32 0x42800000#32),
    StableHlo.unary main_cst_7 main_v26 (broadcastInDim S960x32 ![] bcast_S_S960x32 : (⟨S_, .f32⟩ : BufTy).Contents (Elt F) → (⟨S960x32, .f32⟩ : BufTy).Contents (Elt F)),
    StableHlo.binary main_arg7 main_v26 main_v27 (mulf : (⟨S960x32, .f32⟩ : BufTy).Contents (Elt F) → (⟨S960x32, .f32⟩ : BufTy).Contents (Elt F) → (⟨S960x32, .f32⟩ : BufTy).Contents (Elt F)),
    StableHlo.TRef.unary (StableHlo.TRef.of main_v27 : StableHlo.TRef sig ⟨S960x32, .f32⟩) main_call4.v0 Host.roundeven,
    StableHlo.nullary main_cst_8 (constant S_ .f32 0x42800000#32),
    StableHlo.unary main_cst_8 main_v29 (broadcastInDim S960x32 ![] bcast_S_S960x32 : (⟨S_, .f32⟩ : BufTy).Contents (Elt F) → (⟨S960x32, .f32⟩ : BufTy).Contents (Elt F)),
    StableHlo.binary main_v28 main_v29 main_v30 (Host.divf : (⟨S960x32, .f32⟩ : BufTy).Contents (Elt F) → (⟨S960x32, .f32⟩ : BufTy).Contents (Elt F) → (⟨S960x32, .f32⟩ : BufTy).Contents (Elt F)),
    StableHlo.unary main_v30 main_v31 ((truncf .bf16 · bitsLt_bf16_f32) : (⟨S960x32, .f32⟩ : BufTy).Contents (Elt F) → (⟨S960x32, .bf16⟩ : BufTy).Contents (Elt F)),
    StableHlo.reshape main_v31 main_v32 rfl shapeCasts_S960x32_S15x64x32,
    StableHlo.nullary main_cst_9 (constant S_ .f32 0x45FE0000#32),
    StableHlo.unary main_cst_9 main_v33 (broadcastInDim S960 ![] bcast_S_S960 : (⟨S_, .f32⟩ : BufTy).Contents (Elt F) → (⟨S960, .f32⟩ : BufTy).Contents (Elt F)),
    StableHlo.binary main_arg8 main_v33 main_v34 (mulf : (⟨S960, .f32⟩ : BufTy).Contents (Elt F) → (⟨S960, .f32⟩ : BufTy).Contents (Elt F) → (⟨S960, .f32⟩ : BufTy).Contents (Elt F)),
    StableHlo.TRef.unary (StableHlo.TRef.of main_v34 : StableHlo.TRef sig ⟨S960, .f32⟩) main_call5.v0 Host.roundeven,
    StableHlo.nullary main_cst_10 (constant S_ .f32 0x45FE0000#32),
    StableHlo.unary main_cst_10 main_v36 (broadcastInDim S960 ![] bcast_S_S960 : (⟨S_, .f32⟩ : BufTy).Contents (Elt F) → (⟨S960, .f32⟩ : BufTy).Contents (Elt F)),
    StableHlo.binary main_v35 main_v36 main_v37 (Host.divf : (⟨S960, .f32⟩ : BufTy).Contents (Elt F) → (⟨S960, .f32⟩ : BufTy).Contents (Elt F) → (⟨S960, .f32⟩ : BufTy).Contents (Elt F)),
    StableHlo.reshape main_v37 main_v38 rfl shapeCasts_S960_S15x64,
    StableHlo.nullary main_cst_11 (constant S_ .f32 0x41010204#32),
    StableHlo.unary main_cst_11 main_v39 (broadcastInDim S15x64 ![] bcast_S_S15x64 : (⟨S_, .f32⟩ : BufTy).Contents (Elt F) → (⟨S15x64, .f32⟩ : BufTy).Contents (Elt F)),
    StableHlo.binary main_arg9 main_v39 main_v40 (mulf : (⟨S15x64, .f32⟩ : BufTy).Contents (Elt F) → (⟨S15x64, .f32⟩ : BufTy).Contents (Elt F) → (⟨S15x64, .f32⟩ : BufTy).Contents (Elt F)),
    StableHlo.TRef.unary (StableHlo.TRef.of main_v40 : StableHlo.TRef sig ⟨S15x64, .f32⟩) main_call6.v0 Host.roundeven,
    StableHlo.nullary main_cst_12 (constant S_ .f32 0x41010204#32),
    StableHlo.unary main_cst_12 main_v42 (broadcastInDim S15x64 ![] bcast_S_S15x64 : (⟨S_, .f32⟩ : BufTy).Contents (Elt F) → (⟨S15x64, .f32⟩ : BufTy).Contents (Elt F)),
    StableHlo.binary main_v41 main_v42 main_v43 (Host.divf : (⟨S15x64, .f32⟩ : BufTy).Contents (Elt F) → (⟨S15x64, .f32⟩ : BufTy).Contents (Elt F) → (⟨S15x64, .f32⟩ : BufTy).Contents (Elt F)),
    StableHlo.nullary main_cst_13 (constant S_ .f32 0x44800000#32),
    StableHlo.unary main_cst_13 main_v44 (broadcastInDim S15 ![] bcast_S_S15 : (⟨S_, .f32⟩ : BufTy).Contents (Elt F) → (⟨S15, .f32⟩ : BufTy).Contents (Elt F)),
    StableHlo.binary main_arg10 main_v44 main_v45 (mulf : (⟨S15, .f32⟩ : BufTy).Contents (Elt F) → (⟨S15, .f32⟩ : BufTy).Contents (Elt F) → (⟨S15, .f32⟩ : BufTy).Contents (Elt F)),
    StableHlo.TRef.unary (StableHlo.TRef.of main_v45 : StableHlo.TRef sig ⟨S15, .f32⟩) main_call7.v0 Host.roundeven,
    StableHlo.nullary main_cst_14 (constant S_ .f32 0x44800000#32),
    StableHlo.unary main_cst_14 main_v47 (broadcastInDim S15 ![] bcast_S_S15 : (⟨S_, .f32⟩ : BufTy).Contents (Elt F) → (⟨S15, .f32⟩ : BufTy).Contents (Elt F)),
    StableHlo.binary main_v46 main_v47 main_v48 (Host.divf : (⟨S15, .f32⟩ : BufTy).Contents (Elt F) → (⟨S15, .f32⟩ : BufTy).Contents (Elt F) → (⟨S15, .f32⟩ : BufTy).Contents (Elt F)),
    StableHlo.nullary main_c (constantI S_ 32 4#32),
    StableHlo.TRef.unary (StableHlo.TRef.of main_c : StableHlo.TRef sig ⟨S_, .i32⟩) main_call8.v0 id,
    StableHlo.TRef.unary main_call8.v0 main_call8.v1 (broadcastInDim S131072 ![] bcast_S_S131072),
    StableHlo.TRef.binary (StableHlo.TRef.of main_arg2 : StableHlo.TRef sig ⟨S131072, .i32⟩) main_call8.v1 main_call8.v2 Host.divsi,
    StableHlo.TRef.unary (StableHlo.TRef.of main_arg2 : StableHlo.TRef sig ⟨S131072, .i32⟩) main_call8.v3 signi,
    StableHlo.TRef.unary main_call8.v0 main_call8.v4 signi,
    StableHlo.TRef.unary main_call8.v4 main_call8.v5 (broadcastInDim S131072 ![] bcast_S_S131072),
    StableHlo.TRef.binary main_call8.v3 main_call8.v5 main_call8.v6 (cmpi .ne),
    StableHlo.TRef.unary main_call8.v0 main_call8.v7 (broadcastInDim S131072 ![] bcast_S_S131072),
    StableHlo.TRef.binary (StableHlo.TRef.of main_arg2 : StableHlo.TRef sig ⟨S131072, .i32⟩) main_call8.v7 main_call8.v8 Host.remsi,
    StableHlo.TRef.nullary main_call8.c (constantI S_ 32 0#32),
    StableHlo.TRef.unary main_call8.c main_call8.v9 (broadcastInDim S131072 ![] bcast_S_S131072),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S131072 ![] bcast_S_S131072),
    StableHlo.TRef.binary main_call8.v2 main_call8.v12 main_call8.v13 subi,
    StableHlo.TRef.ternary main_call8.v11 main_call8.v13 main_call8.v2 main_call8_call0.v0 select,
    StableHlo.nullary main_c_15 (constantI S_ 32 0#32),
    StableHlo.nullary main_c_16 (constantI S_ 32 14#32),
    StableHlo.TRef.unary (StableHlo.TRef.of main_c_15 : StableHlo.TRef sig ⟨S_, .i32⟩) main_call9.v0 id,
    StableHlo.TRef.unary main_call9.v0 main_call9.v1 (broadcastInDim S131072 ![] bcast_S_S131072),
    StableHlo.TRef.binary main_call9.v1 (StableHlo.TRef.of main_v49 : StableHlo.TRef sig ⟨S131072, .i32⟩) main_call9.v2 maxsi,
    StableHlo.TRef.unary (StableHlo.TRef.of main_c_16 : StableHlo.TRef sig ⟨S_, .i32⟩) main_call9.v3 id,
    StableHlo.TRef.unary main_call9.v3 main_call9.v4 (broadcastInDim S131072 ![] bcast_S_S131072),
    StableHlo.TRef.binary main_call9.v4 main_call9.v2 main_call9.v5 minsi,
    StableHlo.reshape main_v50 main_v51 rfl shapeCasts_S131072_S131072x1 ]

/-- The references they write, in order. -/
abbrev ys : List (Ref sig .tc) :=
  [ main_cst, main_v0, main_v1, main_v2, main_cst_0, main_v3, main_v4, main_v5, main_v6, main_cst_1, main_v7, main_v8, main_v9, main_cst_2, main_v10, main_v11, main_v12, main_cst_3, main_v13, main_v14, main_v15, main_cst_4, main_v16, main_v17, main_v18, main_v19, main_cst_5, main_v20, main_v21, main_v22, main_cst_6, main_v23, main_v24, main_v25, main_cst_7, main_v26, main_v27, main_v28, main_cst_8, main_v29, main_v30, main_v31, main_v32, main_cst_9, main_v33, main_v34, main_v35, main_cst_10, main_v36, main_v37, main_v38, main_cst_11, main_v39, main_v40, main_v41, main_cst_12, main_v42, main_v43, main_cst_13, main_v44, main_v45, main_v46, main_cst_14, main_v47, main_v48, main_c, main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v49, main_c_15, main_c_16, main_call9_v0, main_call9_v1, main_call9_v2, main_call9_v3, main_call9_v4, main_v50, main_v51 ]

theorem writesAre : WritesAre (ops (F := F)) ys := by writes_are

/-- A buffer's contents after the whole line. -/
abbrev val (V : Valuation τ sig (Elt F)) (r : Ref sig .tc) := after (ops (F := F)) V (Proc.devRef .tc r)

-- the equations below compare contents as named: the fold over the line is never opened
attribute [local irreducible] Idealize.ShloMosaic.StableHlo.after

theorem at_main_cst (V : Valuation τ sig (Elt F)) : val V main_cst = (constant S_ .f32 0x42800000#32) :=
  (at_nullary writesAre 0 V _ _ rfl (by decide +kernel)).trans rfl
theorem at_main_v0 (V : Valuation τ sig (Elt F)) : val V main_v0 = (broadcastInDim S120x97 ![] bcast_S_S120x97 : (⟨S_, .f32⟩ : BufTy).Contents (Elt F) → (⟨S120x97, .f32⟩ : BufTy).Contents (Elt F)) (val V main_cst) :=
  (at_unary writesAre 1 V _ _ _ rfl (by decide +kernel) (by decide +kernel)).trans rfl
theorem at_main_v1 (V : Valuation τ sig (Elt F)) : val V main_v1 = (mulf : (⟨S120x97, .f32⟩ : BufTy).Contents (Elt F) → (⟨S120x97, .f32⟩ : BufTy).Contents (Elt F) → (⟨S120x97, .f32⟩ : BufTy).Contents (Elt F)) (val V main_arg3) (val V main_v0) :=
  (at_binary writesAre 2 V _ _ _ _ rfl (by decide +kernel) (by decide +kernel) (by decide +kernel)).trans rfl
theorem at_main_v2 (V : Valuation τ sig (Elt F)) : val V main_v2 = (Host.roundeven : (⟨S120x97, .f32⟩ : BufTy).Contents (Elt F) → (⟨S120x97, .f32⟩ : BufTy).Contents (Elt F)) (val V main_v1) :=
  at_tunary writesAre 3 V (StableHlo.TRef.of main_v1 : StableHlo.TRef sig ⟨S120x97, .f32⟩) main_call0.v0 Host.roundeven rfl (by decide +kernel) (by decide +kernel)
theorem at_main_cst_0 (V : Valuation τ sig (Elt F)) : val V main_cst_0 = (constant S_ .f32 0x42800000#32) :=
  (at_nullary writesAre 4 V _ _ rfl (by decide +kernel)).trans rfl
theorem at_main_v3 (V : Valuation τ sig (Elt F)) : val V main_v3 = (broadcastInDim S120x97 ![] bcast_S_S120x97 : (⟨S_, .f32⟩ : BufTy).Contents (Elt F) → (⟨S120x97, .f32⟩ : BufTy).Contents (Elt F)) (val V main_cst_0) :=
  (at_unary writesAre 5 V _ _ _ rfl (by decide +kernel) (by decide +kernel)).trans rfl
theorem at_main_v4 (V : Valuation τ sig (Elt F)) : val V main_v4 = (Host.divf : (⟨S120x97, .f32⟩ : BufTy).Contents (Elt F) → (⟨S120x97, .f32⟩ : BufTy).Contents (Elt F) → (⟨S120x97, .f32⟩ : BufTy).Contents (Elt F)) (val V main_v2) (val V main_v3) :=
  (at_binary writesAre 6 V _ _ _ _ rfl (by decide +kernel) (by decide +kernel) (by decide +kernel)).trans rfl
theorem at_main_v5 (V : Valuation τ sig (Elt F)) : val V main_v5 = ((truncf .bf16 · bitsLt_bf16_f32) : (⟨S120x97, .f32⟩ : BufTy).Contents (Elt F) → (⟨S120x97, .bf16⟩ : BufTy).Contents (Elt F)) (val V main_v4) :=
  (at_unary writesAre 7 V _ _ _ rfl (by decide +kernel) (by decide +kernel)).trans rfl
theorem at_main_v6 (V : Valuation τ sig (Elt F)) : val V main_v6 = shapeCast S15x8x97 (val V main_v5) shapeCasts_S120x97_S15x8x97 :=
  (at_reshape writesAre 8 V _ _ _ _ rfl (by decide +kernel) (by decide +kernel)).trans rfl
theorem at_main_cst_1 (V : Valuation τ sig (Elt F)) : val V main_cst_1 = (constant S_ .f32 0x45FE0000#32) :=
  (at_nullary writesAre 9 V _ _ rfl (by decide +kernel)).trans rfl
theorem at_main_v7 (V : Valuation τ sig (Elt F)) : val V main_v7 = (broadcastInDim S120 ![] bcast_S_S120 : (⟨S_, .f32⟩ : BufTy).Contents (Elt F) → (⟨S120, .f32⟩ : BufTy).Contents (Elt F)) (val V main_cst_1) :=
  (at_unary writesAre 10 V _ _ _ rfl (by decide +kernel) (by decide +kernel)).trans rfl
theorem at_main_v8 (V : Valuation τ sig (Elt F)) : val V main_v8 = (mulf : (⟨S120, .f32⟩ : BufTy).Contents (Elt F) → (⟨S120, .f32⟩ : BufTy).Contents (Elt F) → (⟨S120, .f32⟩ : BufTy).Contents (Elt F)) (val V main_arg4) (val V main_v7) :=
  (at_binary writesAre 11 V _ _ _ _ rfl (by decide +kernel) (by decide +kernel) (by decide +kernel)).trans rfl
theorem at_main_v9 (V : Valuation τ sig (Elt F)) : val V main_v9 = (Host.roundeven : (⟨S120, .f32⟩ : BufTy).Contents (Elt F) → (⟨S120, .f32⟩ : BufTy).Contents (Elt F)) (val V main_v8) :=
  at_tunary writesAre 12 V (StableHlo.TRef.of main_v8 : StableHlo.TRef sig ⟨S120, .f32⟩) main_call1.v0 Host.roundeven rfl (by decide +kernel) (by decide +kernel)
theorem at_main_cst_2 (V : Valuation τ sig (Elt F)) : val V main_cst_2 = (constant S_ .f32 0x45FE0000#32) :=
  (at_nullary writesAre 13 V _ _ rfl (by decide +kernel)).trans rfl
theorem at_main_v10 (V : Valuation τ sig (Elt F)) : val V main_v10 = (broadcastInDim S120 ![] bcast_S_S120 : (⟨S_, .f32⟩ : BufTy).Contents (Elt F) → (⟨S120, .f32⟩ : BufTy).Contents (Elt F)) (val V main_cst_2) :=
  (at_unary writesAre 14 V _ _ _ rfl (by decide +kernel) (by decide +kernel)).trans rfl
theorem at_main_v11 (V : Valuation τ sig (Elt F)) : val V main_v11 = (Host.divf : (⟨S120, .f32⟩ : BufTy).Contents (Elt F) → (⟨S120, .f32⟩ : BufTy).Contents (Elt F) → (⟨S120, .f32⟩ : BufTy).Contents (Elt F)) (val V main_v9) (val V main_v10) :=
  (at_binary writesAre 15 V _ _ _ _ rfl (by decide +kernel) (by decide +kernel) (by decide +kernel)).trans rfl
theorem at_main_v12 (V : Valuation τ sig (Elt F)) : val V main_v12 = shapeCast S15x8 (val V main_v11) shapeCasts_S120_S15x8 :=
  (at_reshape writesAre 16 V _ _ _ _ rfl (by decide +kernel) (by decide +kernel)).trans rfl
theorem at_main_cst_3 (V : Valuation τ sig (Elt F)) : val V main_cst_3 = (constant S_ .f32 0x42800000#32) :=
  (at_nullary writesAre 17 V _ _ rfl (by decide +kernel)).trans rfl
theorem at_main_v13 (V : Valuation τ sig (Elt F)) : val V main_v13 = (broadcastInDim S120x97 ![] bcast_S_S120x97 : (⟨S_, .f32⟩ : BufTy).Contents (Elt F) → (⟨S120x97, .f32⟩ : BufTy).Contents (Elt F)) (val V main_cst_3) :=
  (at_unary writesAre 18 V _ _ _ rfl (by decide +kernel) (by decide +kernel)).trans rfl
theorem at_main_v14 (V : Valuation τ sig (Elt F)) : val V main_v14 = (mulf : (⟨S120x97, .f32⟩ : BufTy).Contents (Elt F) → (⟨S120x97, .f32⟩ : BufTy).Contents (Elt F) → (⟨S120x97, .f32⟩ : BufTy).Contents (Elt F)) (val V main_arg5) (val V main_v13) :=
  (at_binary writesAre 19 V _ _ _ _ rfl (by decide +kernel) (by decide +kernel) (by decide +kernel)).trans rfl
theorem at_main_v15 (V : Valuation τ sig (Elt F)) : val V main_v15 = (Host.roundeven : (⟨S120x97, .f32⟩ : BufTy).Contents (Elt F) → (⟨S120x97, .f32⟩ : BufTy).Contents (Elt F)) (val V main_v14) :=
  at_tunary writesAre 20 V (StableHlo.TRef.of main_v14 : StableHlo.TRef sig ⟨S120x97, .f32⟩) main_call2.v0 Host.roundeven rfl (by decide +kernel) (by decide +kernel)
theorem at_main_cst_4 (V : Valuation τ sig (Elt F)) : val V main_cst_4 = (constant S_ .f32 0x42800000#32) :=
  (at_nullary writesAre 21 V _ _ rfl (by decide +kernel)).trans rfl
theorem at_main_v16 (V : Valuation τ sig (Elt F)) : val V main_v16 = (broadcastInDim S120x97 ![] bcast_S_S120x97 : (⟨S_, .f32⟩ : BufTy).Contents (Elt F) → (⟨S120x97, .f32⟩ : BufTy).Contents (Elt F)) (val V main_cst_4) :=
  (at_unary writesAre 22 V _ _ _ rfl (by decide +kernel) (by decide +kernel)).trans rfl
theorem at_main_v17 (V : Valuation τ sig (Elt F)) : val V main_v17 = (Host.divf : (⟨S120x97, .f32⟩ : BufTy).Contents (Elt F) → (⟨S120x97, .f32⟩ : BufTy).Contents (Elt F) → (⟨S120x97, .f32⟩ : BufTy).Contents (Elt F)) (val V main_v15) (val V main_v16) :=
  (at_binary writesAre 23 V _ _ _ _ rfl (by decide +kernel) (by decide +kernel) (by decide +kernel)).trans rfl
theorem at_main_v18 (V : Valuation τ sig (Elt F)) : val V main_v18 = ((truncf .bf16 · bitsLt_bf16_f32) : (⟨S120x97, .f32⟩ : BufTy).Contents (Elt F) → (⟨S120x97, .bf16⟩ : BufTy).Contents (Elt F)) (val V main_v17) :=
  (at_unary writesAre 24 V _ _ _ rfl (by decide +kernel) (by decide +kernel)).trans rfl
theorem at_main_v19 (V : Valuation τ sig (Elt F)) : val V main_v19 = shapeCast S15x8x97 (val V main_v18) shapeCasts_S120x97_S15x8x97 :=
  (at_reshape writesAre 25 V _ _ _ _ rfl (by decide +kernel) (by decide +kernel)).trans rfl
theorem at_main_cst_5 (V : Valuation τ sig (Elt F)) : val V main_cst_5 = (constant S_ .f32 0x45FE0000#32) :=
  (at_nullary writesAre 26 V _ _ rfl (by decide +kernel)).trans rfl
theorem at_main_v20 (V : Valuation τ sig (Elt F)) : val V main_v20 = (broadcastInDim S120 ![] bcast_S_S120 : (⟨S_, .f32⟩ : BufTy).Contents (Elt F) → (⟨S120, .f32⟩ : BufTy).Contents (Elt F)) (val V main_cst_5) :=
  (at_unary writesAre 27 V _ _ _ rfl (by decide +kernel) (by decide +kernel)).trans rfl
theorem at_main_v21 (V : Valuation τ sig (Elt F)) : val V main_v21 = (mulf : (⟨S120, .f32⟩ : BufTy).Contents (Elt F) → (⟨S120, .f32⟩ : BufTy).Contents (Elt F) → (⟨S120, .f32⟩ : BufTy).Contents (Elt F)) (val V main_arg6) (val V main_v20) :=
  (at_binary writesAre 28 V _ _ _ _ rfl (by decide +kernel) (by decide +kernel) (by decide +kernel)).trans rfl
theorem at_main_v22 (V : Valuation τ sig (Elt F)) : val V main_v22 = (Host.roundeven : (⟨S120, .f32⟩ : BufTy).Contents (Elt F) → (⟨S120, .f32⟩ : BufTy).Contents (Elt F)) (val V main_v21) :=
  at_tunary writesAre 29 V (StableHlo.TRef.of main_v21 : StableHlo.TRef sig ⟨S120, .f32⟩) main_call3.v0 Host.roundeven rfl (by decide +kernel) (by decide +kernel)
theorem at_main_cst_6 (V : Valuation τ sig (Elt F)) : val V main_cst_6 = (constant S_ .f32 0x45FE0000#32) :=
  (at_nullary writesAre 30 V _ _ rfl (by decide +kernel)).trans rfl
theorem at_main_v23 (V : Valuation τ sig (Elt F)) : val V main_v23 = (broadcastInDim S120 ![] bcast_S_S120 : (⟨S_, .f32⟩ : BufTy).Contents (Elt F) → (⟨S120, .f32⟩ : BufTy).Contents (Elt F)) (val V main_cst_6) :=
  (at_unary writesAre 31 V _ _ _ rfl (by decide +kernel) (by decide +kernel)).trans rfl
theorem at_main_v24 (V : Valuation τ sig (Elt F)) : val V main_v24 = (Host.divf : (⟨S120, .f32⟩ : BufTy).Contents (Elt F) → (⟨S120, .f32⟩ : BufTy).Contents (Elt F) → (⟨S120, .f32⟩ : BufTy).Contents (Elt F)) (val V main_v22) (val V main_v23) :=
  (at_binary writesAre 32 V _ _ _ _ rfl (by decide +kernel) (by decide +kernel) (by decide +kernel)).trans rfl
theorem at_main_v25 (V : Valuation τ sig (Elt F)) : val V main_v25 = shapeCast S15x8 (val V main_v24) shapeCasts_S120_S15x8 :=
  (at_reshape writesAre 33 V _ _ _ _ rfl (by decide +kernel) (by decide +kernel)).trans rfl
theorem at_main_cst_7 (V : Valuation τ sig (Elt F)) : val V main_cst_7 = (constant S_ .f32 0x42800000#32) :=
  (at_nullary writesAre 34 V _ _ rfl (by decide +kernel)).trans rfl
theorem at_main_v26 (V : Valuation τ sig (Elt F)) : val V main_v26 = (broadcastInDim S960x32 ![] bcast_S_S960x32 : (⟨S_, .f32⟩ : BufTy).Contents (Elt F) → (⟨S960x32, .f32⟩ : BufTy).Contents (Elt F)) (val V main_cst_7) :=
  (at_unary writesAre 35 V _ _ _ rfl (by decide +kernel) (by decide +kernel)).trans rfl
theorem at_main_v27 (V : Valuation τ sig (Elt F)) : val V main_v27 = (mulf : (⟨S960x32, .f32⟩ : BufTy).Contents (Elt F) → (⟨S960x32, .f32⟩ : BufTy).Contents (Elt F) → (⟨S960x32, .f32⟩ : BufTy).Contents (Elt F)) (val V main_arg7) (val V main_v26) :=
  (at_binary writesAre 36 V _ _ _ _ rfl (by decide +kernel) (by decide +kernel) (by decide +kernel)).trans rfl
theorem at_main_v28 (V : Valuation τ sig (Elt F)) : val V main_v28 = (Host.roundeven : (⟨S960x32, .f32⟩ : BufTy).Contents (Elt F) → (⟨S960x32, .f32⟩ : BufTy).Contents (Elt F)) (val V main_v27) :=
  at_tunary writesAre 37 V (StableHlo.TRef.of main_v27 : StableHlo.TRef sig ⟨S960x32, .f32⟩) main_call4.v0 Host.roundeven rfl (by decide +kernel) (by decide +kernel)
theorem at_main_cst_8 (V : Valuation τ sig (Elt F)) : val V main_cst_8 = (constant S_ .f32 0x42800000#32) :=
  (at_nullary writesAre 38 V _ _ rfl (by decide +kernel)).trans rfl
theorem at_main_v29 (V : Valuation τ sig (Elt F)) : val V main_v29 = (broadcastInDim S960x32 ![] bcast_S_S960x32 : (⟨S_, .f32⟩ : BufTy).Contents (Elt F) → (⟨S960x32, .f32⟩ : BufTy).Contents (Elt F)) (val V main_cst_8) :=
  (at_unary writesAre 39 V _ _ _ rfl (by decide +kernel) (by decide +kernel)).trans rfl
theorem at_main_v30 (V : Valuation τ sig (Elt F)) : val V main_v30 = (Host.divf : (⟨S960x32, .f32⟩ : BufTy).Contents (Elt F) → (⟨S960x32, .f32⟩ : BufTy).Contents (Elt F) → (⟨S960x32, .f32⟩ : BufTy).Contents (Elt F)) (val V main_v28) (val V main_v29) :=
  (at_binary writesAre 40 V _ _ _ _ rfl (by decide +kernel) (by decide +kernel) (by decide +kernel)).trans rfl
theorem at_main_v31 (V : Valuation τ sig (Elt F)) : val V main_v31 = ((truncf .bf16 · bitsLt_bf16_f32) : (⟨S960x32, .f32⟩ : BufTy).Contents (Elt F) → (⟨S960x32, .bf16⟩ : BufTy).Contents (Elt F)) (val V main_v30) :=
  (at_unary writesAre 41 V _ _ _ rfl (by decide +kernel) (by decide +kernel)).trans rfl
theorem at_main_v32 (V : Valuation τ sig (Elt F)) : val V main_v32 = shapeCast S15x64x32 (val V main_v31) shapeCasts_S960x32_S15x64x32 :=
  (at_reshape writesAre 42 V _ _ _ _ rfl (by decide +kernel) (by decide +kernel)).trans rfl
theorem at_main_cst_9 (V : Valuation τ sig (Elt F)) : val V main_cst_9 = (constant S_ .f32 0x45FE0000#32) :=
  (at_nullary writesAre 43 V _ _ rfl (by decide +kernel)).trans rfl
theorem at_main_v33 (V : Valuation τ sig (Elt F)) : val V main_v33 = (broadcastInDim S960 ![] bcast_S_S960 : (⟨S_, .f32⟩ : BufTy).Contents (Elt F) → (⟨S960, .f32⟩ : BufTy).Contents (Elt F)) (val V main_cst_9) :=
  (at_unary writesAre 44 V _ _ _ rfl (by decide +kernel) (by decide +kernel)).trans rfl
theorem at_main_v34 (V : Valuation τ sig (Elt F)) : val V main_v34 = (mulf : (⟨S960, .f32⟩ : BufTy).Contents (Elt F) → (⟨S960, .f32⟩ : BufTy).Contents (Elt F) → (⟨S960, .f32⟩ : BufTy).Contents (Elt F)) (val V main_arg8) (val V main_v33) :=
  (at_binary writesAre 45 V _ _ _ _ rfl (by decide +kernel) (by decide +kernel) (by decide +kernel)).trans rfl
theorem at_main_v35 (V : Valuation τ sig (Elt F)) : val V main_v35 = (Host.roundeven : (⟨S960, .f32⟩ : BufTy).Contents (Elt F) → (⟨S960, .f32⟩ : BufTy).Contents (Elt F)) (val V main_v34) :=
  at_tunary writesAre 46 V (StableHlo.TRef.of main_v34 : StableHlo.TRef sig ⟨S960, .f32⟩) main_call5.v0 Host.roundeven rfl (by decide +kernel) (by decide +kernel)
theorem at_main_cst_10 (V : Valuation τ sig (Elt F)) : val V main_cst_10 = (constant S_ .f32 0x45FE0000#32) :=
  (at_nullary writesAre 47 V _ _ rfl (by decide +kernel)).trans rfl
theorem at_main_v36 (V : Valuation τ sig (Elt F)) : val V main_v36 = (broadcastInDim S960 ![] bcast_S_S960 : (⟨S_, .f32⟩ : BufTy).Contents (Elt F) → (⟨S960, .f32⟩ : BufTy).Contents (Elt F)) (val V main_cst_10) :=
  (at_unary writesAre 48 V _ _ _ rfl (by decide +kernel) (by decide +kernel)).trans rfl
theorem at_main_v37 (V : Valuation τ sig (Elt F)) : val V main_v37 = (Host.divf : (⟨S960, .f32⟩ : BufTy).Contents (Elt F) → (⟨S960, .f32⟩ : BufTy).Contents (Elt F) → (⟨S960, .f32⟩ : BufTy).Contents (Elt F)) (val V main_v35) (val V main_v36) :=
  (at_binary writesAre 49 V _ _ _ _ rfl (by decide +kernel) (by decide +kernel) (by decide +kernel)).trans rfl
theorem at_main_v38 (V : Valuation τ sig (Elt F)) : val V main_v38 = shapeCast S15x64 (val V main_v37) shapeCasts_S960_S15x64 :=
  (at_reshape writesAre 50 V _ _ _ _ rfl (by decide +kernel) (by decide +kernel)).trans rfl
theorem at_main_cst_11 (V : Valuation τ sig (Elt F)) : val V main_cst_11 = (constant S_ .f32 0x41010204#32) :=
  (at_nullary writesAre 51 V _ _ rfl (by decide +kernel)).trans rfl
theorem at_main_v39 (V : Valuation τ sig (Elt F)) : val V main_v39 = (broadcastInDim S15x64 ![] bcast_S_S15x64 : (⟨S_, .f32⟩ : BufTy).Contents (Elt F) → (⟨S15x64, .f32⟩ : BufTy).Contents (Elt F)) (val V main_cst_11) :=
  (at_unary writesAre 52 V _ _ _ rfl (by decide +kernel) (by decide +kernel)).trans rfl
theorem at_main_v40 (V : Valuation τ sig (Elt F)) : val V main_v40 = (mulf : (⟨S15x64, .f32⟩ : BufTy).Contents (Elt F) → (⟨S15x64, .f32⟩ : BufTy).Contents (Elt F) → (⟨S15x64, .f32⟩ : BufTy).Contents (Elt F)) (val V main_arg9) (val V main_v39) :=
  (at_binary writesAre 53 V _ _ _ _ rfl (by decide +kernel) (by decide +kernel) (by decide +kernel)).trans rfl
theorem at_main_v41 (V : Valuation τ sig (Elt F)) : val V main_v41 = (Host.roundeven : (⟨S15x64, .f32⟩ : BufTy).Contents (Elt F) → (⟨S15x64, .f32⟩ : BufTy).Contents (Elt F)) (val V main_v40) :=
  at_tunary writesAre 54 V (StableHlo.TRef.of main_v40 : StableHlo.TRef sig ⟨S15x64, .f32⟩) main_call6.v0 Host.roundeven rfl (by decide +kernel) (by decide +kernel)
theorem at_main_cst_12 (V : Valuation τ sig (Elt F)) : val V main_cst_12 = (constant S_ .f32 0x41010204#32) :=
  (at_nullary writesAre 55 V _ _ rfl (by decide +kernel)).trans rfl
theorem at_main_v42 (V : Valuation τ sig (Elt F)) : val V main_v42 = (broadcastInDim S15x64 ![] bcast_S_S15x64 : (⟨S_, .f32⟩ : BufTy).Contents (Elt F) → (⟨S15x64, .f32⟩ : BufTy).Contents (Elt F)) (val V main_cst_12) :=
  (at_unary writesAre 56 V _ _ _ rfl (by decide +kernel) (by decide +kernel)).trans rfl
theorem at_main_v43 (V : Valuation τ sig (Elt F)) : val V main_v43 = (Host.divf : (⟨S15x64, .f32⟩ : BufTy).Contents (Elt F) → (⟨S15x64, .f32⟩ : BufTy).Contents (Elt F) → (⟨S15x64, .f32⟩ : BufTy).Contents (Elt F)) (val V main_v41) (val V main_v42) :=
  (at_binary writesAre 57 V _ _ _ _ rfl (by decide +kernel) (by decide +kernel) (by decide +kernel)).trans rfl
theorem at_main_cst_13 (V : Valuation τ sig (Elt F)) : val V main_cst_13 = (constant S_ .f32 0x44800000#32) :=
  (at_nullary writesAre 58 V _ _ rfl (by decide +kernel)).trans rfl
theorem at_main_v44 (V : Valuation τ sig (Elt F)) : val V main_v44 = (broadcastInDim S15 ![] bcast_S_S15 : (⟨S_, .f32⟩ : BufTy).Contents (Elt F) → (⟨S15, .f32⟩ : BufTy).Contents (Elt F)) (val V main_cst_13) :=
  (at_unary writesAre 59 V _ _ _ rfl (by decide +kernel) (by decide +kernel)).trans rfl
theorem at_main_v45 (V : Valuation τ sig (Elt F)) : val V main_v45 = (mulf : (⟨S15, .f32⟩ : BufTy).Contents (Elt F) → (⟨S15, .f32⟩ : BufTy).Contents (Elt F) → (⟨S15, .f32⟩ : BufTy).Contents (Elt F)) (val V main_arg10) (val V main_v44) :=
  (at_binary writesAre 60 V _ _ _ _ rfl (by decide +kernel) (by decide +kernel) (by decide +kernel)).trans rfl
theorem at_main_v46 (V : Valuation τ sig (Elt F)) : val V main_v46 = (Host.roundeven : (⟨S15, .f32⟩ : BufTy).Contents (Elt F) → (⟨S15, .f32⟩ : BufTy).Contents (Elt F)) (val V main_v45) :=
  at_tunary writesAre 61 V (StableHlo.TRef.of main_v45 : StableHlo.TRef sig ⟨S15, .f32⟩) main_call7.v0 Host.roundeven rfl (by decide +kernel) (by decide +kernel)
theorem at_main_cst_14 (V : Valuation τ sig (Elt F)) : val V main_cst_14 = (constant S_ .f32 0x44800000#32) :=
  (at_nullary writesAre 62 V _ _ rfl (by decide +kernel)).trans rfl
theorem at_main_v47 (V : Valuation τ sig (Elt F)) : val V main_v47 = (broadcastInDim S15 ![] bcast_S_S15 : (⟨S_, .f32⟩ : BufTy).Contents (Elt F) → (⟨S15, .f32⟩ : BufTy).Contents (Elt F)) (val V main_cst_14) :=
  (at_unary writesAre 63 V _ _ _ rfl (by decide +kernel) (by decide +kernel)).trans rfl
theorem at_main_v48 (V : Valuation τ sig (Elt F)) : val V main_v48 = (Host.divf : (⟨S15, .f32⟩ : BufTy).Contents (Elt F) → (⟨S15, .f32⟩ : BufTy).Contents (Elt F) → (⟨S15, .f32⟩ : BufTy).Contents (Elt F)) (val V main_v46) (val V main_v47) :=
  (at_binary writesAre 64 V _ _ _ _ rfl (by decide +kernel) (by decide +kernel) (by decide +kernel)).trans rfl
theorem at_main_c (V : Valuation τ sig (Elt F)) : val V main_c = (constantI S_ 32 4#32) :=
  (at_nullary writesAre 65 V _ _ rfl (by decide +kernel)).trans rfl
theorem at_main_call8_v0 (V : Valuation τ sig (Elt F)) : val V main_call8_v0 = (id : (⟨S_, .i32⟩ : BufTy).Contents (Elt F) → (⟨S_, .i32⟩ : BufTy).Contents (Elt F)) (val V main_c) :=
  at_tunary writesAre 66 V (StableHlo.TRef.of main_c : StableHlo.TRef sig ⟨S_, .i32⟩) main_call8.v0 id rfl (by decide +kernel) (by decide +kernel)
theorem at_main_call8_v1 (V : Valuation τ sig (Elt F)) : val V main_call8_v1 = ((broadcastInDim S131072 ![] bcast_S_S131072) : (⟨S_, .i32⟩ : BufTy).Contents (Elt F) → (⟨S131072, .i32⟩ : BufTy).Contents (Elt F)) (val V main_call8_v0) :=
  at_tunary writesAre 67 V main_call8.v0 main_call8.v1 (broadcastInDim S131072 ![] bcast_S_S131072) rfl (by decide +kernel) (by decide +kernel)
theorem at_main_call8_v2 (V : Valuation τ sig (Elt F)) : val V main_call8_v2 = (Host.divsi : (⟨S131072, .i32⟩ : BufTy).Contents (Elt F) → (⟨S131072, .i32⟩ : BufTy).Contents (Elt F) → (⟨S131072, .i32⟩ : BufTy).Contents (Elt F)) (val V main_arg2) (val V main_call8_v1) :=
  at_tbinary writesAre 68 V (StableHlo.TRef.of main_arg2 : StableHlo.TRef sig ⟨S131072, .i32⟩) main_call8.v1 main_call8.v2 Host.divsi rfl (by decide +kernel) (by decide +kernel) (by decide +kernel)
theorem at_main_call8_v3 (V : Valuation τ sig (Elt F)) : val V main_call8_v3 = (signi : (⟨S131072, .i32⟩ : BufTy).Contents (Elt F) → (⟨S131072, .i32⟩ : BufTy).Contents (Elt F)) (val V main_arg2) :=
  at_tunary writesAre 69 V (StableHlo.TRef.of main_arg2 : StableHlo.TRef sig ⟨S131072, .i32⟩) main_call8.v3 signi rfl (by decide +kernel) (by decide +kernel)
theorem at_main_call8_v4 (V : Valuation τ sig (Elt F)) : val V main_call8_v4 = (signi : (⟨S_, .i32⟩ : BufTy).Contents (Elt F) → (⟨S_, .i32⟩ : BufTy).Contents (Elt F)) (val V main_call8_v0) :=
  at_tunary writesAre 70 V main_call8.v0 main_call8.v4 signi rfl (by decide +kernel) (by decide +kernel)
theorem at_main_call8_v5 (V : Valuation τ sig (Elt F)) : val V main_call8_v5 = ((broadcastInDim S131072 ![] bcast_S_S131072) : (⟨S_, .i32⟩ : BufTy).Contents (Elt F) → (⟨S131072, .i32⟩ : BufTy).Contents (Elt F)) (val V main_call8_v4) :=
  at_tunary writesAre 71 V main_call8.v4 main_call8.v5 (broadcastInDim S131072 ![] bcast_S_S131072) rfl (by decide +kernel) (by decide +kernel)
theorem at_main_call8_v6 (V : Valuation τ sig (Elt F)) : val V main_call8_v6 = ((cmpi .ne) : (⟨S131072, .i32⟩ : BufTy).Contents (Elt F) → (⟨S131072, .i32⟩ : BufTy).Contents (Elt F) → (⟨S131072, .i1⟩ : BufTy).Contents (Elt F)) (val V main_call8_v3) (val V main_call8_v5) :=
  at_tbinary writesAre 72 V main_call8.v3 main_call8.v5 main_call8.v6 (cmpi .ne) rfl (by decide +kernel) (by decide +kernel) (by decide +kernel)
theorem at_main_call8_v7 (V : Valuation τ sig (Elt F)) : val V main_call8_v7 = ((broadcastInDim S131072 ![] bcast_S_S131072) : (⟨S_, .i32⟩ : BufTy).Contents (Elt F) → (⟨S131072, .i32⟩ : BufTy).Contents (Elt F)) (val V main_call8_v0) :=
  at_tunary writesAre 73 V main_call8.v0 main_call8.v7 (broadcastInDim S131072 ![] bcast_S_S131072) rfl (by decide +kernel) (by decide +kernel)
theorem at_main_call8_v8 (V : Valuation τ sig (Elt F)) : val V main_call8_v8 = (Host.remsi : (⟨S131072, .i32⟩ : BufTy).Contents (Elt F) → (⟨S131072, .i32⟩ : BufTy).Contents (Elt F) → (⟨S131072, .i32⟩ : BufTy).Contents (Elt F)) (val V main_arg2) (val V main_call8_v7) :=
  at_tbinary writesAre 74 V (StableHlo.TRef.of main_arg2 : StableHlo.TRef sig ⟨S131072, .i32⟩) main_call8.v7 main_call8.v8 Host.remsi rfl (by decide +kernel) (by decide +kernel) (by decide +kernel)
theorem at_main_call8_c (V : Valuation τ sig (Elt F)) : val V main_call8_c = ((constantI S_ 32 0#32) : (⟨S_, .i32⟩ : BufTy).Contents (Elt F)) :=
  at_tnullary writesAre 75 V main_call8.c (constantI S_ 32 0#32) rfl (by decide +kernel)
theorem at_main_call8_v9 (V : Valuation τ sig (Elt F)) : val V main_call8_v9 = ((broadcastInDim S131072 ![] bcast_S_S131072) : (⟨S_, .i32⟩ : BufTy).Contents (Elt F) → (⟨S131072, .i32⟩ : BufTy).Contents (Elt F)) (val V main_call8_c) :=
  at_tunary writesAre 76 V main_call8.c main_call8.v9 (broadcastInDim S131072 ![] bcast_S_S131072) rfl (by decide +kernel) (by decide +kernel)
theorem at_main_call8_v10 (V : Valuation τ sig (Elt F)) : val V main_call8_v10 = ((cmpi .ne) : (⟨S131072, .i32⟩ : BufTy).Contents (Elt F) → (⟨S131072, .i32⟩ : BufTy).Contents (Elt F) → (⟨S131072, .i1⟩ : BufTy).Contents (Elt F)) (val V main_call8_v8) (val V main_call8_v9) :=
  at_tbinary writesAre 77 V main_call8.v8 main_call8.v9 main_call8.v10 (cmpi .ne) rfl (by decide +kernel) (by decide +kernel) (by decide +kernel)
theorem at_main_call8_v11 (V : Valuation τ sig (Elt F)) : val V main_call8_v11 = (andi : (⟨S131072, .i1⟩ : BufTy).Contents (Elt F) → (⟨S131072, .i1⟩ : BufTy).Contents (Elt F) → (⟨S131072, .i1⟩ : BufTy).Contents (Elt F)) (val V main_call8_v6) (val V main_call8_v10) :=
  at_tbinary writesAre 78 V main_call8.v6 main_call8.v10 main_call8.v11 andi rfl (by decide +kernel) (by decide +kernel) (by decide +kernel)
theorem at_main_call8_c_0 (V : Valuation τ sig (Elt F)) : val V main_call8_c_0 = ((constantI S_ 32 1#32) : (⟨S_, .i32⟩ : BufTy).Contents (Elt F)) :=
  at_tnullary writesAre 79 V main_call8.c_0 (constantI S_ 32 1#32) rfl (by decide +kernel)
theorem at_main_call8_v12 (V : Valuation τ sig (Elt F)) : val V main_call8_v12 = ((broadcastInDim S131072 ![] bcast_S_S131072) : (⟨S_, .i32⟩ : BufTy).Contents (Elt F) → (⟨S131072, .i32⟩ : BufTy).Contents (Elt F)) (val V main_call8_c_0) :=
  at_tunary writesAre 80 V main_call8.c_0 main_call8.v12 (broadcastInDim S131072 ![] bcast_S_S131072) rfl (by decide +kernel) (by decide +kernel)
theorem at_main_call8_v13 (V : Valuation τ sig (Elt F)) : val V main_call8_v13 = (subi : (⟨S131072, .i32⟩ : BufTy).Contents (Elt F) → (⟨S131072, .i32⟩ : BufTy).Contents (Elt F) → (⟨S131072, .i32⟩ : BufTy).Contents (Elt F)) (val V main_call8_v2) (val V main_call8_v12) :=
  at_tbinary writesAre 81 V main_call8.v2 main_call8.v12 main_call8.v13 subi rfl (by decide +kernel) (by decide +kernel) (by decide +kernel)
theorem at_main_v49 (V : Valuation τ sig (Elt F)) : val V main_v49 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_call8_v11) (val V main_call8_v13) (val V main_call8_v2) :=
  at_tternary writesAre 82 V main_call8.v11 main_call8.v13 main_call8.v2 main_call8_call0.v0 select rfl (by decide +kernel) (by decide +kernel) (by decide +kernel) (by decide +kernel)
theorem at_main_c_15 (V : Valuation τ sig (Elt F)) : val V main_c_15 = (constantI S_ 32 0#32) :=
  (at_nullary writesAre 83 V _ _ rfl (by decide +kernel)).trans rfl
theorem at_main_c_16 (V : Valuation τ sig (Elt F)) : val V main_c_16 = (constantI S_ 32 14#32) :=
  (at_nullary writesAre 84 V _ _ rfl (by decide +kernel)).trans rfl
theorem at_main_call9_v0 (V : Valuation τ sig (Elt F)) : val V main_call9_v0 = (id : (⟨S_, .i32⟩ : BufTy).Contents (Elt F) → (⟨S_, .i32⟩ : BufTy).Contents (Elt F)) (val V main_c_15) :=
  at_tunary writesAre 85 V (StableHlo.TRef.of main_c_15 : StableHlo.TRef sig ⟨S_, .i32⟩) main_call9.v0 id rfl (by decide +kernel) (by decide +kernel)
theorem at_main_call9_v1 (V : Valuation τ sig (Elt F)) : val V main_call9_v1 = ((broadcastInDim S131072 ![] bcast_S_S131072) : (⟨S_, .i32⟩ : BufTy).Contents (Elt F) → (⟨S131072, .i32⟩ : BufTy).Contents (Elt F)) (val V main_call9_v0) :=
  at_tunary writesAre 86 V main_call9.v0 main_call9.v1 (broadcastInDim S131072 ![] bcast_S_S131072) rfl (by decide +kernel) (by decide +kernel)
theorem at_main_call9_v2 (V : Valuation τ sig (Elt F)) : val V main_call9_v2 = (maxsi : (⟨S131072, .i32⟩ : BufTy).Contents (Elt F) → (⟨S131072, .i32⟩ : BufTy).Contents (Elt F) → (⟨S131072, .i32⟩ : BufTy).Contents (Elt F)) (val V main_call9_v1) (val V main_v49) :=
  at_tbinary writesAre 87 V main_call9.v1 (StableHlo.TRef.of main_v49 : StableHlo.TRef sig ⟨S131072, .i32⟩) main_call9.v2 maxsi rfl (by decide +kernel) (by decide +kernel) (by decide +kernel)
theorem at_main_call9_v3 (V : Valuation τ sig (Elt F)) : val V main_call9_v3 = (id : (⟨S_, .i32⟩ : BufTy).Contents (Elt F) → (⟨S_, .i32⟩ : BufTy).Contents (Elt F)) (val V main_c_16) :=
  at_tunary writesAre 88 V (StableHlo.TRef.of main_c_16 : StableHlo.TRef sig ⟨S_, .i32⟩) main_call9.v3 id rfl (by decide +kernel) (by decide +kernel)
theorem at_main_call9_v4 (V : Valuation τ sig (Elt F)) : val V main_call9_v4 = ((broadcastInDim S131072 ![] bcast_S_S131072) : (⟨S_, .i32⟩ : BufTy).Contents (Elt F) → (⟨S131072, .i32⟩ : BufTy).Contents (Elt F)) (val V main_call9_v3) :=
  at_tunary writesAre 89 V main_call9.v3 main_call9.v4 (broadcastInDim S131072 ![] bcast_S_S131072) rfl (by decide +kernel) (by decide +kernel)
theorem at_main_v50 (V : Valuation τ sig (Elt F)) : val V main_v50 = (minsi : (⟨S131072, .i32⟩ : BufTy).Contents (Elt F) → (⟨S131072, .i32⟩ : BufTy).Contents (Elt F) → (⟨S131072, .i32⟩ : BufTy).Contents (Elt F)) (val V main_call9_v4) (val V main_call9_v2) :=
  at_tbinary writesAre 90 V main_call9.v4 main_call9.v2 main_call9.v5 minsi rfl (by decide +kernel) (by decide +kernel) (by decide +kernel)
theorem at_main_v51 (V : Valuation τ sig (Elt F)) : val V main_v51 = shapeCast S131072x1 (val V main_v50) shapeCasts_S131072_S131072x1 :=
  (at_reshape writesAre 91 V _ _ _ _ rfl (by decide +kernel) (by decide +kernel)).trans rfl

end Cert.KernelIdeal.MoE

end
-- ==== Proof.KerHost.lean ====
/-
  The arrays the kernel's launch finds: what the host operations before the launch leave in the buffers the launch's
  operand windows stage.

  Before the launch each weight array w is rounded to its grid, x ↦ round-half-even(x · s) / s (s = 64 for the three
  matrices, 8128 for their biases, 1024/127 as a 32-bit float rounds it for the last layer's weights, 1024 for its
  bias), and the arrays that hold one block per bucket are read as stacks of fifteen blocks; each row's ply word is
  floor-divided by four and kept between 0 and 14, and the words are laid out as one column. Every one of these steps
  acts on one element or moves elements without changing them, so each staged array is, index by index, a function of
  one element of one argument array: the rounded weight at the block's row-major position, or the quarter of the ply.
-/
import proofs.«422179_j46557445489276_3_alg».proof.Proof.KerSteps
import proofs.«422179_j46557445489276_3_alg».proof.Proof.Gen.KernelIdeal.Frame
import proofs.«422179_j46557445489276_3_alg».proof.Proof.Spec
import proofs.«422179_j46557445489276_3_alg».proof.Proof.LibWord
import Idealize.ShloMosaic.Lib.ValueIdx
import Idealize.ShloMosaic.Lib.ValueLayout
import Idealize.ShloMosaic.Lib.Pipeline.Value

set_option maxRecDepth 65536

noncomputable section

namespace Cert.KernelIdeal.MoE

open Cert.KernelIdeal Cert.KernelIdeal.Gen Idealize.ShloMosaic Idealize.ShloMosaic.ValueIdx Idealize.ShloMosaic.StableHlo
open Idealize.ShloMosaic.TcCoe
open Cert.KernelIdeal.Facts₀ Cert.KernelIdeal.Facts

/-! ## Reading the layout changes at an index -/

/-- A matrix with N rows read as a stack of A blocks of B rows: entry (g, j, k) of the stack is entry (g·B + j, k) of the
    matrix, the two having the same row-major position. -/
theorem cast3 {α : Type} {N A B C : ℕ} (x : (⟨2, ![N, C]⟩ : Shape).Idx → α)
    (h : (⟨2, ![N, C]⟩ : Shape).ShapeCasts ⟨3, ![A, B, C]⟩) (g : Fin A) (j : Fin B) (k : Fin C)
    (hlt : g.val * B + j.val < N) :
    shapeCast ⟨3, ![A, B, C]⟩ x h (ix3 g j k) = x (ix2 ⟨g.val * B + j.val, hlt⟩ k) :=
  shapeCast_apply x h _ _ (by
    rw [Shape.rowMajor_val_two, Shape.rowMajor_val_three]
    show (g.val * B + j.val) * C + k.val = (g.val * B + j.val) * C + k.val
    rfl)

/-- A vector of N entries read as A rows of B: entry (g, j) is entry g·B + j of the vector. -/
theorem cast2 {α : Type} {N A B : ℕ} (x : (⟨1, ![N]⟩ : Shape).Idx → α)
    (h : (⟨1, ![N]⟩ : Shape).ShapeCasts ⟨2, ![A, B]⟩) (g : Fin A) (j : Fin B) (hlt : g.val * B + j.val < N) :
    shapeCast ⟨2, ![A, B]⟩ x h (ix2 g j) = x (ix1 ⟨g.val * B + j.val, hlt⟩) :=
  shapeCast_apply x h _ _ (by
    rw [Shape.rowMajor_val_one, Shape.rowMajor_val_two]
    show g.val * B + j.val = g.val * B + j.val
    rfl)

/-- A vector read as a one-column matrix: entry (r, 0) is entry r of the vector. -/
theorem castCol {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    rw [Shape.rowMajor_val_one, Shape.rowMajor_val_two]
    show r.val = r.val * 1 + u.val
    omega)

/-! ## Rounding to a grid, element by element

  Each weight array w is replaced by round-half-even(w · s) / s, the scale s a constant spread over the array's shape.
  At exact arithmetic every step acts on one element, and a change of float format changes nothing. -/

/-- The rounded array at an index: the element, rounded to the grid of step 1/s. -/
theorem rq_at {s : Shape} (h : (⟨0, ![]⟩ : Shape).BroadcastsInDim s ![]) (b : BitVec 32)
    (x : FVec Ideal s .f32) (i : s.Idx) :
    Host.divf (Host.roundeven (mulf x (broadcastInDim s ![] h (constant (F := Ideal) ⟨0, ![]⟩ .f32 b))))
      (broadcastInDim s ![] h (constant (F := Ideal) ⟨0, ![]⟩ .f32 b)) i
      = Cert.Spec.rq (Ideal.ofBits .f32 b) (x i) := rfl

/-- The rounded matrix, narrowed in format and read as a stack of blocks, at (g, j, k). -/
theorem rq3_at {N A B C : ℕ} (hb : (⟨0, ![]⟩ : Shape).BroadcastsInDim ⟨2, ![N, C]⟩ ![])
    (hc : (⟨2, ![N, C]⟩ : Shape).ShapeCasts ⟨3, ![A, B, C]⟩) (hw : FTy.bits .bf16 < FTy.bits .f32) (b : BitVec 32)
    (x : FVec Ideal ⟨2, ![N, C]⟩ .f32) (g : Fin A) (j : Fin B) (k : Fin C) (hlt : g.val * B + j.val < N) :
    shapeCast ⟨3, ![A, B, C]⟩
        ((truncf .bf16 · hw)
          (Host.divf (Host.roundeven (mulf x (broadcastInDim ⟨2, ![N, C]⟩ ![] hb (constant (F := Ideal) ⟨0, ![]⟩ .f32 b))))
            (broadcastInDim ⟨2, ![N, C]⟩ ![] hb (constant (F := Ideal) ⟨0, ![]⟩ .f32 b))))
        hc (ix3 g j k)
      = Cert.Spec.rq (Ideal.ofBits .f32 b) (x (ix2 ⟨g.val * B + j.val, hlt⟩ k)) :=
  (cast3 _ hc g j k hlt).trans rfl

/-- The rounded vector read as rows of B, at (g, j). -/
theorem rq2_at {N A B : ℕ} (hb : (⟨0, ![]⟩ : Shape).BroadcastsInDim ⟨1, ![N]⟩ ![])
    (hc : (⟨1, ![N]⟩ : Shape).ShapeCasts ⟨2, ![A, B]⟩) (b : BitVec 32)
    (x : FVec Ideal ⟨1, ![N]⟩ .f32) (g : Fin A) (j : Fin B) (hlt : g.val * B + j.val < N) :
    shapeCast ⟨2, ![A, B]⟩
        (Host.divf (Host.roundeven (mulf x (broadcastInDim ⟨1, ![N]⟩ ![] hb (constant (F := Ideal) ⟨0, ![]⟩ .f32 b))))
          (broadcastInDim ⟨1, ![N]⟩ ![] hb (constant (F := Ideal) ⟨0, ![]⟩ .f32 b)))
        hc (ix2 g j)
      = Cert.Spec.rq (Ideal.ofBits .f32 b) (x (ix1 ⟨g.val * B + j.val, hlt⟩)) :=
  (cast2 _ hc g j hlt).trans rfl

/-! ## The bucket word

  A row's bucket is its ply word floor-divided by four, then kept between 0 and 14. Floor division is spelled over the
  signed quotient and remainder: the quotient, less one when the signs of dividend and divisor differ and the remainder
  is not zero. On the numeral of n < 60 the quotient is the numeral of n / 4 ≤ 14, which both bounds leave alone. -/

/-- The signed minimum of fourteen and a numeral up to fourteen is the numeral. -/
theorem minsi_14_ofNat {n : ℕ} (h : n ≤ 14) : IntOp.minsi 14#32 (BitVec.ofNat 32 n) = BitVec.ofNat 32 n := by
  unfold IntOp.minsi
  rw [if_neg]
  have h14 : (14#32 : BitVec 32) = BitVec.ofNat 32 14 := rfl
  rw [h14]
  simp [BitVec.slt, Cert.LibWord.toInt_ofNat_lt (show n < 2 ^ 31 by omega),
    Cert.LibWord.toInt_ofNat_lt (show 14 < 2 ^ 31 by omega)]
  omega

/-- The whole chain at an index whose word is the numeral of n < 60: the numeral of n / 4. -/
theorem bucket_at {s : Shape} (h : (⟨0, ![]⟩ : Shape).BroadcastsInDim s ![]) (x : IVec s 32) (i : s.Idx) {n : ℕ}
    (hn : n < 60) (hx : x i = BitVec.ofNat 32 n) :
    minsi (broadcastInDim s ![] h (id (constantI ⟨0, ![]⟩ 32 14#32)))
      (maxsi (broadcastInDim s ![] h (id (constantI ⟨0, ![]⟩ 32 0#32)))
        (select
          (andi
            (cmpi .ne (signi x) (broadcastInDim s ![] h (signi (id (constantI ⟨0, ![]⟩ 32 4#32)))))
            (cmpi .ne (Host.remsi x (broadcastInDim s ![] h (id (constantI ⟨0, ![]⟩ 32 4#32))))
              (broadcastInDim s ![] h (constantI ⟨0, ![]⟩ 32 0#32))))
          (subi (Host.divsi x (broadcastInDim s ![] h (id (constantI ⟨0, ![]⟩ 32 4#32))))
            (broadcastInDim s ![] h (constantI ⟨0, ![]⟩ 32 1#32)))
          (Host.divsi x (broadcastInDim s ![] h (id (constantI ⟨0, ![]⟩ 32 4#32)))))) i
      = BitVec.ofNat 32 (n / 4) := by
  show IntOp.minsi 14#32 (IntOp.maxsi 0#32
      (Scalar.select
        (IntOp.andi (IntOp.cmpi .ne (Cert.LibWord.sgn (x i)) (Cert.LibWord.sgn (BitVec.ofNat 32 4)))
          (IntOp.cmpi .ne (IntOp.remsi .host (x i) (BitVec.ofNat 32 4)) 0#32))
        (IntOp.subi (IntOp.divsi .host (x i) (BitVec.ofNat 32 4)) 1#32)
        (IntOp.divsi .host (x i) (BitVec.ofNat 32 4)))) = _
  rw [hx, Cert.LibWord.floordiv_ofNat .host (a := n) (b := 4) (by omega) (by omega) (by omega),
    Cert.LibWord.maxsi_zero_ofNat (by omega), minsi_14_ofNat (by omega)]

/-! ## The launch's arrays are the line's final contents -/

section AnyInstance

variable {F : FTy → Type} [FloatOps F]

/-- The buffers the launch finds are the contents after the line of host operations, the line written as one list. -/
theorem V_eq (m : (ℓ : Loc nD τ sig) → Buf (Elt F) ℓ) (c : Dev nD) (b : Ref sig .tc) :
    V (F := F) m c b = val (fun b => m (c, b)) b := rfl

/-- An argument array, which no operation of the line writes, is found as launched. -/
theorem val_arg (m : (ℓ : Loc nD τ sig) → Buf (Elt F) ℓ) (c : Dev nD) (r : Ref sig .tc) (hr : r ∉ ys) :
    val (F := F) (fun b => m (c, b)) r = m ((c : Thread nD τ).loc r) :=
  Cert.LibSsa.keeps writesAre _ r hr

end AnyInstance

/-! ## The staged arrays, index by index -/

variable (m : (ℓ : Loc nD τ sig) → Buf (Elt Ideal) ℓ) (c : Dev nD)

/-- The first feature vector's weights: block g, row j, column k is the rounded weight at row g·8 + j. -/
theorem win3 (g : Fin 15) (j : Fin 8) (k : Fin 97) :
    V (F := Ideal) m c main_v6 (ix3 g j k)
      = Cert.Spec.rq Cert.Spec.c64
          (m ((c : Thread nD τ).loc main_arg3)
            (ix2 (⟨g.val * 8 + j.val, by have := g.isLt; have := j.isLt; omega⟩ : Fin 120) k)) := by
  rw [V_eq, at_main_v6, at_main_v5, at_main_v4, at_main_v3, at_main_cst_0, at_main_v2, at_main_v1, at_main_v0,
    at_main_cst, val_arg m c main_arg3 (by decide)]
  exact rq3_at _ _ _ _ _ g j k _

/-- The first feature vector's biases: block g, entry j is the rounded bias at g·8 + j. -/
theorem win4 (g : Fin 15) (j : Fin 8) :
    V (F := Ideal) m c main_v12 (ix2 g j)
      = Cert.Spec.rq Cert.Spec.c8128
          (m ((c : Thread nD τ).loc main_arg4)
            (ix1 (⟨g.val * 8 + j.val, by have := g.isLt; have := j.isLt; omega⟩ : Fin 120))) := by
  rw [V_eq, at_main_v12, at_main_v11, at_main_v10, at_main_cst_2, at_main_v9, at_main_v8, at_main_v7, at_main_cst_1,
    val_arg m c main_arg4 (by decide)]
  exact rq2_at _ _ _ _ g j _

/-- The second feature vector's weights. -/
theorem win5 (g : Fin 15) (j : Fin 8) (k : Fin 97) :
    V (F := Ideal) m c main_v19 (ix3 g j k)
      = Cert.Spec.rq Cert.Spec.c64
          (m ((c : Thread nD τ).loc main_arg5)
            (ix2 (⟨g.val * 8 + j.val, by have := g.isLt; have := j.isLt; omega⟩ : Fin 120) k)) := by
  rw [V_eq, at_main_v19, at_main_v18, at_main_v17, at_main_v16, at_main_cst_4, at_main_v15, at_main_v14, at_main_v13,
    at_main_cst_3, val_arg m c main_arg5 (by decide)]
  exact rq3_at _ _ _ _ _ g j k _

/-- The second feature vector's biases. -/
theorem win6 (g : Fin 15) (j : Fin 8) :
    V (F := Ideal) m c main_v25 (ix2 g j)
      = Cert.Spec.rq Cert.Spec.c8128
          (m ((c : Thread nD τ).loc main_arg6)
            (ix1 (⟨g.val * 8 + j.val, by have := g.isLt; have := j.isLt; omega⟩ : Fin 120))) := by
  rw [V_eq, at_main_v25, at_main_v24, at_main_v23, at_main_cst_6, at_main_v22, at_main_v21, at_main_v20, at_main_cst_5,
    val_arg m c main_arg6 (by decide)]
  exact rq2_at _ _ _ _ g j _

/-- The second layer's weights: block g, row j, column k is the rounded weight at row g·64 + j. -/
theorem win7 (g : Fin 15) (j : Fin 64) (k : Fin 32) :
    V (F := Ideal) m c main_v32 (ix3 g j k)
      = Cert.Spec.rq Cert.Spec.c64
          (m ((c : Thread nD τ).loc main_arg7)
            (ix2 (⟨g.val * 64 + j.val, by have := g.isLt; have := j.isLt; omega⟩ : Fin 960) k)) := by
  rw [V_eq, at_main_v32, at_main_v31, at_main_v30, at_main_v29, at_main_cst_8, at_main_v28, at_main_v27, at_main_v26,
    at_main_cst_7, val_arg m c main_arg7 (by decide)]
  exact rq3_at _ _ _ _ _ g j k _

/-- The second layer's biases. -/
theorem win8 (g : Fin 15) (j : Fin 64) :
    V (F := Ideal) m c main_v38 (ix2 g j)
      = Cert.Spec.rq Cert.Spec.c8128
          (m ((c : Thread nD τ).loc main_arg8)
            (ix1 (⟨g.val * 64 + j.val, by have := g.isLt; have := j.isLt; omega⟩ : Fin 960))) := by
  rw [V_eq, at_main_v38, at_main_v37, at_main_v36, at_main_cst_10, at_main_v35, at_main_v34, at_main_v33, at_main_cst_9,
    val_arg m c main_arg8 (by decide)]
  exact rq2_at _ _ _ _ g j _

/-- The last layer's weights: one row per bucket, no change of layout. -/
theorem win9 (g : Fin 15) (k : Fin 64) :
    V (F := Ideal) m c main_v43 (ix2 g k)
      = Cert.Spec.rq Cert.Spec.cws (m ((c : Thread nD τ).loc main_arg9) (ix2 g k)) := by
  rw [V_eq, at_main_v43, at_main_v42, at_main_cst_12, at_main_v41, at_main_v40, at_main_v39, at_main_cst_11,
    val_arg m c main_arg9 (by decide)]
  exact rq_at _ _ _ _

/-- The last layer's biases: one per bucket. -/
theorem win10 (g : Fin 15) :
    V (F := Ideal) m c main_v48 (ix1 g)
      = Cert.Spec.rq Cert.Spec.c1024 (m ((c : Thread nD τ).loc main_arg10) (ix1 g)) := by
  rw [V_eq, at_main_v48, at_main_v47, at_main_cst_14, at_main_v46, at_main_v45, at_main_v44, at_main_cst_13,
    val_arg m c main_arg10 (by decide)]
  exact rq_at _ _ _ _

/-- The bucket words, one column: row r holds the quarter of its ply, the ply the numeral of a number below sixty. -/
theorem win2 (r : Fin 131072) (n : ℕ) (hn : n < 60)
    (h : m ((c : Thread nD τ).loc main_arg2) (ix1 r) = BitVec.ofNat 32 n) :
    V (F := Ideal) m c main_v51 (ix2 r (0 : Fin 1)) = BitVec.ofNat 32 (n / 4) := by
  rw [V_eq, at_main_v51, castCol, at_main_v50, at_main_call9_v4, at_main_call9_v3, at_main_c_16, at_main_call9_v2,
    at_main_call9_v1, at_main_call9_v0, at_main_c_15, at_main_v49, at_main_call8_v11, at_main_call8_v6,
    at_main_call8_v3, at_main_call8_v5, at_main_call8_v4, at_main_call8_v10, at_main_call8_v8, at_main_call8_v7,
    at_main_call8_v9, at_main_call8_c, at_main_call8_v13, at_main_call8_v12, at_main_call8_c_0, at_main_call8_v2,
    at_main_call8_v1, at_main_call8_v0, at_main_c, val_arg m c main_arg2 (by decide)]
  exact bucket_at _ _ _ hn h

end Cert.KernelIdeal.MoE

end
-- ==== Proof.KerBlocks.lean ====
import proofs.«422179_j46557445489276_3_alg».proof.Proof.Gen.KernelIdeal.Value
import proofs.«422179_j46557445489276_3_alg».proof.Proof.Spec
import proofs.«422179_j46557445489276_3_alg».proof.Proof.SpecLemmas
import proofs.«422179_j46557445489276_3_alg».proof.Proof.KerBody
import proofs.«422179_j46557445489276_3_alg».proof.Proof.KerMath
import proofs.«422179_j46557445489276_3_alg».proof.Proof.KerHost
import Idealize.ShloMosaic.Lib.Pipeline.Value
import Idealize.ShloMosaic.Lib.ValueIdx
import Idealize.ShloMosaic.Lib.Tactic

set_option maxRecDepth 16384

noncomputable section

namespace Cert.KernelIdeal.MoE
open Cert.KernelIdeal Cert.KernelIdeal.Gen Cert.KernelIdeal.Value Idealize.ShloMosaic Idealize.ShloMosaic.TcCoe Idealize.SL.Sem Idealize.ShloMosaic.ValueIdx

variable (m : (ℓ : Loc nD τ sig) → Buf (Elt Ideal) ℓ) (ρ : Dev nD → PrngReg)

/-! # From the blocks to the whole result array

The grid has sixty-four points. Point `t` is handed rows `2048·t … 2048·t + 2047` of the two feature arrays and of the
column of bucket words, and every weight and bias table whole; it writes back rows `2048·t … 2048·t + 2047` of the result.
What it writes at row `p` of its block is the one-row network of the specification, on row `2048·t + p`'s features and
on the blocks of the tables that the row's bucket picks. The sixty-four row blocks tile the result array, so the array
after the run is the specification's array. -/

/-! ## Where each window's block sits, decided once over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)

theorem point_lt (t : Fin cfg0.N) : t.val < 64 := Nat.lt_of_lt_of_eq t.isLt N_0

/-! ## The blocks a point is handed, each at its literal shape -/

abbrev xbBlk (c : Dev nD) (t : Fin cfg0.N) : Vec Ideal S2048x97 .f32 := iblk m c 0 t
abbrev xpBlk (c : Dev nD) (t : Fin cfg0.N) : Vec Ideal S2048x97 .f32 := iblk m c 1 t
abbrev lsBlk (c : Dev nD) (t : Fin cfg0.N) : Vec Ideal S2048x1 .i32 := iblk m c 2 t
abbrev w1bBlk (c : Dev nD) (t : Fin cfg0.N) : Vec Ideal S15x8x97 .bf16 := iblk m c 3 t
abbrev b1bBlk (c : Dev nD) (t : Fin cfg0.N) : Vec Ideal S15x8 .f32 := iblk m c 4 t
abbrev w1pBlk (c : Dev nD) (t : Fin cfg0.N) : Vec Ideal S15x8x97 .bf16 := iblk m c 5 t
abbrev b1pBlk (c : Dev nD) (t : Fin cfg0.N) : Vec Ideal S15x8 .f32 := iblk m c 6 t
abbrev w2Blk (c : Dev nD) (t : Fin cfg0.N) : Vec Ideal S15x64x32 .bf16 := iblk m c 7 t
abbrev b2Blk (c : Dev nD) (t : Fin cfg0.N) : Vec Ideal S15x64 .f32 := iblk m c 8 t
abbrev woBlk (c : Dev nD) (t : Fin cfg0.N) : Vec Ideal S15x64 .f32 := iblk m c 9 t
abbrev boBlk (c : Dev nD) (t : Fin cfg0.N) : Vec Ideal S15 .f32 := iblk m c 10 t

/-! ## Each block read at an index: a row block is the array at row `2048·t + p`; a table's block is the table -/

theorem xbBlk_apply (c : Dev nD) (t : Fin cfg0.N) (p : Fin 2048) (k : Fin 97) (r : Fin 131072) (hr : r.val = t.val * 2048 + p.val) :
    xbBlk m c t (ix2 p k) = (m ((c.tc : Thread nD τ).loc main_arg0) : S131072x97.Idx → EReal) (ix2 r k) := by
  obtain ⟨e0, e1⟩ := idx0 t
  rw [← V_main_arg0 m c]
  show V m c main_arg0 (((cfg0.win 0).blk t).view.emb (ix2 p k)) = V m c main_arg0 (ix2 r k)
  congr 1
  funext a
  apply Fin.ext
  match a with
  | ⟨0, _⟩ => show win0_0.index t (0 : Fin 2) * 2048 + 1 * p.val = r.val; rw [e0, hr]; omega
  | ⟨1, _⟩ => show win0_0.index t (1 : Fin 2) * 97 + 1 * k.val = k.val; rw [e1]; omega

theorem xpBlk_apply (c : Dev nD) (t : Fin cfg0.N) (p : Fin 2048) (k : Fin 97) (r : Fin 131072) (hr : r.val = t.val * 2048 + p.val) :
    xpBlk m c t (ix2 p k) = (m ((c.tc : Thread nD τ).loc main_arg1) : S131072x97.Idx → EReal) (ix2 r k) := by
  obtain ⟨e0, e1⟩ := idx1 t
  rw [← V_main_arg1 m c]
  show V m c main_arg1 (((cfg0.win 1).blk t).view.emb (ix2 p k)) = V m c main_arg1 (ix2 r k)
  congr 1
  funext a
  apply Fin.ext
  match a with
  | ⟨0, _⟩ => show win0_1.index t (0 : Fin 2) * 2048 + 1 * p.val = r.val; rw [e0, hr]; omega
  | ⟨1, _⟩ => show win0_1.index t (1 : Fin 2) * 97 + 1 * k.val = k.val; rw [e1]; omega

theorem lsBlk_apply (c : Dev nD) (t : Fin cfg0.N) (p : Fin 2048) (r : Fin 131072) (hr : r.val = t.val * 2048 + p.val) :
    lsBlk m c t (ix2 p (0 : Fin 1)) = V m c main_v51 (ix2 r (0 : Fin 1)) := by
  obtain ⟨e0, e1⟩ := idx2 t
  show V m c main_v51 (((cfg0.win 2).blk t).view.emb (ix2 p (0 : Fin 1))) = V m c main_v51 (ix2 r (0 : Fin 1))
  congr 1
  funext a
  apply Fin.ext
  match a with
  | ⟨0, _⟩ => show win0_2.index t (0 : Fin 2) * 2048 + 1 * p.val = r.val; rw [e0, hr]; omega
  | ⟨1, _⟩ => show win0_2.index t (1 : Fin 2) * 1 + 1 * 0 = 0; rw [e1]

theorem w1bBlk_apply (c : Dev nD) (t : Fin cfg0.N) (g : Fin 15) (j : Fin 8) (k : Fin 97) :
    w1bBlk m c t (ix3 g j k) = V m c main_v6 (ix3 g j k) := by
  obtain ⟨e0, e1, e2⟩ := idx3 t
  show V m c main_v6 (((cfg0.win 3).blk t).view.emb (ix3 g j k)) = V m c main_v6 (ix3 g j k)
  congr 1
  funext a
  apply Fin.ext
  match a with
  | ⟨0, _⟩ => show win0_3.index t (0 : Fin 3) * 15 + 1 * g.val = g.val; rw [e0]; omega
  | ⟨1, _⟩ => show win0_3.index t (1 : Fin 3) * 8 + 1 * j.val = j.val; rw [e1]; omega
  | ⟨2, _⟩ => show win0_3.index t (2 : Fin 3) * 97 + 1 * k.val = k.val; rw [e2]; omega

theorem b1bBlk_apply (c : Dev nD) (t : Fin cfg0.N) (g : Fin 15) (j : Fin 8) :
    b1bBlk m c t (ix2 g j) = V m c main_v12 (ix2 g j) := by
  obtain ⟨e0, e1⟩ := idx4 t
  show V m c main_v12 (((cfg0.win 4).blk t).view.emb (ix2 g j)) = V m c main_v12 (ix2 g j)
  congr 1
  funext a
  apply Fin.ext
  match a with
  | ⟨0, _⟩ => show win0_4.index t (0 : Fin 2) * 15 + 1 * g.val = g.val; rw [e0]; omega
  | ⟨1, _⟩ => show win0_4.index t (1 : Fin 2) * 8 + 1 * j.val = j.val; rw [e1]; omega

theorem w1pBlk_apply (c : Dev nD) (t : Fin cfg0.N) (g : Fin 15) (j : Fin 8) (k : Fin 97) :
    w1pBlk m c t (ix3 g j k) = V m c main_v19 (ix3 g j k) := by
  obtain ⟨e0, e1, e2⟩ := idx5 t
  show V m c main_v19 (((cfg0.win 5).blk t).view.emb (ix3 g j k)) = V m c main_v19 (ix3 g j k)
  congr 1
  funext a
  apply Fin.ext
  match a with
  | ⟨0, _⟩ => show win0_5.index t (0 : Fin 3) * 15 + 1 * g.val = g.val; rw [e0]; omega
  | ⟨1, _⟩ => show win0_5.index t (1 : Fin 3) * 8 + 1 * j.val = j.val; rw [e1]; omega
  | ⟨2, _⟩ => show win0_5.index t (2 : Fin 3) * 97 + 1 * k.val = k.val; rw [e2]; omega

theorem b1pBlk_apply (c : Dev nD) (t : Fin cfg0.N) (g : Fin 15) (j : Fin 8) :
    b1pBlk m c t (ix2 g j) = V m c main_v25 (ix2 g j) := by
  obtain ⟨e0, e1⟩ := idx6 t
  show V m c main_v25 (((cfg0.win 6).blk t).view.emb (ix2 g j)) = V m c main_v25 (ix2 g j)
  congr 1
  funext a
  apply Fin.ext
  match a with
  | ⟨0, _⟩ => show win0_6.index t (0 : Fin 2) * 15 + 1 * g.val = g.val; rw [e0]; omega
  | ⟨1, _⟩ => show win0_6.index t (1 : Fin 2) * 8 + 1 * j.val = j.val; rw [e1]; omega

theorem w2Blk_apply (c : Dev nD) (t : Fin cfg0.N) (g : Fin 15) (j : Fin 64) (k : Fin 32) :
    w2Blk m c t (ix3 g j k) = V m c main_v32 (ix3 g j k) := by
  obtain ⟨e0, e1, e2⟩ := idx7 t
  show V m c main_v32 (((cfg0.win 7).blk t).view.emb (ix3 g j k)) = V m c main_v32 (ix3 g j k)
  congr 1
  funext a
  apply Fin.ext
  match a with
  | ⟨0, _⟩ => show win0_7.index t (0 : Fin 3) * 15 + 1 * g.val = g.val; rw [e0]; omega
  | ⟨1, _⟩ => show win0_7.index t (1 : Fin 3) * 64 + 1 * j.val = j.val; rw [e1]; omega
  | ⟨2, _⟩ => show win0_7.index t (2 : Fin 3) * 32 + 1 * k.val = k.val; rw [e2]; omega

theorem b2Blk_apply (c : Dev nD) (t : Fin cfg0.N) (g : Fin 15) (j : Fin 64) :
    b2Blk m c t (ix2 g j) = V m c main_v38 (ix2 g j) := by
  obtain ⟨e0, e1⟩ := idx8 t
  show V m c main_v38 (((cfg0.win 8).blk t).view.emb (ix2 g j)) = V m c main_v38 (ix2 g j)
  congr 1
  funext a
  apply Fin.ext
  match a with
  | ⟨0, _⟩ => show win0_8.index t (0 : Fin 2) * 15 + 1 * g.val = g.val; rw [e0]; omega
  | ⟨1, _⟩ => show win0_8.index t (1 : Fin 2) * 64 + 1 * j.val = j.val; rw [e1]; omega

theorem woBlk_apply (c : Dev nD) (t : Fin cfg0.N) (g : Fin 15) (k : Fin 64) :
    woBlk m c t (ix2 g k) = V m c main_v43 (ix2 g k) := by
  obtain ⟨e0, e1⟩ := idx9 t
  show V m c main_v43 (((cfg0.win 9).blk t).view.emb (ix2 g k)) = V m c main_v43 (ix2 g k)
  congr 1
  funext a
  apply Fin.ext
  match a with
  | ⟨0, _⟩ => show win0_9.index t (0 : Fin 2) * 15 + 1 * g.val = g.val; rw [e0]; omega
  | ⟨1, _⟩ => show win0_9.index t (1 : Fin 2) * 64 + 1 * k.val = k.val; rw [e1]; omega

theorem boBlk_apply (c : Dev nD) (t : Fin cfg0.N) (g : Fin 15) :
    boBlk m c t (ix1 g) = V m c main_v48 (ix1 g) := by
  have e0 := idx10 t
  show V m c main_v48 (((cfg0.win 10).blk t).view.emb (ix1 g)) = V m c main_v48 (ix1 g)
  congr 1
  funext a
  apply Fin.ext
  match a with
  | ⟨0, _⟩ => show win0_10.index t (0 : Fin 1) * 15 + 1 * g.val = g.val; rw [e0]; omega

/-! ## The result block: where its rows sit in the array -/

/-- Row `p` of point `t`'s result block is row `2048·t + p` of the result array. -/
theorem outBlk_emb (t : Fin cfg0.N) (p : Fin 2048) (r : Fin 131072) (hr : r.val = t.val * 2048 + p.val) :
    ((cfg0.win 11).blk t).view.emb (ix2 p (0 : Fin 1)) = (ix2 r (0 : Fin 1) : S131072x1.Idx) := by
  obtain ⟨e0, e1⟩ := idx11 t
  funext a
  apply Fin.ext
  match a with
  | ⟨0, _⟩ => show win0_11.index t (0 : Fin 2) * 2048 + 1 * p.val = r.val; rw [e0, hr]; omega
  | ⟨1, _⟩ => show win0_11.index t (1 : Fin 2) * 1 + 1 * 0 = 0; rw [e1]

/-- The result block is written back whole. -/
theorem cut_outBlk (t : Fin cfg0.N) (X : Vec Ideal S2048x1 .f32) (p : Fin 2048) :
    (cfg0.win 11).cut (grid0.coords t) X (ix2 p (0 : Fin 1)) = X (ix2 p (0 : Fin 1)) := rfl

/-! ## One row: the specification's row from the blocks' readings -/

/-- The specification's array at row `r`, once the row's bucket is known. -/
theorem G_row (A0 A1 : S131072x97.Idx → EReal) (A2 : S131072.Idx → BitVec 32) (A3 : S120x97.Idx → EReal) (A4 : S120.Idx → EReal)
    (A5 : S120x97.Idx → EReal) (A6 : S120.Idx → EReal) (A7 : S960x32.Idx → EReal) (A8 : S960.Idx → EReal)
    (A9 : S15x64.Idx → EReal) (A10 : S15.Idx → EReal)
    (x0 x1 : Vec Ideal S2048x97 .f32) (x3 x5 : Vec Ideal S15x8x97 .bf16) (x4 x6 : Vec Ideal S15x8 .f32)
    (x7 : Vec Ideal S15x64x32 .bf16) (x8 x9 : Vec Ideal S15x64 .f32) (x10 : Vec Ideal S15 .f32)
    (r : Fin 131072) (p : Fin 2048) (g : Fin 15)
    (hb : Cert.Spec.bucket (A2 (ix1 r)) = g)
    (h0 : ∀ k : Fin 97, x0 (ix2 p k) = A0 (ix2 r k)) (h1 : ∀ k : Fin 97, x1 (ix2 p k) = A1 (ix2 r k))
    (h3 : ∀ (j : Fin 8) (k : Fin 97), x3 (ix3 g j k) = Cert.Spec.rq Cert.Spec.c64 (A3 (ix2 (⟨g.val * 8 + j.val, by have := g.isLt; have := j.isLt; omega⟩ : Fin 120) k)))
    (h4 : ∀ (j : Fin 8), x4 (ix2 g j) = Cert.Spec.rq Cert.Spec.c8128 (A4 (ix1 (⟨g.val * 8 + j.val, by have := g.isLt; have := j.isLt; omega⟩ : Fin 120))))
    (h5 : ∀ (j : Fin 8) (k : Fin 97), x5 (ix3 g j k) = Cert.Spec.rq Cert.Spec.c64 (A5 (ix2 (⟨g.val * 8 + j.val, by have := g.isLt; have := j.isLt; omega⟩ : Fin 120) k)))
    (h6 : ∀ (j : Fin 8), x6 (ix2 g j) = Cert.Spec.rq Cert.Spec.c8128 (A6 (ix1 (⟨g.val * 8 + j.val, by have := g.isLt; have := j.isLt; omega⟩ : Fin 120))))
    (h7 : ∀ (j : Fin 64) (k : Fin 32), x7 (ix3 g j k) = Cert.Spec.rq Cert.Spec.c64 (A7 (ix2 (⟨g.val * 64 + j.val, by have := g.isLt; have := j.isLt; omega⟩ : Fin 960) k)))
    (h8 : ∀ (j : Fin 64), x8 (ix2 g j) = Cert.Spec.rq Cert.Spec.c8128 (A8 (ix1 (⟨g.val * 64 + j.val, by have := g.isLt; have := j.isLt; omega⟩ : Fin 960))))
    (h9 : ∀ (k : Fin 64), x9 (ix2 g k) = Cert.Spec.rq Cert.Spec.cws (A9 (ix2 g k)))
    (h10 : x10 (ix1 g) = Cert.Spec.rq Cert.Spec.c1024 (A10 (ix1 g))) :
    Cert.Spec.row (fun k => x0 (ix2 p k)) (fun k => x1 (ix2 p k)) (fun j k => x3 (ix3 g j k)) (fun j k => x5 (ix3 g j k))
        (fun j => x4 (ix2 g j)) (fun j => x6 (ix2 g j)) (fun j k => x7 (ix3 g j k)) (fun j => x8 (ix2 g j))
        (fun k => x9 (ix2 g k)) (x10 (ix1 g))
      = Cert.Spec.G A0 A1 A2 A3 A4 A5 A6 A7 A8 A9 A10 (ix2 r (0 : Fin 1)) := by
  subst hb
  rw [funext h0, funext h1, funext (fun j => funext (h3 j)), funext (fun j => funext (h5 j)), funext h4, funext h6,
    funext (fun j => funext (h7 j)), funext h8, funext h9, h10]
  rfl

/-- The specification's array of the eleven argument arrays as the run finds them. -/
abbrev Gm (c : Dev nD) : S131072x1.Idx → EReal :=
  Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-! ## What a point writes back is its block of the specification's array -/

theorem flushed_eq (c : Dev nD)
    (hply : ∀ i : S131072.Idx, ∃ n : ℕ, n < 60 ∧ m ((c.tc : Thread nD τ).loc main_arg2) i = BitVec.ofNat 32 n)
    (t : Fin cfg0.N) :
    (dats m 0 c).flushed 11 t = ((cfg0.win 11).blk t).view.read (Elt Ideal) (Gm m c) := by
  have ht : t.val < 64 := point_lt t
  choose n hn hm using hply
  -- the array row of a block row, and the bucket of a block row
  let rowOf : Fin 2048 → Fin 131072 := fun p => ⟨t.val * 2048 + p.val, by have := p.isLt; omega⟩
  let g : Fin 2048 → Fin 15 := fun p => ⟨n (ix1 (rowOf p)) / 4, by have := hn (ix1 (rowOf p)); omega⟩
  have hg : ∀ p : Fin 2048, lsBlk m c t (ix2 p (0 : Fin 1)) = BitVec.ofNat 32 (g p).val := fun p => by
    rw [lsBlk_apply m c t p (rowOf p) rfl]
    exact win2 m c (rowOf p) (n (ix1 (rowOf p))) (hn _) (hm _)
  obtain ⟨S1, S2, A4, A6, A5, A7, A8, A9, hout, h10, h1s, h20, h2s, hA4, hA6, hA5, hA7, hA8, hA9⟩ :=
    body_value (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (xbBlk m c t) (xpBlk m c t) (lsBlk m c t) (w1bBlk m c t) (b1bBlk m c t) (w1pBlk m c t) (b1pBlk m c t) (w2Blk m c t) (b2Blk m c t) (woBlk m c t) (boBlk m c t)
  rw [flushed11_A]
  refine (congrArg ((cfg0.win 11).cut (grid0.coords t)) hout).trans ?_
  refine funext fun (y : S2048x1.Idx) => ?_
  obtain ⟨p, q, rfl⟩ : ∃ (p : Fin 2048) (q : Fin 1), y = ix2 p q := ⟨y 0, y 1, eq_ix2 y⟩
  obtain rfl : q = 0 := Subsingleton.elim _ _
  rw [cut_outBlk, View.read_apply, outBlk_emb t p (rowOf p) rfl]
  rw [body_math (xbBlk m c t) (xpBlk m c t) (lsBlk m c t) (w1bBlk m c t) (w1pBlk m c t) (b1bBlk m c t) (b1pBlk m c t) (w2Blk m c t) (b2Blk m c t) (woBlk m c t) (boBlk m c t)
    S1 S2 A4 A6 A5 A7 A8 A9 h10 h1s h20 h2s hA4 hA6 hA5 hA7 hA8 hA9 g hg p]
  refine G_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (xbBlk m c t) (xpBlk m c t) (w1bBlk m c t) (w1pBlk m c t) (b1bBlk m c t) (b1pBlk m c t) (w2Blk m c t) (b2Blk m c t) (woBlk m c t) (boBlk m c t)
    (rowOf p) p (g p) ?_ ?_ ?_ ?_ ?_ ?_ ?_ ?_ ?_ ?_ ?_
  · rw [hm (ix1 (rowOf p))]; exact Cert.Spec.bucket_ofNat (hn _)
  · exact fun k => xbBlk_apply m c t p k (rowOf p) rfl
  · exact fun k => xpBlk_apply m c t p k (rowOf p) rfl
  · exact fun j k => (w1bBlk_apply m c t (g p) j k).trans (win3 m c (g p) j k)
  · exact fun j => (b1bBlk_apply m c t (g p) j).trans (win4 m c (g p) j)
  · exact fun j k => (w1pBlk_apply m c t (g p) j k).trans (win5 m c (g p) j k)
  · exact fun j => (b1pBlk_apply m c t (g p) j).trans (win6 m c (g p) j)
  · exact fun j k => (w2Blk_apply m c t (g p) j k).trans (win7 m c (g p) j k)
  · exact fun j => (b2Blk_apply m c t (g p) j).trans (win8 m c (g p) j)
  · exact fun k => (woBlk_apply m c t (g p) k).trans (win9 m c (g p) k)
  · exact (boBlk_apply m c t (g p)).trans (win10 m c (g p))

/-! ## The blocks tile the array -/

/-- An index of the result array is in point `t`'s block iff each coordinate is in the block's range on its axis. -/
theorem mem_outBlk (t : Fin cfg0.N) (i : S131072x1.Idx) :
    i ∈ ((cfg0.win 11).blk t).view.set ↔ ∀ a : Fin 2, win0_11.index t a * S2048x1.size a ≤ (i a).val ∧ (i a).val < win0_11.index t a * S2048x1.size a + S2048x1.size a := by
  show i ∈ ((View.whole main_v52).slice (win0_11.rect t)).set ↔ _
  rw [View.set_slice_whole, Rect.mem_set_unit]
  exact Iff.rfl

/-- Row `r` of the result is in the block of point `r / 2048`. -/
theorem cover (i : S131072x1.Idx) :
    ∃ t : Fin cfg0.N, (cfg0.win 11).flush t = true ∧ i ∈ ((cfg0.win 11).blk t).view.set := by
  have hi0 : (i 0).val < 131072 := (i 0).isLt
  have hi1 : (i 1).val < 1 := (i 1).isLt
  obtain ⟨t, ht⟩ : ∃ t : Fin cfg0.N, t.val = (i 0).val / 2048 :=
    ⟨⟨(i 0).val / 2048, by rw [show cfg0.N = 64 from N_0]; omega⟩, rfl⟩
  obtain ⟨e0, e1⟩ := idx11 t
  refine ⟨t, flush0_11 t, ?_⟩
  rw [mem_outBlk]
  intro a
  match a with
  | ⟨0, _⟩ => show win0_11.index t (0 : Fin 2) * 2048 ≤ (i 0).val ∧ (i 0).val < win0_11.index t (0 : Fin 2) * 2048 + 2048; rw [e0, ht]; omega
  | ⟨1, _⟩ => show win0_11.index t (1 : Fin 2) * 1 ≤ (i 1).val ∧ (i 1).val < win0_11.index t (1 : Fin 2) * 1 + 1; rw [e1]; omega

/-- The result array after the run is the specification's array. -/
theorem final (c : Dev nD)
    (hply : ∀ i : S131072.Idx, ∃ n : ℕ, n < 60 ∧ m ((c.tc : Thread nD τ).loc main_arg2) i = BitVec.ofNat 32 n) :
    (dats m 0 c).arrAt 11 cfg0.N = Gm m c :=
  (dats m 0 c).arrAt_eq_of_cover 11 (Gm m c) (fun t _ => flushed_eq m c hply t) cover

/-! ## The run -/

/-- The kernel's run: the result array ends as the specification's array of the eleven arguments, which are unchanged. -/
theorem ker_value
    (hply : ∀ (c : Dev nD) (i : S131072.Idx), ∃ n : ℕ, n < 60 ∧ m ((c.tc : Thread nD τ).loc main_arg2) i = BitVec.ofNat 32 n) :
    θ_run defs (onTc (τ := τ) (main (F := Ideal))) ⟨m, fun _ => 0, ρ⟩ fun r => ∀ c : Dev nD,
      r.2.mem ((c.tc : Thread nD τ).loc main_v52) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs (onTc (τ := τ) (main (F := Ideal))) ⟨m, fun _ => 0, ρ⟩).mono (fun r h c => ⟨(h c).1.trans (final m c (hply c)), (h c).2⟩) (Value.run_blocks m ρ)

end Cert.KernelIdeal.MoE
end
-- ==== Proof.RefSteps.lean ====
import proofs.«422179_j46557445489276_3_alg».proof.Proof.Gen.ReferenceIdeal
import proofs.«422179_j46557445489276_3_alg».proof.Proof.LibSsaT
import Idealize.ShloMosaic.Lib.StableHlo.Run

set_option maxRecDepth 16384
-- one equation at a time: each walks the whole list, and elaborated side by side they hold many copies of it
set_option Elab.async false

noncomputable section

namespace Cert.ReferenceIdeal.MoE

open Cert.ReferenceIdeal Idealize.ShloMosaic Idealize.ShloMosaic.TcCoe Idealize.SL.Sem Idealize.ShloMosaic.StableHlo Cert.LibStretch Cert.LibSsa
open Cert.ReferenceIdeal.Facts₀ Cert.ReferenceIdeal.Facts

variable {F : FTy → Type} [FloatOps F]

/-- The host operations, in order (236). -/
abbrev ops : List (HloOp τ sig (Elt F)) :=
  [ StableHlo.nullary main_v0 (iotaInDim S131072 32 0),
    StableHlo.nullary main_c (constantI S_ 32 4#32),
    StableHlo.TRef.unary (StableHlo.TRef.of main_c : StableHlo.TRef sig ⟨S_, .i32⟩) main_call0.v0 id,
    StableHlo.TRef.unary main_call0.v0 main_call0.v1 (broadcastInDim S131072 ![] bcast_S_S131072),
    StableHlo.TRef.binary (StableHlo.TRef.of main_arg2 : StableHlo.TRef sig ⟨S131072, .i32⟩) main_call0.v1 main_call0.v2 Host.divsi,
    StableHlo.TRef.unary (StableHlo.TRef.of main_arg2 : StableHlo.TRef sig ⟨S131072, .i32⟩) main_call0.v3 signi,
    StableHlo.TRef.unary main_call0.v0 main_call0.v4 signi,
    StableHlo.TRef.unary main_call0.v4 main_call0.v5 (broadcastInDim S131072 ![] bcast_S_S131072),
    StableHlo.TRef.binary main_call0.v3 main_call0.v5 main_call0.v6 (cmpi .ne),
    StableHlo.TRef.unary main_call0.v0 main_call0.v7 (broadcastInDim S131072 ![] bcast_S_S131072),
    StableHlo.TRef.binary (StableHlo.TRef.of main_arg2 : StableHlo.TRef sig ⟨S131072, .i32⟩) main_call0.v7 main_call0.v8 Host.remsi,
    StableHlo.TRef.nullary main_call0.c (constantI S_ 32 0#32),
    StableHlo.TRef.unary main_call0.c main_call0.v9 (broadcastInDim S131072 ![] bcast_S_S131072),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S131072 ![] bcast_S_S131072),
    StableHlo.TRef.binary main_call0.v2 main_call0.v12 main_call0.v13 subi,
    StableHlo.TRef.ternary main_call0.v11 main_call0.v13 main_call0.v2 main_call0_call0.v0 select,
    StableHlo.nullary main_cst (constant S_ .f32 0x42800000#32),
    StableHlo.unary main_cst main_v2 (broadcastInDim S120x97 ![] bcast_S_S120x97 : (⟨S_, .f32⟩ : BufTy).Contents (Elt F) → (⟨S120x97, .f32⟩ : BufTy).Contents (Elt F)),
    StableHlo.binary main_arg3 main_v2 main_v3 (mulf : (⟨S120x97, .f32⟩ : BufTy).Contents (Elt F) → (⟨S120x97, .f32⟩ : BufTy).Contents (Elt F) → (⟨S120x97, .f32⟩ : BufTy).Contents (Elt F)),
    StableHlo.TRef.unary (StableHlo.TRef.of main_v3 : StableHlo.TRef sig ⟨S120x97, .f32⟩) main_call1.v0 Host.roundeven,
    StableHlo.nullary main_cst_0 (constant S_ .f32 0x42800000#32),
    StableHlo.unary main_cst_0 main_v5 (broadcastInDim S120x97 ![] bcast_S_S120x97 : (⟨S_, .f32⟩ : BufTy).Contents (Elt F) → (⟨S120x97, .f32⟩ : BufTy).Contents (Elt F)),
    StableHlo.binary main_v4 main_v5 main_v6 (Host.divf : (⟨S120x97, .f32⟩ : BufTy).Contents (Elt F) → (⟨S120x97, .f32⟩ : BufTy).Contents (Elt F) → (⟨S120x97, .f32⟩ : BufTy).Contents (Elt F)),
    StableHlo.binary main_v6 main_arg3 main_v7 (subf : (⟨S120x97, .f32⟩ : BufTy).Contents (Elt F) → (⟨S120x97, .f32⟩ : BufTy).Contents (Elt F) → (⟨S120x97, .f32⟩ : BufTy).Contents (Elt F)),
    StableHlo.binary main_arg3 main_v7 main_v8 (addf : (⟨S120x97, .f32⟩ : BufTy).Contents (Elt F) → (⟨S120x97, .f32⟩ : BufTy).Contents (Elt F) → (⟨S120x97, .f32⟩ : BufTy).Contents (Elt F)),
    StableHlo.unary main_v8 main_v9 ((transpose S97x120 [1, 0] · transposes_S120x97_S97x120_1_0) : (⟨S120x97, .f32⟩ : BufTy).Contents (Elt F) → (⟨S97x120, .f32⟩ : BufTy).Contents (Elt F)),
    StableHlo.binary main_arg0 main_v9 main_v10 ((fun l r => Host.dotGeneral dot_S131072x97_S97x120_S131072x120_1_0_0_1_n_n none l r) : (⟨S131072x97, .f32⟩ : BufTy).Contents (Elt F) → (⟨S97x120, .f32⟩ : BufTy).Contents (Elt F) → (⟨S131072x120, .f32⟩ : BufTy).Contents (Elt F)),
    StableHlo.nullary main_cst_1 (constant S_ .f32 0x45FE0000#32),
    StableHlo.unary main_cst_1 main_v11 (broadcastInDim S120 ![] bcast_S_S120 : (⟨S_, .f32⟩ : BufTy).Contents (Elt F) → (⟨S120, .f32⟩ : BufTy).Contents (Elt F)),
    StableHlo.binary main_arg4 main_v11 main_v12 (mulf : (⟨S120, .f32⟩ : BufTy).Contents (Elt F) → (⟨S120, .f32⟩ : BufTy).Contents (Elt F) → (⟨S120, .f32⟩ : BufTy).Contents (Elt F)),
    StableHlo.TRef.unary (StableHlo.TRef.of main_v12 : StableHlo.TRef sig ⟨S120, .f32⟩) main_call2.v0 Host.roundeven,
    StableHlo.nullary main_cst_2 (constant S_ .f32 0x45FE0000#32),
    StableHlo.unary main_cst_2 main_v14 (broadcastInDim S120 ![] bcast_S_S120 : (⟨S_, .f32⟩ : BufTy).Contents (Elt F) → (⟨S120, .f32⟩ : BufTy).Contents (Elt F)),
    StableHlo.binary main_v13 main_v14 main_v15 (Host.divf : (⟨S120, .f32⟩ : BufTy).Contents (Elt F) → (⟨S120, .f32⟩ : BufTy).Contents (Elt F) → (⟨S120, .f32⟩ : BufTy).Contents (Elt F)),
    StableHlo.binary main_v15 main_arg4 main_v16 (subf : (⟨S120, .f32⟩ : BufTy).Contents (Elt F) → (⟨S120, .f32⟩ : BufTy).Contents (Elt F) → (⟨S120, .f32⟩ : BufTy).Contents (Elt F)),
    StableHlo.binary main_arg4 main_v16 main_v17 (addf : (⟨S120, .f32⟩ : BufTy).Contents (Elt F) → (⟨S120, .f32⟩ : BufTy).Contents (Elt F) → (⟨S120, .f32⟩ : BufTy).Contents (Elt F)),
    StableHlo.unary main_v17 main_v18 (broadcastInDim S1x120 ![1] bcast_S120_S1x120_1 : (⟨S120, .f32⟩ : BufTy).Contents (Elt F) → (⟨S1x120, .f32⟩ : BufTy).Contents (Elt F)),
    StableHlo.unary main_v18 main_v19 (broadcastInDim S131072x120 ![0, 1] bcast_S1x120_S131072x120_0_1 : (⟨S1x120, .f32⟩ : BufTy).Contents (Elt F) → (⟨S131072x120, .f32⟩ : BufTy).Contents (Elt F)),
    StableHlo.binary main_v10 main_v19 main_v20 (addf : (⟨S131072x120, .f32⟩ : BufTy).Contents (Elt F) → (⟨S131072x120, .f32⟩ : BufTy).Contents (Elt F) → (⟨S131072x120, .f32⟩ : BufTy).Contents (Elt F)),
    StableHlo.reshape main_v20 main_v21 rfl shapeCasts_S131072x120_S131072x15x8,
    StableHlo.nullary main_c_3 (constantI S_ 32 0#32),
    StableHlo.unary main_c_3 main_v22 (broadcastInDim S131072 ![] bcast_S_S131072 : (⟨S_, .i32⟩ : BufTy).Contents (Elt F) → (⟨S131072, .i32⟩ : BufTy).Contents (Elt F)),
    StableHlo.binary main_v0 main_v22 main_v23 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 131072#32),
    StableHlo.unary main_c_4 main_v24 (broadcastInDim S131072 ![] bcast_S_S131072 : (⟨S_, .i32⟩ : BufTy).Contents (Elt F) → (⟨S131072, .i32⟩ : BufTy).Contents (Elt F)),
    StableHlo.binary main_v0 main_v24 main_v25 (addi : (⟨S131072, .i32⟩ : BufTy).Contents (Elt F) → (⟨S131072, .i32⟩ : BufTy).Contents (Elt F) → (⟨S131072, .i32⟩ : BufTy).Contents (Elt F)),
    StableHlo.ternary main_v23 main_v25 main_v0 main_v26 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_5 (constantI S_ 32 0#32),
    StableHlo.unary main_c_5 main_v27 (broadcastInDim S131072 ![] bcast_S_S131072 : (⟨S_, .i32⟩ : BufTy).Contents (Elt F) → (⟨S131072, .i32⟩ : BufTy).Contents (Elt F)),
    StableHlo.binary main_v1 main_v27 main_v28 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 15#32),
    StableHlo.unary main_c_6 main_v29 (broadcastInDim S131072 ![] bcast_S_S131072 : (⟨S_, .i32⟩ : BufTy).Contents (Elt F) → (⟨S131072, .i32⟩ : BufTy).Contents (Elt F)),
    StableHlo.binary main_v1 main_v29 main_v30 (addi : (⟨S131072, .i32⟩ : BufTy).Contents (Elt F) → (⟨S131072, .i32⟩ : BufTy).Contents (Elt F) → (⟨S131072, .i32⟩ : BufTy).Contents (Elt F)),
    StableHlo.ternary main_v28 main_v30 main_v1 main_v31 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v26 main_v32 (broadcastInDim S131072x1 ![0] bcast_S131072_S131072x1_0 : (⟨S131072, .i32⟩ : BufTy).Contents (Elt F) → (⟨S131072x1, .i32⟩ : BufTy).Contents (Elt F)),
    StableHlo.unary main_v31 main_v33 (broadcastInDim S131072x1 ![0] bcast_S131072_S131072x1_0 : (⟨S131072, .i32⟩ : BufTy).Contents (Elt F) → (⟨S131072x1, .i32⟩ : BufTy).Contents (Elt F)),
    StableHlo.binary main_v32 main_v33 main_v34 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_v21 main_v34 main_v35 ((fun x i => Host.gather gather_S131072x15x8_S131072x2_S131072x8_1_01_n_n_01_1_118 x i) : (⟨S131072x15x8, .f32⟩ : BufTy).Contents (Elt F) → (⟨S131072x2, .i32⟩ : BufTy).Contents (Elt F) → (⟨S131072x8, .f32⟩ : BufTy).Contents (Elt F)),
    StableHlo.nullary main_cst_7 (constant S_ .f32 0x42800000#32),
    StableHlo.unary main_cst_7 main_v36 (broadcastInDim S120x97 ![] bcast_S_S120x97 : (⟨S_, .f32⟩ : BufTy).Contents (Elt F) → (⟨S120x97, .f32⟩ : BufTy).Contents (Elt F)),
    StableHlo.binary main_arg5 main_v36 main_v37 (mulf : (⟨S120x97, .f32⟩ : BufTy).Contents (Elt F) → (⟨S120x97, .f32⟩ : BufTy).Contents (Elt F) → (⟨S120x97, .f32⟩ : BufTy).Contents (Elt F)),
    StableHlo.TRef.unary (StableHlo.TRef.of main_v37 : StableHlo.TRef sig ⟨S120x97, .f32⟩) main_call3.v0 Host.roundeven,
    StableHlo.nullary main_cst_8 (constant S_ .f32 0x42800000#32),
    StableHlo.unary main_cst_8 main_v39 (broadcastInDim S120x97 ![] bcast_S_S120x97 : (⟨S_, .f32⟩ : BufTy).Contents (Elt F) → (⟨S120x97, .f32⟩ : BufTy).Contents (Elt F)),
    StableHlo.binary main_v38 main_v39 main_v40 (Host.divf : (⟨S120x97, .f32⟩ : BufTy).Contents (Elt F) → (⟨S120x97, .f32⟩ : BufTy).Contents (Elt F) → (⟨S120x97, .f32⟩ : BufTy).Contents (Elt F)),
    StableHlo.binary main_v40 main_arg5 main_v41 (subf : (⟨S120x97, .f32⟩ : BufTy).Contents (Elt F) → (⟨S120x97, .f32⟩ : BufTy).Contents (Elt F) → (⟨S120x97, .f32⟩ : BufTy).Contents (Elt F)),
    StableHlo.binary main_arg5 main_v41 main_v42 (addf : (⟨S120x97, .f32⟩ : BufTy).Contents (Elt F) → (⟨S120x97, .f32⟩ : BufTy).Contents (Elt F) → (⟨S120x97, .f32⟩ : BufTy).Contents (Elt F)),
    StableHlo.unary main_v42 main_v43 ((transpose S97x120 [1, 0] · transposes_S120x97_S97x120_1_0) : (⟨S120x97, .f32⟩ : BufTy).Contents (Elt F) → (⟨S97x120, .f32⟩ : BufTy).Contents (Elt F)),
    StableHlo.binary main_arg1 main_v43 main_v44 ((fun l r => Host.dotGeneral dot_S131072x97_S97x120_S131072x120_1_0_0_1_n_n none l r) : (⟨S131072x97, .f32⟩ : BufTy).Contents (Elt F) → (⟨S97x120, .f32⟩ : BufTy).Contents (Elt F) → (⟨S131072x120, .f32⟩ : BufTy).Contents (Elt F)),
    StableHlo.nullary main_cst_9 (constant S_ .f32 0x45FE0000#32),
    StableHlo.unary main_cst_9 main_v45 (broadcastInDim S120 ![] bcast_S_S120 : (⟨S_, .f32⟩ : BufTy).Contents (Elt F) → (⟨S120, .f32⟩ : BufTy).Contents (Elt F)),
    StableHlo.binary main_arg6 main_v45 main_v46 (mulf : (⟨S120, .f32⟩ : BufTy).Contents (Elt F) → (⟨S120, .f32⟩ : BufTy).Contents (Elt F) → (⟨S120, .f32⟩ : BufTy).Contents (Elt F)),
    StableHlo.TRef.unary (StableHlo.TRef.of main_v46 : StableHlo.TRef sig ⟨S120, .f32⟩) main_call4.v0 Host.roundeven,
    StableHlo.nullary main_cst_10 (constant S_ .f32 0x45FE0000#32),
    StableHlo.unary main_cst_10 main_v48 (broadcastInDim S120 ![] bcast_S_S120 : (⟨S_, .f32⟩ : BufTy).Contents (Elt F) → (⟨S120, .f32⟩ : BufTy).Contents (Elt F)),
    StableHlo.binary main_v47 main_v48 main_v49 (Host.divf : (⟨S120, .f32⟩ : BufTy).Contents (Elt F) → (⟨S120, .f32⟩ : BufTy).Contents (Elt F) → (⟨S120, .f32⟩ : BufTy).Contents (Elt F)),
    StableHlo.binary main_v49 main_arg6 main_v50 (subf : (⟨S120, .f32⟩ : BufTy).Contents (Elt F) → (⟨S120, .f32⟩ : BufTy).Contents (Elt F) → (⟨S120, .f32⟩ : BufTy).Contents (Elt F)),
    StableHlo.binary main_arg6 main_v50 main_v51 (addf : (⟨S120, .f32⟩ : BufTy).Contents (Elt F) → (⟨S120, .f32⟩ : BufTy).Contents (Elt F) → (⟨S120, .f32⟩ : BufTy).Contents (Elt F)),
    StableHlo.unary main_v51 main_v52 (broadcastInDim S1x120 ![1] bcast_S120_S1x120_1 : (⟨S120, .f32⟩ : BufTy).Contents (Elt F) → (⟨S1x120, .f32⟩ : BufTy).Contents (Elt F)),
    StableHlo.unary main_v52 main_v53 (broadcastInDim S131072x120 ![0, 1] bcast_S1x120_S131072x120_0_1 : (⟨S1x120, .f32⟩ : BufTy).Contents (Elt F) → (⟨S131072x120, .f32⟩ : BufTy).Contents (Elt F)),
    StableHlo.binary main_v44 main_v53 main_v54 (addf : (⟨S131072x120, .f32⟩ : BufTy).Contents (Elt F) → (⟨S131072x120, .f32⟩ : BufTy).Contents (Elt F) → (⟨S131072x120, .f32⟩ : BufTy).Contents (Elt F)),
    StableHlo.reshape main_v54 main_v55 rfl shapeCasts_S131072x120_S131072x15x8,
    StableHlo.nullary main_c_11 (constantI S_ 32 0#32),
    StableHlo.unary main_c_11 main_v56 (broadcastInDim S131072 ![] bcast_S_S131072 : (⟨S_, .i32⟩ : BufTy).Contents (Elt F) → (⟨S131072, .i32⟩ : BufTy).Contents (Elt F)),
    StableHlo.binary main_v0 main_v56 main_v57 (cmpi .slt : (⟨S131072, .i32⟩ : BufTy).Contents (Elt F) → (⟨S131072, .i32⟩ : BufTy).Contents (Elt F) → (⟨S131072, .i1⟩ : BufTy).Contents (Elt F)),
    StableHlo.nullary main_c_12 (constantI S_ 32 131072#32),
    StableHlo.unary main_c_12 main_v58 (broadcastInDim S131072 ![] bcast_S_S131072 : (⟨S_, .i32⟩ : BufTy).Contents (Elt F) → (⟨S131072, .i32⟩ : BufTy).Contents (Elt F)),
    StableHlo.binary main_v0 main_v58 main_v59 (addi : (⟨S131072, .i32⟩ : BufTy).Contents (Elt F) → (⟨S131072, .i32⟩ : BufTy).Contents (Elt F) → (⟨S131072, .i32⟩ : BufTy).Contents (Elt F)),
    StableHlo.ternary main_v57 main_v59 main_v0 main_v60 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_13 (constantI S_ 32 0#32),
    StableHlo.unary main_c_13 main_v61 (broadcastInDim S131072 ![] bcast_S_S131072 : (⟨S_, .i32⟩ : BufTy).Contents (Elt F) → (⟨S131072, .i32⟩ : BufTy).Contents (Elt F)),
    StableHlo.binary main_v1 main_v61 main_v62 (cmpi .slt : (⟨S131072, .i32⟩ : BufTy).Contents (Elt F) → (⟨S131072, .i32⟩ : BufTy).Contents (Elt F) → (⟨S131072, .i1⟩ : BufTy).Contents (Elt F)),
    StableHlo.nullary main_c_14 (constantI S_ 32 15#32),
    StableHlo.unary main_c_14 main_v63 (broadcastInDim S131072 ![] bcast_S_S131072 : (⟨S_, .i32⟩ : BufTy).Contents (Elt F) → (⟨S131072, .i32⟩ : BufTy).Contents (Elt F)),
    StableHlo.binary main_v1 main_v63 main_v64 (addi : (⟨S131072, .i32⟩ : BufTy).Contents (Elt F) → (⟨S131072, .i32⟩ : BufTy).Contents (Elt F) → (⟨S131072, .i32⟩ : BufTy).Contents (Elt F)),
    StableHlo.ternary main_v62 main_v64 main_v1 main_v65 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v60 main_v66 (broadcastInDim S131072x1 ![0] bcast_S131072_S131072x1_0 : (⟨S131072, .i32⟩ : BufTy).Contents (Elt F) → (⟨S131072x1, .i32⟩ : BufTy).Contents (Elt F)),
    StableHlo.unary main_v65 main_v67 (broadcastInDim S131072x1 ![0] bcast_S131072_S131072x1_0 : (⟨S131072, .i32⟩ : BufTy).Contents (Elt F) → (⟨S131072x1, .i32⟩ : BufTy).Contents (Elt F)),
    StableHlo.binary main_v66 main_v67 main_v68 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_v55 main_v68 main_v69 ((fun x i => Host.gather gather_S131072x15x8_S131072x2_S131072x8_1_01_n_n_01_1_118 x i) : (⟨S131072x15x8, .f32⟩ : BufTy).Contents (Elt F) → (⟨S131072x2, .i32⟩ : BufTy).Contents (Elt F) → (⟨S131072x8, .f32⟩ : BufTy).Contents (Elt F)),
    StableHlo.binary main_v35 main_v69 main_v70 ((fun a b => concatenate S131072x16 1 [⟨S131072x8, a⟩, ⟨S131072x8, b⟩] concatenates_S131072x8_S131072x8_S131072x16_d1) : (⟨S131072x8, .f32⟩ : BufTy).Contents (Elt F) → (⟨S131072x8, .f32⟩ : BufTy).Contents (Elt F) → (⟨S131072x16, .f32⟩ : BufTy).Contents (Elt F)),
    StableHlo.binary main_v70 main_v70 main_v71 (mulf : (⟨S131072x16, .f32⟩ : BufTy).Contents (Elt F) → (⟨S131072x16, .f32⟩ : BufTy).Contents (Elt F) → (⟨S131072x16, .f32⟩ : BufTy).Contents (Elt F)),
    StableHlo.nullary main_cst_15 (constant S_ .f32 0x3F7E0000#32),
    StableHlo.unary main_cst_15 main_v72 (broadcastInDim S131072x16 ![] bcast_S_S131072x16 : (⟨S_, .f32⟩ : BufTy).Contents (Elt F) → (⟨S131072x16, .f32⟩ : BufTy).Contents (Elt F)),
    StableHlo.binary main_v71 main_v72 main_v73 (mulf : (⟨S131072x16, .f32⟩ : BufTy).Contents (Elt F) → (⟨S131072x16, .f32⟩ : BufTy).Contents (Elt F) → (⟨S131072x16, .f32⟩ : BufTy).Contents (Elt F)),
    StableHlo.binary main_v73 main_v70 main_v74 ((fun a b => concatenate S131072x32 1 [⟨S131072x16, a⟩, ⟨S131072x16, b⟩] concatenates_S131072x16_S131072x16_S131072x32_d1) : (⟨S131072x16, .f32⟩ : BufTy).Contents (Elt F) → (⟨S131072x16, .f32⟩ : BufTy).Contents (Elt F) → (⟨S131072x32, .f32⟩ : BufTy).Contents (Elt F)),
    StableHlo.nullary main_cst_16 (constant S_ .f32 0x00000000#32),
    StableHlo.nullary main_cst_17 (constant S_ .f32 0x3F800000#32),
    StableHlo.TRef.unary (StableHlo.TRef.of main_cst_16 : StableHlo.TRef sig ⟨S_, .f32⟩) main_call5.v0 id,
    StableHlo.TRef.unary main_call5.v0 main_call5.v1 (broadcastInDim S131072x32 ![] bcast_S_S131072x32),
    StableHlo.TRef.binary main_call5.v1 (StableHlo.TRef.of main_v74 : StableHlo.TRef sig ⟨S131072x32, .f32⟩) main_call5.v2 maximumf,
    StableHlo.TRef.unary (StableHlo.TRef.of main_cst_17 : StableHlo.TRef sig ⟨S_, .f32⟩) main_call5.v3 id,
    StableHlo.TRef.unary main_call5.v3 main_call5.v4 (broadcastInDim S131072x32 ![] bcast_S_S131072x32),
    StableHlo.TRef.binary main_call5.v4 main_call5.v2 main_call5.v5 minimumf,
    StableHlo.nullary main_cst_18 (constant S_ .f32 0x42FE0000#32),
    StableHlo.unary main_cst_18 main_v76 (broadcastInDim S131072x32 ![] bcast_S_S131072x32 : (⟨S_, .f32⟩ : BufTy).Contents (Elt F) → (⟨S131072x32, .f32⟩ : BufTy).Contents (Elt F)),
    StableHlo.binary main_v75 main_v76 main_v77 (mulf : (⟨S131072x32, .f32⟩ : BufTy).Contents (Elt F) → (⟨S131072x32, .f32⟩ : BufTy).Contents (Elt F) → (⟨S131072x32, .f32⟩ : BufTy).Contents (Elt F)),
    StableHlo.unary main_v77 main_v78 (Host.floor : (⟨S131072x32, .f32⟩ : BufTy).Contents (Elt F) → (⟨S131072x32, .f32⟩ : BufTy).Contents (Elt F)),
    StableHlo.nullary main_cst_19 (constant S_ .f32 0x42FE0000#32),
    StableHlo.unary main_cst_19 main_v79 (broadcastInDim S131072x32 ![] bcast_S_S131072x32 : (⟨S_, .f32⟩ : BufTy).Contents (Elt F) → (⟨S131072x32, .f32⟩ : BufTy).Contents (Elt F)),
    StableHlo.binary main_v78 main_v79 main_v80 (Host.divf : (⟨S131072x32, .f32⟩ : BufTy).Contents (Elt F) → (⟨S131072x32, .f32⟩ : BufTy).Contents (Elt F) → (⟨S131072x32, .f32⟩ : BufTy).Contents (Elt F)),
    StableHlo.binary main_v80 main_v75 main_v81 (subf : (⟨S131072x32, .f32⟩ : BufTy).Contents (Elt F) → (⟨S131072x32, .f32⟩ : BufTy).Contents (Elt F) → (⟨S131072x32, .f32⟩ : BufTy).Contents (Elt F)),
    StableHlo.binary main_v75 main_v81 main_v82 (addf : (⟨S131072x32, .f32⟩ : BufTy).Contents (Elt F) → (⟨S131072x32, .f32⟩ : BufTy).Contents (Elt F) → (⟨S131072x32, .f32⟩ : BufTy).Contents (Elt F)),
    StableHlo.nullary main_cst_20 (constant S_ .f32 0x42800000#32),
    StableHlo.unary main_cst_20 main_v83 (broadcastInDim S960x32 ![] bcast_S_S960x32 : (⟨S_, .f32⟩ : BufTy).Contents (Elt F) → (⟨S960x32, .f32⟩ : BufTy).Contents (Elt F)),
    StableHlo.binary main_arg7 main_v83 main_v84 (mulf : (⟨S960x32, .f32⟩ : BufTy).Contents (Elt F) → (⟨S960x32, .f32⟩ : BufTy).Contents (Elt F) → (⟨S960x32, .f32⟩ : BufTy).Contents (Elt F)),
    StableHlo.TRef.unary (StableHlo.TRef.of main_v84 : StableHlo.TRef sig ⟨S960x32, .f32⟩) main_call6.v0 Host.roundeven,
    StableHlo.nullary main_cst_21 (constant S_ .f32 0x42800000#32),
    StableHlo.unary main_cst_21 main_v86 (broadcastInDim S960x32 ![] bcast_S_S960x32 : (⟨S_, .f32⟩ : BufTy).Contents (Elt F) → (⟨S960x32, .f32⟩ : BufTy).Contents (Elt F)),
    StableHlo.binary main_v85 main_v86 main_v87 (Host.divf : (⟨S960x32, .f32⟩ : BufTy).Contents (Elt F) → (⟨S960x32, .f32⟩ : BufTy).Contents (Elt F) → (⟨S960x32, .f32⟩ : BufTy).Contents (Elt F)),
    StableHlo.binary main_v87 main_arg7 main_v88 (subf : (⟨S960x32, .f32⟩ : BufTy).Contents (Elt F) → (⟨S960x32, .f32⟩ : BufTy).Contents (Elt F) → (⟨S960x32, .f32⟩ : BufTy).Contents (Elt F)),
    StableHlo.binary main_arg7 main_v88 main_v89 (addf : (⟨S960x32, .f32⟩ : BufTy).Contents (Elt F) → (⟨S960x32, .f32⟩ : BufTy).Contents (Elt F) → (⟨S960x32, .f32⟩ : BufTy).Contents (Elt F)),
    StableHlo.unary main_v89 main_v90 ((transpose S32x960 [1, 0] · transposes_S960x32_S32x960_1_0) : (⟨S960x32, .f32⟩ : BufTy).Contents (Elt F) → (⟨S32x960, .f32⟩ : BufTy).Contents (Elt F)),
    StableHlo.binary main_v82 main_v90 main_v91 ((fun l r => Host.dotGeneral dot_S131072x32_S32x960_S131072x960_1_0_0_1_n_n none l r) : (⟨S131072x32, .f32⟩ : BufTy).Contents (Elt F) → (⟨S32x960, .f32⟩ : BufTy).Contents (Elt F) → (⟨S131072x960, .f32⟩ : BufTy).Contents (Elt F)),
    StableHlo.nullary main_cst_22 (constant S_ .f32 0x45FE0000#32),
    StableHlo.unary main_cst_22 main_v92 (broadcastInDim S960 ![] bcast_S_S960 : (⟨S_, .f32⟩ : BufTy).Contents (Elt F) → (⟨S960, .f32⟩ : BufTy).Contents (Elt F)),
    StableHlo.binary main_arg8 main_v92 main_v93 (mulf : (⟨S960, .f32⟩ : BufTy).Contents (Elt F) → (⟨S960, .f32⟩ : BufTy).Contents (Elt F) → (⟨S960, .f32⟩ : BufTy).Contents (Elt F)),
    StableHlo.TRef.unary (StableHlo.TRef.of main_v93 : StableHlo.TRef sig ⟨S960, .f32⟩) main_call7.v0 Host.roundeven,
    StableHlo.nullary main_cst_23 (constant S_ .f32 0x45FE0000#32),
    StableHlo.unary main_cst_23 main_v95 (broadcastInDim S960 ![] bcast_S_S960 : (⟨S_, .f32⟩ : BufTy).Contents (Elt F) → (⟨S960, .f32⟩ : BufTy).Contents (Elt F)),
    StableHlo.binary main_v94 main_v95 main_v96 (Host.divf : (⟨S960, .f32⟩ : BufTy).Contents (Elt F) → (⟨S960, .f32⟩ : BufTy).Contents (Elt F) → (⟨S960, .f32⟩ : BufTy).Contents (Elt F)),
    StableHlo.binary main_v96 main_arg8 main_v97 (subf : (⟨S960, .f32⟩ : BufTy).Contents (Elt F) → (⟨S960, .f32⟩ : BufTy).Contents (Elt F) → (⟨S960, .f32⟩ : BufTy).Contents (Elt F)),
    StableHlo.binary main_arg8 main_v97 main_v98 (addf : (⟨S960, .f32⟩ : BufTy).Contents (Elt F) → (⟨S960, .f32⟩ : BufTy).Contents (Elt F) → (⟨S960, .f32⟩ : BufTy).Contents (Elt F)),
    StableHlo.unary main_v98 main_v99 (broadcastInDim S1x960 ![1] bcast_S960_S1x960_1 : (⟨S960, .f32⟩ : BufTy).Contents (Elt F) → (⟨S1x960, .f32⟩ : BufTy).Contents (Elt F)),
    StableHlo.unary main_v99 main_v100 (broadcastInDim S131072x960 ![0, 1] bcast_S1x960_S131072x960_0_1 : (⟨S1x960, .f32⟩ : BufTy).Contents (Elt F) → (⟨S131072x960, .f32⟩ : BufTy).Contents (Elt F)),
    StableHlo.binary main_v91 main_v100 main_v101 (addf : (⟨S131072x960, .f32⟩ : BufTy).Contents (Elt F) → (⟨S131072x960, .f32⟩ : BufTy).Contents (Elt F) → (⟨S131072x960, .f32⟩ : BufTy).Contents (Elt F)),
    StableHlo.reshape main_v101 main_v102 rfl shapeCasts_S131072x960_S131072x15x64,
    StableHlo.nullary main_c_24 (constantI S_ 32 0#32),
    StableHlo.unary main_c_24 main_v103 (broadcastInDim S131072 ![] bcast_S_S131072 : (⟨S_, .i32⟩ : BufTy).Contents (Elt F) → (⟨S131072, .i32⟩ : BufTy).Contents (Elt F)),
    StableHlo.binary main_v0 main_v103 main_v104 (cmpi .slt : (⟨S131072, .i32⟩ : BufTy).Contents (Elt F) → (⟨S131072, .i32⟩ : BufTy).Contents (Elt F) → (⟨S131072, .i1⟩ : BufTy).Contents (Elt F)),
    StableHlo.nullary main_c_25 (constantI S_ 32 131072#32),
    StableHlo.unary main_c_25 main_v105 (broadcastInDim S131072 ![] bcast_S_S131072 : (⟨S_, .i32⟩ : BufTy).Contents (Elt F) → (⟨S131072, .i32⟩ : BufTy).Contents (Elt F)),
    StableHlo.binary main_v0 main_v105 main_v106 (addi : (⟨S131072, .i32⟩ : BufTy).Contents (Elt F) → (⟨S131072, .i32⟩ : BufTy).Contents (Elt F) → (⟨S131072, .i32⟩ : BufTy).Contents (Elt F)),
    StableHlo.ternary main_v104 main_v106 main_v0 main_v107 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_26 (constantI S_ 32 0#32),
    StableHlo.unary main_c_26 main_v108 (broadcastInDim S131072 ![] bcast_S_S131072 : (⟨S_, .i32⟩ : BufTy).Contents (Elt F) → (⟨S131072, .i32⟩ : BufTy).Contents (Elt F)),
    StableHlo.binary main_v1 main_v108 main_v109 (cmpi .slt : (⟨S131072, .i32⟩ : BufTy).Contents (Elt F) → (⟨S131072, .i32⟩ : BufTy).Contents (Elt F) → (⟨S131072, .i1⟩ : BufTy).Contents (Elt F)),
    StableHlo.nullary main_c_27 (constantI S_ 32 15#32),
    StableHlo.unary main_c_27 main_v110 (broadcastInDim S131072 ![] bcast_S_S131072 : (⟨S_, .i32⟩ : BufTy).Contents (Elt F) → (⟨S131072, .i32⟩ : BufTy).Contents (Elt F)),
    StableHlo.binary main_v1 main_v110 main_v111 (addi : (⟨S131072, .i32⟩ : BufTy).Contents (Elt F) → (⟨S131072, .i32⟩ : BufTy).Contents (Elt F) → (⟨S131072, .i32⟩ : BufTy).Contents (Elt F)),
    StableHlo.ternary main_v109 main_v111 main_v1 main_v112 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v107 main_v113 (broadcastInDim S131072x1 ![0] bcast_S131072_S131072x1_0 : (⟨S131072, .i32⟩ : BufTy).Contents (Elt F) → (⟨S131072x1, .i32⟩ : BufTy).Contents (Elt F)),
    StableHlo.unary main_v112 main_v114 (broadcastInDim S131072x1 ![0] bcast_S131072_S131072x1_0 : (⟨S131072, .i32⟩ : BufTy).Contents (Elt F) → (⟨S131072x1, .i32⟩ : BufTy).Contents (Elt F)),
    StableHlo.binary main_v113 main_v114 main_v115 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_v102 main_v115 main_v116 ((fun x i => Host.gather gather_S131072x15x64_S131072x2_S131072x64_1_01_n_n_01_1_1164 x i) : (⟨S131072x15x64, .f32⟩ : BufTy).Contents (Elt F) → (⟨S131072x2, .i32⟩ : BufTy).Contents (Elt F) → (⟨S131072x64, .f32⟩ : BufTy).Contents (Elt F)),
    StableHlo.nullary main_cst_28 (constant S_ .f32 0x00000000#32),
    StableHlo.nullary main_cst_29 (constant S_ .f32 0x3F800000#32),
    StableHlo.TRef.unary (StableHlo.TRef.of main_cst_28 : StableHlo.TRef sig ⟨S_, .f32⟩) main_call8.v0 id,
    StableHlo.TRef.unary main_call8.v0 main_call8.v1 (broadcastInDim S131072x64 ![] bcast_S_S131072x64),
    StableHlo.TRef.binary main_call8.v1 (StableHlo.TRef.of main_v116 : StableHlo.TRef sig ⟨S131072x64, .f32⟩) main_call8.v2 maximumf,
    StableHlo.TRef.unary (StableHlo.TRef.of main_cst_29 : StableHlo.TRef sig ⟨S_, .f32⟩) main_call8.v3 id,
    StableHlo.TRef.unary main_call8.v3 main_call8.v4 (broadcastInDim S131072x64 ![] bcast_S_S131072x64),
    StableHlo.TRef.binary main_call8.v4 main_call8.v2 main_call8.v5 minimumf,
    StableHlo.nullary main_cst_30 (constant S_ .f32 0x42FE0000#32),
    StableHlo.unary main_cst_30 main_v118 (broadcastInDim S131072x64 ![] bcast_S_S131072x64 : (⟨S_, .f32⟩ : BufTy).Contents (Elt F) → (⟨S131072x64, .f32⟩ : BufTy).Contents (Elt F)),
    StableHlo.binary main_v117 main_v118 main_v119 (mulf : (⟨S131072x64, .f32⟩ : BufTy).Contents (Elt F) → (⟨S131072x64, .f32⟩ : BufTy).Contents (Elt F) → (⟨S131072x64, .f32⟩ : BufTy).Contents (Elt F)),
    StableHlo.unary main_v119 main_v120 (Host.floor : (⟨S131072x64, .f32⟩ : BufTy).Contents (Elt F) → (⟨S131072x64, .f32⟩ : BufTy).Contents (Elt F)),
    StableHlo.nullary main_cst_31 (constant S_ .f32 0x42FE0000#32),
    StableHlo.unary main_cst_31 main_v121 (broadcastInDim S131072x64 ![] bcast_S_S131072x64 : (⟨S_, .f32⟩ : BufTy).Contents (Elt F) → (⟨S131072x64, .f32⟩ : BufTy).Contents (Elt F)),
    StableHlo.binary main_v120 main_v121 main_v122 (Host.divf : (⟨S131072x64, .f32⟩ : BufTy).Contents (Elt F) → (⟨S131072x64, .f32⟩ : BufTy).Contents (Elt F) → (⟨S131072x64, .f32⟩ : BufTy).Contents (Elt F)),
    StableHlo.binary main_v122 main_v117 main_v123 (subf : (⟨S131072x64, .f32⟩ : BufTy).Contents (Elt F) → (⟨S131072x64, .f32⟩ : BufTy).Contents (Elt F) → (⟨S131072x64, .f32⟩ : BufTy).Contents (Elt F)),
    StableHlo.binary main_v117 main_v123 main_v124 (addf : (⟨S131072x64, .f32⟩ : BufTy).Contents (Elt F) → (⟨S131072x64, .f32⟩ : BufTy).Contents (Elt F) → (⟨S131072x64, .f32⟩ : BufTy).Contents (Elt F)),
    StableHlo.nullary main_cst_32 (constant S_ .f32 0x41010204#32),
    StableHlo.unary main_cst_32 main_v125 (broadcastInDim S15x64 ![] bcast_S_S15x64 : (⟨S_, .f32⟩ : BufTy).Contents (Elt F) → (⟨S15x64, .f32⟩ : BufTy).Contents (Elt F)),
    StableHlo.binary main_arg9 main_v125 main_v126 (mulf : (⟨S15x64, .f32⟩ : BufTy).Contents (Elt F) → (⟨S15x64, .f32⟩ : BufTy).Contents (Elt F) → (⟨S15x64, .f32⟩ : BufTy).Contents (Elt F)),
    StableHlo.TRef.unary (StableHlo.TRef.of main_v126 : StableHlo.TRef sig ⟨S15x64, .f32⟩) main_call9.v0 Host.roundeven,
    StableHlo.nullary main_cst_33 (constant S_ .f32 0x41010204#32),
    StableHlo.unary main_cst_33 main_v128 (broadcastInDim S15x64 ![] bcast_S_S15x64 : (⟨S_, .f32⟩ : BufTy).Contents (Elt F) → (⟨S15x64, .f32⟩ : BufTy).Contents (Elt F)),
    StableHlo.binary main_v127 main_v128 main_v129 (Host.divf : (⟨S15x64, .f32⟩ : BufTy).Contents (Elt F) → (⟨S15x64, .f32⟩ : BufTy).Contents (Elt F) → (⟨S15x64, .f32⟩ : BufTy).Contents (Elt F)),
    StableHlo.binary main_v129 main_arg9 main_v130 (subf : (⟨S15x64, .f32⟩ : BufTy).Contents (Elt F) → (⟨S15x64, .f32⟩ : BufTy).Contents (Elt F) → (⟨S15x64, .f32⟩ : BufTy).Contents (Elt F)),
    StableHlo.binary main_arg9 main_v130 main_v131 (addf : (⟨S15x64, .f32⟩ : BufTy).Contents (Elt F) → (⟨S15x64, .f32⟩ : BufTy).Contents (Elt F) → (⟨S15x64, .f32⟩ : BufTy).Contents (Elt F)),
    StableHlo.unary main_v131 main_v132 ((transpose S64x15 [1, 0] · transposes_S15x64_S64x15_1_0) : (⟨S15x64, .f32⟩ : BufTy).Contents (Elt F) → (⟨S64x15, .f32⟩ : BufTy).Contents (Elt F)),
    StableHlo.binary main_v124 main_v132 main_v133 ((fun l r => Host.dotGeneral dot_S131072x64_S64x15_S131072x15_1_0_0_1_n_n none l r) : (⟨S131072x64, .f32⟩ : BufTy).Contents (Elt F) → (⟨S64x15, .f32⟩ : BufTy).Contents (Elt F) → (⟨S131072x15, .f32⟩ : BufTy).Contents (Elt F)),
    StableHlo.nullary main_cst_34 (constant S_ .f32 0x44800000#32),
    StableHlo.unary main_cst_34 main_v134 (broadcastInDim S15 ![] bcast_S_S15 : (⟨S_, .f32⟩ : BufTy).Contents (Elt F) → (⟨S15, .f32⟩ : BufTy).Contents (Elt F)),
    StableHlo.binary main_arg10 main_v134 main_v135 (mulf : (⟨S15, .f32⟩ : BufTy).Contents (Elt F) → (⟨S15, .f32⟩ : BufTy).Contents (Elt F) → (⟨S15, .f32⟩ : BufTy).Contents (Elt F)),
    StableHlo.TRef.unary (StableHlo.TRef.of main_v135 : StableHlo.TRef sig ⟨S15, .f32⟩) main_call10.v0 Host.roundeven,
    StableHlo.nullary main_cst_35 (constant S_ .f32 0x44800000#32),
    StableHlo.unary main_cst_35 main_v137 (broadcastInDim S15 ![] bcast_S_S15 : (⟨S_, .f32⟩ : BufTy).Contents (Elt F) → (⟨S15, .f32⟩ : BufTy).Contents (Elt F)),
    StableHlo.binary main_v136 main_v137 main_v138 (Host.divf : (⟨S15, .f32⟩ : BufTy).Contents (Elt F) → (⟨S15, .f32⟩ : BufTy).Contents (Elt F) → (⟨S15, .f32⟩ : BufTy).Contents (Elt F)),
    StableHlo.binary main_v138 main_arg10 main_v139 (subf : (⟨S15, .f32⟩ : BufTy).Contents (Elt F) → (⟨S15, .f32⟩ : BufTy).Contents (Elt F) → (⟨S15, .f32⟩ : BufTy).Contents (Elt F)),
    StableHlo.binary main_arg10 main_v139 main_v140 (addf : (⟨S15, .f32⟩ : BufTy).Contents (Elt F) → (⟨S15, .f32⟩ : BufTy).Contents (Elt F) → (⟨S15, .f32⟩ : BufTy).Contents (Elt F)),
    StableHlo.unary main_v140 main_v141 (broadcastInDim S1x15 ![1] bcast_S15_S1x15_1 : (⟨S15, .f32⟩ : BufTy).Contents (Elt F) → (⟨S1x15, .f32⟩ : BufTy).Contents (Elt F)),
    StableHlo.unary main_v141 main_v142 (broadcastInDim S131072x15 ![0, 1] bcast_S1x15_S131072x15_0_1 : (⟨S1x15, .f32⟩ : BufTy).Contents (Elt F) → (⟨S131072x15, .f32⟩ : BufTy).Contents (Elt F)),
    StableHlo.binary main_v133 main_v142 main_v143 (addf : (⟨S131072x15, .f32⟩ : BufTy).Contents (Elt F) → (⟨S131072x15, .f32⟩ : BufTy).Contents (Elt F) → (⟨S131072x15, .f32⟩ : BufTy).Contents (Elt F)),
    StableHlo.reshape main_v143 main_v144 rfl shapeCasts_S131072x15_S131072x15x1,
    StableHlo.nullary main_c_36 (constantI S_ 32 0#32),
    StableHlo.unary main_c_36 main_v145 (broadcastInDim S131072 ![] bcast_S_S131072 : (⟨S_, .i32⟩ : BufTy).Contents (Elt F) → (⟨S131072, .i32⟩ : BufTy).Contents (Elt F)),
    StableHlo.binary main_v0 main_v145 main_v146 (cmpi .slt : (⟨S131072, .i32⟩ : BufTy).Contents (Elt F) → (⟨S131072, .i32⟩ : BufTy).Contents (Elt F) → (⟨S131072, .i1⟩ : BufTy).Contents (Elt F)),
    StableHlo.nullary main_c_37 (constantI S_ 32 131072#32),
    StableHlo.unary main_c_37 main_v147 (broadcastInDim S131072 ![] bcast_S_S131072 : (⟨S_, .i32⟩ : BufTy).Contents (Elt F) → (⟨S131072, .i32⟩ : BufTy).Contents (Elt F)),
    StableHlo.binary main_v0 main_v147 main_v148 (addi : (⟨S131072, .i32⟩ : BufTy).Contents (Elt F) → (⟨S131072, .i32⟩ : BufTy).Contents (Elt F) → (⟨S131072, .i32⟩ : BufTy).Contents (Elt F)),
    StableHlo.ternary main_v146 main_v148 main_v0 main_v149 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.nullary main_c_38 (constantI S_ 32 0#32),
    StableHlo.unary main_c_38 main_v150 (broadcastInDim S131072 ![] bcast_S_S131072 : (⟨S_, .i32⟩ : BufTy).Contents (Elt F) → (⟨S131072, .i32⟩ : BufTy).Contents (Elt F)),
    StableHlo.binary main_v1 main_v150 main_v151 (cmpi .slt : (⟨S131072, .i32⟩ : BufTy).Contents (Elt F) → (⟨S131072, .i32⟩ : BufTy).Contents (Elt F) → (⟨S131072, .i1⟩ : BufTy).Contents (Elt F)),
    StableHlo.nullary main_c_39 (constantI S_ 32 15#32),
    StableHlo.unary main_c_39 main_v152 (broadcastInDim S131072 ![] bcast_S_S131072 : (⟨S_, .i32⟩ : BufTy).Contents (Elt F) → (⟨S131072, .i32⟩ : BufTy).Contents (Elt F)),
    StableHlo.binary main_v1 main_v152 main_v153 (addi : (⟨S131072, .i32⟩ : BufTy).Contents (Elt F) → (⟨S131072, .i32⟩ : BufTy).Contents (Elt F) → (⟨S131072, .i32⟩ : BufTy).Contents (Elt F)),
    StableHlo.ternary main_v151 main_v153 main_v1 main_v154 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v149 main_v155 (broadcastInDim S131072x1 ![0] bcast_S131072_S131072x1_0 : (⟨S131072, .i32⟩ : BufTy).Contents (Elt F) → (⟨S131072x1, .i32⟩ : BufTy).Contents (Elt F)),
    StableHlo.unary main_v154 main_v156 (broadcastInDim S131072x1 ![0] bcast_S131072_S131072x1_0 : (⟨S131072, .i32⟩ : BufTy).Contents (Elt F) → (⟨S131072x1, .i32⟩ : BufTy).Contents (Elt F)),
    StableHlo.binary main_v155 main_v156 main_v157 ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)),
    StableHlo.binary main_v144 main_v157 main_v158 ((fun x i => Host.gather gather_S131072x15x1_S131072x2_S131072x1_1_01_n_n_01_1_111 x i) : (⟨S131072x15x1, .f32⟩ : BufTy).Contents (Elt F) → (⟨S131072x2, .i32⟩ : BufTy).Contents (Elt F) → (⟨S131072x1, .f32⟩ : BufTy).Contents (Elt F)),
    StableHlo.nullary main_cst_40 (constant S_ .f32 0x42800000#32),
    StableHlo.unary main_cst_40 main_v159 (broadcastInDim S131072x1 ![] bcast_S_S131072x1 : (⟨S_, .f32⟩ : BufTy).Contents (Elt F) → (⟨S131072x1, .f32⟩ : BufTy).Contents (Elt F)),
    StableHlo.binary main_v158 main_v159 main_v160 (mulf : (⟨S131072x1, .f32⟩ : BufTy).Contents (Elt F) → (⟨S131072x1, .f32⟩ : BufTy).Contents (Elt F) → (⟨S131072x1, .f32⟩ : BufTy).Contents (Elt F)),
    StableHlo.unary main_v160 main_v161 (Host.floor : (⟨S131072x1, .f32⟩ : BufTy).Contents (Elt F) → (⟨S131072x1, .f32⟩ : BufTy).Contents (Elt F)),
    StableHlo.nullary main_cst_41 (constant S_ .f32 0x42800000#32),
    StableHlo.unary main_cst_41 main_v162 (broadcastInDim S131072x1 ![] bcast_S_S131072x1 : (⟨S_, .f32⟩ : BufTy).Contents (Elt F) → (⟨S131072x1, .f32⟩ : BufTy).Contents (Elt F)),
    StableHlo.binary main_v161 main_v162 main_v163 (Host.divf : (⟨S131072x1, .f32⟩ : BufTy).Contents (Elt F) → (⟨S131072x1, .f32⟩ : BufTy).Contents (Elt F) → (⟨S131072x1, .f32⟩ : BufTy).Contents (Elt F)),
    StableHlo.binary main_v163 main_v158 main_v164 (subf : (⟨S131072x1, .f32⟩ : BufTy).Contents (Elt F) → (⟨S131072x1, .f32⟩ : BufTy).Contents (Elt F) → (⟨S131072x1, .f32⟩ : BufTy).Contents (Elt F)),
    StableHlo.binary main_v158 main_v164 main_v165 (addf : (⟨S131072x1, .f32⟩ : BufTy).Contents (Elt F) → (⟨S131072x1, .f32⟩ : BufTy).Contents (Elt F) → (⟨S131072x1, .f32⟩ : BufTy).Contents (Elt F)) ]

/-- The references they write, in order. -/
abbrev ys : List (Ref sig .tc) :=
  [ main_v0, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v1, main_cst, main_v2, main_v3, main_v4, main_cst_0, main_v5, main_v6, main_v7, main_v8, main_v9, main_v10, main_cst_1, main_v11, main_v12, main_v13, main_cst_2, main_v14, main_v15, main_v16, main_v17, main_v18, main_v19, main_v20, main_v21, main_c_3, main_v22, main_v23, main_c_4, main_v24, main_v25, main_v26, main_c_5, main_v27, main_v28, main_c_6, main_v29, main_v30, main_v31, main_v32, main_v33, main_v34, main_v35, main_cst_7, main_v36, main_v37, main_v38, main_cst_8, main_v39, main_v40, main_v41, main_v42, main_v43, main_v44, main_cst_9, main_v45, main_v46, main_v47, main_cst_10, main_v48, main_v49, main_v50, main_v51, main_v52, main_v53, main_v54, main_v55, main_c_11, main_v56, main_v57, main_c_12, main_v58, main_v59, main_v60, main_c_13, main_v61, main_v62, main_c_14, main_v63, main_v64, main_v65, main_v66, main_v67, main_v68, main_v69, main_v70, main_v71, main_cst_15, main_v72, main_v73, main_v74, main_cst_16, main_cst_17, main_call5_v0, main_call5_v1, main_call5_v2, main_call5_v3, main_call5_v4, main_v75, main_cst_18, main_v76, main_v77, main_v78, main_cst_19, main_v79, main_v80, main_v81, main_v82, main_cst_20, main_v83, main_v84, main_v85, main_cst_21, main_v86, main_v87, main_v88, main_v89, main_v90, main_v91, main_cst_22, main_v92, main_v93, main_v94, main_cst_23, main_v95, main_v96, main_v97, main_v98, main_v99, main_v100, main_v101, main_v102, main_c_24, main_v103, main_v104, main_c_25, main_v105, main_v106, main_v107, main_c_26, main_v108, main_v109, main_c_27, main_v110, main_v111, main_v112, main_v113, main_v114, main_v115, main_v116, main_cst_28, main_cst_29, main_call8_v0, main_call8_v1, main_call8_v2, main_call8_v3, main_call8_v4, main_v117, main_cst_30, main_v118, main_v119, main_v120, main_cst_31, main_v121, main_v122, main_v123, main_v124, main_cst_32, main_v125, main_v126, main_v127, main_cst_33, main_v128, main_v129, main_v130, main_v131, main_v132, main_v133, main_cst_34, main_v134, main_v135, main_v136, main_cst_35, main_v137, main_v138, main_v139, main_v140, main_v141, main_v142, main_v143, main_v144, main_c_36, main_v145, main_v146, main_c_37, main_v147, main_v148, main_v149, main_c_38, main_v150, main_v151, main_c_39, main_v152, main_v153, main_v154, main_v155, main_v156, main_v157, main_v158, main_cst_40, main_v159, main_v160, main_v161, main_cst_41, main_v162, main_v163, main_v164, main_v165 ]

theorem writesAre : WritesAre (ops (F := F)) ys := by writes_are

/-- A buffer's contents after the whole line. -/
abbrev val (V : Valuation τ sig (Elt F)) (r : Ref sig .tc) := after (ops (F := F)) V (Proc.devRef .tc r)

-- the equations below compare contents as named: the fold over the line is never opened
attribute [local irreducible] Idealize.ShloMosaic.StableHlo.after

theorem at_main_v0 (V : Valuation τ sig (Elt F)) : val V main_v0 = (iotaInDim S131072 32 0) :=
  (at_nullary writesAre 0 V _ _ rfl (by decide +kernel)).trans rfl
theorem at_main_c (V : Valuation τ sig (Elt F)) : val V main_c = (constantI S_ 32 4#32) :=
  (at_nullary writesAre 1 V _ _ rfl (by decide +kernel)).trans rfl
theorem at_main_call0_v0 (V : Valuation τ sig (Elt F)) : val V main_call0_v0 = (id : (⟨S_, .i32⟩ : BufTy).Contents (Elt F) → (⟨S_, .i32⟩ : BufTy).Contents (Elt F)) (val V main_c) :=
  at_tunary writesAre 2 V (StableHlo.TRef.of main_c : StableHlo.TRef sig ⟨S_, .i32⟩) main_call0.v0 id rfl (by decide +kernel) (by decide +kernel)
theorem at_main_call0_v1 (V : Valuation τ sig (Elt F)) : val V main_call0_v1 = ((broadcastInDim S131072 ![] bcast_S_S131072) : (⟨S_, .i32⟩ : BufTy).Contents (Elt F) → (⟨S131072, .i32⟩ : BufTy).Contents (Elt F)) (val V main_call0_v0) :=
  at_tunary writesAre 3 V main_call0.v0 main_call0.v1 (broadcastInDim S131072 ![] bcast_S_S131072) rfl (by decide +kernel) (by decide +kernel)
theorem at_main_call0_v2 (V : Valuation τ sig (Elt F)) : val V main_call0_v2 = (Host.divsi : (⟨S131072, .i32⟩ : BufTy).Contents (Elt F) → (⟨S131072, .i32⟩ : BufTy).Contents (Elt F) → (⟨S131072, .i32⟩ : BufTy).Contents (Elt F)) (val V main_arg2) (val V main_call0_v1) :=
  at_tbinary writesAre 4 V (StableHlo.TRef.of main_arg2 : StableHlo.TRef sig ⟨S131072, .i32⟩) main_call0.v1 main_call0.v2 Host.divsi rfl (by decide +kernel) (by decide +kernel) (by decide +kernel)
theorem at_main_call0_v3 (V : Valuation τ sig (Elt F)) : val V main_call0_v3 = (signi : (⟨S131072, .i32⟩ : BufTy).Contents (Elt F) → (⟨S131072, .i32⟩ : BufTy).Contents (Elt F)) (val V main_arg2) :=
  at_tunary writesAre 5 V (StableHlo.TRef.of main_arg2 : StableHlo.TRef sig ⟨S131072, .i32⟩) main_call0.v3 signi rfl (by decide +kernel) (by decide +kernel)
theorem at_main_call0_v4 (V : Valuation τ sig (Elt F)) : val V main_call0_v4 = (signi : (⟨S_, .i32⟩ : BufTy).Contents (Elt F) → (⟨S_, .i32⟩ : BufTy).Contents (Elt F)) (val V main_call0_v0) :=
  at_tunary writesAre 6 V main_call0.v0 main_call0.v4 signi rfl (by decide +kernel) (by decide +kernel)
theorem at_main_call0_v5 (V : Valuation τ sig (Elt F)) : val V main_call0_v5 = ((broadcastInDim S131072 ![] bcast_S_S131072) : (⟨S_, .i32⟩ : BufTy).Contents (Elt F) → (⟨S131072, .i32⟩ : BufTy).Contents (Elt F)) (val V main_call0_v4) :=
  at_tunary writesAre 7 V main_call0.v4 main_call0.v5 (broadcastInDim S131072 ![] bcast_S_S131072) rfl (by decide +kernel) (by decide +kernel)
theorem at_main_call0_v6 (V : Valuation τ sig (Elt F)) : val V main_call0_v6 = ((cmpi .ne) : (⟨S131072, .i32⟩ : BufTy).Contents (Elt F) → (⟨S131072, .i32⟩ : BufTy).Contents (Elt F) → (⟨S131072, .i1⟩ : BufTy).Contents (Elt F)) (val V main_call0_v3) (val V main_call0_v5) :=
  at_tbinary writesAre 8 V main_call0.v3 main_call0.v5 main_call0.v6 (cmpi .ne) rfl (by decide +kernel) (by decide +kernel) (by decide +kernel)
theorem at_main_call0_v7 (V : Valuation τ sig (Elt F)) : val V main_call0_v7 = ((broadcastInDim S131072 ![] bcast_S_S131072) : (⟨S_, .i32⟩ : BufTy).Contents (Elt F) → (⟨S131072, .i32⟩ : BufTy).Contents (Elt F)) (val V main_call0_v0) :=
  at_tunary writesAre 9 V main_call0.v0 main_call0.v7 (broadcastInDim S131072 ![] bcast_S_S131072) rfl (by decide +kernel) (by decide +kernel)
theorem at_main_call0_v8 (V : Valuation τ sig (Elt F)) : val V main_call0_v8 = (Host.remsi : (⟨S131072, .i32⟩ : BufTy).Contents (Elt F) → (⟨S131072, .i32⟩ : BufTy).Contents (Elt F) → (⟨S131072, .i32⟩ : BufTy).Contents (Elt F)) (val V main_arg2) (val V main_call0_v7) :=
  at_tbinary writesAre 10 V (StableHlo.TRef.of main_arg2 : StableHlo.TRef sig ⟨S131072, .i32⟩) main_call0.v7 main_call0.v8 Host.remsi rfl (by decide +kernel) (by decide +kernel) (by decide +kernel)
theorem at_main_call0_c (V : Valuation τ sig (Elt F)) : val V main_call0_c = ((constantI S_ 32 0#32) : (⟨S_, .i32⟩ : BufTy).Contents (Elt F)) :=
  at_tnullary writesAre 11 V main_call0.c (constantI S_ 32 0#32) rfl (by decide +kernel)
theorem at_main_call0_v9 (V : Valuation τ sig (Elt F)) : val V main_call0_v9 = ((broadcastInDim S131072 ![] bcast_S_S131072) : (⟨S_, .i32⟩ : BufTy).Contents (Elt F) → (⟨S131072, .i32⟩ : BufTy).Contents (Elt F)) (val V main_call0_c) :=
  at_tunary writesAre 12 V main_call0.c main_call0.v9 (broadcastInDim S131072 ![] bcast_S_S131072) rfl (by decide +kernel) (by decide +kernel)
theorem at_main_call0_v10 (V : Valuation τ sig (Elt F)) : val V main_call0_v10 = ((cmpi .ne) : (⟨S131072, .i32⟩ : BufTy).Contents (Elt F) → (⟨S131072, .i32⟩ : BufTy).Contents (Elt F) → (⟨S131072, .i1⟩ : BufTy).Contents (Elt F)) (val V main_call0_v8) (val V main_call0_v9) :=
  at_tbinary writesAre 13 V main_call0.v8 main_call0.v9 main_call0.v10 (cmpi .ne) rfl (by decide +kernel) (by decide +kernel) (by decide +kernel)
theorem at_main_call0_v11 (V : Valuation τ sig (Elt F)) : val V main_call0_v11 = (andi : (⟨S131072, .i1⟩ : BufTy).Contents (Elt F) → (⟨S131072, .i1⟩ : BufTy).Contents (Elt F) → (⟨S131072, .i1⟩ : BufTy).Contents (Elt F)) (val V main_call0_v6) (val V main_call0_v10) :=
  at_tbinary writesAre 14 V main_call0.v6 main_call0.v10 main_call0.v11 andi rfl (by decide +kernel) (by decide +kernel) (by decide +kernel)
theorem at_main_call0_c_0 (V : Valuation τ sig (Elt F)) : val V main_call0_c_0 = ((constantI S_ 32 1#32) : (⟨S_, .i32⟩ : BufTy).Contents (Elt F)) :=
  at_tnullary writesAre 15 V main_call0.c_0 (constantI S_ 32 1#32) rfl (by decide +kernel)
theorem at_main_call0_v12 (V : Valuation τ sig (Elt F)) : val V main_call0_v12 = ((broadcastInDim S131072 ![] bcast_S_S131072) : (⟨S_, .i32⟩ : BufTy).Contents (Elt F) → (⟨S131072, .i32⟩ : BufTy).Contents (Elt F)) (val V main_call0_c_0) :=
  at_tunary writesAre 16 V main_call0.c_0 main_call0.v12 (broadcastInDim S131072 ![] bcast_S_S131072) rfl (by decide +kernel) (by decide +kernel)
theorem at_main_call0_v13 (V : Valuation τ sig (Elt F)) : val V main_call0_v13 = (subi : (⟨S131072, .i32⟩ : BufTy).Contents (Elt F) → (⟨S131072, .i32⟩ : BufTy).Contents (Elt F) → (⟨S131072, .i32⟩ : BufTy).Contents (Elt F)) (val V main_call0_v2) (val V main_call0_v12) :=
  at_tbinary writesAre 17 V main_call0.v2 main_call0.v12 main_call0.v13 subi rfl (by decide +kernel) (by decide +kernel) (by decide +kernel)
theorem at_main_v1 (V : Valuation τ sig (Elt F)) : val V main_v1 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_call0_v11) (val V main_call0_v13) (val V main_call0_v2) :=
  at_tternary writesAre 18 V main_call0.v11 main_call0.v13 main_call0.v2 main_call0_call0.v0 select rfl (by decide +kernel) (by decide +kernel) (by decide +kernel) (by decide +kernel)
theorem at_main_cst (V : Valuation τ sig (Elt F)) : val V main_cst = (constant S_ .f32 0x42800000#32) :=
  (at_nullary writesAre 19 V _ _ rfl (by decide +kernel)).trans rfl
theorem at_main_v2 (V : Valuation τ sig (Elt F)) : val V main_v2 = (broadcastInDim S120x97 ![] bcast_S_S120x97 : (⟨S_, .f32⟩ : BufTy).Contents (Elt F) → (⟨S120x97, .f32⟩ : BufTy).Contents (Elt F)) (val V main_cst) :=
  (at_unary writesAre 20 V _ _ _ rfl (by decide +kernel) (by decide +kernel)).trans rfl
theorem at_main_v3 (V : Valuation τ sig (Elt F)) : val V main_v3 = (mulf : (⟨S120x97, .f32⟩ : BufTy).Contents (Elt F) → (⟨S120x97, .f32⟩ : BufTy).Contents (Elt F) → (⟨S120x97, .f32⟩ : BufTy).Contents (Elt F)) (val V main_arg3) (val V main_v2) :=
  (at_binary writesAre 21 V _ _ _ _ rfl (by decide +kernel) (by decide +kernel) (by decide +kernel)).trans rfl
theorem at_main_v4 (V : Valuation τ sig (Elt F)) : val V main_v4 = (Host.roundeven : (⟨S120x97, .f32⟩ : BufTy).Contents (Elt F) → (⟨S120x97, .f32⟩ : BufTy).Contents (Elt F)) (val V main_v3) :=
  at_tunary writesAre 22 V (StableHlo.TRef.of main_v3 : StableHlo.TRef sig ⟨S120x97, .f32⟩) main_call1.v0 Host.roundeven rfl (by decide +kernel) (by decide +kernel)
theorem at_main_cst_0 (V : Valuation τ sig (Elt F)) : val V main_cst_0 = (constant S_ .f32 0x42800000#32) :=
  (at_nullary writesAre 23 V _ _ rfl (by decide +kernel)).trans rfl
theorem at_main_v5 (V : Valuation τ sig (Elt F)) : val V main_v5 = (broadcastInDim S120x97 ![] bcast_S_S120x97 : (⟨S_, .f32⟩ : BufTy).Contents (Elt F) → (⟨S120x97, .f32⟩ : BufTy).Contents (Elt F)) (val V main_cst_0) :=
  (at_unary writesAre 24 V _ _ _ rfl (by decide +kernel) (by decide +kernel)).trans rfl
theorem at_main_v6 (V : Valuation τ sig (Elt F)) : val V main_v6 = (Host.divf : (⟨S120x97, .f32⟩ : BufTy).Contents (Elt F) → (⟨S120x97, .f32⟩ : BufTy).Contents (Elt F) → (⟨S120x97, .f32⟩ : BufTy).Contents (Elt F)) (val V main_v4) (val V main_v5) :=
  (at_binary writesAre 25 V _ _ _ _ rfl (by decide +kernel) (by decide +kernel) (by decide +kernel)).trans rfl
theorem at_main_v7 (V : Valuation τ sig (Elt F)) : val V main_v7 = (subf : (⟨S120x97, .f32⟩ : BufTy).Contents (Elt F) → (⟨S120x97, .f32⟩ : BufTy).Contents (Elt F) → (⟨S120x97, .f32⟩ : BufTy).Contents (Elt F)) (val V main_v6) (val V main_arg3) :=
  (at_binary writesAre 26 V _ _ _ _ rfl (by decide +kernel) (by decide +kernel) (by decide +kernel)).trans rfl
theorem at_main_v8 (V : Valuation τ sig (Elt F)) : val V main_v8 = (addf : (⟨S120x97, .f32⟩ : BufTy).Contents (Elt F) → (⟨S120x97, .f32⟩ : BufTy).Contents (Elt F) → (⟨S120x97, .f32⟩ : BufTy).Contents (Elt F)) (val V main_arg3) (val V main_v7) :=
  (at_binary writesAre 27 V _ _ _ _ rfl (by decide +kernel) (by decide +kernel) (by decide +kernel)).trans rfl
theorem at_main_v9 (V : Valuation τ sig (Elt F)) : val V main_v9 = ((transpose S97x120 [1, 0] · transposes_S120x97_S97x120_1_0) : (⟨S120x97, .f32⟩ : BufTy).Contents (Elt F) → (⟨S97x120, .f32⟩ : BufTy).Contents (Elt F)) (val V main_v8) :=
  (at_unary writesAre 28 V _ _ _ rfl (by decide +kernel) (by decide +kernel)).trans rfl
theorem at_main_v10 (V : Valuation τ sig (Elt F)) : val V main_v10 = ((fun l r => Host.dotGeneral dot_S131072x97_S97x120_S131072x120_1_0_0_1_n_n none l r) : (⟨S131072x97, .f32⟩ : BufTy).Contents (Elt F) → (⟨S97x120, .f32⟩ : BufTy).Contents (Elt F) → (⟨S131072x120, .f32⟩ : BufTy).Contents (Elt F)) (val V main_arg0) (val V main_v9) :=
  (at_binary writesAre 29 V _ _ _ _ rfl (by decide +kernel) (by decide +kernel) (by decide +kernel)).trans rfl
theorem at_main_cst_1 (V : Valuation τ sig (Elt F)) : val V main_cst_1 = (constant S_ .f32 0x45FE0000#32) :=
  (at_nullary writesAre 30 V _ _ rfl (by decide +kernel)).trans rfl
theorem at_main_v11 (V : Valuation τ sig (Elt F)) : val V main_v11 = (broadcastInDim S120 ![] bcast_S_S120 : (⟨S_, .f32⟩ : BufTy).Contents (Elt F) → (⟨S120, .f32⟩ : BufTy).Contents (Elt F)) (val V main_cst_1) :=
  (at_unary writesAre 31 V _ _ _ rfl (by decide +kernel) (by decide +kernel)).trans rfl
theorem at_main_v12 (V : Valuation τ sig (Elt F)) : val V main_v12 = (mulf : (⟨S120, .f32⟩ : BufTy).Contents (Elt F) → (⟨S120, .f32⟩ : BufTy).Contents (Elt F) → (⟨S120, .f32⟩ : BufTy).Contents (Elt F)) (val V main_arg4) (val V main_v11) :=
  (at_binary writesAre 32 V _ _ _ _ rfl (by decide +kernel) (by decide +kernel) (by decide +kernel)).trans rfl
theorem at_main_v13 (V : Valuation τ sig (Elt F)) : val V main_v13 = (Host.roundeven : (⟨S120, .f32⟩ : BufTy).Contents (Elt F) → (⟨S120, .f32⟩ : BufTy).Contents (Elt F)) (val V main_v12) :=
  at_tunary writesAre 33 V (StableHlo.TRef.of main_v12 : StableHlo.TRef sig ⟨S120, .f32⟩) main_call2.v0 Host.roundeven rfl (by decide +kernel) (by decide +kernel)
theorem at_main_cst_2 (V : Valuation τ sig (Elt F)) : val V main_cst_2 = (constant S_ .f32 0x45FE0000#32) :=
  (at_nullary writesAre 34 V _ _ rfl (by decide +kernel)).trans rfl
theorem at_main_v14 (V : Valuation τ sig (Elt F)) : val V main_v14 = (broadcastInDim S120 ![] bcast_S_S120 : (⟨S_, .f32⟩ : BufTy).Contents (Elt F) → (⟨S120, .f32⟩ : BufTy).Contents (Elt F)) (val V main_cst_2) :=
  (at_unary writesAre 35 V _ _ _ rfl (by decide +kernel) (by decide +kernel)).trans rfl
theorem at_main_v15 (V : Valuation τ sig (Elt F)) : val V main_v15 = (Host.divf : (⟨S120, .f32⟩ : BufTy).Contents (Elt F) → (⟨S120, .f32⟩ : BufTy).Contents (Elt F) → (⟨S120, .f32⟩ : BufTy).Contents (Elt F)) (val V main_v13) (val V main_v14) :=
  (at_binary writesAre 36 V _ _ _ _ rfl (by decide +kernel) (by decide +kernel) (by decide +kernel)).trans rfl
theorem at_main_v16 (V : Valuation τ sig (Elt F)) : val V main_v16 = (subf : (⟨S120, .f32⟩ : BufTy).Contents (Elt F) → (⟨S120, .f32⟩ : BufTy).Contents (Elt F) → (⟨S120, .f32⟩ : BufTy).Contents (Elt F)) (val V main_v15) (val V main_arg4) :=
  (at_binary writesAre 37 V _ _ _ _ rfl (by decide +kernel) (by decide +kernel) (by decide +kernel)).trans rfl
theorem at_main_v17 (V : Valuation τ sig (Elt F)) : val V main_v17 = (addf : (⟨S120, .f32⟩ : BufTy).Contents (Elt F) → (⟨S120, .f32⟩ : BufTy).Contents (Elt F) → (⟨S120, .f32⟩ : BufTy).Contents (Elt F)) (val V main_arg4) (val V main_v16) :=
  (at_binary writesAre 38 V _ _ _ _ rfl (by decide +kernel) (by decide +kernel) (by decide +kernel)).trans rfl
theorem at_main_v18 (V : Valuation τ sig (Elt F)) : val V main_v18 = (broadcastInDim S1x120 ![1] bcast_S120_S1x120_1 : (⟨S120, .f32⟩ : BufTy).Contents (Elt F) → (⟨S1x120, .f32⟩ : BufTy).Contents (Elt F)) (val V main_v17) :=
  (at_unary writesAre 39 V _ _ _ rfl (by decide +kernel) (by decide +kernel)).trans rfl
theorem at_main_v19 (V : Valuation τ sig (Elt F)) : val V main_v19 = (broadcastInDim S131072x120 ![0, 1] bcast_S1x120_S131072x120_0_1 : (⟨S1x120, .f32⟩ : BufTy).Contents (Elt F) → (⟨S131072x120, .f32⟩ : BufTy).Contents (Elt F)) (val V main_v18) :=
  (at_unary writesAre 40 V _ _ _ rfl (by decide +kernel) (by decide +kernel)).trans rfl
theorem at_main_v20 (V : Valuation τ sig (Elt F)) : val V main_v20 = (addf : (⟨S131072x120, .f32⟩ : BufTy).Contents (Elt F) → (⟨S131072x120, .f32⟩ : BufTy).Contents (Elt F) → (⟨S131072x120, .f32⟩ : BufTy).Contents (Elt F)) (val V main_v10) (val V main_v19) :=
  (at_binary writesAre 41 V _ _ _ _ rfl (by decide +kernel) (by decide +kernel) (by decide +kernel)).trans rfl
theorem at_main_v21 (V : Valuation τ sig (Elt F)) : val V main_v21 = shapeCast S131072x15x8 (val V main_v20) shapeCasts_S131072x120_S131072x15x8 :=
  (at_reshape writesAre 42 V _ _ _ _ rfl (by decide +kernel) (by decide +kernel)).trans rfl
theorem at_main_c_3 (V : Valuation τ sig (Elt F)) : val V main_c_3 = (constantI S_ 32 0#32) :=
  (at_nullary writesAre 43 V _ _ rfl (by decide +kernel)).trans rfl
theorem at_main_v22 (V : Valuation τ sig (Elt F)) : val V main_v22 = (broadcastInDim S131072 ![] bcast_S_S131072 : (⟨S_, .i32⟩ : BufTy).Contents (Elt F) → (⟨S131072, .i32⟩ : BufTy).Contents (Elt F)) (val V main_c_3) :=
  (at_unary writesAre 44 V _ _ _ rfl (by decide +kernel) (by decide +kernel)).trans rfl
theorem at_main_v23 (V : Valuation τ sig (Elt F)) : val V main_v23 = (cmpi .slt : (⟨S131072, .i32⟩ : BufTy).Contents (Elt F) → (⟨S131072, .i32⟩ : BufTy).Contents (Elt F) → (⟨S131072, .i1⟩ : BufTy).Contents (Elt F)) (val V main_v0) (val V main_v22) :=
  (at_binary writesAre 45 V _ _ _ _ rfl (by decide +kernel) (by decide +kernel) (by decide +kernel)).trans rfl
theorem at_main_c_4 (V : Valuation τ sig (Elt F)) : val V main_c_4 = (constantI S_ 32 131072#32) :=
  (at_nullary writesAre 46 V _ _ rfl (by decide +kernel)).trans rfl
theorem at_main_v24 (V : Valuation τ sig (Elt F)) : val V main_v24 = (broadcastInDim S131072 ![] bcast_S_S131072 : (⟨S_, .i32⟩ : BufTy).Contents (Elt F) → (⟨S131072, .i32⟩ : BufTy).Contents (Elt F)) (val V main_c_4) :=
  (at_unary writesAre 47 V _ _ _ rfl (by decide +kernel) (by decide +kernel)).trans rfl
theorem at_main_v25 (V : Valuation τ sig (Elt F)) : val V main_v25 = (addi : (⟨S131072, .i32⟩ : BufTy).Contents (Elt F) → (⟨S131072, .i32⟩ : BufTy).Contents (Elt F) → (⟨S131072, .i32⟩ : BufTy).Contents (Elt F)) (val V main_v0) (val V main_v24) :=
  (at_binary writesAre 48 V _ _ _ _ rfl (by decide +kernel) (by decide +kernel) (by decide +kernel)).trans rfl
theorem at_main_v26 (V : Valuation τ sig (Elt F)) : val V main_v26 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v23) (val V main_v25) (val V main_v0) :=
  (at_ternary writesAre 49 V _ _ _ _ _ rfl (by decide +kernel) (by decide +kernel) (by decide +kernel) (by decide +kernel)).trans rfl
theorem at_main_c_5 (V : Valuation τ sig (Elt F)) : val V main_c_5 = (constantI S_ 32 0#32) :=
  (at_nullary writesAre 50 V _ _ rfl (by decide +kernel)).trans rfl
theorem at_main_v27 (V : Valuation τ sig (Elt F)) : val V main_v27 = (broadcastInDim S131072 ![] bcast_S_S131072 : (⟨S_, .i32⟩ : BufTy).Contents (Elt F) → (⟨S131072, .i32⟩ : BufTy).Contents (Elt F)) (val V main_c_5) :=
  (at_unary writesAre 51 V _ _ _ rfl (by decide +kernel) (by decide +kernel)).trans rfl
theorem at_main_v28 (V : Valuation τ sig (Elt F)) : val V main_v28 = (cmpi .slt : (⟨S131072, .i32⟩ : BufTy).Contents (Elt F) → (⟨S131072, .i32⟩ : BufTy).Contents (Elt F) → (⟨S131072, .i1⟩ : BufTy).Contents (Elt F)) (val V main_v1) (val V main_v27) :=
  (at_binary writesAre 52 V _ _ _ _ rfl (by decide +kernel) (by decide +kernel) (by decide +kernel)).trans rfl
theorem at_main_c_6 (V : Valuation τ sig (Elt F)) : val V main_c_6 = (constantI S_ 32 15#32) :=
  (at_nullary writesAre 53 V _ _ rfl (by decide +kernel)).trans rfl
theorem at_main_v29 (V : Valuation τ sig (Elt F)) : val V main_v29 = (broadcastInDim S131072 ![] bcast_S_S131072 : (⟨S_, .i32⟩ : BufTy).Contents (Elt F) → (⟨S131072, .i32⟩ : BufTy).Contents (Elt F)) (val V main_c_6) :=
  (at_unary writesAre 54 V _ _ _ rfl (by decide +kernel) (by decide +kernel)).trans rfl
theorem at_main_v30 (V : Valuation τ sig (Elt F)) : val V main_v30 = (addi : (⟨S131072, .i32⟩ : BufTy).Contents (Elt F) → (⟨S131072, .i32⟩ : BufTy).Contents (Elt F) → (⟨S131072, .i32⟩ : BufTy).Contents (Elt F)) (val V main_v1) (val V main_v29) :=
  (at_binary writesAre 55 V _ _ _ _ rfl (by decide +kernel) (by decide +kernel) (by decide +kernel)).trans rfl
theorem at_main_v31 (V : Valuation τ sig (Elt F)) : val V main_v31 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v28) (val V main_v30) (val V main_v1) :=
  (at_ternary writesAre 56 V _ _ _ _ _ rfl (by decide +kernel) (by decide +kernel) (by decide +kernel) (by decide +kernel)).trans rfl
theorem at_main_v32 (V : Valuation τ sig (Elt F)) : val V main_v32 = (broadcastInDim S131072x1 ![0] bcast_S131072_S131072x1_0 : (⟨S131072, .i32⟩ : BufTy).Contents (Elt F) → (⟨S131072x1, .i32⟩ : BufTy).Contents (Elt F)) (val V main_v26) :=
  (at_unary writesAre 57 V _ _ _ rfl (by decide +kernel) (by decide +kernel)).trans rfl
theorem at_main_v33 (V : Valuation τ sig (Elt F)) : val V main_v33 = (broadcastInDim S131072x1 ![0] bcast_S131072_S131072x1_0 : (⟨S131072, .i32⟩ : BufTy).Contents (Elt F) → (⟨S131072x1, .i32⟩ : BufTy).Contents (Elt F)) (val V main_v31) :=
  (at_unary writesAre 58 V _ _ _ rfl (by decide +kernel) (by decide +kernel)).trans rfl
theorem at_main_v34 (V : Valuation τ sig (Elt F)) : val V main_v34 = ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)) (val V main_v32) (val V main_v33) :=
  (at_binary writesAre 59 V _ _ _ _ rfl (by decide +kernel) (by decide +kernel) (by decide +kernel)).trans rfl
theorem at_main_v35 (V : Valuation τ sig (Elt F)) : val V main_v35 = ((fun x i => Host.gather gather_S131072x15x8_S131072x2_S131072x8_1_01_n_n_01_1_118 x i) : (⟨S131072x15x8, .f32⟩ : BufTy).Contents (Elt F) → (⟨S131072x2, .i32⟩ : BufTy).Contents (Elt F) → (⟨S131072x8, .f32⟩ : BufTy).Contents (Elt F)) (val V main_v21) (val V main_v34) :=
  (at_binary writesAre 60 V _ _ _ _ rfl (by decide +kernel) (by decide +kernel) (by decide +kernel)).trans rfl
theorem at_main_cst_7 (V : Valuation τ sig (Elt F)) : val V main_cst_7 = (constant S_ .f32 0x42800000#32) :=
  (at_nullary writesAre 61 V _ _ rfl (by decide +kernel)).trans rfl
theorem at_main_v36 (V : Valuation τ sig (Elt F)) : val V main_v36 = (broadcastInDim S120x97 ![] bcast_S_S120x97 : (⟨S_, .f32⟩ : BufTy).Contents (Elt F) → (⟨S120x97, .f32⟩ : BufTy).Contents (Elt F)) (val V main_cst_7) :=
  (at_unary writesAre 62 V _ _ _ rfl (by decide +kernel) (by decide +kernel)).trans rfl
theorem at_main_v37 (V : Valuation τ sig (Elt F)) : val V main_v37 = (mulf : (⟨S120x97, .f32⟩ : BufTy).Contents (Elt F) → (⟨S120x97, .f32⟩ : BufTy).Contents (Elt F) → (⟨S120x97, .f32⟩ : BufTy).Contents (Elt F)) (val V main_arg5) (val V main_v36) :=
  (at_binary writesAre 63 V _ _ _ _ rfl (by decide +kernel) (by decide +kernel) (by decide +kernel)).trans rfl
theorem at_main_v38 (V : Valuation τ sig (Elt F)) : val V main_v38 = (Host.roundeven : (⟨S120x97, .f32⟩ : BufTy).Contents (Elt F) → (⟨S120x97, .f32⟩ : BufTy).Contents (Elt F)) (val V main_v37) :=
  at_tunary writesAre 64 V (StableHlo.TRef.of main_v37 : StableHlo.TRef sig ⟨S120x97, .f32⟩) main_call3.v0 Host.roundeven rfl (by decide +kernel) (by decide +kernel)
theorem at_main_cst_8 (V : Valuation τ sig (Elt F)) : val V main_cst_8 = (constant S_ .f32 0x42800000#32) :=
  (at_nullary writesAre 65 V _ _ rfl (by decide +kernel)).trans rfl
theorem at_main_v39 (V : Valuation τ sig (Elt F)) : val V main_v39 = (broadcastInDim S120x97 ![] bcast_S_S120x97 : (⟨S_, .f32⟩ : BufTy).Contents (Elt F) → (⟨S120x97, .f32⟩ : BufTy).Contents (Elt F)) (val V main_cst_8) :=
  (at_unary writesAre 66 V _ _ _ rfl (by decide +kernel) (by decide +kernel)).trans rfl
theorem at_main_v40 (V : Valuation τ sig (Elt F)) : val V main_v40 = (Host.divf : (⟨S120x97, .f32⟩ : BufTy).Contents (Elt F) → (⟨S120x97, .f32⟩ : BufTy).Contents (Elt F) → (⟨S120x97, .f32⟩ : BufTy).Contents (Elt F)) (val V main_v38) (val V main_v39) :=
  (at_binary writesAre 67 V _ _ _ _ rfl (by decide +kernel) (by decide +kernel) (by decide +kernel)).trans rfl
theorem at_main_v41 (V : Valuation τ sig (Elt F)) : val V main_v41 = (subf : (⟨S120x97, .f32⟩ : BufTy).Contents (Elt F) → (⟨S120x97, .f32⟩ : BufTy).Contents (Elt F) → (⟨S120x97, .f32⟩ : BufTy).Contents (Elt F)) (val V main_v40) (val V main_arg5) :=
  (at_binary writesAre 68 V _ _ _ _ rfl (by decide +kernel) (by decide +kernel) (by decide +kernel)).trans rfl
theorem at_main_v42 (V : Valuation τ sig (Elt F)) : val V main_v42 = (addf : (⟨S120x97, .f32⟩ : BufTy).Contents (Elt F) → (⟨S120x97, .f32⟩ : BufTy).Contents (Elt F) → (⟨S120x97, .f32⟩ : BufTy).Contents (Elt F)) (val V main_arg5) (val V main_v41) :=
  (at_binary writesAre 69 V _ _ _ _ rfl (by decide +kernel) (by decide +kernel) (by decide +kernel)).trans rfl
theorem at_main_v43 (V : Valuation τ sig (Elt F)) : val V main_v43 = ((transpose S97x120 [1, 0] · transposes_S120x97_S97x120_1_0) : (⟨S120x97, .f32⟩ : BufTy).Contents (Elt F) → (⟨S97x120, .f32⟩ : BufTy).Contents (Elt F)) (val V main_v42) :=
  (at_unary writesAre 70 V _ _ _ rfl (by decide +kernel) (by decide +kernel)).trans rfl
theorem at_main_v44 (V : Valuation τ sig (Elt F)) : val V main_v44 = ((fun l r => Host.dotGeneral dot_S131072x97_S97x120_S131072x120_1_0_0_1_n_n none l r) : (⟨S131072x97, .f32⟩ : BufTy).Contents (Elt F) → (⟨S97x120, .f32⟩ : BufTy).Contents (Elt F) → (⟨S131072x120, .f32⟩ : BufTy).Contents (Elt F)) (val V main_arg1) (val V main_v43) :=
  (at_binary writesAre 71 V _ _ _ _ rfl (by decide +kernel) (by decide +kernel) (by decide +kernel)).trans rfl
theorem at_main_cst_9 (V : Valuation τ sig (Elt F)) : val V main_cst_9 = (constant S_ .f32 0x45FE0000#32) :=
  (at_nullary writesAre 72 V _ _ rfl (by decide +kernel)).trans rfl
theorem at_main_v45 (V : Valuation τ sig (Elt F)) : val V main_v45 = (broadcastInDim S120 ![] bcast_S_S120 : (⟨S_, .f32⟩ : BufTy).Contents (Elt F) → (⟨S120, .f32⟩ : BufTy).Contents (Elt F)) (val V main_cst_9) :=
  (at_unary writesAre 73 V _ _ _ rfl (by decide +kernel) (by decide +kernel)).trans rfl
theorem at_main_v46 (V : Valuation τ sig (Elt F)) : val V main_v46 = (mulf : (⟨S120, .f32⟩ : BufTy).Contents (Elt F) → (⟨S120, .f32⟩ : BufTy).Contents (Elt F) → (⟨S120, .f32⟩ : BufTy).Contents (Elt F)) (val V main_arg6) (val V main_v45) :=
  (at_binary writesAre 74 V _ _ _ _ rfl (by decide +kernel) (by decide +kernel) (by decide +kernel)).trans rfl
theorem at_main_v47 (V : Valuation τ sig (Elt F)) : val V main_v47 = (Host.roundeven : (⟨S120, .f32⟩ : BufTy).Contents (Elt F) → (⟨S120, .f32⟩ : BufTy).Contents (Elt F)) (val V main_v46) :=
  at_tunary writesAre 75 V (StableHlo.TRef.of main_v46 : StableHlo.TRef sig ⟨S120, .f32⟩) main_call4.v0 Host.roundeven rfl (by decide +kernel) (by decide +kernel)
theorem at_main_cst_10 (V : Valuation τ sig (Elt F)) : val V main_cst_10 = (constant S_ .f32 0x45FE0000#32) :=
  (at_nullary writesAre 76 V _ _ rfl (by decide +kernel)).trans rfl
theorem at_main_v48 (V : Valuation τ sig (Elt F)) : val V main_v48 = (broadcastInDim S120 ![] bcast_S_S120 : (⟨S_, .f32⟩ : BufTy).Contents (Elt F) → (⟨S120, .f32⟩ : BufTy).Contents (Elt F)) (val V main_cst_10) :=
  (at_unary writesAre 77 V _ _ _ rfl (by decide +kernel) (by decide +kernel)).trans rfl
theorem at_main_v49 (V : Valuation τ sig (Elt F)) : val V main_v49 = (Host.divf : (⟨S120, .f32⟩ : BufTy).Contents (Elt F) → (⟨S120, .f32⟩ : BufTy).Contents (Elt F) → (⟨S120, .f32⟩ : BufTy).Contents (Elt F)) (val V main_v47) (val V main_v48) :=
  (at_binary writesAre 78 V _ _ _ _ rfl (by decide +kernel) (by decide +kernel) (by decide +kernel)).trans rfl
theorem at_main_v50 (V : Valuation τ sig (Elt F)) : val V main_v50 = (subf : (⟨S120, .f32⟩ : BufTy).Contents (Elt F) → (⟨S120, .f32⟩ : BufTy).Contents (Elt F) → (⟨S120, .f32⟩ : BufTy).Contents (Elt F)) (val V main_v49) (val V main_arg6) :=
  (at_binary writesAre 79 V _ _ _ _ rfl (by decide +kernel) (by decide +kernel) (by decide +kernel)).trans rfl
theorem at_main_v51 (V : Valuation τ sig (Elt F)) : val V main_v51 = (addf : (⟨S120, .f32⟩ : BufTy).Contents (Elt F) → (⟨S120, .f32⟩ : BufTy).Contents (Elt F) → (⟨S120, .f32⟩ : BufTy).Contents (Elt F)) (val V main_arg6) (val V main_v50) :=
  (at_binary writesAre 80 V _ _ _ _ rfl (by decide +kernel) (by decide +kernel) (by decide +kernel)).trans rfl
theorem at_main_v52 (V : Valuation τ sig (Elt F)) : val V main_v52 = (broadcastInDim S1x120 ![1] bcast_S120_S1x120_1 : (⟨S120, .f32⟩ : BufTy).Contents (Elt F) → (⟨S1x120, .f32⟩ : BufTy).Contents (Elt F)) (val V main_v51) :=
  (at_unary writesAre 81 V _ _ _ rfl (by decide +kernel) (by decide +kernel)).trans rfl
theorem at_main_v53 (V : Valuation τ sig (Elt F)) : val V main_v53 = (broadcastInDim S131072x120 ![0, 1] bcast_S1x120_S131072x120_0_1 : (⟨S1x120, .f32⟩ : BufTy).Contents (Elt F) → (⟨S131072x120, .f32⟩ : BufTy).Contents (Elt F)) (val V main_v52) :=
  (at_unary writesAre 82 V _ _ _ rfl (by decide +kernel) (by decide +kernel)).trans rfl
theorem at_main_v54 (V : Valuation τ sig (Elt F)) : val V main_v54 = (addf : (⟨S131072x120, .f32⟩ : BufTy).Contents (Elt F) → (⟨S131072x120, .f32⟩ : BufTy).Contents (Elt F) → (⟨S131072x120, .f32⟩ : BufTy).Contents (Elt F)) (val V main_v44) (val V main_v53) :=
  (at_binary writesAre 83 V _ _ _ _ rfl (by decide +kernel) (by decide +kernel) (by decide +kernel)).trans rfl
theorem at_main_v55 (V : Valuation τ sig (Elt F)) : val V main_v55 = shapeCast S131072x15x8 (val V main_v54) shapeCasts_S131072x120_S131072x15x8 :=
  (at_reshape writesAre 84 V _ _ _ _ rfl (by decide +kernel) (by decide +kernel)).trans rfl
theorem at_main_c_11 (V : Valuation τ sig (Elt F)) : val V main_c_11 = (constantI S_ 32 0#32) :=
  (at_nullary writesAre 85 V _ _ rfl (by decide +kernel)).trans rfl
theorem at_main_v56 (V : Valuation τ sig (Elt F)) : val V main_v56 = (broadcastInDim S131072 ![] bcast_S_S131072 : (⟨S_, .i32⟩ : BufTy).Contents (Elt F) → (⟨S131072, .i32⟩ : BufTy).Contents (Elt F)) (val V main_c_11) :=
  (at_unary writesAre 86 V _ _ _ rfl (by decide +kernel) (by decide +kernel)).trans rfl
theorem at_main_v57 (V : Valuation τ sig (Elt F)) : val V main_v57 = (cmpi .slt : (⟨S131072, .i32⟩ : BufTy).Contents (Elt F) → (⟨S131072, .i32⟩ : BufTy).Contents (Elt F) → (⟨S131072, .i1⟩ : BufTy).Contents (Elt F)) (val V main_v0) (val V main_v56) :=
  (at_binary writesAre 87 V _ _ _ _ rfl (by decide +kernel) (by decide +kernel) (by decide +kernel)).trans rfl
theorem at_main_c_12 (V : Valuation τ sig (Elt F)) : val V main_c_12 = (constantI S_ 32 131072#32) :=
  (at_nullary writesAre 88 V _ _ rfl (by decide +kernel)).trans rfl
theorem at_main_v58 (V : Valuation τ sig (Elt F)) : val V main_v58 = (broadcastInDim S131072 ![] bcast_S_S131072 : (⟨S_, .i32⟩ : BufTy).Contents (Elt F) → (⟨S131072, .i32⟩ : BufTy).Contents (Elt F)) (val V main_c_12) :=
  (at_unary writesAre 89 V _ _ _ rfl (by decide +kernel) (by decide +kernel)).trans rfl
theorem at_main_v59 (V : Valuation τ sig (Elt F)) : val V main_v59 = (addi : (⟨S131072, .i32⟩ : BufTy).Contents (Elt F) → (⟨S131072, .i32⟩ : BufTy).Contents (Elt F) → (⟨S131072, .i32⟩ : BufTy).Contents (Elt F)) (val V main_v0) (val V main_v58) :=
  (at_binary writesAre 90 V _ _ _ _ rfl (by decide +kernel) (by decide +kernel) (by decide +kernel)).trans rfl
theorem at_main_v60 (V : Valuation τ sig (Elt F)) : val V main_v60 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v57) (val V main_v59) (val V main_v0) :=
  (at_ternary writesAre 91 V _ _ _ _ _ rfl (by decide +kernel) (by decide +kernel) (by decide +kernel) (by decide +kernel)).trans rfl
theorem at_main_c_13 (V : Valuation τ sig (Elt F)) : val V main_c_13 = (constantI S_ 32 0#32) :=
  (at_nullary writesAre 92 V _ _ rfl (by decide +kernel)).trans rfl
theorem at_main_v61 (V : Valuation τ sig (Elt F)) : val V main_v61 = (broadcastInDim S131072 ![] bcast_S_S131072 : (⟨S_, .i32⟩ : BufTy).Contents (Elt F) → (⟨S131072, .i32⟩ : BufTy).Contents (Elt F)) (val V main_c_13) :=
  (at_unary writesAre 93 V _ _ _ rfl (by decide +kernel) (by decide +kernel)).trans rfl
theorem at_main_v62 (V : Valuation τ sig (Elt F)) : val V main_v62 = (cmpi .slt : (⟨S131072, .i32⟩ : BufTy).Contents (Elt F) → (⟨S131072, .i32⟩ : BufTy).Contents (Elt F) → (⟨S131072, .i1⟩ : BufTy).Contents (Elt F)) (val V main_v1) (val V main_v61) :=
  (at_binary writesAre 94 V _ _ _ _ rfl (by decide +kernel) (by decide +kernel) (by decide +kernel)).trans rfl
theorem at_main_c_14 (V : Valuation τ sig (Elt F)) : val V main_c_14 = (constantI S_ 32 15#32) :=
  (at_nullary writesAre 95 V _ _ rfl (by decide +kernel)).trans rfl
theorem at_main_v63 (V : Valuation τ sig (Elt F)) : val V main_v63 = (broadcastInDim S131072 ![] bcast_S_S131072 : (⟨S_, .i32⟩ : BufTy).Contents (Elt F) → (⟨S131072, .i32⟩ : BufTy).Contents (Elt F)) (val V main_c_14) :=
  (at_unary writesAre 96 V _ _ _ rfl (by decide +kernel) (by decide +kernel)).trans rfl
theorem at_main_v64 (V : Valuation τ sig (Elt F)) : val V main_v64 = (addi : (⟨S131072, .i32⟩ : BufTy).Contents (Elt F) → (⟨S131072, .i32⟩ : BufTy).Contents (Elt F) → (⟨S131072, .i32⟩ : BufTy).Contents (Elt F)) (val V main_v1) (val V main_v63) :=
  (at_binary writesAre 97 V _ _ _ _ rfl (by decide +kernel) (by decide +kernel) (by decide +kernel)).trans rfl
theorem at_main_v65 (V : Valuation τ sig (Elt F)) : val V main_v65 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v62) (val V main_v64) (val V main_v1) :=
  (at_ternary writesAre 98 V _ _ _ _ _ rfl (by decide +kernel) (by decide +kernel) (by decide +kernel) (by decide +kernel)).trans rfl
theorem at_main_v66 (V : Valuation τ sig (Elt F)) : val V main_v66 = (broadcastInDim S131072x1 ![0] bcast_S131072_S131072x1_0 : (⟨S131072, .i32⟩ : BufTy).Contents (Elt F) → (⟨S131072x1, .i32⟩ : BufTy).Contents (Elt F)) (val V main_v60) :=
  (at_unary writesAre 99 V _ _ _ rfl (by decide +kernel) (by decide +kernel)).trans rfl
theorem at_main_v67 (V : Valuation τ sig (Elt F)) : val V main_v67 = (broadcastInDim S131072x1 ![0] bcast_S131072_S131072x1_0 : (⟨S131072, .i32⟩ : BufTy).Contents (Elt F) → (⟨S131072x1, .i32⟩ : BufTy).Contents (Elt F)) (val V main_v65) :=
  (at_unary writesAre 100 V _ _ _ rfl (by decide +kernel) (by decide +kernel)).trans rfl
theorem at_main_v68 (V : Valuation τ sig (Elt F)) : val V main_v68 = ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)) (val V main_v66) (val V main_v67) :=
  (at_binary writesAre 101 V _ _ _ _ rfl (by decide +kernel) (by decide +kernel) (by decide +kernel)).trans rfl
theorem at_main_v69 (V : Valuation τ sig (Elt F)) : val V main_v69 = ((fun x i => Host.gather gather_S131072x15x8_S131072x2_S131072x8_1_01_n_n_01_1_118 x i) : (⟨S131072x15x8, .f32⟩ : BufTy).Contents (Elt F) → (⟨S131072x2, .i32⟩ : BufTy).Contents (Elt F) → (⟨S131072x8, .f32⟩ : BufTy).Contents (Elt F)) (val V main_v55) (val V main_v68) :=
  (at_binary writesAre 102 V _ _ _ _ rfl (by decide +kernel) (by decide +kernel) (by decide +kernel)).trans rfl
theorem at_main_v70 (V : Valuation τ sig (Elt F)) : val V main_v70 = ((fun a b => concatenate S131072x16 1 [⟨S131072x8, a⟩, ⟨S131072x8, b⟩] concatenates_S131072x8_S131072x8_S131072x16_d1) : (⟨S131072x8, .f32⟩ : BufTy).Contents (Elt F) → (⟨S131072x8, .f32⟩ : BufTy).Contents (Elt F) → (⟨S131072x16, .f32⟩ : BufTy).Contents (Elt F)) (val V main_v35) (val V main_v69) :=
  (at_binary writesAre 103 V _ _ _ _ rfl (by decide +kernel) (by decide +kernel) (by decide +kernel)).trans rfl
theorem at_main_v71 (V : Valuation τ sig (Elt F)) : val V main_v71 = (mulf : (⟨S131072x16, .f32⟩ : BufTy).Contents (Elt F) → (⟨S131072x16, .f32⟩ : BufTy).Contents (Elt F) → (⟨S131072x16, .f32⟩ : BufTy).Contents (Elt F)) (val V main_v70) (val V main_v70) :=
  (at_binary writesAre 104 V _ _ _ _ rfl (by decide +kernel) (by decide +kernel) (by decide +kernel)).trans rfl
theorem at_main_cst_15 (V : Valuation τ sig (Elt F)) : val V main_cst_15 = (constant S_ .f32 0x3F7E0000#32) :=
  (at_nullary writesAre 105 V _ _ rfl (by decide +kernel)).trans rfl
theorem at_main_v72 (V : Valuation τ sig (Elt F)) : val V main_v72 = (broadcastInDim S131072x16 ![] bcast_S_S131072x16 : (⟨S_, .f32⟩ : BufTy).Contents (Elt F) → (⟨S131072x16, .f32⟩ : BufTy).Contents (Elt F)) (val V main_cst_15) :=
  (at_unary writesAre 106 V _ _ _ rfl (by decide +kernel) (by decide +kernel)).trans rfl
theorem at_main_v73 (V : Valuation τ sig (Elt F)) : val V main_v73 = (mulf : (⟨S131072x16, .f32⟩ : BufTy).Contents (Elt F) → (⟨S131072x16, .f32⟩ : BufTy).Contents (Elt F) → (⟨S131072x16, .f32⟩ : BufTy).Contents (Elt F)) (val V main_v71) (val V main_v72) :=
  (at_binary writesAre 107 V _ _ _ _ rfl (by decide +kernel) (by decide +kernel) (by decide +kernel)).trans rfl
theorem at_main_v74 (V : Valuation τ sig (Elt F)) : val V main_v74 = ((fun a b => concatenate S131072x32 1 [⟨S131072x16, a⟩, ⟨S131072x16, b⟩] concatenates_S131072x16_S131072x16_S131072x32_d1) : (⟨S131072x16, .f32⟩ : BufTy).Contents (Elt F) → (⟨S131072x16, .f32⟩ : BufTy).Contents (Elt F) → (⟨S131072x32, .f32⟩ : BufTy).Contents (Elt F)) (val V main_v73) (val V main_v70) :=
  (at_binary writesAre 108 V _ _ _ _ rfl (by decide +kernel) (by decide +kernel) (by decide +kernel)).trans rfl
theorem at_main_cst_16 (V : Valuation τ sig (Elt F)) : val V main_cst_16 = (constant S_ .f32 0x00000000#32) :=
  (at_nullary writesAre 109 V _ _ rfl (by decide +kernel)).trans rfl
theorem at_main_cst_17 (V : Valuation τ sig (Elt F)) : val V main_cst_17 = (constant S_ .f32 0x3F800000#32) :=
  (at_nullary writesAre 110 V _ _ rfl (by decide +kernel)).trans rfl
theorem at_main_call5_v0 (V : Valuation τ sig (Elt F)) : val V main_call5_v0 = (id : (⟨S_, .f32⟩ : BufTy).Contents (Elt F) → (⟨S_, .f32⟩ : BufTy).Contents (Elt F)) (val V main_cst_16) :=
  at_tunary writesAre 111 V (StableHlo.TRef.of main_cst_16 : StableHlo.TRef sig ⟨S_, .f32⟩) main_call5.v0 id rfl (by decide +kernel) (by decide +kernel)
theorem at_main_call5_v1 (V : Valuation τ sig (Elt F)) : val V main_call5_v1 = ((broadcastInDim S131072x32 ![] bcast_S_S131072x32) : (⟨S_, .f32⟩ : BufTy).Contents (Elt F) → (⟨S131072x32, .f32⟩ : BufTy).Contents (Elt F)) (val V main_call5_v0) :=
  at_tunary writesAre 112 V main_call5.v0 main_call5.v1 (broadcastInDim S131072x32 ![] bcast_S_S131072x32) rfl (by decide +kernel) (by decide +kernel)
theorem at_main_call5_v2 (V : Valuation τ sig (Elt F)) : val V main_call5_v2 = (maximumf : (⟨S131072x32, .f32⟩ : BufTy).Contents (Elt F) → (⟨S131072x32, .f32⟩ : BufTy).Contents (Elt F) → (⟨S131072x32, .f32⟩ : BufTy).Contents (Elt F)) (val V main_call5_v1) (val V main_v74) :=
  at_tbinary writesAre 113 V main_call5.v1 (StableHlo.TRef.of main_v74 : StableHlo.TRef sig ⟨S131072x32, .f32⟩) main_call5.v2 maximumf rfl (by decide +kernel) (by decide +kernel) (by decide +kernel)
theorem at_main_call5_v3 (V : Valuation τ sig (Elt F)) : val V main_call5_v3 = (id : (⟨S_, .f32⟩ : BufTy).Contents (Elt F) → (⟨S_, .f32⟩ : BufTy).Contents (Elt F)) (val V main_cst_17) :=
  at_tunary writesAre 114 V (StableHlo.TRef.of main_cst_17 : StableHlo.TRef sig ⟨S_, .f32⟩) main_call5.v3 id rfl (by decide +kernel) (by decide +kernel)
theorem at_main_call5_v4 (V : Valuation τ sig (Elt F)) : val V main_call5_v4 = ((broadcastInDim S131072x32 ![] bcast_S_S131072x32) : (⟨S_, .f32⟩ : BufTy).Contents (Elt F) → (⟨S131072x32, .f32⟩ : BufTy).Contents (Elt F)) (val V main_call5_v3) :=
  at_tunary writesAre 115 V main_call5.v3 main_call5.v4 (broadcastInDim S131072x32 ![] bcast_S_S131072x32) rfl (by decide +kernel) (by decide +kernel)
theorem at_main_v75 (V : Valuation τ sig (Elt F)) : val V main_v75 = (minimumf : (⟨S131072x32, .f32⟩ : BufTy).Contents (Elt F) → (⟨S131072x32, .f32⟩ : BufTy).Contents (Elt F) → (⟨S131072x32, .f32⟩ : BufTy).Contents (Elt F)) (val V main_call5_v4) (val V main_call5_v2) :=
  at_tbinary writesAre 116 V main_call5.v4 main_call5.v2 main_call5.v5 minimumf rfl (by decide +kernel) (by decide +kernel) (by decide +kernel)
theorem at_main_cst_18 (V : Valuation τ sig (Elt F)) : val V main_cst_18 = (constant S_ .f32 0x42FE0000#32) :=
  (at_nullary writesAre 117 V _ _ rfl (by decide +kernel)).trans rfl
theorem at_main_v76 (V : Valuation τ sig (Elt F)) : val V main_v76 = (broadcastInDim S131072x32 ![] bcast_S_S131072x32 : (⟨S_, .f32⟩ : BufTy).Contents (Elt F) → (⟨S131072x32, .f32⟩ : BufTy).Contents (Elt F)) (val V main_cst_18) :=
  (at_unary writesAre 118 V _ _ _ rfl (by decide +kernel) (by decide +kernel)).trans rfl
theorem at_main_v77 (V : Valuation τ sig (Elt F)) : val V main_v77 = (mulf : (⟨S131072x32, .f32⟩ : BufTy).Contents (Elt F) → (⟨S131072x32, .f32⟩ : BufTy).Contents (Elt F) → (⟨S131072x32, .f32⟩ : BufTy).Contents (Elt F)) (val V main_v75) (val V main_v76) :=
  (at_binary writesAre 119 V _ _ _ _ rfl (by decide +kernel) (by decide +kernel) (by decide +kernel)).trans rfl
theorem at_main_v78 (V : Valuation τ sig (Elt F)) : val V main_v78 = (Host.floor : (⟨S131072x32, .f32⟩ : BufTy).Contents (Elt F) → (⟨S131072x32, .f32⟩ : BufTy).Contents (Elt F)) (val V main_v77) :=
  (at_unary writesAre 120 V _ _ _ rfl (by decide +kernel) (by decide +kernel)).trans rfl
theorem at_main_cst_19 (V : Valuation τ sig (Elt F)) : val V main_cst_19 = (constant S_ .f32 0x42FE0000#32) :=
  (at_nullary writesAre 121 V _ _ rfl (by decide +kernel)).trans rfl
theorem at_main_v79 (V : Valuation τ sig (Elt F)) : val V main_v79 = (broadcastInDim S131072x32 ![] bcast_S_S131072x32 : (⟨S_, .f32⟩ : BufTy).Contents (Elt F) → (⟨S131072x32, .f32⟩ : BufTy).Contents (Elt F)) (val V main_cst_19) :=
  (at_unary writesAre 122 V _ _ _ rfl (by decide +kernel) (by decide +kernel)).trans rfl
theorem at_main_v80 (V : Valuation τ sig (Elt F)) : val V main_v80 = (Host.divf : (⟨S131072x32, .f32⟩ : BufTy).Contents (Elt F) → (⟨S131072x32, .f32⟩ : BufTy).Contents (Elt F) → (⟨S131072x32, .f32⟩ : BufTy).Contents (Elt F)) (val V main_v78) (val V main_v79) :=
  (at_binary writesAre 123 V _ _ _ _ rfl (by decide +kernel) (by decide +kernel) (by decide +kernel)).trans rfl
theorem at_main_v81 (V : Valuation τ sig (Elt F)) : val V main_v81 = (subf : (⟨S131072x32, .f32⟩ : BufTy).Contents (Elt F) → (⟨S131072x32, .f32⟩ : BufTy).Contents (Elt F) → (⟨S131072x32, .f32⟩ : BufTy).Contents (Elt F)) (val V main_v80) (val V main_v75) :=
  (at_binary writesAre 124 V _ _ _ _ rfl (by decide +kernel) (by decide +kernel) (by decide +kernel)).trans rfl
theorem at_main_v82 (V : Valuation τ sig (Elt F)) : val V main_v82 = (addf : (⟨S131072x32, .f32⟩ : BufTy).Contents (Elt F) → (⟨S131072x32, .f32⟩ : BufTy).Contents (Elt F) → (⟨S131072x32, .f32⟩ : BufTy).Contents (Elt F)) (val V main_v75) (val V main_v81) :=
  (at_binary writesAre 125 V _ _ _ _ rfl (by decide +kernel) (by decide +kernel) (by decide +kernel)).trans rfl
theorem at_main_cst_20 (V : Valuation τ sig (Elt F)) : val V main_cst_20 = (constant S_ .f32 0x42800000#32) :=
  (at_nullary writesAre 126 V _ _ rfl (by decide +kernel)).trans rfl
theorem at_main_v83 (V : Valuation τ sig (Elt F)) : val V main_v83 = (broadcastInDim S960x32 ![] bcast_S_S960x32 : (⟨S_, .f32⟩ : BufTy).Contents (Elt F) → (⟨S960x32, .f32⟩ : BufTy).Contents (Elt F)) (val V main_cst_20) :=
  (at_unary writesAre 127 V _ _ _ rfl (by decide +kernel) (by decide +kernel)).trans rfl
theorem at_main_v84 (V : Valuation τ sig (Elt F)) : val V main_v84 = (mulf : (⟨S960x32, .f32⟩ : BufTy).Contents (Elt F) → (⟨S960x32, .f32⟩ : BufTy).Contents (Elt F) → (⟨S960x32, .f32⟩ : BufTy).Contents (Elt F)) (val V main_arg7) (val V main_v83) :=
  (at_binary writesAre 128 V _ _ _ _ rfl (by decide +kernel) (by decide +kernel) (by decide +kernel)).trans rfl
theorem at_main_v85 (V : Valuation τ sig (Elt F)) : val V main_v85 = (Host.roundeven : (⟨S960x32, .f32⟩ : BufTy).Contents (Elt F) → (⟨S960x32, .f32⟩ : BufTy).Contents (Elt F)) (val V main_v84) :=
  at_tunary writesAre 129 V (StableHlo.TRef.of main_v84 : StableHlo.TRef sig ⟨S960x32, .f32⟩) main_call6.v0 Host.roundeven rfl (by decide +kernel) (by decide +kernel)
theorem at_main_cst_21 (V : Valuation τ sig (Elt F)) : val V main_cst_21 = (constant S_ .f32 0x42800000#32) :=
  (at_nullary writesAre 130 V _ _ rfl (by decide +kernel)).trans rfl
theorem at_main_v86 (V : Valuation τ sig (Elt F)) : val V main_v86 = (broadcastInDim S960x32 ![] bcast_S_S960x32 : (⟨S_, .f32⟩ : BufTy).Contents (Elt F) → (⟨S960x32, .f32⟩ : BufTy).Contents (Elt F)) (val V main_cst_21) :=
  (at_unary writesAre 131 V _ _ _ rfl (by decide +kernel) (by decide +kernel)).trans rfl
theorem at_main_v87 (V : Valuation τ sig (Elt F)) : val V main_v87 = (Host.divf : (⟨S960x32, .f32⟩ : BufTy).Contents (Elt F) → (⟨S960x32, .f32⟩ : BufTy).Contents (Elt F) → (⟨S960x32, .f32⟩ : BufTy).Contents (Elt F)) (val V main_v85) (val V main_v86) :=
  (at_binary writesAre 132 V _ _ _ _ rfl (by decide +kernel) (by decide +kernel) (by decide +kernel)).trans rfl
theorem at_main_v88 (V : Valuation τ sig (Elt F)) : val V main_v88 = (subf : (⟨S960x32, .f32⟩ : BufTy).Contents (Elt F) → (⟨S960x32, .f32⟩ : BufTy).Contents (Elt F) → (⟨S960x32, .f32⟩ : BufTy).Contents (Elt F)) (val V main_v87) (val V main_arg7) :=
  (at_binary writesAre 133 V _ _ _ _ rfl (by decide +kernel) (by decide +kernel) (by decide +kernel)).trans rfl
theorem at_main_v89 (V : Valuation τ sig (Elt F)) : val V main_v89 = (addf : (⟨S960x32, .f32⟩ : BufTy).Contents (Elt F) → (⟨S960x32, .f32⟩ : BufTy).Contents (Elt F) → (⟨S960x32, .f32⟩ : BufTy).Contents (Elt F)) (val V main_arg7) (val V main_v88) :=
  (at_binary writesAre 134 V _ _ _ _ rfl (by decide +kernel) (by decide +kernel) (by decide +kernel)).trans rfl
theorem at_main_v90 (V : Valuation τ sig (Elt F)) : val V main_v90 = ((transpose S32x960 [1, 0] · transposes_S960x32_S32x960_1_0) : (⟨S960x32, .f32⟩ : BufTy).Contents (Elt F) → (⟨S32x960, .f32⟩ : BufTy).Contents (Elt F)) (val V main_v89) :=
  (at_unary writesAre 135 V _ _ _ rfl (by decide +kernel) (by decide +kernel)).trans rfl
theorem at_main_v91 (V : Valuation τ sig (Elt F)) : val V main_v91 = ((fun l r => Host.dotGeneral dot_S131072x32_S32x960_S131072x960_1_0_0_1_n_n none l r) : (⟨S131072x32, .f32⟩ : BufTy).Contents (Elt F) → (⟨S32x960, .f32⟩ : BufTy).Contents (Elt F) → (⟨S131072x960, .f32⟩ : BufTy).Contents (Elt F)) (val V main_v82) (val V main_v90) :=
  (at_binary writesAre 136 V _ _ _ _ rfl (by decide +kernel) (by decide +kernel) (by decide +kernel)).trans rfl
theorem at_main_cst_22 (V : Valuation τ sig (Elt F)) : val V main_cst_22 = (constant S_ .f32 0x45FE0000#32) :=
  (at_nullary writesAre 137 V _ _ rfl (by decide +kernel)).trans rfl
theorem at_main_v92 (V : Valuation τ sig (Elt F)) : val V main_v92 = (broadcastInDim S960 ![] bcast_S_S960 : (⟨S_, .f32⟩ : BufTy).Contents (Elt F) → (⟨S960, .f32⟩ : BufTy).Contents (Elt F)) (val V main_cst_22) :=
  (at_unary writesAre 138 V _ _ _ rfl (by decide +kernel) (by decide +kernel)).trans rfl
theorem at_main_v93 (V : Valuation τ sig (Elt F)) : val V main_v93 = (mulf : (⟨S960, .f32⟩ : BufTy).Contents (Elt F) → (⟨S960, .f32⟩ : BufTy).Contents (Elt F) → (⟨S960, .f32⟩ : BufTy).Contents (Elt F)) (val V main_arg8) (val V main_v92) :=
  (at_binary writesAre 139 V _ _ _ _ rfl (by decide +kernel) (by decide +kernel) (by decide +kernel)).trans rfl
theorem at_main_v94 (V : Valuation τ sig (Elt F)) : val V main_v94 = (Host.roundeven : (⟨S960, .f32⟩ : BufTy).Contents (Elt F) → (⟨S960, .f32⟩ : BufTy).Contents (Elt F)) (val V main_v93) :=
  at_tunary writesAre 140 V (StableHlo.TRef.of main_v93 : StableHlo.TRef sig ⟨S960, .f32⟩) main_call7.v0 Host.roundeven rfl (by decide +kernel) (by decide +kernel)
theorem at_main_cst_23 (V : Valuation τ sig (Elt F)) : val V main_cst_23 = (constant S_ .f32 0x45FE0000#32) :=
  (at_nullary writesAre 141 V _ _ rfl (by decide +kernel)).trans rfl
theorem at_main_v95 (V : Valuation τ sig (Elt F)) : val V main_v95 = (broadcastInDim S960 ![] bcast_S_S960 : (⟨S_, .f32⟩ : BufTy).Contents (Elt F) → (⟨S960, .f32⟩ : BufTy).Contents (Elt F)) (val V main_cst_23) :=
  (at_unary writesAre 142 V _ _ _ rfl (by decide +kernel) (by decide +kernel)).trans rfl
theorem at_main_v96 (V : Valuation τ sig (Elt F)) : val V main_v96 = (Host.divf : (⟨S960, .f32⟩ : BufTy).Contents (Elt F) → (⟨S960, .f32⟩ : BufTy).Contents (Elt F) → (⟨S960, .f32⟩ : BufTy).Contents (Elt F)) (val V main_v94) (val V main_v95) :=
  (at_binary writesAre 143 V _ _ _ _ rfl (by decide +kernel) (by decide +kernel) (by decide +kernel)).trans rfl
theorem at_main_v97 (V : Valuation τ sig (Elt F)) : val V main_v97 = (subf : (⟨S960, .f32⟩ : BufTy).Contents (Elt F) → (⟨S960, .f32⟩ : BufTy).Contents (Elt F) → (⟨S960, .f32⟩ : BufTy).Contents (Elt F)) (val V main_v96) (val V main_arg8) :=
  (at_binary writesAre 144 V _ _ _ _ rfl (by decide +kernel) (by decide +kernel) (by decide +kernel)).trans rfl
theorem at_main_v98 (V : Valuation τ sig (Elt F)) : val V main_v98 = (addf : (⟨S960, .f32⟩ : BufTy).Contents (Elt F) → (⟨S960, .f32⟩ : BufTy).Contents (Elt F) → (⟨S960, .f32⟩ : BufTy).Contents (Elt F)) (val V main_arg8) (val V main_v97) :=
  (at_binary writesAre 145 V _ _ _ _ rfl (by decide +kernel) (by decide +kernel) (by decide +kernel)).trans rfl
theorem at_main_v99 (V : Valuation τ sig (Elt F)) : val V main_v99 = (broadcastInDim S1x960 ![1] bcast_S960_S1x960_1 : (⟨S960, .f32⟩ : BufTy).Contents (Elt F) → (⟨S1x960, .f32⟩ : BufTy).Contents (Elt F)) (val V main_v98) :=
  (at_unary writesAre 146 V _ _ _ rfl (by decide +kernel) (by decide +kernel)).trans rfl
theorem at_main_v100 (V : Valuation τ sig (Elt F)) : val V main_v100 = (broadcastInDim S131072x960 ![0, 1] bcast_S1x960_S131072x960_0_1 : (⟨S1x960, .f32⟩ : BufTy).Contents (Elt F) → (⟨S131072x960, .f32⟩ : BufTy).Contents (Elt F)) (val V main_v99) :=
  (at_unary writesAre 147 V _ _ _ rfl (by decide +kernel) (by decide +kernel)).trans rfl
theorem at_main_v101 (V : Valuation τ sig (Elt F)) : val V main_v101 = (addf : (⟨S131072x960, .f32⟩ : BufTy).Contents (Elt F) → (⟨S131072x960, .f32⟩ : BufTy).Contents (Elt F) → (⟨S131072x960, .f32⟩ : BufTy).Contents (Elt F)) (val V main_v91) (val V main_v100) :=
  (at_binary writesAre 148 V _ _ _ _ rfl (by decide +kernel) (by decide +kernel) (by decide +kernel)).trans rfl
theorem at_main_v102 (V : Valuation τ sig (Elt F)) : val V main_v102 = shapeCast S131072x15x64 (val V main_v101) shapeCasts_S131072x960_S131072x15x64 :=
  (at_reshape writesAre 149 V _ _ _ _ rfl (by decide +kernel) (by decide +kernel)).trans rfl
theorem at_main_c_24 (V : Valuation τ sig (Elt F)) : val V main_c_24 = (constantI S_ 32 0#32) :=
  (at_nullary writesAre 150 V _ _ rfl (by decide +kernel)).trans rfl
theorem at_main_v103 (V : Valuation τ sig (Elt F)) : val V main_v103 = (broadcastInDim S131072 ![] bcast_S_S131072 : (⟨S_, .i32⟩ : BufTy).Contents (Elt F) → (⟨S131072, .i32⟩ : BufTy).Contents (Elt F)) (val V main_c_24) :=
  (at_unary writesAre 151 V _ _ _ rfl (by decide +kernel) (by decide +kernel)).trans rfl
theorem at_main_v104 (V : Valuation τ sig (Elt F)) : val V main_v104 = (cmpi .slt : (⟨S131072, .i32⟩ : BufTy).Contents (Elt F) → (⟨S131072, .i32⟩ : BufTy).Contents (Elt F) → (⟨S131072, .i1⟩ : BufTy).Contents (Elt F)) (val V main_v0) (val V main_v103) :=
  (at_binary writesAre 152 V _ _ _ _ rfl (by decide +kernel) (by decide +kernel) (by decide +kernel)).trans rfl
theorem at_main_c_25 (V : Valuation τ sig (Elt F)) : val V main_c_25 = (constantI S_ 32 131072#32) :=
  (at_nullary writesAre 153 V _ _ rfl (by decide +kernel)).trans rfl
theorem at_main_v105 (V : Valuation τ sig (Elt F)) : val V main_v105 = (broadcastInDim S131072 ![] bcast_S_S131072 : (⟨S_, .i32⟩ : BufTy).Contents (Elt F) → (⟨S131072, .i32⟩ : BufTy).Contents (Elt F)) (val V main_c_25) :=
  (at_unary writesAre 154 V _ _ _ rfl (by decide +kernel) (by decide +kernel)).trans rfl
theorem at_main_v106 (V : Valuation τ sig (Elt F)) : val V main_v106 = (addi : (⟨S131072, .i32⟩ : BufTy).Contents (Elt F) → (⟨S131072, .i32⟩ : BufTy).Contents (Elt F) → (⟨S131072, .i32⟩ : BufTy).Contents (Elt F)) (val V main_v0) (val V main_v105) :=
  (at_binary writesAre 155 V _ _ _ _ rfl (by decide +kernel) (by decide +kernel) (by decide +kernel)).trans rfl
theorem at_main_v107 (V : Valuation τ sig (Elt F)) : val V main_v107 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v104) (val V main_v106) (val V main_v0) :=
  (at_ternary writesAre 156 V _ _ _ _ _ rfl (by decide +kernel) (by decide +kernel) (by decide +kernel) (by decide +kernel)).trans rfl
theorem at_main_c_26 (V : Valuation τ sig (Elt F)) : val V main_c_26 = (constantI S_ 32 0#32) :=
  (at_nullary writesAre 157 V _ _ rfl (by decide +kernel)).trans rfl
theorem at_main_v108 (V : Valuation τ sig (Elt F)) : val V main_v108 = (broadcastInDim S131072 ![] bcast_S_S131072 : (⟨S_, .i32⟩ : BufTy).Contents (Elt F) → (⟨S131072, .i32⟩ : BufTy).Contents (Elt F)) (val V main_c_26) :=
  (at_unary writesAre 158 V _ _ _ rfl (by decide +kernel) (by decide +kernel)).trans rfl
theorem at_main_v109 (V : Valuation τ sig (Elt F)) : val V main_v109 = (cmpi .slt : (⟨S131072, .i32⟩ : BufTy).Contents (Elt F) → (⟨S131072, .i32⟩ : BufTy).Contents (Elt F) → (⟨S131072, .i1⟩ : BufTy).Contents (Elt F)) (val V main_v1) (val V main_v108) :=
  (at_binary writesAre 159 V _ _ _ _ rfl (by decide +kernel) (by decide +kernel) (by decide +kernel)).trans rfl
theorem at_main_c_27 (V : Valuation τ sig (Elt F)) : val V main_c_27 = (constantI S_ 32 15#32) :=
  (at_nullary writesAre 160 V _ _ rfl (by decide +kernel)).trans rfl
theorem at_main_v110 (V : Valuation τ sig (Elt F)) : val V main_v110 = (broadcastInDim S131072 ![] bcast_S_S131072 : (⟨S_, .i32⟩ : BufTy).Contents (Elt F) → (⟨S131072, .i32⟩ : BufTy).Contents (Elt F)) (val V main_c_27) :=
  (at_unary writesAre 161 V _ _ _ rfl (by decide +kernel) (by decide +kernel)).trans rfl
theorem at_main_v111 (V : Valuation τ sig (Elt F)) : val V main_v111 = (addi : (⟨S131072, .i32⟩ : BufTy).Contents (Elt F) → (⟨S131072, .i32⟩ : BufTy).Contents (Elt F) → (⟨S131072, .i32⟩ : BufTy).Contents (Elt F)) (val V main_v1) (val V main_v110) :=
  (at_binary writesAre 162 V _ _ _ _ rfl (by decide +kernel) (by decide +kernel) (by decide +kernel)).trans rfl
theorem at_main_v112 (V : Valuation τ sig (Elt F)) : val V main_v112 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v109) (val V main_v111) (val V main_v1) :=
  (at_ternary writesAre 163 V _ _ _ _ _ rfl (by decide +kernel) (by decide +kernel) (by decide +kernel) (by decide +kernel)).trans rfl
theorem at_main_v113 (V : Valuation τ sig (Elt F)) : val V main_v113 = (broadcastInDim S131072x1 ![0] bcast_S131072_S131072x1_0 : (⟨S131072, .i32⟩ : BufTy).Contents (Elt F) → (⟨S131072x1, .i32⟩ : BufTy).Contents (Elt F)) (val V main_v107) :=
  (at_unary writesAre 164 V _ _ _ rfl (by decide +kernel) (by decide +kernel)).trans rfl
theorem at_main_v114 (V : Valuation τ sig (Elt F)) : val V main_v114 = (broadcastInDim S131072x1 ![0] bcast_S131072_S131072x1_0 : (⟨S131072, .i32⟩ : BufTy).Contents (Elt F) → (⟨S131072x1, .i32⟩ : BufTy).Contents (Elt F)) (val V main_v112) :=
  (at_unary writesAre 165 V _ _ _ rfl (by decide +kernel) (by decide +kernel)).trans rfl
theorem at_main_v115 (V : Valuation τ sig (Elt F)) : val V main_v115 = ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)) (val V main_v113) (val V main_v114) :=
  (at_binary writesAre 166 V _ _ _ _ rfl (by decide +kernel) (by decide +kernel) (by decide +kernel)).trans rfl
theorem at_main_v116 (V : Valuation τ sig (Elt F)) : val V main_v116 = ((fun x i => Host.gather gather_S131072x15x64_S131072x2_S131072x64_1_01_n_n_01_1_1164 x i) : (⟨S131072x15x64, .f32⟩ : BufTy).Contents (Elt F) → (⟨S131072x2, .i32⟩ : BufTy).Contents (Elt F) → (⟨S131072x64, .f32⟩ : BufTy).Contents (Elt F)) (val V main_v102) (val V main_v115) :=
  (at_binary writesAre 167 V _ _ _ _ rfl (by decide +kernel) (by decide +kernel) (by decide +kernel)).trans rfl
theorem at_main_cst_28 (V : Valuation τ sig (Elt F)) : val V main_cst_28 = (constant S_ .f32 0x00000000#32) :=
  (at_nullary writesAre 168 V _ _ rfl (by decide +kernel)).trans rfl
theorem at_main_cst_29 (V : Valuation τ sig (Elt F)) : val V main_cst_29 = (constant S_ .f32 0x3F800000#32) :=
  (at_nullary writesAre 169 V _ _ rfl (by decide +kernel)).trans rfl
theorem at_main_call8_v0 (V : Valuation τ sig (Elt F)) : val V main_call8_v0 = (id : (⟨S_, .f32⟩ : BufTy).Contents (Elt F) → (⟨S_, .f32⟩ : BufTy).Contents (Elt F)) (val V main_cst_28) :=
  at_tunary writesAre 170 V (StableHlo.TRef.of main_cst_28 : StableHlo.TRef sig ⟨S_, .f32⟩) main_call8.v0 id rfl (by decide +kernel) (by decide +kernel)
theorem at_main_call8_v1 (V : Valuation τ sig (Elt F)) : val V main_call8_v1 = ((broadcastInDim S131072x64 ![] bcast_S_S131072x64) : (⟨S_, .f32⟩ : BufTy).Contents (Elt F) → (⟨S131072x64, .f32⟩ : BufTy).Contents (Elt F)) (val V main_call8_v0) :=
  at_tunary writesAre 171 V main_call8.v0 main_call8.v1 (broadcastInDim S131072x64 ![] bcast_S_S131072x64) rfl (by decide +kernel) (by decide +kernel)
theorem at_main_call8_v2 (V : Valuation τ sig (Elt F)) : val V main_call8_v2 = (maximumf : (⟨S131072x64, .f32⟩ : BufTy).Contents (Elt F) → (⟨S131072x64, .f32⟩ : BufTy).Contents (Elt F) → (⟨S131072x64, .f32⟩ : BufTy).Contents (Elt F)) (val V main_call8_v1) (val V main_v116) :=
  at_tbinary writesAre 172 V main_call8.v1 (StableHlo.TRef.of main_v116 : StableHlo.TRef sig ⟨S131072x64, .f32⟩) main_call8.v2 maximumf rfl (by decide +kernel) (by decide +kernel) (by decide +kernel)
theorem at_main_call8_v3 (V : Valuation τ sig (Elt F)) : val V main_call8_v3 = (id : (⟨S_, .f32⟩ : BufTy).Contents (Elt F) → (⟨S_, .f32⟩ : BufTy).Contents (Elt F)) (val V main_cst_29) :=
  at_tunary writesAre 173 V (StableHlo.TRef.of main_cst_29 : StableHlo.TRef sig ⟨S_, .f32⟩) main_call8.v3 id rfl (by decide +kernel) (by decide +kernel)
theorem at_main_call8_v4 (V : Valuation τ sig (Elt F)) : val V main_call8_v4 = ((broadcastInDim S131072x64 ![] bcast_S_S131072x64) : (⟨S_, .f32⟩ : BufTy).Contents (Elt F) → (⟨S131072x64, .f32⟩ : BufTy).Contents (Elt F)) (val V main_call8_v3) :=
  at_tunary writesAre 174 V main_call8.v3 main_call8.v4 (broadcastInDim S131072x64 ![] bcast_S_S131072x64) rfl (by decide +kernel) (by decide +kernel)
theorem at_main_v117 (V : Valuation τ sig (Elt F)) : val V main_v117 = (minimumf : (⟨S131072x64, .f32⟩ : BufTy).Contents (Elt F) → (⟨S131072x64, .f32⟩ : BufTy).Contents (Elt F) → (⟨S131072x64, .f32⟩ : BufTy).Contents (Elt F)) (val V main_call8_v4) (val V main_call8_v2) :=
  at_tbinary writesAre 175 V main_call8.v4 main_call8.v2 main_call8.v5 minimumf rfl (by decide +kernel) (by decide +kernel) (by decide +kernel)
theorem at_main_cst_30 (V : Valuation τ sig (Elt F)) : val V main_cst_30 = (constant S_ .f32 0x42FE0000#32) :=
  (at_nullary writesAre 176 V _ _ rfl (by decide +kernel)).trans rfl
theorem at_main_v118 (V : Valuation τ sig (Elt F)) : val V main_v118 = (broadcastInDim S131072x64 ![] bcast_S_S131072x64 : (⟨S_, .f32⟩ : BufTy).Contents (Elt F) → (⟨S131072x64, .f32⟩ : BufTy).Contents (Elt F)) (val V main_cst_30) :=
  (at_unary writesAre 177 V _ _ _ rfl (by decide +kernel) (by decide +kernel)).trans rfl
theorem at_main_v119 (V : Valuation τ sig (Elt F)) : val V main_v119 = (mulf : (⟨S131072x64, .f32⟩ : BufTy).Contents (Elt F) → (⟨S131072x64, .f32⟩ : BufTy).Contents (Elt F) → (⟨S131072x64, .f32⟩ : BufTy).Contents (Elt F)) (val V main_v117) (val V main_v118) :=
  (at_binary writesAre 178 V _ _ _ _ rfl (by decide +kernel) (by decide +kernel) (by decide +kernel)).trans rfl
theorem at_main_v120 (V : Valuation τ sig (Elt F)) : val V main_v120 = (Host.floor : (⟨S131072x64, .f32⟩ : BufTy).Contents (Elt F) → (⟨S131072x64, .f32⟩ : BufTy).Contents (Elt F)) (val V main_v119) :=
  (at_unary writesAre 179 V _ _ _ rfl (by decide +kernel) (by decide +kernel)).trans rfl
theorem at_main_cst_31 (V : Valuation τ sig (Elt F)) : val V main_cst_31 = (constant S_ .f32 0x42FE0000#32) :=
  (at_nullary writesAre 180 V _ _ rfl (by decide +kernel)).trans rfl
theorem at_main_v121 (V : Valuation τ sig (Elt F)) : val V main_v121 = (broadcastInDim S131072x64 ![] bcast_S_S131072x64 : (⟨S_, .f32⟩ : BufTy).Contents (Elt F) → (⟨S131072x64, .f32⟩ : BufTy).Contents (Elt F)) (val V main_cst_31) :=
  (at_unary writesAre 181 V _ _ _ rfl (by decide +kernel) (by decide +kernel)).trans rfl
theorem at_main_v122 (V : Valuation τ sig (Elt F)) : val V main_v122 = (Host.divf : (⟨S131072x64, .f32⟩ : BufTy).Contents (Elt F) → (⟨S131072x64, .f32⟩ : BufTy).Contents (Elt F) → (⟨S131072x64, .f32⟩ : BufTy).Contents (Elt F)) (val V main_v120) (val V main_v121) :=
  (at_binary writesAre 182 V _ _ _ _ rfl (by decide +kernel) (by decide +kernel) (by decide +kernel)).trans rfl
theorem at_main_v123 (V : Valuation τ sig (Elt F)) : val V main_v123 = (subf : (⟨S131072x64, .f32⟩ : BufTy).Contents (Elt F) → (⟨S131072x64, .f32⟩ : BufTy).Contents (Elt F) → (⟨S131072x64, .f32⟩ : BufTy).Contents (Elt F)) (val V main_v122) (val V main_v117) :=
  (at_binary writesAre 183 V _ _ _ _ rfl (by decide +kernel) (by decide +kernel) (by decide +kernel)).trans rfl
theorem at_main_v124 (V : Valuation τ sig (Elt F)) : val V main_v124 = (addf : (⟨S131072x64, .f32⟩ : BufTy).Contents (Elt F) → (⟨S131072x64, .f32⟩ : BufTy).Contents (Elt F) → (⟨S131072x64, .f32⟩ : BufTy).Contents (Elt F)) (val V main_v117) (val V main_v123) :=
  (at_binary writesAre 184 V _ _ _ _ rfl (by decide +kernel) (by decide +kernel) (by decide +kernel)).trans rfl
theorem at_main_cst_32 (V : Valuation τ sig (Elt F)) : val V main_cst_32 = (constant S_ .f32 0x41010204#32) :=
  (at_nullary writesAre 185 V _ _ rfl (by decide +kernel)).trans rfl
theorem at_main_v125 (V : Valuation τ sig (Elt F)) : val V main_v125 = (broadcastInDim S15x64 ![] bcast_S_S15x64 : (⟨S_, .f32⟩ : BufTy).Contents (Elt F) → (⟨S15x64, .f32⟩ : BufTy).Contents (Elt F)) (val V main_cst_32) :=
  (at_unary writesAre 186 V _ _ _ rfl (by decide +kernel) (by decide +kernel)).trans rfl
theorem at_main_v126 (V : Valuation τ sig (Elt F)) : val V main_v126 = (mulf : (⟨S15x64, .f32⟩ : BufTy).Contents (Elt F) → (⟨S15x64, .f32⟩ : BufTy).Contents (Elt F) → (⟨S15x64, .f32⟩ : BufTy).Contents (Elt F)) (val V main_arg9) (val V main_v125) :=
  (at_binary writesAre 187 V _ _ _ _ rfl (by decide +kernel) (by decide +kernel) (by decide +kernel)).trans rfl
theorem at_main_v127 (V : Valuation τ sig (Elt F)) : val V main_v127 = (Host.roundeven : (⟨S15x64, .f32⟩ : BufTy).Contents (Elt F) → (⟨S15x64, .f32⟩ : BufTy).Contents (Elt F)) (val V main_v126) :=
  at_tunary writesAre 188 V (StableHlo.TRef.of main_v126 : StableHlo.TRef sig ⟨S15x64, .f32⟩) main_call9.v0 Host.roundeven rfl (by decide +kernel) (by decide +kernel)
theorem at_main_cst_33 (V : Valuation τ sig (Elt F)) : val V main_cst_33 = (constant S_ .f32 0x41010204#32) :=
  (at_nullary writesAre 189 V _ _ rfl (by decide +kernel)).trans rfl
theorem at_main_v128 (V : Valuation τ sig (Elt F)) : val V main_v128 = (broadcastInDim S15x64 ![] bcast_S_S15x64 : (⟨S_, .f32⟩ : BufTy).Contents (Elt F) → (⟨S15x64, .f32⟩ : BufTy).Contents (Elt F)) (val V main_cst_33) :=
  (at_unary writesAre 190 V _ _ _ rfl (by decide +kernel) (by decide +kernel)).trans rfl
theorem at_main_v129 (V : Valuation τ sig (Elt F)) : val V main_v129 = (Host.divf : (⟨S15x64, .f32⟩ : BufTy).Contents (Elt F) → (⟨S15x64, .f32⟩ : BufTy).Contents (Elt F) → (⟨S15x64, .f32⟩ : BufTy).Contents (Elt F)) (val V main_v127) (val V main_v128) :=
  (at_binary writesAre 191 V _ _ _ _ rfl (by decide +kernel) (by decide +kernel) (by decide +kernel)).trans rfl
theorem at_main_v130 (V : Valuation τ sig (Elt F)) : val V main_v130 = (subf : (⟨S15x64, .f32⟩ : BufTy).Contents (Elt F) → (⟨S15x64, .f32⟩ : BufTy).Contents (Elt F) → (⟨S15x64, .f32⟩ : BufTy).Contents (Elt F)) (val V main_v129) (val V main_arg9) :=
  (at_binary writesAre 192 V _ _ _ _ rfl (by decide +kernel) (by decide +kernel) (by decide +kernel)).trans rfl
theorem at_main_v131 (V : Valuation τ sig (Elt F)) : val V main_v131 = (addf : (⟨S15x64, .f32⟩ : BufTy).Contents (Elt F) → (⟨S15x64, .f32⟩ : BufTy).Contents (Elt F) → (⟨S15x64, .f32⟩ : BufTy).Contents (Elt F)) (val V main_arg9) (val V main_v130) :=
  (at_binary writesAre 193 V _ _ _ _ rfl (by decide +kernel) (by decide +kernel) (by decide +kernel)).trans rfl
theorem at_main_v132 (V : Valuation τ sig (Elt F)) : val V main_v132 = ((transpose S64x15 [1, 0] · transposes_S15x64_S64x15_1_0) : (⟨S15x64, .f32⟩ : BufTy).Contents (Elt F) → (⟨S64x15, .f32⟩ : BufTy).Contents (Elt F)) (val V main_v131) :=
  (at_unary writesAre 194 V _ _ _ rfl (by decide +kernel) (by decide +kernel)).trans rfl
theorem at_main_v133 (V : Valuation τ sig (Elt F)) : val V main_v133 = ((fun l r => Host.dotGeneral dot_S131072x64_S64x15_S131072x15_1_0_0_1_n_n none l r) : (⟨S131072x64, .f32⟩ : BufTy).Contents (Elt F) → (⟨S64x15, .f32⟩ : BufTy).Contents (Elt F) → (⟨S131072x15, .f32⟩ : BufTy).Contents (Elt F)) (val V main_v124) (val V main_v132) :=
  (at_binary writesAre 195 V _ _ _ _ rfl (by decide +kernel) (by decide +kernel) (by decide +kernel)).trans rfl
theorem at_main_cst_34 (V : Valuation τ sig (Elt F)) : val V main_cst_34 = (constant S_ .f32 0x44800000#32) :=
  (at_nullary writesAre 196 V _ _ rfl (by decide +kernel)).trans rfl
theorem at_main_v134 (V : Valuation τ sig (Elt F)) : val V main_v134 = (broadcastInDim S15 ![] bcast_S_S15 : (⟨S_, .f32⟩ : BufTy).Contents (Elt F) → (⟨S15, .f32⟩ : BufTy).Contents (Elt F)) (val V main_cst_34) :=
  (at_unary writesAre 197 V _ _ _ rfl (by decide +kernel) (by decide +kernel)).trans rfl
theorem at_main_v135 (V : Valuation τ sig (Elt F)) : val V main_v135 = (mulf : (⟨S15, .f32⟩ : BufTy).Contents (Elt F) → (⟨S15, .f32⟩ : BufTy).Contents (Elt F) → (⟨S15, .f32⟩ : BufTy).Contents (Elt F)) (val V main_arg10) (val V main_v134) :=
  (at_binary writesAre 198 V _ _ _ _ rfl (by decide +kernel) (by decide +kernel) (by decide +kernel)).trans rfl
theorem at_main_v136 (V : Valuation τ sig (Elt F)) : val V main_v136 = (Host.roundeven : (⟨S15, .f32⟩ : BufTy).Contents (Elt F) → (⟨S15, .f32⟩ : BufTy).Contents (Elt F)) (val V main_v135) :=
  at_tunary writesAre 199 V (StableHlo.TRef.of main_v135 : StableHlo.TRef sig ⟨S15, .f32⟩) main_call10.v0 Host.roundeven rfl (by decide +kernel) (by decide +kernel)
theorem at_main_cst_35 (V : Valuation τ sig (Elt F)) : val V main_cst_35 = (constant S_ .f32 0x44800000#32) :=
  (at_nullary writesAre 200 V _ _ rfl (by decide +kernel)).trans rfl
theorem at_main_v137 (V : Valuation τ sig (Elt F)) : val V main_v137 = (broadcastInDim S15 ![] bcast_S_S15 : (⟨S_, .f32⟩ : BufTy).Contents (Elt F) → (⟨S15, .f32⟩ : BufTy).Contents (Elt F)) (val V main_cst_35) :=
  (at_unary writesAre 201 V _ _ _ rfl (by decide +kernel) (by decide +kernel)).trans rfl
theorem at_main_v138 (V : Valuation τ sig (Elt F)) : val V main_v138 = (Host.divf : (⟨S15, .f32⟩ : BufTy).Contents (Elt F) → (⟨S15, .f32⟩ : BufTy).Contents (Elt F) → (⟨S15, .f32⟩ : BufTy).Contents (Elt F)) (val V main_v136) (val V main_v137) :=
  (at_binary writesAre 202 V _ _ _ _ rfl (by decide +kernel) (by decide +kernel) (by decide +kernel)).trans rfl
theorem at_main_v139 (V : Valuation τ sig (Elt F)) : val V main_v139 = (subf : (⟨S15, .f32⟩ : BufTy).Contents (Elt F) → (⟨S15, .f32⟩ : BufTy).Contents (Elt F) → (⟨S15, .f32⟩ : BufTy).Contents (Elt F)) (val V main_v138) (val V main_arg10) :=
  (at_binary writesAre 203 V _ _ _ _ rfl (by decide +kernel) (by decide +kernel) (by decide +kernel)).trans rfl
theorem at_main_v140 (V : Valuation τ sig (Elt F)) : val V main_v140 = (addf : (⟨S15, .f32⟩ : BufTy).Contents (Elt F) → (⟨S15, .f32⟩ : BufTy).Contents (Elt F) → (⟨S15, .f32⟩ : BufTy).Contents (Elt F)) (val V main_arg10) (val V main_v139) :=
  (at_binary writesAre 204 V _ _ _ _ rfl (by decide +kernel) (by decide +kernel) (by decide +kernel)).trans rfl
theorem at_main_v141 (V : Valuation τ sig (Elt F)) : val V main_v141 = (broadcastInDim S1x15 ![1] bcast_S15_S1x15_1 : (⟨S15, .f32⟩ : BufTy).Contents (Elt F) → (⟨S1x15, .f32⟩ : BufTy).Contents (Elt F)) (val V main_v140) :=
  (at_unary writesAre 205 V _ _ _ rfl (by decide +kernel) (by decide +kernel)).trans rfl
theorem at_main_v142 (V : Valuation τ sig (Elt F)) : val V main_v142 = (broadcastInDim S131072x15 ![0, 1] bcast_S1x15_S131072x15_0_1 : (⟨S1x15, .f32⟩ : BufTy).Contents (Elt F) → (⟨S131072x15, .f32⟩ : BufTy).Contents (Elt F)) (val V main_v141) :=
  (at_unary writesAre 206 V _ _ _ rfl (by decide +kernel) (by decide +kernel)).trans rfl
theorem at_main_v143 (V : Valuation τ sig (Elt F)) : val V main_v143 = (addf : (⟨S131072x15, .f32⟩ : BufTy).Contents (Elt F) → (⟨S131072x15, .f32⟩ : BufTy).Contents (Elt F) → (⟨S131072x15, .f32⟩ : BufTy).Contents (Elt F)) (val V main_v133) (val V main_v142) :=
  (at_binary writesAre 207 V _ _ _ _ rfl (by decide +kernel) (by decide +kernel) (by decide +kernel)).trans rfl
theorem at_main_v144 (V : Valuation τ sig (Elt F)) : val V main_v144 = shapeCast S131072x15x1 (val V main_v143) shapeCasts_S131072x15_S131072x15x1 :=
  (at_reshape writesAre 208 V _ _ _ _ rfl (by decide +kernel) (by decide +kernel)).trans rfl
theorem at_main_c_36 (V : Valuation τ sig (Elt F)) : val V main_c_36 = (constantI S_ 32 0#32) :=
  (at_nullary writesAre 209 V _ _ rfl (by decide +kernel)).trans rfl
theorem at_main_v145 (V : Valuation τ sig (Elt F)) : val V main_v145 = (broadcastInDim S131072 ![] bcast_S_S131072 : (⟨S_, .i32⟩ : BufTy).Contents (Elt F) → (⟨S131072, .i32⟩ : BufTy).Contents (Elt F)) (val V main_c_36) :=
  (at_unary writesAre 210 V _ _ _ rfl (by decide +kernel) (by decide +kernel)).trans rfl
theorem at_main_v146 (V : Valuation τ sig (Elt F)) : val V main_v146 = (cmpi .slt : (⟨S131072, .i32⟩ : BufTy).Contents (Elt F) → (⟨S131072, .i32⟩ : BufTy).Contents (Elt F) → (⟨S131072, .i1⟩ : BufTy).Contents (Elt F)) (val V main_v0) (val V main_v145) :=
  (at_binary writesAre 211 V _ _ _ _ rfl (by decide +kernel) (by decide +kernel) (by decide +kernel)).trans rfl
theorem at_main_c_37 (V : Valuation τ sig (Elt F)) : val V main_c_37 = (constantI S_ 32 131072#32) :=
  (at_nullary writesAre 212 V _ _ rfl (by decide +kernel)).trans rfl
theorem at_main_v147 (V : Valuation τ sig (Elt F)) : val V main_v147 = (broadcastInDim S131072 ![] bcast_S_S131072 : (⟨S_, .i32⟩ : BufTy).Contents (Elt F) → (⟨S131072, .i32⟩ : BufTy).Contents (Elt F)) (val V main_c_37) :=
  (at_unary writesAre 213 V _ _ _ rfl (by decide +kernel) (by decide +kernel)).trans rfl
theorem at_main_v148 (V : Valuation τ sig (Elt F)) : val V main_v148 = (addi : (⟨S131072, .i32⟩ : BufTy).Contents (Elt F) → (⟨S131072, .i32⟩ : BufTy).Contents (Elt F) → (⟨S131072, .i32⟩ : BufTy).Contents (Elt F)) (val V main_v0) (val V main_v147) :=
  (at_binary writesAre 214 V _ _ _ _ rfl (by decide +kernel) (by decide +kernel) (by decide +kernel)).trans rfl
theorem at_main_v149 (V : Valuation τ sig (Elt F)) : val V main_v149 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v146) (val V main_v148) (val V main_v0) :=
  (at_ternary writesAre 215 V _ _ _ _ _ rfl (by decide +kernel) (by decide +kernel) (by decide +kernel) (by decide +kernel)).trans rfl
theorem at_main_c_38 (V : Valuation τ sig (Elt F)) : val V main_c_38 = (constantI S_ 32 0#32) :=
  (at_nullary writesAre 216 V _ _ rfl (by decide +kernel)).trans rfl
theorem at_main_v150 (V : Valuation τ sig (Elt F)) : val V main_v150 = (broadcastInDim S131072 ![] bcast_S_S131072 : (⟨S_, .i32⟩ : BufTy).Contents (Elt F) → (⟨S131072, .i32⟩ : BufTy).Contents (Elt F)) (val V main_c_38) :=
  (at_unary writesAre 217 V _ _ _ rfl (by decide +kernel) (by decide +kernel)).trans rfl
theorem at_main_v151 (V : Valuation τ sig (Elt F)) : val V main_v151 = (cmpi .slt : (⟨S131072, .i32⟩ : BufTy).Contents (Elt F) → (⟨S131072, .i32⟩ : BufTy).Contents (Elt F) → (⟨S131072, .i1⟩ : BufTy).Contents (Elt F)) (val V main_v1) (val V main_v150) :=
  (at_binary writesAre 218 V _ _ _ _ rfl (by decide +kernel) (by decide +kernel) (by decide +kernel)).trans rfl
theorem at_main_c_39 (V : Valuation τ sig (Elt F)) : val V main_c_39 = (constantI S_ 32 15#32) :=
  (at_nullary writesAre 219 V _ _ rfl (by decide +kernel)).trans rfl
theorem at_main_v152 (V : Valuation τ sig (Elt F)) : val V main_v152 = (broadcastInDim S131072 ![] bcast_S_S131072 : (⟨S_, .i32⟩ : BufTy).Contents (Elt F) → (⟨S131072, .i32⟩ : BufTy).Contents (Elt F)) (val V main_c_39) :=
  (at_unary writesAre 220 V _ _ _ rfl (by decide +kernel) (by decide +kernel)).trans rfl
theorem at_main_v153 (V : Valuation τ sig (Elt F)) : val V main_v153 = (addi : (⟨S131072, .i32⟩ : BufTy).Contents (Elt F) → (⟨S131072, .i32⟩ : BufTy).Contents (Elt F) → (⟨S131072, .i32⟩ : BufTy).Contents (Elt F)) (val V main_v1) (val V main_v152) :=
  (at_binary writesAre 221 V _ _ _ _ rfl (by decide +kernel) (by decide +kernel) (by decide +kernel)).trans rfl
theorem at_main_v154 (V : Valuation τ sig (Elt F)) : val V main_v154 = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (val V main_v151) (val V main_v153) (val V main_v1) :=
  (at_ternary writesAre 222 V _ _ _ _ _ rfl (by decide +kernel) (by decide +kernel) (by decide +kernel) (by decide +kernel)).trans rfl
theorem at_main_v155 (V : Valuation τ sig (Elt F)) : val V main_v155 = (broadcastInDim S131072x1 ![0] bcast_S131072_S131072x1_0 : (⟨S131072, .i32⟩ : BufTy).Contents (Elt F) → (⟨S131072x1, .i32⟩ : BufTy).Contents (Elt F)) (val V main_v149) :=
  (at_unary writesAre 223 V _ _ _ rfl (by decide +kernel) (by decide +kernel)).trans rfl
theorem at_main_v156 (V : Valuation τ sig (Elt F)) : val V main_v156 = (broadcastInDim S131072x1 ![0] bcast_S131072_S131072x1_0 : (⟨S131072, .i32⟩ : BufTy).Contents (Elt F) → (⟨S131072x1, .i32⟩ : BufTy).Contents (Elt F)) (val V main_v154) :=
  (at_unary writesAre 224 V _ _ _ rfl (by decide +kernel) (by decide +kernel)).trans rfl
theorem at_main_v157 (V : Valuation τ sig (Elt F)) : val V main_v157 = ((fun a b => concatenate S131072x2 1 [⟨S131072x1, a⟩, ⟨S131072x1, b⟩] concatenates_S131072x1_S131072x1_S131072x2_d1) : (⟨S131072x1, .i32⟩ : BufTy).Contents (Elt F) → (⟨S131072x1, .i32⟩ : BufTy).Contents (Elt F) → (⟨S131072x2, .i32⟩ : BufTy).Contents (Elt F)) (val V main_v155) (val V main_v156) :=
  (at_binary writesAre 225 V _ _ _ _ rfl (by decide +kernel) (by decide +kernel) (by decide +kernel)).trans rfl
theorem at_main_v158 (V : Valuation τ sig (Elt F)) : val V main_v158 = ((fun x i => Host.gather gather_S131072x15x1_S131072x2_S131072x1_1_01_n_n_01_1_111 x i) : (⟨S131072x15x1, .f32⟩ : BufTy).Contents (Elt F) → (⟨S131072x2, .i32⟩ : BufTy).Contents (Elt F) → (⟨S131072x1, .f32⟩ : BufTy).Contents (Elt F)) (val V main_v144) (val V main_v157) :=
  (at_binary writesAre 226 V _ _ _ _ rfl (by decide +kernel) (by decide +kernel) (by decide +kernel)).trans rfl
theorem at_main_cst_40 (V : Valuation τ sig (Elt F)) : val V main_cst_40 = (constant S_ .f32 0x42800000#32) :=
  (at_nullary writesAre 227 V _ _ rfl (by decide +kernel)).trans rfl
theorem at_main_v159 (V : Valuation τ sig (Elt F)) : val V main_v159 = (broadcastInDim S131072x1 ![] bcast_S_S131072x1 : (⟨S_, .f32⟩ : BufTy).Contents (Elt F) → (⟨S131072x1, .f32⟩ : BufTy).Contents (Elt F)) (val V main_cst_40) :=
  (at_unary writesAre 228 V _ _ _ rfl (by decide +kernel) (by decide +kernel)).trans rfl
theorem at_main_v160 (V : Valuation τ sig (Elt F)) : val V main_v160 = (mulf : (⟨S131072x1, .f32⟩ : BufTy).Contents (Elt F) → (⟨S131072x1, .f32⟩ : BufTy).Contents (Elt F) → (⟨S131072x1, .f32⟩ : BufTy).Contents (Elt F)) (val V main_v158) (val V main_v159) :=
  (at_binary writesAre 229 V _ _ _ _ rfl (by decide +kernel) (by decide +kernel) (by decide +kernel)).trans rfl
theorem at_main_v161 (V : Valuation τ sig (Elt F)) : val V main_v161 = (Host.floor : (⟨S131072x1, .f32⟩ : BufTy).Contents (Elt F) → (⟨S131072x1, .f32⟩ : BufTy).Contents (Elt F)) (val V main_v160) :=
  (at_unary writesAre 230 V _ _ _ rfl (by decide +kernel) (by decide +kernel)).trans rfl
theorem at_main_cst_41 (V : Valuation τ sig (Elt F)) : val V main_cst_41 = (constant S_ .f32 0x42800000#32) :=
  (at_nullary writesAre 231 V _ _ rfl (by decide +kernel)).trans rfl
theorem at_main_v162 (V : Valuation τ sig (Elt F)) : val V main_v162 = (broadcastInDim S131072x1 ![] bcast_S_S131072x1 : (⟨S_, .f32⟩ : BufTy).Contents (Elt F) → (⟨S131072x1, .f32⟩ : BufTy).Contents (Elt F)) (val V main_cst_41) :=
  (at_unary writesAre 232 V _ _ _ rfl (by decide +kernel) (by decide +kernel)).trans rfl
theorem at_main_v163 (V : Valuation τ sig (Elt F)) : val V main_v163 = (Host.divf : (⟨S131072x1, .f32⟩ : BufTy).Contents (Elt F) → (⟨S131072x1, .f32⟩ : BufTy).Contents (Elt F) → (⟨S131072x1, .f32⟩ : BufTy).Contents (Elt F)) (val V main_v161) (val V main_v162) :=
  (at_binary writesAre 233 V _ _ _ _ rfl (by decide +kernel) (by decide +kernel) (by decide +kernel)).trans rfl
theorem at_main_v164 (V : Valuation τ sig (Elt F)) : val V main_v164 = (subf : (⟨S131072x1, .f32⟩ : BufTy).Contents (Elt F) → (⟨S131072x1, .f32⟩ : BufTy).Contents (Elt F) → (⟨S131072x1, .f32⟩ : BufTy).Contents (Elt F)) (val V main_v163) (val V main_v158) :=
  (at_binary writesAre 234 V _ _ _ _ rfl (by decide +kernel) (by decide +kernel) (by decide +kernel)).trans rfl
theorem at_main_v165 (V : Valuation τ sig (Elt F)) : val V main_v165 = (addf : (⟨S131072x1, .f32⟩ : BufTy).Contents (Elt F) → (⟨S131072x1, .f32⟩ : BufTy).Contents (Elt F) → (⟨S131072x1, .f32⟩ : BufTy).Contents (Elt F)) (val V main_v158) (val V main_v164) :=
  (at_binary writesAre 235 V _ _ _ _ rfl (by decide +kernel) (by decide +kernel) (by decide +kernel)).trans rfl

end Cert.ReferenceIdeal.MoE

end
-- ==== Proof.RefRun.lean ====
/-
  The reference program is one straight line of host operations, and its run ends with every buffer at the line's
  value of it.

  The program is printed in four parts run in order, each a sequence of single operations and of calls of the
  module's helper functions (a floor division with its selection, roundings, clips). A call runs the callee's
  operations on the call's own buffers, so with the calls unfolded the program is the fold of ONE list of
  operations. Sequencing in the free monad is grafting a continuation onto the leaves of a finite tree, so both the
  unfolding of a call and the reassociation of the sequence are computation: each printed part IS the fold of its
  stretch of the list. The run theorem for a straight line then says that every weakly fair execution terminates
  with each buffer at what the list, folded over the launch contents, leaves in it; and a buffer the list never
  writes (each of the eleven arguments) still holds its launch contents.
-/
import proofs.«422179_j46557445489276_3_alg».proof.Proof.RefSteps
import proofs.«422179_j46557445489276_3_alg».proof.Proof.Gen.ReferenceIdeal
import Idealize.ShloMosaic.Lib.StableHlo.Run

noncomputable section

namespace Cert.ReferenceIdeal.MoE

open Cert.ReferenceIdeal Idealize.ShloMosaic Idealize.ShloMosaic.TcCoe Idealize.SL.Sem Idealize.ShloMosaic.StableHlo Cert.LibStretch Cert.LibSsa
open Cert.ReferenceIdeal.Facts₀ Cert.ReferenceIdeal.Facts

variable {F : FTy → Type} [FloatOps F]

/-! ## The program is the line

The printed program is four consecutive parts run in order, each a sequence of single operations and of calls of the
module's functions; a call runs the callee's operations on the call's own buffers. Sequencing in the free monad is
grafting, so unfolding the calls and reassociating is computation: each part IS the fold of its stretch of the
line, and the four stretches laid end to end are the line. -/

/-- The stretches of the line the four printed parts run: 76, 65, 65 and 30 operations. -/
def p0 : List (HloOp τ sig (Elt F)) := (ops (F := F)).take 76
/-- The second stretch. -/
def p1 : List (HloOp τ sig (Elt F)) := ((ops (F := F)).drop 76).take 65
/-- The third stretch. -/
def p2 : List (HloOp τ sig (Elt F)) := (((ops (F := F)).drop 76).drop 65).take 65
/-- The fourth stretch. -/
def p3 : List (HloOp τ sig (Elt F)) := (((ops (F := F)).drop 76).drop 65).drop 65

/-- The four stretches end to end are the line. -/
theorem ops_split : ops (F := F) = p0 ++ (p1 ++ (p2 ++ p3)) := by
  unfold p0 p1 p2 p3
  rw [List.take_append_drop, List.take_append_drop, List.take_append_drop]

set_option maxRecDepth 100000 in
/-- The first part is the fold of the first stretch (the calls unfolded, the sequencing reassociated: by computation). -/
theorem part0_eq (d : Dev nD) : main_part0 (F := F) d = seq (p0 (F := F)) := rfl
set_option maxRecDepth 100000 in
/-- The second part is the fold of the second stretch. -/
theorem part1_eq (d : Dev nD) : main_part1 (F := F) d = seq (p1 (F := F)) := rfl
set_option maxRecDepth 100000 in
/-- The third part is the fold of the third stretch. -/
theorem part2_eq (d : Dev nD) : main_part2 (F := F) d = seq (p2 (F := F)) := rfl
set_option maxRecDepth 100000 in
/-- The fourth part is the fold of the fourth stretch. -/
theorem part3_eq (d : Dev nD) : main_part3 (F := F) d = seq (p3 (F := F)) := rfl

/-- The program is the fold of the whole line. -/
theorem main_eq (d : Dev nD) : main (F := F) d = seq (ops (F := F)) := by
  rw [ops_split, seq_append, seq_append, seq_append, ← part0_eq d, ← part1_eq d, ← part2_eq d, ← part3_eq d]
  rfl

/-! ## Every buffer the line touches is a tensor value of the program -/

set_option maxRecDepth 100000 in
/-- Each operation touches TensorCore references only: operation by operation, the builder's own fact. -/
theorem ops_sub : (ops (F := F)).Forall fun op => op.bufs ⊆ tcRefs τ sig :=
  ⟨
   nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., binary_bufs_sub .., unary_bufs_sub .., nullary_bufs_sub ..,
    unary_bufs_sub .., binary_bufs_sub .., binary_bufs_sub .., binary_bufs_sub .., unary_bufs_sub .., binary_bufs_sub ..,
    nullary_bufs_sub .., unary_bufs_sub .., binary_bufs_sub .., unary_bufs_sub .., nullary_bufs_sub .., unary_bufs_sub ..,
    binary_bufs_sub .., binary_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., binary_bufs_sub .., binary_bufs_sub .., unary_bufs_sub .., binary_bufs_sub ..,
    nullary_bufs_sub .., unary_bufs_sub .., binary_bufs_sub .., unary_bufs_sub .., nullary_bufs_sub .., unary_bufs_sub ..,
    binary_bufs_sub .., binary_bufs_sub .., binary_bufs_sub .., unary_bufs_sub .., unary_bufs_sub .., binary_bufs_sub ..,
    reshape_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., binary_bufs_sub .., binary_bufs_sub .., nullary_bufs_sub .., unary_bufs_sub .., binary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., nullary_bufs_sub .., unary_bufs_sub .., binary_bufs_sub .., binary_bufs_sub .., binary_bufs_sub ..,
    nullary_bufs_sub .., unary_bufs_sub .., binary_bufs_sub .., unary_bufs_sub .., nullary_bufs_sub .., unary_bufs_sub ..,
    binary_bufs_sub .., binary_bufs_sub .., binary_bufs_sub .., unary_bufs_sub .., binary_bufs_sub .., nullary_bufs_sub ..,
    unary_bufs_sub .., binary_bufs_sub .., unary_bufs_sub .., nullary_bufs_sub .., unary_bufs_sub .., binary_bufs_sub ..,
    binary_bufs_sub .., binary_bufs_sub .., unary_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    nullary_bufs_sub .., unary_bufs_sub .., binary_bufs_sub .., binary_bufs_sub .., binary_bufs_sub .., nullary_bufs_sub ..,
    unary_bufs_sub .., binary_bufs_sub .., unary_bufs_sub .., nullary_bufs_sub .., unary_bufs_sub .., binary_bufs_sub ..,
    binary_bufs_sub .., binary_bufs_sub .., unary_bufs_sub .., binary_bufs_sub .., nullary_bufs_sub .., unary_bufs_sub ..,
    binary_bufs_sub .., unary_bufs_sub .., nullary_bufs_sub .., unary_bufs_sub .., binary_bufs_sub .., binary_bufs_sub ..,
    binary_bufs_sub .., unary_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    binary_bufs_sub .., binary_bufs_sub ..⟩

/-- The signature scopes no reference. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## The run

From any memory with zero counters every weakly fair execution of the program terminates, and every buffer of
every device ends at its contents after the whole line run from that device's launch contents. -/

/-- The run of the program: each buffer ends at the line's value of it. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = val (launchContents m c) b :=
  run_seq scopedRefs_eq scopedSems_eq defs main (fun _ => ops) main_eq (fun _ => ops_sub) m ρ

/-! ## The arguments are never written -/

/-- Argument 0 keeps its launch contents. -/
theorem kept0 (V : Valuation τ sig (Elt F)) : val V main_arg0 = V (Proc.devRef .tc main_arg0) :=
  keeps writesAre V main_arg0 (by decide)
/-- Argument 1 keeps its launch contents. -/
theorem kept1 (V : Valuation τ sig (Elt F)) : val V main_arg1 = V (Proc.devRef .tc main_arg1) :=
  keeps writesAre V main_arg1 (by decide)
/-- Argument 2 keeps its launch contents. -/
theorem kept2 (V : Valuation τ sig (Elt F)) : val V main_arg2 = V (Proc.devRef .tc main_arg2) :=
  keeps writesAre V main_arg2 (by decide)
/-- Argument 3 keeps its launch contents. -/
theorem kept3 (V : Valuation τ sig (Elt F)) : val V main_arg3 = V (Proc.devRef .tc main_arg3) :=
  keeps writesAre V main_arg3 (by decide)
/-- Argument 4 keeps its launch contents. -/
theorem kept4 (V : Valuation τ sig (Elt F)) : val V main_arg4 = V (Proc.devRef .tc main_arg4) :=
  keeps writesAre V main_arg4 (by decide)
/-- Argument 5 keeps its launch contents. -/
theorem kept5 (V : Valuation τ sig (Elt F)) : val V main_arg5 = V (Proc.devRef .tc main_arg5) :=
  keeps writesAre V main_arg5 (by decide)
/-- Argument 6 keeps its launch contents. -/
theorem kept6 (V : Valuation τ sig (Elt F)) : val V main_arg6 = V (Proc.devRef .tc main_arg6) :=
  keeps writesAre V main_arg6 (by decide)
/-- Argument 7 keeps its launch contents. -/
theorem kept7 (V : Valuation τ sig (Elt F)) : val V main_arg7 = V (Proc.devRef .tc main_arg7) :=
  keeps writesAre V main_arg7 (by decide)
/-- Argument 8 keeps its launch contents. -/
theorem kept8 (V : Valuation τ sig (Elt F)) : val V main_arg8 = V (Proc.devRef .tc main_arg8) :=
  keeps writesAre V main_arg8 (by decide)
/-- Argument 9 keeps its launch contents. -/
theorem kept9 (V : Valuation τ sig (Elt F)) : val V main_arg9 = V (Proc.devRef .tc main_arg9) :=
  keeps writesAre V main_arg9 (by decide)
/-- Argument 10 keeps its launch contents. -/
theorem kept10 (V : Valuation τ sig (Elt F)) : val V main_arg10 = V (Proc.devRef .tc main_arg10) :=
  keeps writesAre V main_arg10 (by decide)

end Cert.ReferenceIdeal.MoE
end
-- ==== Proof.RefHyps.lean ====
/-
  What the reference's value proof assumes of the argument arrays: the ten float arrays hold real numbers, and every
  ply word is the numeral of a number below sixty.
-/
import proofs.«422179_j46557445489276_3_alg».proof.Proof.Gen.ReferenceIdeal
import Idealize.ShloMosaic.Lib.StableHlo.Run
import Idealize.ShloMosaic.PureOps.Ideal

noncomputable section

namespace Cert.ReferenceIdeal.MoE

open Cert.ReferenceIdeal Idealize.ShloMosaic Idealize.ShloMosaic.TcCoe Idealize.SL.Sem Idealize.ShloMosaic.StableHlo

/-- The argument arrays of a valuation, at their literal types. -/
abbrev a0 (V : Valuation τ sig (Elt Ideal)) : FVec Ideal S131072x97 .f32 := V (Proc.devRef .tc main_arg0)
abbrev a1 (V : Valuation τ sig (Elt Ideal)) : FVec Ideal S131072x97 .f32 := V (Proc.devRef .tc main_arg1)
abbrev a2 (V : Valuation τ sig (Elt Ideal)) : IVec S131072 32 := V (Proc.devRef .tc main_arg2)
abbrev a3 (V : Valuation τ sig (Elt Ideal)) : FVec Ideal S120x97 .f32 := V (Proc.devRef .tc main_arg3)
abbrev a4 (V : Valuation τ sig (Elt Ideal)) : FVec Ideal S120 .f32 := V (Proc.devRef .tc main_arg4)
abbrev a5 (V : Valuation τ sig (Elt Ideal)) : FVec Ideal S120x97 .f32 := V (Proc.devRef .tc main_arg5)
abbrev a6 (V : Valuation τ sig (Elt Ideal)) : FVec Ideal S120 .f32 := V (Proc.devRef .tc main_arg6)
abbrev a7 (V : Valuation τ sig (Elt Ideal)) : FVec Ideal S960x32 .f32 := V (Proc.devRef .tc main_arg7)
abbrev a8 (V : Valuation τ sig (Elt Ideal)) : FVec Ideal S960 .f32 := V (Proc.devRef .tc main_arg8)
abbrev a9 (V : Valuation τ sig (Elt Ideal)) : FVec Ideal S15x64 .f32 := V (Proc.devRef .tc main_arg9)
abbrev a10 (V : Valuation τ sig (Elt Ideal)) : FVec Ideal S15 .f32 := V (Proc.devRef .tc main_arg10)

/-- The float arguments are real-valued, the ply words numerals below sixty. -/
structure Hyps (V : Valuation τ sig (Elt Ideal)) : Prop where
  r0 : ∀ i, ∃ x : ℝ, a0 V i = (x : EReal)
  r1 : ∀ i, ∃ x : ℝ, a1 V i = (x : EReal)
  ply : ∀ i, ∃ n : ℕ, n < 60 ∧ a2 V i = BitVec.ofNat 32 n
  r3 : ∀ i, ∃ x : ℝ, a3 V i = (x : EReal)
  r4 : ∀ i, ∃ x : ℝ, a4 V i = (x : EReal)
  r5 : ∀ i, ∃ x : ℝ, a5 V i = (x : EReal)
  r6 : ∀ i, ∃ x : ℝ, a6 V i = (x : EReal)
  r7 : ∀ i, ∃ x : ℝ, a7 V i = (x : EReal)
  r8 : ∀ i, ∃ x : ℝ, a8 V i = (x : EReal)
  r9 : ∀ i, ∃ x : ℝ, a9 V i = (x : EReal)
  r10 : ∀ i, ∃ x : ℝ, a10 V i = (x : EReal)

end Cert.ReferenceIdeal.MoE

end
-- ==== Proof.RefWeights.lean ====
import proofs.«422179_j46557445489276_3_alg».proof.Proof.RefHyps
import proofs.«422179_j46557445489276_3_alg».proof.Proof.SpecLemmas
import proofs.«422179_j46557445489276_3_alg».proof.Proof.LibWord
import Idealize.ShloMosaic.Lib.ValueIdx
import Idealize.ShloMosaic.Lib.ValueLayout
import Idealize.ShloMosaic.Lib.Pipeline.Value
import proofs.«422179_j46557445489276_3_alg».proof.Proof.RefSteps

/-!
# The reference's weights and gather indices, read at an index

The reference program rounds each weight array to its grid in the straight-through form x + (q − x), and builds for
each of its four per-row selections an array of index pairs (row number, bucket). Here every such array is read at one
entry: a rounded weight is the grid rounding of the argument's entry wherever that entry is a real number, and an index
pair is (r, n / 4) in row r wherever the row's ply word is the numeral of n < 60.
-/

noncomputable section

namespace Cert.ReferenceIdeal.MoE

open Cert.ReferenceIdeal Idealize.ShloMosaic Idealize.ShloMosaic.ValueIdx Idealize.ShloMosaic.StableHlo

/-! ## Rounding to a grid, straight through

The weight arrays enter as x + (q − x) with q the rounding of x to the grid of step 1/s. Read at one entry this is
a statement about one extended real, and at a real entry the sum collapses to q. -/

/-- A float array replaced by "itself plus (its grid rounding minus itself)", read at an entry that is a real number:
    the grid rounding of the entry. The scale is one bit pattern, broadcast from a scalar to the array's shape. -/
theorem ste_rq_apply {s : Shape} (hb : S_.BroadcastsInDim s (![] : Fin 0 → Fin s.rank)) (b : BitVec 32)
    (a : FVec Ideal s .f32) (i : s.Idx) (h : ∃ x : ℝ, a i = (x : EReal)) :
    addf a (subf (Host.divf (Host.roundeven (mulf a (broadcastInDim s ![] hb (constant (F := Ideal) S_ .f32 b))))
        (broadcastInDim s ![] hb (constant (F := Ideal) S_ .f32 b))) a) i
      = Cert.Spec.rq (Ideal.ofBits .f32 b) (a i) := by
  show a i + (Cert.Spec.rq (Ideal.ofBits .f32 b) (a i) - a i) = _
  exact Cert.Spec.ste h

/-! ## Words: wrapping a non-negative index, floor division by four -/

/-- "x + N where x is negative, else x" leaves the numeral of a number below 2³¹ alone: it is not negative. -/
theorem wrap_apply {s : Shape} (hb : S_.BroadcastsInDim s (![] : Fin 0 → Fin s.rank)) (N : BitVec 32)
    (x : IVec s 32) (i : s.Idx) {m : ℕ} (hm : m < 2 ^ 31) (hx : x i = BitVec.ofNat 32 m) :
    select (cmpi .slt x (broadcastInDim s ![] hb (constantI S_ 32 0#32)))
        (addi x (broadcastInDim s ![] hb (constantI S_ 32 N))) x i = BitVec.ofNat 32 m := by
  show Scalar.select (IntOp.cmpi .slt (x i) 0#32) (IntOp.addi (x i) N) (x i) = _
  rw [hx, Cert.LibWord.slt_zero_ofNat hm, select_zero]

/-- Floor division by four, spelled as the quotient less one where the signs differ and the remainder is not zero:
    on the numeral of n < 2³¹ it is the numeral of n / 4 (the signs differ only at n = 0, where the remainder is 0). -/
theorem floordiv4_apply {s : Shape} (hb : S_.BroadcastsInDim s (![] : Fin 0 → Fin s.rank))
    (p : IVec s 32) (i : s.Idx) {n : ℕ} (hn : n < 2 ^ 31) (hp : p i = BitVec.ofNat 32 n) :
    select
        (andi (cmpi .ne (signi p) (broadcastInDim s ![] hb (signi (id (constantI S_ 32 4#32)))))
          (cmpi .ne (Host.remsi p (broadcastInDim s ![] hb (id (constantI S_ 32 4#32))))
            (broadcastInDim s ![] hb (constantI S_ 32 0#32))))
        (subi (Host.divsi p (broadcastInDim s ![] hb (id (constantI S_ 32 4#32))))
          (broadcastInDim s ![] hb (constantI S_ 32 1#32)))
        (Host.divsi p (broadcastInDim s ![] hb (id (constantI S_ 32 4#32)))) i
      = BitVec.ofNat 32 (n / 4) := by
  have h := Cert.LibWord.floordiv_ofNat .host (a := n) (b := 4) hn (by omega) (by omega)
  rw [← hp] at h
  exact h

/-! ## The start-index pairs

A gather's start indices are the [R, 2] array whose row r is (wrapped row number, wrapped bucket): two [R] vectors,
each laid as an [R, 1] column, joined along the second axis. -/

/-- An [R] vector laid as an [R, 1] column reads, in row r, the vector at r. -/
theorem column_apply {α : Type} {R : ℕ} (hR : R ≠ 1)
    (hc : (⟨1, ![R]⟩ : Shape).BroadcastsInDim ⟨2, ![R, 1]⟩ (![0] : Fin 1 → Fin 2))
    (w : (⟨1, ![R]⟩ : Shape).Idx → α) (r : Fin R) :
    broadcastInDim ⟨2, ![R, 1]⟩ ![0] hc w (ix2 r (0 : Fin 1)) = w (ix1 r) := by
  refine broadcastInDim_apply _ hc w _ (ix1 r) ?_
  intro a
  have ha : a = 0 := Subsingleton.elim _ _
  subst ha
  rw [if_neg (by exact hR)]
  rfl

/-- Two [R, 1] columns joined along the second axis: row r reads the first column at position 0 and the second at
    position 1. -/
theorem join_apply {α : Type} {R : ℕ}
    (hcat : Shape.Concatenates [(⟨2, ![R, 1]⟩ : Shape), ⟨2, ![R, 1]⟩] ⟨2, ![R, 2]⟩ 1)
    (c0 c1 : (⟨2, ![R, 1]⟩ : Shape).Idx → α) (r : Fin R) :
    concatenate ⟨2, ![R, 2]⟩ 1 [⟨⟨2, ![R, 1]⟩, c0⟩, ⟨⟨2, ![R, 1]⟩, c1⟩] hcat (ix2 r (0 : Fin 2)) = c0 (ix2 r (0 : Fin 1))
    ∧ concatenate ⟨2, ![R, 2]⟩ 1 [⟨⟨2, ![R, 1]⟩, c0⟩, ⟨⟨2, ![R, 1]⟩, c1⟩] hcat (ix2 r (1 : Fin 2)) = c1 (ix2 r (0 : Fin 1)) := by
  constructor
  · refine concatenate_pair_apply_left 1 c0 c1 hcat _ rfl (ix2 r (0 : Fin 1)) ?_
    intro b
    match b with
    | ⟨0, _⟩ => rfl
    | ⟨1, _⟩ => rfl
  · refine concatenate_pair_apply_right 1 c0 c1 hcat _ rfl rfl (ix2 r (0 : Fin 1)) ?_ ?_
    · intro b hb
      match b with
      | ⟨0, _⟩ => rfl
      | ⟨1, _⟩ => exact absurd rfl hb
    · rfl

/-- THE PAIR. From a vector x0 whose entry r is the numeral of m0 and a vector x1 whose entry r is the numeral of
    m1 (both below 2³¹), each wrapped, laid as a column, and the columns joined: row r of the result is
    (numeral of m0, numeral of m1). -/
theorem pair_apply (hb : S_.BroadcastsInDim S131072 (![] : Fin 0 → Fin S131072.rank))
    (hc : S131072.BroadcastsInDim S131072x1 (![0] : Fin 1 → Fin S131072x1.rank))
    (hcat : Shape.Concatenates [S131072x1, S131072x1] S131072x2 1) (N0 N1 : BitVec 32)
    (x0 x1 : IVec S131072 32) (r : Fin 131072) {m0 m1 : ℕ} (h0 : m0 < 2 ^ 31) (h1 : m1 < 2 ^ 31)
    (e0 : x0 (ix1 r) = BitVec.ofNat 32 m0) (e1 : x1 (ix1 r) = BitVec.ofNat 32 m1) :
    concatenate S131072x2 1
        [⟨S131072x1, broadcastInDim S131072x1 ![0] hc
            (select (cmpi .slt x0 (broadcastInDim S131072 ![] hb (constantI S_ 32 0#32)))
              (addi x0 (broadcastInDim S131072 ![] hb (constantI S_ 32 N0))) x0)⟩,
         ⟨S131072x1, broadcastInDim S131072x1 ![0] hc
            (select (cmpi .slt x1 (broadcastInDim S131072 ![] hb (constantI S_ 32 0#32)))
              (addi x1 (broadcastInDim S131072 ![] hb (constantI S_ 32 N1))) x1)⟩] hcat (ix2 r (0 : Fin 2))
        = BitVec.ofNat 32 m0
    ∧ concatenate S131072x2 1
        [⟨S131072x1, broadcastInDim S131072x1 ![0] hc
            (select (cmpi .slt x0 (broadcastInDim S131072 ![] hb (constantI S_ 32 0#32)))
              (addi x0 (broadcastInDim S131072 ![] hb (constantI S_ 32 N0))) x0)⟩,
         ⟨S131072x1, broadcastInDim S131072x1 ![0] hc
            (select (cmpi .slt x1 (broadcastInDim S131072 ![] hb (constantI S_ 32 0#32)))
              (addi x1 (broadcastInDim S131072 ![] hb (constantI S_ 32 N1))) x1)⟩] hcat (ix2 r (1 : Fin 2))
        = BitVec.ofNat 32 m1 := by
  obtain ⟨j0, j1⟩ := join_apply (R := 131072) hcat
    (broadcastInDim S131072x1 ![0] hc
      (select (cmpi .slt x0 (broadcastInDim S131072 ![] hb (constantI S_ 32 0#32)))
        (addi x0 (broadcastInDim S131072 ![] hb (constantI S_ 32 N0))) x0))
    (broadcastInDim S131072x1 ![0] hc
      (select (cmpi .slt x1 (broadcastInDim S131072 ![] hb (constantI S_ 32 0#32)))
        (addi x1 (broadcastInDim S131072 ![] hb (constantI S_ 32 N1))) x1)) r
  refine ⟨j0.trans ?_, j1.trans ?_⟩
  · exact (column_apply (R := 131072) (by decide) hc _ r).trans (wrap_apply hb N0 x0 (ix1 r) h0 e0)
  · exact (column_apply (R := 131072) (by decide) hc _ r).trans (wrap_apply hb N1 x1 (ix1 r) h1 e1)

/-! ## The argument arrays are never written -/

theorem val_arg2 (V : Valuation τ sig (Elt Ideal)) : val V main_arg2 = a2 V := Cert.LibSsa.keeps writesAre V main_arg2 (by decide)
theorem val_arg3 (V : Valuation τ sig (Elt Ideal)) : val V main_arg3 = a3 V := Cert.LibSsa.keeps writesAre V main_arg3 (by decide)
theorem val_arg4 (V : Valuation τ sig (Elt Ideal)) : val V main_arg4 = a4 V := Cert.LibSsa.keeps writesAre V main_arg4 (by decide)
theorem val_arg5 (V : Valuation τ sig (Elt Ideal)) : val V main_arg5 = a5 V := Cert.LibSsa.keeps writesAre V main_arg5 (by decide)
theorem val_arg6 (V : Valuation τ sig (Elt Ideal)) : val V main_arg6 = a6 V := Cert.LibSsa.keeps writesAre V main_arg6 (by decide)
theorem val_arg7 (V : Valuation τ sig (Elt Ideal)) : val V main_arg7 = a7 V := Cert.LibSsa.keeps writesAre V main_arg7 (by decide)
theorem val_arg8 (V : Valuation τ sig (Elt Ideal)) : val V main_arg8 = a8 V := Cert.LibSsa.keeps writesAre V main_arg8 (by decide)
theorem val_arg9 (V : Valuation τ sig (Elt Ideal)) : val V main_arg9 = a9 V := Cert.LibSsa.keeps writesAre V main_arg9 (by decide)
theorem val_arg10 (V : Valuation τ sig (Elt Ideal)) : val V main_arg10 = a10 V := Cert.LibSsa.keeps writesAre V main_arg10 (by decide)

/-! ## The eight fake-quantised weight arrays

Each is its argument array x replaced by x + (round-half-even(x · s) / s − x), the scale s one broadcast constant. -/

/-- The first layer's base weights [120, 97], on the grid of step 1/64. -/
theorem q_v8 (V : Valuation τ sig (Elt Ideal)) (i : Fin 120) (k : Fin 97)
    (h : ∃ x : ℝ, a3 V (ix2 i k) = (x : EReal)) :
    val V main_v8 (ix2 i k) = Cert.Spec.rq Cert.Spec.c64 (a3 V (ix2 i k)) := by
  rw [at_main_v8, at_main_v7, at_main_v6, at_main_v4, at_main_v3, at_main_v2, at_main_v5, at_main_cst, at_main_cst_0, val_arg3]
  exact ste_rq_apply _ _ (a3 V) (ix2 i k) h

/-- The first layer's base biases [120], on the grid of step 1/8128. -/
theorem q_v17 (V : Valuation τ sig (Elt Ideal)) (i : Fin 120)
    (h : ∃ x : ℝ, a4 V (ix1 i) = (x : EReal)) :
    val V main_v17 (ix1 i) = Cert.Spec.rq Cert.Spec.c8128 (a4 V (ix1 i)) := by
  rw [at_main_v17, at_main_v16, at_main_v15, at_main_v13, at_main_v12, at_main_v11, at_main_v14, at_main_cst_1, at_main_cst_2, val_arg4]
  exact ste_rq_apply _ _ (a4 V) (ix1 i) h

/-- The first layer's second weight stack [120, 97], on the grid of step 1/64. -/
theorem q_v42 (V : Valuation τ sig (Elt Ideal)) (i : Fin 120) (k : Fin 97)
    (h : ∃ x : ℝ, a5 V (ix2 i k) = (x : EReal)) :
    val V main_v42 (ix2 i k) = Cert.Spec.rq Cert.Spec.c64 (a5 V (ix2 i k)) := by
  rw [at_main_v42, at_main_v41, at_main_v40, at_main_v38, at_main_v37, at_main_v36, at_main_v39, at_main_cst_7, at_main_cst_8, val_arg5]
  exact ste_rq_apply _ _ (a5 V) (ix2 i k) h

/-- The first layer's second biases [120], on the grid of step 1/8128. -/
theorem q_v51 (V : Valuation τ sig (Elt Ideal)) (i : Fin 120)
    (h : ∃ x : ℝ, a6 V (ix1 i) = (x : EReal)) :
    val V main_v51 (ix1 i) = Cert.Spec.rq Cert.Spec.c8128 (a6 V (ix1 i)) := by
  rw [at_main_v51, at_main_v50, at_main_v49, at_main_v47, at_main_v46, at_main_v45, at_main_v48, at_main_cst_9, at_main_cst_10, val_arg6]
  exact ste_rq_apply _ _ (a6 V) (ix1 i) h

/-- The second layer's weights [960, 32], on the grid of step 1/64. -/
theorem q_v89 (V : Valuation τ sig (Elt Ideal)) (i : Fin 960) (k : Fin 32)
    (h : ∃ x : ℝ, a7 V (ix2 i k) = (x : EReal)) :
    val V main_v89 (ix2 i k) = Cert.Spec.rq Cert.Spec.c64 (a7 V (ix2 i k)) := by
  rw [at_main_v89, at_main_v88, at_main_v87, at_main_v85, at_main_v84, at_main_v83, at_main_v86, at_main_cst_20, at_main_cst_21, val_arg7]
  exact ste_rq_apply _ _ (a7 V) (ix2 i k) h

/-- The second layer's biases [960], on the grid of step 1/8128. -/
theorem q_v98 (V : Valuation τ sig (Elt Ideal)) (i : Fin 960)
    (h : ∃ x : ℝ, a8 V (ix1 i) = (x : EReal)) :
    val V main_v98 (ix1 i) = Cert.Spec.rq Cert.Spec.c8128 (a8 V (ix1 i)) := by
  rw [at_main_v98, at_main_v97, at_main_v96, at_main_v94, at_main_v93, at_main_v92, at_main_v95, at_main_cst_22, at_main_cst_23, val_arg8]
  exact ste_rq_apply _ _ (a8 V) (ix1 i) h

/-- The output weights [15, 64], on the grid whose step is the reciprocal of the f32 nearest 1024/127. -/
theorem q_v131 (V : Valuation τ sig (Elt Ideal)) (g : Fin 15) (k : Fin 64)
    (h : ∃ x : ℝ, a9 V (ix2 g k) = (x : EReal)) :
    val V main_v131 (ix2 g k) = Cert.Spec.rq Cert.Spec.cws (a9 V (ix2 g k)) := by
  rw [at_main_v131, at_main_v130, at_main_v129, at_main_v127, at_main_v126, at_main_v125, at_main_v128, at_main_cst_32, at_main_cst_33, val_arg9]
  exact ste_rq_apply _ _ (a9 V) (ix2 g k) h

/-- The output biases [15], on the grid of step 1/1024. -/
theorem q_v140 (V : Valuation τ sig (Elt Ideal)) (g : Fin 15)
    (h : ∃ x : ℝ, a10 V (ix1 g) = (x : EReal)) :
    val V main_v140 (ix1 g) = Cert.Spec.rq Cert.Spec.c1024 (a10 V (ix1 g)) := by
  rw [at_main_v140, at_main_v139, at_main_v138, at_main_v136, at_main_v135, at_main_v134, at_main_v137, at_main_cst_34, at_main_cst_35, val_arg10]
  exact ste_rq_apply _ _ (a10 V) (ix1 g) h

/-! ## The four start-index arrays -/

/-- The row numbers: entry r is the numeral of r. -/
theorem v0_apply (V : Valuation τ sig (Elt Ideal)) (r : Fin 131072) :
    val V main_v0 (ix1 r) = BitVec.ofNat 32 r.val := by
  rw [at_main_v0]
  rfl

/-- The buckets: where the ply word of row r is the numeral of n < 60, entry r is the numeral of n / 4. -/
theorem v1_apply (V : Valuation τ sig (Elt Ideal)) (r : Fin 131072) (n : ℕ) (hn : n < 60)
    (h : a2 V (ix1 r) = BitVec.ofNat 32 n) : val V main_v1 (ix1 r) = BitVec.ofNat 32 (n / 4) := by
  rw [at_main_v1, at_main_call0_v11, at_main_call0_v13, at_main_call0_v6, at_main_call0_v10, at_main_call0_v12,
    at_main_call0_v8, at_main_call0_v9, at_main_call0_v3, at_main_call0_v5, at_main_call0_v2, at_main_call0_v7,
    at_main_call0_v1, at_main_call0_v4, at_main_call0_v0, at_main_call0_c, at_main_call0_c_0, at_main_c, val_arg2]
  exact floordiv4_apply _ (a2 V) (ix1 r) (by omega) h

/-- The first gather's start indices: row r holds (r, the row's bucket). -/
theorem pair_v34 (V : Valuation τ sig (Elt Ideal)) (r : Fin 131072) (n : ℕ) (hn : n < 60)
    (h : a2 V (ix1 r) = BitVec.ofNat 32 n) :
    val V main_v34 (ix2 r (0 : Fin 2)) = BitVec.ofNat 32 r.val
      ∧ val V main_v34 (ix2 r (1 : Fin 2)) = BitVec.ofNat 32 (n / 4) := by
  rw [at_main_v34, at_main_v32, at_main_v33, at_main_v26, at_main_v31, at_main_v23, at_main_v25, at_main_v28, at_main_v30, at_main_v22, at_main_v24, at_main_v27, at_main_v29, at_main_c_3, at_main_c_4, at_main_c_5, at_main_c_6]
  exact pair_apply _ _ _ _ _ (val V main_v0) (val V main_v1) r (by have := r.isLt; omega) (by omega)
    (v0_apply V r) (v1_apply V r n hn h)

/-- The second gather's start indices: row r holds (r, the row's bucket). -/
theorem pair_v68 (V : Valuation τ sig (Elt Ideal)) (r : Fin 131072) (n : ℕ) (hn : n < 60)
    (h : a2 V (ix1 r) = BitVec.ofNat 32 n) :
    val V main_v68 (ix2 r (0 : Fin 2)) = BitVec.ofNat 32 r.val
      ∧ val V main_v68 (ix2 r (1 : Fin 2)) = BitVec.ofNat 32 (n / 4) := by
  rw [at_main_v68, at_main_v66, at_main_v67, at_main_v60, at_main_v65, at_main_v57, at_main_v59, at_main_v62, at_main_v64, at_main_v56, at_main_v58, at_main_v61, at_main_v63, at_main_c_11, at_main_c_12, at_main_c_13, at_main_c_14]
  exact pair_apply _ _ _ _ _ (val V main_v0) (val V main_v1) r (by have := r.isLt; omega) (by omega)
    (v0_apply V r) (v1_apply V r n hn h)

/-- The third gather's start indices: row r holds (r, the row's bucket). -/
theorem pair_v115 (V : Valuation τ sig (Elt Ideal)) (r : Fin 131072) (n : ℕ) (hn : n < 60)
    (h : a2 V (ix1 r) = BitVec.ofNat 32 n) :
    val V main_v115 (ix2 r (0 : Fin 2)) = BitVec.ofNat 32 r.val
      ∧ val V main_v115 (ix2 r (1 : Fin 2)) = BitVec.ofNat 32 (n / 4) := by
  rw [at_main_v115, at_main_v113, at_main_v114, at_main_v107, at_main_v112, at_main_v104, at_main_v106, at_main_v109, at_main_v111, at_main_v103, at_main_v105, at_main_v108, at_main_v110, at_main_c_24, at_main_c_25, at_main_c_26, at_main_c_27]
  exact pair_apply _ _ _ _ _ (val V main_v0) (val V main_v1) r (by have := r.isLt; omega) (by omega)
    (v0_apply V r) (v1_apply V r n hn h)

/-- The fourth gather's start indices: row r holds (r, the row's bucket). -/
theorem pair_v157 (V : Valuation τ sig (Elt Ideal)) (r : Fin 131072) (n : ℕ) (hn : n < 60)
    (h : a2 V (ix1 r) = BitVec.ofNat 32 n) :
    val V main_v157 (ix2 r (0 : Fin 2)) = BitVec.ofNat 32 r.val
      ∧ val V main_v157 (ix2 r (1 : Fin 2)) = BitVec.ofNat 32 (n / 4) := by
  rw [at_main_v157, at_main_v155, at_main_v156, at_main_v149, at_main_v154, at_main_v146, at_main_v148, at_main_v151, at_main_v153, at_main_v145, at_main_v147, at_main_v150, at_main_v152, at_main_c_36, at_main_c_37, at_main_c_38, at_main_c_39]
  exact pair_apply _ _ _ _ _ (val V main_v0) (val V main_v1) r (by have := r.isLt; omega) (by omega)
    (v0_apply V r) (v1_apply V r n hn h)

end Cert.ReferenceIdeal.MoE

end
-- ==== Proof.LibRowGather.lean ====
/-
  A gather that reads, for every row r of a table of start-index pairs, the entry (or the slice along the last axis) of
  an operand at the pair the row holds: what jnp's a[rows, idx] lowers to when rows = arange and idx picks one entry
  of the middle axis per row. StableHLO clamps each start index into the operand; here each component is read signed and
  clamped, and for a pair of small non-negative words in range the clamp is the identity.
-/
import Idealize.ShloMosaic.Lib.ValueIdx
import Idealize.ShloMosaic.Lib.StableHlo.Predicate

noncomputable section

namespace Cert.LibRowGather

open Idealize.ShloMosaic Idealize.ShloMosaic.ValueIdx

variable {α : Type}

/-- A rank-3 operand [R, K, E] gathered at start-index pairs [R, 2] into [R, E] (offset axis the last one, the first two
    axes collapsed and named by the pair): element (r, e) is the operand at (the pair's first word, its second word, e),
    each word read signed and clamped into its axis. -/
theorem gather_pair_slice {R K E w : Nat} (d : GatherDims ⟨3, ![R, K, E]⟩ ⟨2, ![R, 2]⟩ ⟨2, ![R, E]⟩)
    (hoff : d.offsetDims = [1]) (hcoll : d.collapsedSliceDims = [0, 1]) (hob : d.operandBatchingDims = [])
    (hsim : d.startIndexMap = [0, 1]) (hivd : d.indexVectorDim = 1) (hK : 0 < K)
    (x : (⟨3, ![R, K, E]⟩ : Shape).Idx → α) (idx : IVec ⟨2, ![R, 2]⟩ w) (r : Fin R) (e : Fin E) :
    Host.gather d x idx (ix2 r e)
      = x (ix3 (⟨min (idx (ix2 r (0 : Fin 2))).toInt.toNat (R - 1), by have := r.isLt; omega⟩ : Fin R)
            (⟨min (idx (ix2 r (1 : Fin 2))).toInt.toNat (K - 1), by omega⟩ : Fin K) e) := by
  obtain ⟨od, cd, ob, sb, sm, iv, ss, wf⟩ := d
  dsimp only at hoff hcoll hob hsim hivd
  subst hoff hcoll hob hsim hivd
  have hs0 : ss 0 = 1 := wf.2.2.2.2.2.2.2.2.2.2.2.1 0 (by simp)
  have hs1 : ss 1 = 1 := wf.2.2.2.2.2.2.2.2.2.2.2.1 1 (by simp)
  unfold Host.gather
  congr 1
  funext a
  refine Fin.ext ?_
  match a with
  | ⟨0, _⟩ =>
    show GatherDims.start _ (ix2 r e) idx 0 + GatherDims.batchCoord _ (ix2 r e) 0 + GatherDims.offCoord _ (ix2 r e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[1], [0, 1], [], sb, [0, 1], 1, ss, wf⟩ :
          GatherDims ⟨3, ![R, K, E]⟩ ⟨2, ![R, 2]⟩ ⟨2, ![R, E]⟩) (ix2 r e)
        ⟨List.idxOf (0 : Fin 3) [0, 1], h⟩ = ix2 r (0 : Fin 2) := by
      intro h
      funext b; refine Fin.ext ?_
      match b with
      | ⟨0, _⟩ => rfl
      | ⟨1, _⟩ => rfl
    rw [hsi]
    show min _ (R - ss 0) = _
    rw [hs0]
  | ⟨1, _⟩ =>
    show GatherDims.start _ (ix2 r e) idx 1 + GatherDims.batchCoord _ (ix2 r e) 1 + GatherDims.offCoord _ (ix2 r e) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[1], [0, 1], [], sb, [0, 1], 1, ss, wf⟩ :
          GatherDims ⟨3, ![R, K, E]⟩ ⟨2, ![R, 2]⟩ ⟨2, ![R, E]⟩) (ix2 r e)
        ⟨List.idxOf (1 : Fin 3) [0, 1], h⟩ = ix2 r (1 : Fin 2) := by
      intro h
      funext b; refine Fin.ext ?_
      match b with
      | ⟨0, _⟩ => rfl
      | ⟨1, _⟩ => rfl
    rw [hsi]
    show min _ (K - ss 1) = _
    rw [hs1]
  | ⟨2, _⟩ =>
    show GatherDims.start _ (ix2 r e) idx 2 + GatherDims.batchCoord _ (ix2 r e) 2 + GatherDims.offCoord _ (ix2 r e) 2 = _
    rw [GatherDims.batchCoord_eq_zero _ _ _ List.not_mem_nil]
    unfold GatherDims.start
    rw [dif_neg (by simp)]
    unfold GatherDims.offCoord
    rw [dif_pos (by rw [GatherDims.mem_sKept]; simp)]
    simp only [Nat.zero_add]
    rfl

/-- The same for a rank-2 operand [R, K] gathered at start-index pairs [R, 2] into [R] (no offset axis, both axes
    collapsed): element r is the operand at (the pair's first word, its second word), each read signed and clamped. -/
theorem gather_pair_entry {R K w : Nat} (d : GatherDims ⟨2, ![R, K]⟩ ⟨2, ![R, 2]⟩ ⟨1, ![R]⟩)
    (hoff : d.offsetDims = []) (hcoll : d.collapsedSliceDims = [0, 1]) (hob : d.operandBatchingDims = [])
    (hsim : d.startIndexMap = [0, 1]) (hivd : d.indexVectorDim = 1) (hK : 0 < K)
    (x : (⟨2, ![R, K]⟩ : Shape).Idx → α) (idx : IVec ⟨2, ![R, 2]⟩ w) (r : Fin R) :
    Host.gather d x idx (ix1 r)
      = x (ix2 (⟨min (idx (ix2 r (0 : Fin 2))).toInt.toNat (R - 1), by have := r.isLt; omega⟩ : Fin R)
            (⟨min (idx (ix2 r (1 : Fin 2))).toInt.toNat (K - 1), by omega⟩ : Fin K)) := by
  obtain ⟨od, cd, ob, sb, sm, iv, ss, wf⟩ := d
  dsimp only at hoff hcoll hob hsim hivd
  subst hoff hcoll hob hsim hivd
  have hs0 : ss 0 = 1 := wf.2.2.2.2.2.2.2.2.2.2.2.1 0 (by simp)
  have hs1 : ss 1 = 1 := wf.2.2.2.2.2.2.2.2.2.2.2.1 1 (by simp)
  unfold Host.gather
  congr 1
  funext a
  refine Fin.ext ?_
  match a with
  | ⟨0, _⟩ =>
    show GatherDims.start _ (ix1 r) idx 0 + GatherDims.batchCoord _ (ix1 r) 0 + GatherDims.offCoord _ (ix1 r) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[], [0, 1], [], sb, [0, 1], 1, ss, wf⟩ :
          GatherDims ⟨2, ![R, K]⟩ ⟨2, ![R, 2]⟩ ⟨1, ![R]⟩) (ix1 r)
        ⟨List.idxOf (0 : Fin 2) [0, 1], h⟩ = ix2 r (0 : Fin 2) := by
      intro h
      funext b; refine Fin.ext ?_
      match b with
      | ⟨0, _⟩ => rfl
      | ⟨1, _⟩ => rfl
    rw [hsi]
    show min _ (R - ss 0) = _
    rw [hs0]
  | ⟨1, _⟩ =>
    show GatherDims.start _ (ix1 r) idx 1 + GatherDims.batchCoord _ (ix1 r) 1 + GatherDims.offCoord _ (ix1 r) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[], [0, 1], [], sb, [0, 1], 1, ss, wf⟩ :
          GatherDims ⟨2, ![R, K]⟩ ⟨2, ![R, 2]⟩ ⟨1, ![R]⟩) (ix1 r)
        ⟨List.idxOf (1 : Fin 2) [0, 1], h⟩ = ix2 r (1 : Fin 2) := by
      intro h
      funext b; refine Fin.ext ?_
      match b with
      | ⟨0, _⟩ => rfl
      | ⟨1, _⟩ => rfl
    rw [hsi]
    show min _ (K - ss 1) = _
    rw [hs1]

/-- A small natural number's 32-bit word, read signed and clamped into an axis that holds it, is the number. -/
theorem clamp_word (n N : Nat) (hn : n < N) (hN : N ≤ 2 ^ 31) : min (BitVec.ofNat 32 n).toInt.toNat (N - 1) = n := by
  rw [StableHlo.Predicate.toInt_ofNat_small n (by omega), Int.toNat_natCast]
  omega

/-- The rank-3 gather at a pair that holds the row's own number and an in-range entry number k: element (r, e) is the
    operand at (r, k, e). -/
theorem gather_pair_slice_words {R K E : Nat} (d : GatherDims ⟨3, ![R, K, E]⟩ ⟨2, ![R, 2]⟩ ⟨2, ![R, E]⟩)
    (hoff : d.offsetDims = [1]) (hcoll : d.collapsedSliceDims = [0, 1]) (hob : d.operandBatchingDims = [])
    (hsim : d.startIndexMap = [0, 1]) (hivd : d.indexVectorDim = 1) (hR : R ≤ 2 ^ 31) (hK : K ≤ 2 ^ 31)
    (x : (⟨3, ![R, K, E]⟩ : Shape).Idx → α) (idx : IVec ⟨2, ![R, 2]⟩ 32) (r : Fin R) (k : Fin K) (e : Fin E)
    (h0 : idx (ix2 r (0 : Fin 2)) = BitVec.ofNat 32 r.val) (h1 : idx (ix2 r (1 : Fin 2)) = BitVec.ofNat 32 k.val) :
    Host.gather d x idx (ix2 r e) = x (ix3 r k e) := by
  rw [gather_pair_slice d hoff hcoll hob hsim hivd (by have := k.isLt; omega) x idx r e]
  congr 1
  funext a
  refine Fin.ext ?_
  match a with
  | ⟨0, _⟩ => show min _ _ = r.val; rw [h0]; exact clamp_word r.val R r.isLt hR
  | ⟨1, _⟩ => show min _ _ = k.val; rw [h1]; exact clamp_word k.val K k.isLt hK
  | ⟨2, _⟩ => rfl

/-- The rank-2 gather at such a pair: element r is the operand at (r, k). -/
theorem gather_pair_entry_words {R K : Nat} (d : GatherDims ⟨2, ![R, K]⟩ ⟨2, ![R, 2]⟩ ⟨1, ![R]⟩)
    (hoff : d.offsetDims = []) (hcoll : d.collapsedSliceDims = [0, 1]) (hob : d.operandBatchingDims = [])
    (hsim : d.startIndexMap = [0, 1]) (hivd : d.indexVectorDim = 1) (hR : R ≤ 2 ^ 31) (hK : K ≤ 2 ^ 31)
    (x : (⟨2, ![R, K]⟩ : Shape).Idx → α) (idx : IVec ⟨2, ![R, 2]⟩ 32) (r : Fin R) (k : Fin K)
    (h0 : idx (ix2 r (0 : Fin 2)) = BitVec.ofNat 32 r.val) (h1 : idx (ix2 r (1 : Fin 2)) = BitVec.ofNat 32 k.val) :
    Host.gather d x idx (ix1 r) = x (ix2 r k) := by
  rw [gather_pair_entry d hoff hcoll hob hsim hivd (by have := k.isLt; omega) x idx r]
  congr 1
  funext a
  refine Fin.ext ?_
  match a with
  | ⟨0, _⟩ => show min _ _ = r.val; rw [h0]; exact clamp_word r.val R r.isLt hR
  | ⟨1, _⟩ => show min _ _ = k.val; rw [h1]; exact clamp_word k.val K k.isLt hK

end Cert.LibRowGather

end
-- ==== Proof.RefLayer1.lean ====
import proofs.«422179_j46557445489276_3_alg».proof.Proof.Gen.ReferenceIdeal
import proofs.«422179_j46557445489276_3_alg».proof.Proof.RefSteps
import proofs.«422179_j46557445489276_3_alg».proof.Proof.RefHyps
import proofs.«422179_j46557445489276_3_alg».proof.Proof.RefWeights
import proofs.«422179_j46557445489276_3_alg».proof.Proof.SpecLemmas
import proofs.«422179_j46557445489276_3_alg».proof.Proof.LibRowGather
import proofs.«422179_j46557445489276_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.MoE

open Cert.ReferenceIdeal Idealize.ShloMosaic Idealize.ShloMosaic.ValueIdx Idealize.ShloMosaic.StableHlo

/-! # The reference's first layer, read at an index

Each feature vector goes through an affine map to 120 numbers (a contraction over the 97 features with the rounded
weights, plus the rounded bias), regrouped as fifteen blocks of eight; the row's bucket picks one block from each of the
two maps; the sixteen picked numbers u give the thirty-two numbers (u² · 127/128, u), which are clipped to [0, 1] and
floored to multiples of 1/127. The floor is applied in the form x + (q − x), which is q because a clipped x is real. -/

/-! ## The operations of the layer, each read at an index -/

/-- The contraction's dimension numbers: axis 1 of the left operand against axis 0 of the right. -/
abbrev D1 : DotDims S131072x97 S97x120 S131072x120 := dot_S131072x97_S97x120_S131072x120_1_0_0_1_n_n

theorem D1_lhs0 (j : S131072x120.Idx) (k : D1.contr.Idx) : (D1.lhsIdx j k 0).val = (j 0).val := by
  unfold DotDims.lhsIdx
  rw [dif_neg (show ¬(0 : Fin S131072x97.rank) ∈ D1.lhsBatch by decide),
    dif_pos (show (0 : Fin S131072x97.rank) ∈ D1.lhsNonContracting by decide)]
  rfl

theorem D1_lhs1 (j : S131072x120.Idx) (k : D1.contr.Idx) : (D1.lhsIdx j k 1).val = (k ⟨0, by decide⟩).val :=
  DotDims.lhsIdx_val_of_single (d := D1) (cl := 1) rfl j k

theorem D1_rhs0 (j : S131072x120.Idx) (k : D1.contr.Idx) : (D1.rhsIdx j k 0).val = (k ⟨0, by decide⟩).val :=
  DotDims.rhsIdx_val_of_single (d := D1) (cr := 0) rfl j k

theorem D1_rhs1 (j : S131072x120.Idx) (k : D1.contr.Idx) : (D1.rhsIdx j k 1).val = (j 1).val := by
  unfold DotDims.rhsIdx
  rw [dif_neg (show ¬(1 : Fin S97x120.rank) ∈ D1.rhsBatch by decide),
    dif_pos (show (1 : Fin S97x120.rank) ∈ D1.rhsNonContracting by decide)]
  rfl

/-- The contraction at (r, c) is the sum over the 97 features of row r's entry times column c's entry. -/
theorem dot1_apply (x : FVec Ideal S131072x97 .f32) (w : FVec Ideal S97x120 .f32) (r : Fin 131072) (c : Fin 120) :
    Host.dotGeneral (F := Ideal) D1 none x w (ix2 r c) = ∑ k : Fin 97, x (ix2 r k) * w (ix2 k c) := by
  show FloatOps.dotGeneral D1 none .single x w (ix2 r c) = _
  rw [Ideal.dotGeneral_apply, ← Equiv.sum_comp (contrEquiv1 D1 97 rfl rfl).symm]
  refine Finset.sum_congr rfl fun k _ => ?_
  have hk := contrEquiv1_symm_val D1 97 rfl rfl k
  congr 2
  · funext a
    apply Fin.ext
    match a with
    | ⟨0, _⟩ => exact D1_lhs0 _ _
    | ⟨1, _⟩ => exact (D1_lhs1 _ _).trans hk
  · funext a
    apply Fin.ext
    match a with
    | ⟨0, _⟩ => exact (D1_rhs0 _ _).trans hk
    | ⟨1, _⟩ => exact D1_rhs1 _ _

/-- The rounded bias broadcast over the rows: entry (r, c) is the bias at c. -/
theorem bias1_apply (b : FVec Ideal S120 .f32) (r : Fin 131072) (c : Fin 120) :
    broadcastInDim S131072x120 ![0, 1] Gen.bcast_S1x120_S131072x120_0_1
      (broadcastInDim S1x120 ![1] Gen.bcast_S120_S1x120_1 b) (ix2 r c) = b (ix1 c) := by
  rw [broadcastInDim_apply _ _ _ (ix2 r c) (ix2 (0 : Fin 1) c) (fun a => by
    match a with
    | ⟨0, _⟩ => rfl
    | ⟨1, _⟩ => rfl)]
  exact broadcastInDim_apply _ _ _ (ix2 (0 : Fin 1) c) (ix1 c) (fun a => by
    match a with
    | ⟨0, _⟩ => rfl)

/-- A scalar broadcast reads the scalar everywhere. -/
theorem splat_apply {t : Shape} (h : S_.BroadcastsInDim t (![] : Fin 0 → Fin t.rank)) (x : FVec Ideal S_ .f32) (j : t.Idx) :
    broadcastInDim t ![] h x j = x ix0 :=
  broadcastInDim_apply _ _ _ j ix0 (fun a => a.elim0)

/-- The regrouping of 120 columns as fifteen blocks of eight: entry (r, g, e) is the entry (r, 8g + e). -/
theorem regroup_apply (x : FVec Ideal S131072x120 .f32) (r : Fin 131072) (g : Fin 15) (e : Fin 8) :
    shapeCast S131072x15x8 x Gen.shapeCasts_S131072x120_S131072x15x8 (ix3 r g e)
      = x (ix2 r (⟨g.val * 8 + e.val, by have := g.isLt; have := e.isLt; omega⟩ : Fin 120)) := by
  refine shapeCast_apply x _ _ _ ?_
  rw [Shape.rowMajor_val_two, Shape.rowMajor_val_three]
  show r.val * 120 + (g.val * 8 + e.val) = (r.val * 15 + g.val) * 8 + e.val
  omega

/-- The bucket pick: with the pair (row number, bucket) at row r, entry (r, e) is the block's entry (r, g, e). -/
theorem pick_apply (x : FVec Ideal S131072x15x8 .f32) (idx : IVec S131072x2 32) (r : Fin 131072) (g : Fin 15) (e : Fin 8)
    (h0 : idx (ix2 r (0 : Fin 2)) = BitVec.ofNat 32 r.val) (h1 : idx (ix2 r (1 : Fin 2)) = BitVec.ofNat 32 g.val) :
    Host.gather gather_S131072x15x8_S131072x2_S131072x8_1_01_n_n_01_1_118 x idx (ix2 r e) = x (ix3 r g e) :=
  Cert.LibRowGather.gather_pair_slice_words gather_S131072x15x8_S131072x2_S131072x8_1_01_n_n_01_1_118 rfl rfl rfl rfl rfl
    (by norm_num) (by norm_num) x idx r g e h0 h1

/-- Two [·, 8] arrays side by side: the first eight columns are the first array's, the rest the second's. -/
theorem join16_apply (a b : FVec Ideal S131072x8 .f32) (r : Fin 131072) (j : Fin 16) :
    concatenate S131072x16 1 [⟨S131072x8, a⟩, ⟨S131072x8, b⟩] Gen.concatenates_S131072x8_S131072x8_S131072x16_d1 (ix2 r j)
      = if h : j.val < 8 then a (ix2 r ⟨j.val, h⟩) else b (ix2 r ⟨j.val - 8, by have := j.isLt; omega⟩) := by
  split
  · next h =>
    exact concatenate_pair_apply_left (t := S131072x16) (s₁ := S131072x8) (s₂ := S131072x8) (1 : Fin 2) a b
      Gen.concatenates_S131072x8_S131072x8_S131072x16_d1 (ix2 r j) rfl (ix2 r (⟨j.val, h⟩ : Fin 8)) (fun c => by
        match c with
        | ⟨0, _⟩ => rfl
        | ⟨1, _⟩ => rfl)
  · next h =>
    exact concatenate_pair_apply_right (t := S131072x16) (s₁ := S131072x8) (s₂ := S131072x8) (1 : Fin 2) a b
      Gen.concatenates_S131072x8_S131072x8_S131072x16_d1 (ix2 r j) rfl rfl
      (ix2 r (⟨j.val - 8, by have := j.isLt; omega⟩ : Fin 8)) (fun c hc => by
        match c with
        | ⟨0, _⟩ => rfl
        | ⟨1, _⟩ => exact absurd rfl hc) (by
          show (j.val - 8) + 8 = j.val
          omega)

/-- Two [·, 16] arrays side by side. -/
theorem join32_apply (a b : FVec Ideal S131072x16 .f32) (r : Fin 131072) (j : Fin 32) :
    concatenate S131072x32 1 [⟨S131072x16, a⟩, ⟨S131072x16, b⟩] Gen.concatenates_S131072x16_S131072x16_S131072x32_d1 (ix2 r j)
      = if h : j.val < 16 then a (ix2 r ⟨j.val, h⟩) else b (ix2 r ⟨j.val - 16, by have := j.isLt; omega⟩) := by
  split
  · next h =>
    exact concatenate_pair_apply_left (t := S131072x32) (s₁ := S131072x16) (s₂ := S131072x16) (1 : Fin 2) a b
      Gen.concatenates_S131072x16_S131072x16_S131072x32_d1 (ix2 r j) rfl (ix2 r (⟨j.val, h⟩ : Fin 16)) (fun c => by
        match c with
        | ⟨0, _⟩ => rfl
        | ⟨1, _⟩ => rfl)
  · next h =>
    exact concatenate_pair_apply_right (t := S131072x32) (s₁ := S131072x16) (s₂ := S131072x16) (1 : Fin 2) a b
      Gen.concatenates_S131072x16_S131072x16_S131072x32_d1 (ix2 r j) rfl rfl
      (ix2 r (⟨j.val - 16, by have := j.isLt; omega⟩ : Fin 16)) (fun c hc => by
        match c with
        | ⟨0, _⟩ => rfl
        | ⟨1, _⟩ => exact absurd rfl hc) (by
          show (j.val - 16) + 16 = j.val
          omega)

/-! ## The layer as a function of its operands -/

/-- One feature array's affine map into 120 numbers per row, regrouped as fifteen blocks of eight: the contraction
    with the (already rounded) weights transposed, plus the (already rounded) bias on every row. -/
def affine (x : FVec Ideal S131072x97 .f32) (wq : FVec Ideal S120x97 .f32) (bq : FVec Ideal S120 .f32) :
    FVec Ideal S131072x15x8 .f32 :=
  shapeCast S131072x15x8
    (addf (Host.dotGeneral (F := Ideal) D1 none x (transpose S97x120 [1, 0] wq Gen.transposes_S120x97_S97x120_1_0))
      (broadcastInDim S131072x120 ![0, 1] Gen.bcast_S1x120_S131072x120_0_1
        (broadcastInDim S1x120 ![1] Gen.bcast_S120_S1x120_1 bq)))
    Gen.shapeCasts_S131072x120_S131072x15x8

/-- At (r, g, e) it is the affine form of row r's features with row 8g + e of the weights and entry 8g + e of the bias. -/
theorem affine_apply (x : FVec Ideal S131072x97 .f32) (wq : FVec Ideal S120x97 .f32) (bq : FVec Ideal S120 .f32)
    (r : Fin 131072) (g : Fin 15) (e : Fin 8) :
    affine x wq bq (ix3 r g e)
      = Spec.lin (fun k => x (ix2 r k))
          (fun k => wq (ix2 (⟨g.val * 8 + e.val, by have := g.isLt; have := e.isLt; omega⟩ : Fin 120) k))
          (bq (ix1 (⟨g.val * 8 + e.val, by have := g.isLt; have := e.isLt; omega⟩ : Fin 120))) := by
  unfold affine Spec.lin
  rw [regroup_apply, addf_apply, dot1_apply, bias1_apply]
  congr 1
  exact Finset.sum_congr rfl fun k _ => by rw [transpose_ix2_apply]

/-- The thirty-two numbers before the clip: the squares times 127/128, then the sixteen numbers themselves. -/
def wide (u : FVec Ideal S131072x16 .f32) : FVec Ideal S131072x32 .f32 :=
  concatenate S131072x32 1
    [⟨S131072x16, mulf (mulf u u) (broadcastInDim S131072x16 ![] Gen.bcast_S_S131072x16 (constant (F := Ideal) S_ .f32 0x3F7E0000#32))⟩,
      ⟨S131072x16, u⟩] Gen.concatenates_S131072x16_S131072x16_S131072x32_d1

theorem wide_apply (u : FVec Ideal S131072x16 .f32) (r : Fin 131072) (j : Fin 32) :
    wide u (ix2 r j)
      = if h : j.val < 16 then u (ix2 r ⟨j.val, h⟩) * u (ix2 r ⟨j.val, h⟩) * Spec.csq
        else u (ix2 r ⟨j.val - 16, by have := j.isLt; omega⟩) := by
  unfold wide
  rw [join32_apply]
  split
  · next h => rw [mulf_apply, mulf_apply, splat_apply]; rfl
  · rfl

/-- The clip to [0, 1]: the maximum with the zero splat first, then the minimum with the one splat. -/
def clip32 (w : FVec Ideal S131072x32 .f32) : FVec Ideal S131072x32 .f32 :=
  minimumf (broadcastInDim S131072x32 ![] Gen.bcast_S_S131072x32 (constant (F := Ideal) S_ .f32 0x3F800000#32))
    (maximumf (broadcastInDim S131072x32 ![] Gen.bcast_S_S131072x32 (constant (F := Ideal) S_ .f32 0x00000000#32)) w)

theorem clip32_apply (w : FVec Ideal S131072x32 .f32) (i : S131072x32.Idx) : clip32 w i = Spec.clip01 (w i) := by
  unfold clip32
  rw [minimumf_apply, maximumf_apply, splat_apply, splat_apply]
  rfl

/-- The floor to multiples of 1/127 in its straight-through form c + (⌊c · 127⌋ / 127 − c). -/
def floor32 (c : FVec Ideal S131072x32 .f32) : FVec Ideal S131072x32 .f32 :=
  addf c (subf (Host.divf (F := Ideal)
      (Host.floor (F := Ideal) (mulf c (broadcastInDim S131072x32 ![] Gen.bcast_S_S131072x32 (constant (F := Ideal) S_ .f32 0x42FE0000#32))))
      (broadcastInDim S131072x32 ![] Gen.bcast_S_S131072x32 (constant (F := Ideal) S_ .f32 0x42FE0000#32))) c)

/-- At a real entry the straight-through form is the floored value itself. -/
theorem floor32_apply (c : FVec Ideal S131072x32 .f32) (i : S131072x32.Idx) (hc : Spec.IsReal (c i)) :
    floor32 c i = Spec.fl Spec.c127 (c i) := by
  unfold floor32
  rw [addf_apply, subf_apply]
  have hq : Host.divf (F := Ideal)
      (Host.floor (F := Ideal) (mulf c (broadcastInDim S131072x32 ![] Gen.bcast_S_S131072x32 (constant (F := Ideal) S_ .f32 0x42FE0000#32))))
      (broadcastInDim S131072x32 ![] Gen.bcast_S_S131072x32 (constant (F := Ideal) S_ .f32 0x42FE0000#32)) i
      = Spec.fl Spec.c127 (c i) := by
    show Ideal.div (Ideal.liftRound Int.floor (c i * _)) _ = _
    rw [splat_apply]
    rfl
  rw [hq]
  exact Spec.ste hc

/-- The thirty-two hidden numbers from the sixteen. -/
def hidden (u : FVec Ideal S131072x16 .f32) : FVec Ideal S131072x32 .f32 := floor32 (clip32 (wide u))

theorem hidden_apply (u : FVec Ideal S131072x16 .f32) (r : Fin 131072) (j : Fin 32) :
    hidden u (ix2 r j) = Spec.h1 (fun j' => u (ix2 r j')) j := by
  unfold hidden
  rw [floor32_apply _ _ (by rw [clip32_apply]; exact Spec.clip01_real _), clip32_apply, wide_apply]
  rfl

/-! ## The reference's buffers -/

section Buffers

variable (V : Valuation τ sig (Elt Ideal))

/-- The feature arrays are arguments: never written, they hold their launch contents. -/
theorem val_arg0 : val V main_arg0 = a0 V := Cert.LibSsa.keeps writesAre V main_arg0 (by decide)
theorem val_arg1 : val V main_arg1 = a1 V := Cert.LibSsa.keeps writesAre V main_arg1 (by decide)

/-- The first feature array's regrouped affine map, over the rounded weights and bias. -/
theorem main_v21_eq : val V main_v21 = affine (val V main_arg0) (val V main_v8) (val V main_v17) := by
  rw [at_main_v21, at_main_v20, at_main_v19, at_main_v18, at_main_v10, at_main_v9]
  rfl

/-- The second feature array's. -/
theorem main_v55_eq : val V main_v55 = affine (val V main_arg1) (val V main_v42) (val V main_v51) := by
  rw [at_main_v55, at_main_v54, at_main_v53, at_main_v52, at_main_v44, at_main_v43]
  rfl

/-- The layer's result is the hidden numbers of the sixteen picked ones. -/
theorem main_v82_eq : val V main_v82 = hidden (val V main_v70) := by
  rw [at_main_v82, at_main_v81, at_main_v80, at_main_v79, at_main_v78, at_main_v77, at_main_v76, at_main_v75,
    at_main_call5_v4, at_main_call5_v3, at_main_call5_v2, at_main_call5_v1, at_main_call5_v0, at_main_v74,
    at_main_v73, at_main_v72, at_main_v71, at_main_cst_15, at_main_cst_16, at_main_cst_17, at_main_cst_18,
    at_main_cst_19]
  rfl

/-- The eight numbers picked from the first map: the affine forms with the bucket's rows of the rounded weights and bias. -/
theorem picked_b (H : Hyps V) (r : Fin 131072) (n : ℕ) (hn : n < 60) (hr : a2 V (ix1 r) = BitVec.ofNat 32 n) (e : Fin 8) :
    val V main_v35 (ix2 r e)
      = Spec.lin (fun k => a0 V (ix2 r k))
          (fun k => Spec.rq Spec.c64 (a3 V (ix2 (⟨(n / 4) * 8 + e.val, by omega⟩ : Fin 120) k)))
          (Spec.rq Spec.c8128 (a4 V (ix1 (⟨(n / 4) * 8 + e.val, by omega⟩ : Fin 120)))) := by
  have hp := pair_v34 V r n hn hr
  rw [at_main_v35]
  refine (pick_apply _ _ r (⟨n / 4, by omega⟩ : Fin 15) e hp.1 hp.2).trans ?_
  rw [main_v21_eq, affine_apply]
  unfold Spec.lin
  rw [q_v17 V _ (H.r4 _)]
  congr 1
  refine Finset.sum_congr rfl fun k _ => ?_
  beta_reduce
  rw [q_v8 V _ k (H.r3 _), val_arg0]

/-- The eight numbers picked from the second map. -/
theorem picked_p (H : Hyps V) (r : Fin 131072) (n : ℕ) (hn : n < 60) (hr : a2 V (ix1 r) = BitVec.ofNat 32 n) (e : Fin 8) :
    val V main_v69 (ix2 r e)
      = Spec.lin (fun k => a1 V (ix2 r k))
          (fun k => Spec.rq Spec.c64 (a5 V (ix2 (⟨(n / 4) * 8 + e.val, by omega⟩ : Fin 120) k)))
          (Spec.rq Spec.c8128 (a6 V (ix1 (⟨(n / 4) * 8 + e.val, by omega⟩ : Fin 120)))) := by
  have hp := pair_v68 V r n hn hr
  rw [at_main_v69]
  refine (pick_apply _ _ r (⟨n / 4, by omega⟩ : Fin 15) e hp.1 hp.2).trans ?_
  rw [main_v55_eq, affine_apply]
  unfold Spec.lin
  rw [q_v51 V _ (H.r6 _)]
  congr 1
  refine Finset.sum_congr rfl fun k _ => ?_
  beta_reduce
  rw [q_v42 V _ k (H.r5 _), val_arg1]

/-- The reference's first layer at (r, j) is the specification's hidden number j of row r, over the bucket ⌊n / 4⌋'s rows
    of the rounded weights and biases. -/
theorem ref_h1 (H : Hyps V) (r : Fin 131072) (n : ℕ) (hn : n < 60) (hr : a2 V (ix1 r) = BitVec.ofNat 32 n) (j : Fin 32) :
    val V main_v82 (ix2 r j)
      = Cert.Spec.h1 (Cert.Spec.l1x (fun k => a0 V (ix2 r k)) (fun k => a1 V (ix2 r k))
          (fun j k => Spec.rq Spec.c64 (a3 V (ix2 (⟨(n / 4) * 8 + j.val, by omega⟩ : Fin 120) k)))
          (fun j k => Spec.rq Spec.c64 (a5 V (ix2 (⟨(n / 4) * 8 + j.val, by omega⟩ : Fin 120) k)))
          (fun j => Spec.rq Spec.c8128 (a4 V (ix1 (⟨(n / 4) * 8 + j.val, by omega⟩ : Fin 120))))
          (fun j => Spec.rq Spec.c8128 (a6 V (ix1 (⟨(n / 4) * 8 + j.val, by omega⟩ : Fin 120))))) j := by
  rw [main_v82_eq, hidden_apply]
  refine congrArg (fun u => Spec.h1 u j) (funext fun j' => ?_)
  rw [at_main_v70]
  refine (join16_apply _ _ r j').trans ?_
  unfold Spec.l1x
  by_cases h : j'.val < 8
  · rw [dif_pos h, dif_pos h]
    exact picked_b V H r n hn hr ⟨j'.val, h⟩
  · rw [dif_neg h, dif_neg h]
    exact picked_p V H r n hn hr ⟨j'.val - 8, by have := j'.isLt; omega⟩

end Buffers

end Cert.ReferenceIdeal.MoE
end
-- ==== Proof.RefLayers.lean ====
/-
  The reference's second and third layers read at a row, and its whole result as the specification's array.

  Row r with ply word n < 60 lies in bucket g = n / 4. The second layer multiplies the row's thirty-two hidden numbers
  with ALL fifteen buckets' rounded weight blocks at once (a [131072, 32] × [32, 960] product plus the rounded bias),
  views the 960 columns as fifteen groups of sixty-four, and picks group g by a gather at the pair (r, g): entry (r, j)
  is column g · 64 + j, the affine form of bucket g's block. It is clipped to [0, 1] and floored to a multiple of
  1/127 through the form x + (q − x), which is q because a clipped number is real. The third layer does the same
  with one output per bucket (a [131072, 64] × [64, 15] product plus bias, the gather picking column g), and floors
  to a multiple of 1/64 through the same form; there the value is real because it is a finite sum of products of
  reals (floored clipped numbers and rounded real weights) plus a rounded real bias. Row by row this is the
  specification's row function at bucket n / 4, which is the specification's array.
-/
import proofs.«422179_j46557445489276_3_alg».proof.Proof.RefSteps
import proofs.«422179_j46557445489276_3_alg».proof.Proof.RefHyps
import proofs.«422179_j46557445489276_3_alg».proof.Proof.RefWeights
import proofs.«422179_j46557445489276_3_alg».proof.Proof.RefLayer1
import proofs.«422179_j46557445489276_3_alg».proof.Proof.SpecLemmas
import proofs.«422179_j46557445489276_3_alg».proof.Proof.LibRowGather
import proofs.«422179_j46557445489276_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.MoE

open Cert.ReferenceIdeal Idealize.ShloMosaic Idealize.ShloMosaic.TcCoe Idealize.SL.Sem Idealize.ShloMosaic.ValueIdx
  Idealize.ShloMosaic.StableHlo

namespace Layers

/-- A host matrix product `[n, K] × [K, m]`, at the ideal values, read at `(p, h)`: the sum over the contracted
    coordinate, for any dimension record contracting the left operand's second axis with the right operand's first. -/
theorem dotGeneral_plain_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    Host.dotGeneral d prec lhs rhs (ix2 p h) = ∑ k : Fin K, lhs (ix2 p k) * rhs (ix2 k h) := by
  show FloatOps.dotGeneral d prec .single lhs rhs (ix2 p h) = _
  rw [Ideal.dotGeneral_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

section
variable (V : Valuation τ sig (Elt Ideal))

/-! The buffers the two layers pass through, at their literal types. -/
abbrev b82 : FVec Ideal S131072x32 .f32 := val V main_v82
abbrev b89 : FVec Ideal S960x32 .f32 := val V main_v89
abbrev b90 : FVec Ideal S32x960 .f32 := val V main_v90
abbrev b91 : FVec Ideal S131072x960 .f32 := val V main_v91
abbrev b98 : FVec Ideal S960 .f32 := val V main_v98
abbrev b100 : FVec Ideal S131072x960 .f32 := val V main_v100
abbrev b101 : FVec Ideal S131072x960 .f32 := val V main_v101
abbrev b116 : FVec Ideal S131072x64 .f32 := val V main_v116
abbrev b117 : FVec Ideal S131072x64 .f32 := val V main_v117
abbrev b122 : FVec Ideal S131072x64 .f32 := val V main_v122
abbrev b124 : FVec Ideal S131072x64 .f32 := val V main_v124
abbrev b131 : FVec Ideal S15x64 .f32 := val V main_v131
abbrev b132 : FVec Ideal S64x15 .f32 := val V main_v132
abbrev b133 : FVec Ideal S131072x15 .f32 := val V main_v133
abbrev b140 : FVec Ideal S15 .f32 := val V main_v140
abbrev b142 : FVec Ideal S131072x15 .f32 := val V main_v142
abbrev b143 : FVec Ideal S131072x15 .f32 := val V main_v143
abbrev b158 : FVec Ideal S131072x1 .f32 := val V main_v158
abbrev b163 : FVec Ideal S131072x1 .f32 := val V main_v163
abbrev b165 : FVec Ideal S131072x1 .f32 := val V main_v165
abbrev p115 : IVec S131072x2 32 := val V main_v115
abbrev p157 : IVec S131072x2 32 := val V main_v157

/-! ## The second layer -/

theorem v90_apply (e : Fin 32) (c : Fin 960) : b90 V (ix2 e c) = b89 V (ix2 c e) := by
  show val V main_v90 (ix2 e c) = _
  rw [at_main_v90]
  exact transpose_ix2_apply (b89 V) _ e c

theorem v91_apply (r : Fin 131072) (c : Fin 960) :
    b91 V (ix2 r c) = ∑ e : Fin 32, b82 V (ix2 r e) * b89 V (ix2 c e) := by
  show val V main_v91 (ix2 r c) = _
  rw [at_main_v91]
  refine (dotGeneral_plain_apply dot_S131072x32_S32x960_S131072x960_1_0_0_1_n_n rfl rfl (fun _ _ => rfl) (fun _ _ => rfl)
    (fun _ _ => rfl) (fun _ _ => rfl) none (b82 V) (b90 V) r c).trans ?_
  refine Finset.sum_congr rfl fun e _ => ?_
  rw [v90_apply]

theorem v100_apply (r : Fin 131072) (c : Fin 960) : b100 V (ix2 r c) = b98 V (ix1 c) := by
  show val V main_v100 (ix2 r c) = _
  rw [at_main_v100]
  refine (broadcastInDim_apply (s := S1x960) (t := S131072x960) _ _ _ (ix2 r c) (ix2 (0 : Fin 1) c) fun a => ?_).trans ?_
  · match a with
    | ⟨0, _⟩ => rfl
    | ⟨1, _⟩ => rfl
  · rw [at_main_v99]
    refine broadcastInDim_apply (s := S960) (t := S1x960) _ _ _ (ix2 (0 : Fin 1) c) (ix1 c) fun a => ?_
    match a with
    | ⟨0, _⟩ => rfl

theorem v101_apply (H : Hyps V) (r : Fin 131072) (c : Fin 960) :
    b101 V (ix2 r c)
      = Cert.Spec.lin (fun e => b82 V (ix2 r e)) (fun e => Cert.Spec.rq Cert.Spec.c64 (a7 V (ix2 c e)))
          (Cert.Spec.rq Cert.Spec.c8128 (a8 V (ix1 c))) := by
  have q98 : b98 V (ix1 c) = Cert.Spec.rq Cert.Spec.c8128 (a8 V (ix1 c)) := q_v98 V c (H.r8 _)
  have q89 : ∀ e : Fin 32, b89 V (ix2 c e) = Cert.Spec.rq Cert.Spec.c64 (a7 V (ix2 c e)) := fun e => q_v89 V c e (H.r7 _)
  show val V main_v101 (ix2 r c) = _
  rw [at_main_v101]
  show b91 V (ix2 r c) + b100 V (ix2 r c) = _
  rw [v91_apply, v100_apply, q98]
  unfold Cert.Spec.lin
  congr 1
  refine Finset.sum_congr rfl fun e _ => ?_
  rw [q89]

theorem v116_apply (r : Fin 131072) (g : Fin 15)
    (hp0 : p115 V (ix2 r (0 : Fin 2)) = BitVec.ofNat 32 r.val)
    (hp1 : p115 V (ix2 r (1 : Fin 2)) = BitVec.ofNat 32 g.val) (j : Fin 64) :
    b116 V (ix2 r j)
      = b101 V (ix2 r (⟨g.val * 64 + j.val, by have := g.isLt; have := j.isLt; omega⟩ : Fin 960)) := by
  show val V main_v116 (ix2 r j) = _
  rw [at_main_v116]
  refine (Cert.LibRowGather.gather_pair_slice_words gather_S131072x15x64_S131072x2_S131072x64_1_01_n_n_01_1_1164
    rfl rfl rfl rfl rfl (by norm_num) (by norm_num) _ (p115 V) r g j hp0 hp1).trans ?_
  rw [at_main_v102]
  refine shapeCast_apply (s := S131072x960) (t := S131072x15x64) (b101 V) _ _ _ ?_
  rw [Shape.rowMajor_val_three, Shape.rowMajor_val_two]
  show r.val * 960 + (g.val * 64 + j.val) = (r.val * 15 + g.val) * 64 + j.val
  omega

/-- The clip and the floor to multiples of 1/127, with the straight-through form: the clipped value is real, so adding
    back the difference gives the floored value itself. -/
theorem v124_apply (i : S131072x64.Idx) :
    b124 V i = Cert.Spec.fl Cert.Spec.c127 (Cert.Spec.clip01 (b116 V i)) := by
  have h117 : b117 V i = Cert.Spec.clip01 (b116 V i) := by
    show val V main_v117 i = _
    rw [at_main_v117, at_main_call8_v4, at_main_call8_v3, at_main_cst_29, at_main_call8_v2, at_main_call8_v1,
      at_main_call8_v0, at_main_cst_28]
    rfl
  have h122 : b122 V i = Cert.Spec.fl Cert.Spec.c127 (b117 V i) := by
    show val V main_v122 i = _
    rw [at_main_v122, at_main_v121, at_main_cst_31, at_main_v120, at_main_v119, at_main_v118, at_main_cst_30]
    rfl
  show val V main_v124 i = _
  rw [at_main_v124, at_main_v123]
  show b117 V i + (b122 V i - b117 V i) = _
  rw [h122, h117]
  exact Cert.Spec.ste (Cert.Spec.clip01_real _)

/-! ## The output layer -/

theorem v132_apply (k : Fin 64) (c : Fin 15) : b132 V (ix2 k c) = b131 V (ix2 c k) := by
  show val V main_v132 (ix2 k c) = _
  rw [at_main_v132]
  exact transpose_ix2_apply (b131 V) _ k c

theorem v133_apply (r : Fin 131072) (c : Fin 15) :
    b133 V (ix2 r c) = ∑ k : Fin 64, b124 V (ix2 r k) * b131 V (ix2 c k) := by
  show val V main_v133 (ix2 r c) = _
  rw [at_main_v133]
  refine (dotGeneral_plain_apply dot_S131072x64_S64x15_S131072x15_1_0_0_1_n_n rfl rfl (fun _ _ => rfl) (fun _ _ => rfl)
    (fun _ _ => rfl) (fun _ _ => rfl) none (b124 V) (b132 V) r c).trans ?_
  refine Finset.sum_congr rfl fun k _ => ?_
  rw [v132_apply]

theorem v142_apply (r : Fin 131072) (c : Fin 15) : b142 V (ix2 r c) = b140 V (ix1 c) := by
  show val V main_v142 (ix2 r c) = _
  rw [at_main_v142]
  refine (broadcastInDim_apply (s := S1x15) (t := S131072x15) _ _ _ (ix2 r c) (ix2 (0 : Fin 1) c) fun a => ?_).trans ?_
  · match a with
    | ⟨0, _⟩ => rfl
    | ⟨1, _⟩ => rfl
  · rw [at_main_v141]
    refine broadcastInDim_apply (s := S15) (t := S1x15) _ _ _ (ix2 (0 : Fin 1) c) (ix1 c) fun a => ?_
    match a with
    | ⟨0, _⟩ => rfl

theorem v143_apply (H : Hyps V) (r : Fin 131072) (c : Fin 15) :
    b143 V (ix2 r c)
      = Cert.Spec.lin (fun k => b124 V (ix2 r k)) (fun k => Cert.Spec.rq Cert.Spec.cws (a9 V (ix2 c k)))
          (Cert.Spec.rq Cert.Spec.c1024 (a10 V (ix1 c))) := by
  have q140 : b140 V (ix1 c) = Cert.Spec.rq Cert.Spec.c1024 (a10 V (ix1 c)) := q_v140 V c (H.r10 _)
  have q131 : ∀ k : Fin 64, b131 V (ix2 c k) = Cert.Spec.rq Cert.Spec.cws (a9 V (ix2 c k)) := fun k => q_v131 V c k (H.r9 _)
  show val V main_v143 (ix2 r c) = _
  rw [at_main_v143]
  show b133 V (ix2 r c) + b142 V (ix2 r c) = _
  rw [v133_apply, v142_apply, q140]
  unfold Cert.Spec.lin
  congr 1
  refine Finset.sum_congr rfl fun k _ => ?_
  rw [q131]

theorem v158_apply (r : Fin 131072) (g : Fin 15)
    (hp0 : p157 V (ix2 r (0 : Fin 2)) = BitVec.ofNat 32 r.val)
    (hp1 : p157 V (ix2 r (1 : Fin 2)) = BitVec.ofNat 32 g.val) :
    b158 V (ix2 r (0 : Fin 1)) = b143 V (ix2 r g) := by
  show val V main_v158 (ix2 r (0 : Fin 1)) = _
  rw [at_main_v158]
  refine (Cert.LibRowGather.gather_pair_slice_words gather_S131072x15x1_S131072x2_S131072x1_1_01_n_n_01_1_111
    rfl rfl rfl rfl rfl (by norm_num) (by norm_num) _ (p157 V) r g (0 : Fin 1) hp0 hp1).trans ?_
  rw [at_main_v144]
  refine shapeCast_apply (s := S131072x15) (t := S131072x15x1) (b143 V) _ _ _ ?_
  rw [Shape.rowMajor_val_three, Shape.rowMajor_val_two]
  show r.val * 15 + g.val = (r.val * 15 + g.val) * 1 + 0
  omega

/-- The last floor, to multiples of 1/64, with the straight-through form at a real value. -/
theorem v165_apply (i : S131072x1.Idx) (hreal : Cert.Spec.IsReal (b158 V i)) :
    b165 V i = Cert.Spec.fl Cert.Spec.c64 (b158 V i) := by
  have h163 : b163 V i = Cert.Spec.fl Cert.Spec.c64 (b158 V i) := by
    show val V main_v163 i = _
    rw [at_main_v163, at_main_v162, at_main_cst_41, at_main_v161, at_main_v160, at_main_v159, at_main_cst_40]
    rfl
  show val V main_v165 i = _
  rw [at_main_v165, at_main_v164]
  show b158 V i + (b163 V i - b158 V i) = _
  rw [h163]
  exact Cert.Spec.ste hreal

/-! ## The whole row -/

/-- The thirty-two hidden numbers of row `r` in bucket `n / 4`, as the specification writes them. -/
abbrev hid1 (r : Fin 131072) (n : ℕ) (hn : n < 60) : Fin 32 → EReal :=
  Cert.Spec.h1 (Cert.Spec.l1x (fun k => a0 V (ix2 r k)) (fun k => a1 V (ix2 r k))
    (fun j k => Cert.Spec.rq Cert.Spec.c64 (a3 V (ix2 (⟨(n / 4) * 8 + j.val, by have := j.isLt; omega⟩ : Fin 120) k)))
    (fun j k => Cert.Spec.rq Cert.Spec.c64 (a5 V (ix2 (⟨(n / 4) * 8 + j.val, by have := j.isLt; omega⟩ : Fin 120) k)))
    (fun j => Cert.Spec.rq Cert.Spec.c8128 (a4 V (ix1 (⟨(n / 4) * 8 + j.val, by have := j.isLt; omega⟩ : Fin 120))))
    (fun j => Cert.Spec.rq Cert.Spec.c8128 (a6 V (ix1 (⟨(n / 4) * 8 + j.val, by have := j.isLt; omega⟩ : Fin 120)))))

/-- The sixty-four hidden numbers of the row. -/
abbrev hid2 (r : Fin 131072) (n : ℕ) (hn : n < 60) : Fin 64 → EReal :=
  Cert.Spec.h2 (hid1 V r n hn)
    (fun j k => Cert.Spec.rq Cert.Spec.c64 (a7 V (ix2 (⟨(n / 4) * 64 + j.val, by have := j.isLt; omega⟩ : Fin 960) k)))
    (fun j => Cert.Spec.rq Cert.Spec.c8128 (a8 V (ix1 (⟨(n / 4) * 64 + j.val, by have := j.isLt; omega⟩ : Fin 960))))

theorem ref_row (H : Hyps V) (r : Fin 131072) (n : ℕ) (hn : n < 60) (hr : a2 V (ix1 r) = BitVec.ofNat 32 n) :
    b165 V (ix2 r (0 : Fin 1))
      = Cert.Spec.fl Cert.Spec.c64 (Cert.Spec.lin (hid2 V r n hn)
          (fun k => Cert.Spec.rq Cert.Spec.cws (a9 V (ix2 (⟨n / 4, by omega⟩ : Fin 15) k)))
          (Cert.Spec.rq Cert.Spec.c1024 (a10 V (ix1 (⟨n / 4, by omega⟩ : Fin 15))))) := by
  obtain ⟨p0, p1⟩ := pair_v115 V r n hn hr
  obtain ⟨q0, q1⟩ := pair_v157 V r n hn hr
  have e82 : (fun e => b82 V (ix2 r e)) = hid1 V r n hn := funext fun e => ref_h1 V H r n hn hr e
  have e124 : (fun j => b124 V (ix2 r j)) = hid2 V r n hn := funext fun j => by
    rw [v124_apply, v116_apply V r (⟨n / 4, by omega⟩ : Fin 15) p0 p1 j, v101_apply V H, e82]
    rfl
  have e158 : b158 V (ix2 r (0 : Fin 1)) = Cert.Spec.lin (hid2 V r n hn)
      (fun k => Cert.Spec.rq Cert.Spec.cws (a9 V (ix2 (⟨n / 4, by omega⟩ : Fin 15) k)))
      (Cert.Spec.rq Cert.Spec.c1024 (a10 V (ix1 (⟨n / 4, by omega⟩ : Fin 15)))) := by
    rw [v158_apply V r (⟨n / 4, by omega⟩ : Fin 15) q0 q1, v143_apply V H, e124]
  have hreal : Cert.Spec.IsReal (b158 V (ix2 r (0 : Fin 1))) := by
    rw [e158]
    exact Cert.Spec.lin_real (fun k => Cert.Spec.h2_real _ _ _ k)
      (fun k => Cert.Spec.rq_real Cert.Spec.cws_real (H.r9 _)) (Cert.Spec.rq_real Cert.Spec.c1024_real (H.r10 _))
  rw [v165_apply V _ hreal, e158]

end
/-- The specification's array at row `r`, given the row's bucket. -/
theorem G_apply (xb xp : (⟨2, ![131072, 97]⟩ : Shape).Idx → EReal) (ply : (⟨1, ![131072]⟩ : Shape).Idx → BitVec 32)
    (w1b : (⟨2, ![120, 97]⟩ : Shape).Idx → EReal) (b1b : (⟨1, ![120]⟩ : Shape).Idx → EReal)
    (w1p : (⟨2, ![120, 97]⟩ : Shape).Idx → EReal) (b1p : (⟨1, ![120]⟩ : Shape).Idx → EReal)
    (w2 : (⟨2, ![960, 32]⟩ : Shape).Idx → EReal) (b2 : (⟨1, ![960]⟩ : Shape).Idx → EReal)
    (wo : (⟨2, ![15, 64]⟩ : Shape).Idx → EReal) (bo : (⟨1, ![15]⟩ : Shape).Idx → EReal)
    (r : Fin 131072) (g : Fin 15) (hg : Cert.Spec.bucket (ply (ix1 r)) = g) :
    Cert.Spec.G xb xp ply w1b b1b w1p b1p w2 b2 wo bo (ix2 r (0 : Fin 1))
      = Cert.Spec.row (fun k => xb (ix2 r k)) (fun k => xp (ix2 r k))
          (fun j k => Cert.Spec.rq Cert.Spec.c64 (w1b (ix2 (⟨g.val * 8 + j.val, by have := g.isLt; have := j.isLt; omega⟩ : Fin 120) k)))
          (fun j k => Cert.Spec.rq Cert.Spec.c64 (w1p (ix2 (⟨g.val * 8 + j.val, by have := g.isLt; have := j.isLt; omega⟩ : Fin 120) k)))
          (fun j => Cert.Spec.rq Cert.Spec.c8128 (b1b (ix1 (⟨g.val * 8 + j.val, by have := g.isLt; have := j.isLt; omega⟩ : Fin 120))))
          (fun j => Cert.Spec.rq Cert.Spec.c8128 (b1p (ix1 (⟨g.val * 8 + j.val, by have := g.isLt; have := j.isLt; omega⟩ : Fin 120))))
          (fun j k => Cert.Spec.rq Cert.Spec.c64 (w2 (ix2 (⟨g.val * 64 + j.val, by have := g.isLt; have := j.isLt; omega⟩ : Fin 960) k)))
          (fun j => Cert.Spec.rq Cert.Spec.c8128 (b2 (ix1 (⟨g.val * 64 + j.val, by have := g.isLt; have := j.isLt; omega⟩ : Fin 960))))
          (fun k => Cert.Spec.rq Cert.Spec.cws (wo (ix2 g k))) (Cert.Spec.rq Cert.Spec.c1024 (bo (ix1 g))) := by
  subst hg
  rfl

end Layers

/-- THE REFERENCE'S VALUE: after the whole program the result buffer holds the specification's array of the arguments. -/
theorem ref_value (V : Valuation τ sig (Elt Ideal)) (H : Hyps V) :
    val V main_v165 = Cert.Spec.G (a0 V) (a1 V) (a2 V) (a3 V) (a4 V) (a5 V) (a6 V) (a7 V) (a8 V) (a9 V) (a10 V) := by
  funext i
  obtain ⟨r, q, rfl⟩ : ∃ (r : Fin 131072) (q : Fin 1), i = ix2 r q := ⟨i 0, i 1, eq_ix2 i⟩
  obtain rfl : q = 0 := Subsingleton.elim _ _
  obtain ⟨n, hn, hr⟩ := H.ply (ix1 r)
  have hb : Cert.Spec.bucket (a2 V (ix1 r)) = (⟨n / 4, by omega⟩ : Fin 15) := by rw [hr]; exact Cert.Spec.bucket_ofNat hn
  rw [Layers.G_apply _ _ _ _ _ _ _ _ _ _ _ r _ hb]
  exact Layers.ref_row V H r n hn hr

end Cert.ReferenceIdeal.MoE

end
-- ==== Proof.lean ====
/-
  The kernel selects, for each row, one of fifteen small networks by the row's ply and evaluates it; the reference
  evaluates all fifteen densely and gathers the row's one. Under the precondition — every float input finite, every
  ply in [0, 60) — both are the same function of the inputs over the extended reals (Spec.lean: the row's bucket is
  ply / 4, the weights enter rounded to their grids, the activations clipped to [0, 1] and floored to theirs):
  the kernel's one-hot accumulation over the fifteen buckets leaves exactly the selected bucket's affine form
  (zero times anything is zero and zero is neutral for addition, also at the infinities), and the reference's
  straight-through forms x + (q − x) are q because each x there is a real number (a finite input, a clipped value,
  a finite sum of products of reals). In range, the kernel's clamp of the bucket and the reference's wrap-and-clamp of
  the gather index are both the identity.

  The kernel's side: what one grid point leaves in its output block is read off the frame certificate as the body's
  payload terms over two recursions, one per counted loop (KerBody), which at exact arithmetic are the
  specification's row function of the row's features and the bucket's blocks (KerMath); the blocks are the arrays the
  host operations before the launch leave (KerHost), and the 64 blocks of 2048 rows cover the output (KerBlocks).
  The reference's side: its host program in single-assignment form, one equation per operation (RefSteps), read layer
  by layer at an index (RefWeights, RefLayer1, RefLayers), and run as a straight line (RefRun).
-/
import proofs.«422179_j46557445489276_3_alg».proof.Defs
import proofs.«422179_j46557445489276_3_alg».proof.Proof.Gen.Kernel
import proofs.«422179_j46557445489276_3_alg».proof.Proof.Gen.Kernel.Frame
import proofs.«422179_j46557445489276_3_alg».proof.Proof.Gen.KernelIdeal
import proofs.«422179_j46557445489276_3_alg».proof.Proof.Gen.KernelIdeal.Frame
import proofs.«422179_j46557445489276_3_alg».proof.Proof.Gen.ReferenceIdeal
import proofs.«422179_j46557445489276_3_alg».proof.Proof.Gen.Pre_finite_inputs
import proofs.«422179_j46557445489276_3_alg».proof.Proof.PreDecode
import proofs.«422179_j46557445489276_3_alg».proof.Proof.KerBlocks
import proofs.«422179_j46557445489276_3_alg».proof.Proof.RefRun
import proofs.«422179_j46557445489276_3_alg».proof.Proof.RefLayers
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.MoE.kept0 _),
     (h c Cert.ReferenceIdeal.main_arg1).trans (Cert.ReferenceIdeal.MoE.kept1 _),
     (h c Cert.ReferenceIdeal.main_arg2).trans (Cert.ReferenceIdeal.MoE.kept2 _),
     (h c Cert.ReferenceIdeal.main_arg3).trans (Cert.ReferenceIdeal.MoE.kept3 _),
     (h c Cert.ReferenceIdeal.main_arg4).trans (Cert.ReferenceIdeal.MoE.kept4 _),
     (h c Cert.ReferenceIdeal.main_arg5).trans (Cert.ReferenceIdeal.MoE.kept5 _),
     (h c Cert.ReferenceIdeal.main_arg6).trans (Cert.ReferenceIdeal.MoE.kept6 _),
     (h c Cert.ReferenceIdeal.main_arg7).trans (Cert.ReferenceIdeal.MoE.kept7 _),
     (h c Cert.ReferenceIdeal.main_arg8).trans (Cert.ReferenceIdeal.MoE.kept8 _),
     (h c Cert.ReferenceIdeal.main_arg9).trans (Cert.ReferenceIdeal.MoE.kept9 _),
     (h c Cert.ReferenceIdeal.main_arg10).trans (Cert.ReferenceIdeal.MoE.kept10 _)⟩)
    (Cert.ReferenceIdeal.MoE.run_all (F := Ideal) m ρ)

/-- The ideal pass rewrote nothing: the idealization is the kernel's own text read at exact arithmetic. -/
theorem preserves : Cert.preserves_Kernel_KernelIdeal := trivial

/-- Both idealized programs end with the specification's array of the (agreeing) arguments. -/
theorem algebraic : Cert.algebraic_KernelIdeal_ReferenceIdeal := by
  intro m ρ m' ρ' hpre hagree
  have D := fun c => Cert.PreDecode.decode _ _ _ _ _ _ _ _ _ _ _ (hpre c)
  refine ⟨_, Cert.KernelIdeal.MoE.ker_value m ρ (fun c i => (D c).2.2.1 i), ?_⟩
  refine (θ_run Cert.ReferenceIdeal.defs _ _).mono (fun r h c => ?_) (Cert.ReferenceIdeal.MoE.run_all (F := Ideal) m' ρ')
  obtain ⟨e0, e1, e2, e3, e4, e5, e6, e7, e8, e9, e10⟩ := hagree c
  have H : Cert.ReferenceIdeal.MoE.Hyps (launchContents m' c) :=
    ⟨fun i => by have t := (D c).1 i; rw [← e0] at t; exact t,
     fun i => by have t := (D c).2.1 i; rw [← e1] at t; exact t,
     fun i => by have t := (D c).2.2.1 i; rw [← e2] at t; exact t,
     fun i => by have t := (D c).2.2.2.1 i; rw [← e3] at t; exact t,
     fun i => by have t := (D c).2.2.2.2.1 i; rw [← e4] at t; exact t,
     fun i => by have t := (D c).2.2.2.2.2.1 i; rw [← e5] at t; exact t,
     fun i => by have t := (D c).2.2.2.2.2.2.1 i; rw [← e6] at t; exact t,
     fun i => by have t := (D c).2.2.2.2.2.2.2.1 i; rw [← e7] at t; exact t,
     fun i => by have t := (D c).2.2.2.2.2.2.2.2.1 i; rw [← e8] at t; exact t,
     fun i => by have t := (D c).2.2.2.2.2.2.2.2.2.1 i; rw [← e9] at t; exact t,
     fun i => by have t := (D c).2.2.2.2.2.2.2.2.2.2 i; rw [← e10] at t; exact t⟩
  refine ⟨(h c Cert.ReferenceIdeal.main_v165).trans ((Cert.ReferenceIdeal.MoE.ref_value _ H).trans ?_),
     (h c Cert.ReferenceIdeal.main_arg0).trans (Cert.ReferenceIdeal.MoE.kept0 _),
     (h c Cert.ReferenceIdeal.main_arg1).trans (Cert.ReferenceIdeal.MoE.kept1 _),
     (h c Cert.ReferenceIdeal.main_arg2).trans (Cert.ReferenceIdeal.MoE.kept2 _),
     (h c Cert.ReferenceIdeal.main_arg3).trans (Cert.ReferenceIdeal.MoE.kept3 _),
     (h c Cert.ReferenceIdeal.main_arg4).trans (Cert.ReferenceIdeal.MoE.kept4 _),
     (h c Cert.ReferenceIdeal.main_arg5).trans (Cert.ReferenceIdeal.MoE.kept5 _),
     (h c Cert.ReferenceIdeal.main_arg6).trans (Cert.ReferenceIdeal.MoE.kept6 _),
     (h c Cert.ReferenceIdeal.main_arg7).trans (Cert.ReferenceIdeal.MoE.kept7 _),
     (h c Cert.ReferenceIdeal.main_arg8).trans (Cert.ReferenceIdeal.MoE.kept8 _),
     (h c Cert.ReferenceIdeal.main_arg9).trans (Cert.ReferenceIdeal.MoE.kept9 _),
     (h c Cert.ReferenceIdeal.main_arg10).trans (Cert.ReferenceIdeal.MoE.kept10 _)⟩
  show Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
